-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S_ : Shape := ⟨0, ![]⟩

class Facts : Prop where
  bcast_S_S16x900x91 : S_.BroadcastsInDim S16x900x91 (![] : Fin 0 → Fin S16x900x91.rank)
  reducesTo_S16x900x91_S_d0_1_2 : S16x900x91.ReducesTo [0, 1, 2] S_
  h_S_ : 0 < S_.numel
  bcast_S_S16x900x4 : S_.BroadcastsInDim S16x900x4 (![] : Fin 0 → Fin S16x900x4.rank)
  reducesTo_S16x900x4_S_d0_1_2 : S16x900x4.ReducesTo [0, 1, 2] S_
  bcast_S_S1600x4 : S_.BroadcastsInDim S1600x4 (![] : Fin 0 → Fin S1600x4.rank)
  reducesTo_S1600x4_S_d0_1 : S1600x4.ReducesTo [0, 1] S_
  bcast_S_S1600 : S_.BroadcastsInDim S1600 (![] : Fin 0 → Fin S1600.rank)
  reducesTo_S1600_S_d0 : S1600.ReducesTo [0] S_

variable [Facts]

def fn_part1 {F : FTy → Type} [FloatOps F] (main_arg2 : IVec S1600 32) (main_v13 : IVec S_ 1) (main_v15 : IVec S1600 1) (main_c_5 : IVec S_ 32) : IVec S_ 1 :=
  let main_v16 : IVec S1600 32 := broadcastInDim S1600 ![] bcast_S_S1600 main_c_5
  let main_v17 : IVec S1600 1 := cmpi .slt main_arg2 main_v16
  let main_v18 : IVec S1600 1 := andi main_v15 main_v17
  let main_c_6 : IVec S_ 1 := constantI S_ 1 1#1
  let main_v19 : IVec S_ 1 := (fun x v => Host.reduce IntOp.andi x v reducesTo_S1600_S_d0 h_S_) main_v18 main_c_6
  let main_v20 : IVec S_ 1 := andi main_v13 main_v19
  main_v20

def fn {F : FTy → Type} [FloatOps F] (main_arg0 : FVec F S16x900x91 .f32) (main_arg1 : FVec F S16x900x4 .f32) (main_arg2 : IVec S1600 32) (main_arg3 : FVec F S1600x4 .f32) : IVec S_ 1 :=
  let main_v0 : FVec F S16x900x91 .f32 := Host.absf main_arg0
  let main_cst : FVec F S_ .f32 := constant S_ .f32 0x7F800000#32
  let main_v1 : FVec F S16x900x91 .f32 := broadcastInDim S16x900x91 ![] bcast_S_S16x900x91 main_cst
  let main_v2 : IVec S16x900x91 1 := cmpf .olt main_v0 main_v1
  let main_c : IVec S_ 1 := constantI S_ 1 1#1
  let main_v3 : IVec S_ 1 := (fun x v => Host.reduce IntOp.andi x v reducesTo_S16x900x91_S_d0_1_2 h_S_) main_v2 main_c
  let main_v4 : FVec F S16x900x4 .f32 := Host.absf main_arg1
  let main_cst_0 : FVec F S_ .f32 := constant S_ .f32 0x7F800000#32
  let main_v5 : FVec F S16x900x4 .f32 := broadcastInDim S16x900x4 ![] bcast_S_S16x900x4 main_cst_0
  let main_v6 : IVec S16x900x4 1 := cmpf .olt main_v4 main_v5
  let main_c_1 : IVec S_ 1 := constantI S_ 1 1#1
  let main_v7 : IVec S_ 1 := (fun x v => Host.reduce IntOp.andi x v reducesTo_S16x900x4_S_d0_1_2 h_S_) main_v6 main_c_1
  let main_v8 : IVec S_ 1 := andi main_v3 main_v7
  let main_v9 : FVec F S1600x4 .f32 := Host.absf main_arg3
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_c_4 : IVec S_ 32 := constantI S_ 32 0#32
  let main_v14 : IVec S1600 32 := broadcastInDim S1600 ![] bcast_S_S1600 main_c_4
  let main_v15 : IVec S1600 1 := cmpi .sge main_arg2 main_v14
  let main_c_5 : IVec S_ 32 := constantI S_ 32 91#32
  fn_part1 (F := F) main_arg2 main_v13 main_v15 main_c_5
-- ==== Kernel.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S14400x91 : Shape := ⟨2, ![14400, 91]⟩
abbrev S14400x4 : Shape := ⟨2, ![14400, 4]⟩
abbrev S1600x1 : Shape := ⟨2, ![1600, 1]⟩
abbrev S1x91 : Shape := ⟨2, ![1, 91]⟩
abbrev S1600x91 : Shape := ⟨2, ![1600, 91]⟩
abbrev S91x1600 : Shape := ⟨2, ![91, 1600]⟩
abbrev S_ : Shape := ⟨0, ![]⟩
abbrev S1x1600 : Shape := ⟨2, ![1, 1600]⟩
abbrev S8x1600 : Shape := ⟨2, ![8, 1600]⟩
abbrev S14400x1600 : Shape := ⟨2, ![14400, 1600]⟩
abbrev S320x91 : Shape := ⟨2, ![320, 91]⟩
abbrev S320x4 : Shape := ⟨2, ![320, 4]⟩
abbrev S320x1600 : Shape := ⟨2, ![320, 1600]⟩
abbrev S320x1 : Shape := ⟨2, ![320, 1]⟩
abbrev S16x900x1600 : Shape := ⟨3, ![16, 900, 1600]⟩

abbrev nBuf : Space → Nat
  | .hbm => 49
  | .vmem => 8
  | .smem => 0
  | _ => 0

abbrev bufTy : (tb : Table) → Fin (tcTables nBuf tb) → BufTy
  | .hbm, ⟨0, _⟩ => ⟨S16x900x91, .f32⟩
  | .hbm, ⟨1, _⟩ => ⟨S16x900x4, .f32⟩
  | .hbm, ⟨2, _⟩ => ⟨S1600, .i32⟩
  | .hbm, ⟨3, _⟩ => ⟨S1600x4, .f32⟩
  | .hbm, ⟨4, _⟩ => ⟨S14400x91, .f32⟩
  | .hbm, ⟨5, _⟩ => ⟨S14400x4, .f32⟩
  | .hbm, ⟨6, _⟩ => ⟨S1600x1, .i32⟩
  | .hbm, ⟨7, _⟩ => ⟨S1x91, .i32⟩
  | .hbm, ⟨8, _⟩ => ⟨S1600x91, .i32⟩
  | .hbm, ⟨9, _⟩ => ⟨S1600x91, .i32⟩
  | .hbm, ⟨10, _⟩ => ⟨S1600x91, .i1⟩
  | .hbm, ⟨11, _⟩ => ⟨S1600x91, .f32⟩
  | .hbm, ⟨12, _⟩ => ⟨S91x1600, .f32⟩
  | .hbm, ⟨13, _⟩ => ⟨S91x1600, .bf16⟩
  | .hbm, ⟨14, _⟩ => ⟨S1600x1, .f32⟩
  | .hbm, ⟨15, _⟩ => ⟨S1600, .f32⟩
  | .hbm, ⟨16, _⟩ => ⟨S1600x1, .f32⟩
  | .hbm, ⟨17, _⟩ => ⟨S1600, .f32⟩
  | .hbm, ⟨18, _⟩ => ⟨S1600x1, .f32⟩
  | .hbm, ⟨19, _⟩ => ⟨S1600, .f32⟩
  | .hbm, ⟨20, _⟩ => ⟨S1600x1, .f32⟩
  | .hbm, ⟨21, _⟩ => ⟨S1600, .f32⟩
  | .hbm, ⟨22, _⟩ => ⟨S_, .f32⟩
  | .hbm, ⟨23, _⟩ => ⟨S1600, .f32⟩
  | .hbm, ⟨24, _⟩ => ⟨S1600, .f32⟩
  | .hbm, ⟨25, _⟩ => ⟨S1600, .f32⟩
  | .hbm, ⟨26, _⟩ => ⟨S_, .f32⟩
  | .hbm, ⟨27, _⟩ => ⟨S1600, .f32⟩
  | .hbm, ⟨28, _⟩ => ⟨S1600, .f32⟩
  | .hbm, ⟨29, _⟩ => ⟨S1600, .f32⟩
  | .hbm, ⟨30, _⟩ => ⟨S_, .f32⟩
  | .hbm, ⟨31, _⟩ => ⟨S1600, .f32⟩
  | .hbm, ⟨32, _⟩ => ⟨S1600, .f32⟩
  | .hbm, ⟨33, _⟩ => ⟨S1600, .f32⟩
  | .hbm, ⟨34, _⟩ => ⟨S_, .f32⟩
  | .hbm, ⟨35, _⟩ => ⟨S1600, .f32⟩
  | .hbm, ⟨36, _⟩ => ⟨S1600, .f32⟩
  | .hbm, ⟨37, _⟩ => ⟨S1600, .f32⟩
  | .hbm, ⟨38, _⟩ => ⟨S1x1600, .f32⟩
  | .hbm, ⟨39, _⟩ => ⟨S1x1600, .f32⟩
  | .hbm, ⟨40, _⟩ => ⟨S1x1600, .f32⟩
  | .hbm, ⟨41, _⟩ => ⟨S1x1600, .f32⟩
  | .hbm, ⟨42, _⟩ => ⟨S1x1600, .f32⟩
  | .hbm, ⟨43, _⟩ => ⟨S1x1600, .f32⟩
  | .hbm, ⟨44, _⟩ => ⟨S1x1600, .f32⟩
  | .hbm, ⟨45, _⟩ => ⟨S1x1600, .f32⟩
  | .hbm, ⟨46, _⟩ => ⟨S8x1600, .f32⟩
  | .hbm, ⟨47, _⟩ => ⟨S14400x1600, .f32⟩
  | .hbm, ⟨48, _⟩ => ⟨S16x900x1600, .f32⟩
  | .local _ .vmem, ⟨0, _⟩ => ⟨S320x91, .f32⟩
  | .local _ .vmem, ⟨1, _⟩ => ⟨S320x91, .f32⟩
  | .local _ .vmem, ⟨2, _⟩ => ⟨S320x4, .f32⟩
  | .local _ .vmem, ⟨3, _⟩ => ⟨S320x4, .f32⟩
  | .local _ .vmem, ⟨4, _⟩ => ⟨S8x1600, .f32⟩
  | .local _ .vmem, ⟨5, _⟩ => ⟨S91x1600, .bf16⟩
  | .local _ .vmem, ⟨6, _⟩ => ⟨S320x1600, .f32⟩
  | .local _ .vmem, ⟨7, _⟩ => ⟨S320x1600, .f32⟩
  | _, _ => ⟨S16x900x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![45], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x91 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S320x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S91x1600 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x900x91_S14400x91 : S16x900x91.ShapeCasts S14400x91
  shapeCasts_S16x900x4_S14400x4 : S16x900x4.ShapeCasts S14400x4
  bcast_S1600_S1600x1_0 : S1600.BroadcastsInDim S1600x1 (![0] : Fin 1 → Fin S1600x1.rank)
  bcast_S1600x1_S1600x91_0_1 : S1600x1.BroadcastsInDim S1600x91 (![0, 1] : Fin 2 → Fin S1600x91.rank)
  bcast_S1x91_S1600x91_0_1 : S1x91.BroadcastsInDim S1600x91 (![0, 1] : Fin 2 → Fin S1600x91.rank)
  transposes_S1600x91_S91x1600_1_0 : S1600x91.Transposes [1, 0] S91x1600
  bitsLt_bf16_f32 : FTy.bits .bf16 < FTy.bits .f32
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600 : S_.BroadcastsInDim S1600 (![] : Fin 0 → Fin S1600.rank)
  bcast_S1600_S1x1600_1 : S1600.BroadcastsInDim S1x1600 (![1] : Fin 1 → Fin S1x1600.rank)
  concatenates_S1x1600_S1x1600_S1x1600_S1x1600_S1x1600_S1x1600_S1x1600_S1x1600_S8x1600_d0 : Shape.Concatenates [S1x1600, S1x1600, S1x1600, S1x1600, S1x1600, S1x1600, S1x1600, S1x1600] S8x1600 0
  inb_S320x91_S320x91_0_0 : ∀ a, (![0, 0] : Fin 2 → Nat) a + S320x91.size a ≤ S320x91.size a
  h_S320x91 : 0 < S320x91.numel
  shapeCasts_S320x91_S320x91 : S320x91.ShapeCasts S320x91
  inb_S320x4_S320x4_0_0 : ∀ a, (![0, 0] : Fin 2 → Nat) a + S320x4.size a ≤ S320x4.size a
  h_S320x4 : 0 < S320x4.numel
  shapeCasts_S320x4_S320x4 : S320x4.ShapeCasts S320x4
  inb_S91x1600_S91x1600_0_0 : ∀ a, (![0, 0] : Fin 2 → Nat) a + S91x1600.size a ≤ S91x1600.size a
  h_S91x1600 : 0 < S91x1600.numel
  shapeCasts_S91x1600_S91x1600 : S91x1600.ShapeCasts S91x1600
  slices_S320x4_o0_0_S320x1 : S320x4.Slices ![0, 0] S320x1
  slices_S320x4_o0_1_S320x1 : S320x4.Slices ![0, 1] S320x1
  slices_S320x4_o0_2_S320x1 : S320x4.Slices ![0, 2] S320x1
  slices_S320x4_o0_3_S320x1 : S320x4.Slices ![0, 3] S320x1
  inb_S8x1600_S1x1600_0_0 : ∀ a, (![0, 0] : Fin 2 → Nat) a + S1x1600.size a ≤ S8x1600.size a
  h_S1x1600 : 0 < S1x1600.numel
  shapeCasts_S1x1600_S1x1600 : S1x1600.ShapeCasts S1x1600
  inb_S8x1600_S1x1600_1_0 : ∀ a, (![1, 0] : Fin 2 → Nat) a + S1x1600.size a ≤ S8x1600.size a
  inb_S8x1600_S1x1600_2_0 : ∀ a, (![2, 0] : Fin 2 → Nat) a + S1x1600.size a ≤ S8x1600.size a
  inb_S8x1600_S1x1600_3_0 : ∀ a, (![3, 0] : Fin 2 → Nat) a + S1x1600.size a ≤ S8x1600.size a
  broadcasts_S320x1_S320x1600 : S320x1.Broadcasts S320x1600
  broadcasts_S1x1600_S320x1600 : S1x1600.Broadcasts S320x1600
  inb_S8x1600_S1x1600_4_0 : ∀ a, (![4, 0] : Fin 2 → Nat) a + S1x1600.size a ≤ S8x1600.size a
  inb_S8x1600_S1x1600_5_0 : ∀ a, (![5, 0] : Fin 2 → Nat) a + S1x1600.size a ≤ S8x1600.size a
  inb_S8x1600_S1x1600_6_0 : ∀ a, (![6, 0] : Fin 2 → Nat) a + S1x1600.size a ≤ S8x1600.size a
  inb_S8x1600_S1x1600_7_0 : ∀ a, (![7, 0] : Fin 2 → Nat) a + S1x1600.size a ≤ S8x1600.size a
  inb_S320x1600_S320x1600_0_0 : ∀ a, (![0, 0] : Fin 2 → Nat) a + S320x1600.size a ≤ S320x1600.size a
  h_S320x1600 : 0 < S320x1600.numel
  shapeCasts_S14400x1600_S16x900x1600 : S14400x1600.ShapeCasts S16x900x1600
  dot_S320x91_S91x1600_S320x1600_1_0_0_1_n_n_wf : DotDims.WF S320x91 S91x1600 S320x1600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S320x91.size a ≤ S14400x91.size a
  hwx0_0 : ∀ i : grid0.Coords, EltTy.bits .f32 = 32 ∨ (Rect.block (s := S14400x91) S320x91.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S320x4.size a ≤ S14400x4.size a
  hwx0_1 : ∀ i : grid0.Coords, EltTy.bits .f32 = 32 ∨ (Rect.block (s := S14400x4) S320x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1600.size a ≤ S8x1600.size a
  hwx0_2 : ∀ i : grid0.Coords, EltTy.bits .f32 = 32 ∨ (Rect.block (s := S8x1600) S8x1600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S91x1600.size a ≤ S91x1600.size a
  hwx0_3 : ∀ i : grid0.Coords, EltTy.bits .bf16 = 32 ∨ (Rect.block (s := S91x1600) S91x1600.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S320x1600.size a ≤ S14400x1600.size a
  hwx0_4 : ∀ i : grid0.Coords, EltTy.bits .f32 = 32 ∨ (Rect.block (s := S14400x1600) S320x1600.size (cc0_transform_4 i) (hinb0_4 i)).WholeWords (EltTy.packing .f32)

variable [Facts₀]

def dot_S320x91_S91x1600_S320x1600_1_0_0_1_n_n : DotDims S320x91 S91x1600 S320x1600 where
  lhsContracting := [1]
  rhsContracting := [0]
  lhsNonContracting := [0]
  rhsNonContracting := [1]
  lhsBatch := []
  rhsBatch := []
  wf := dot_S320x91_S91x1600_S320x1600_1_0_0_1_n_n_wf

abbrev win0_0 : Pipeline.Window sig grid0 :=
  Pipeline.Window.ofSpec (Memref.whole main_v0) S320x91.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S320x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S8x1600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S91x1600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S320x1600.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x900x91 : Shape := ⟨3, ![16, 900, 91]⟩
abbrev S16x900x4 : Shape := ⟨3, ![16, 900, 4]⟩
abbrev S1600 : Shape := ⟨1, ![1600]⟩
abbrev S1600x4 : Shape := ⟨2, ![1600, 4]⟩
abbrev S14400x91 : Shape := ⟨2, ![14400, 91]⟩
abbrev S_ : Shape := ⟨0, ![]⟩
abbrev S14400x4 : Shape := ⟨2, ![14400, 4]⟩
abbrev S14400x1 : Shape := ⟨2, ![14400, 1]⟩
abbrev S14400 : Shape := ⟨1, ![14400]⟩
abbrev S1600x1 : Shape := ⟨2, ![1600, 1]⟩
abbrev S14400x2 : Shape := ⟨2, ![14400, 2]⟩
abbrev S14400x1x2 : Shape := ⟨3, ![14400, 1, 2]⟩
abbrev S1600x2 : Shape := ⟨2, ![1600, 2]⟩
abbrev S1x1600x2 : Shape := ⟨3, ![1, 1600, 2]⟩
abbrev S14400x1600x2 : Shape := ⟨3, ![14400, 1600, 2]⟩
abbrev S14400x1600x1 : Shape := ⟨3, ![14400, 1600, 1]⟩
abbrev S14400x1600 : Shape := ⟨2, ![14400, 1600]⟩
abbrev S1x1600 : Shape := ⟨2, ![1, 1600]⟩
abbrev S14400x1x4 : Shape := ⟨3, ![14400, 1, 4]⟩
abbrev S1x1600x4 : Shape := ⟨3, ![1, 1600, 4]⟩
abbrev S14400x1600x4 : Shape := ⟨3, ![14400, 1600, 4]⟩
abbrev S16x900x1600 : Shape := ⟨3, ![16, 900, 1600]⟩

abbrev nBuf : Space → Nat
  | .hbm => 253
  | .vmem => 0
  | .smem => 0
  | _ => 0

abbrev hbmTy0_0 (i : Nat) : BufTy := match i % 128 with
  | 0 => ⟨S16x900x91, .f32⟩
  | 1 => ⟨S16x900x4, .f32⟩
  | 2 => ⟨S1600, .i32⟩
  | 3 => ⟨S1600x4, .f32⟩
  | 4 => ⟨S14400x91, .f32⟩
  | 5 => ⟨S14400x91, .f32⟩
  | 6 => ⟨S14400x91, .f32⟩
  | 7 => ⟨S_, .f32⟩
  | 8 => ⟨S14400x91, .f32⟩
  | 9 => ⟨S14400x91, .f32⟩
  | 10 => ⟨S_, .f32⟩
  | 11 => ⟨S14400x91, .f32⟩
  | 12 => ⟨S14400x91, .f32⟩
  | 13 => ⟨S14400x4, .f32⟩
  | 14 => ⟨S14400x1, .f32⟩
  | 15 => ⟨S14400, .f32⟩
  | 16 => ⟨S14400x1, .f32⟩
  | 17 => ⟨S14400, .f32⟩
  | 18 => ⟨S14400x1, .f32⟩
  | 19 => ⟨S14400, .f32⟩
  | 20 => ⟨S14400x1, .f32⟩
  | 21 => ⟨S14400, .f32⟩
  | 22 => ⟨S_, .f32⟩
  | 23 => ⟨S14400, .f32⟩
  | 24 => ⟨S14400, .f32⟩
  | 25 => ⟨S14400, .f32⟩
  | 26 => ⟨S_, .f32⟩
  | 27 => ⟨S14400, .f32⟩
  | 28 => ⟨S14400, .f32⟩
  | 29 => ⟨S14400, .f32⟩
  | 30 => ⟨S_, .f32⟩
  | 31 => ⟨S14400, .f32⟩
  | 32 => ⟨S14400, .f32⟩
  | 33 => ⟨S14400, .f32⟩
  | 34 => ⟨S_, .f32⟩
  | 35 => ⟨S14400, .f32⟩
  | 36 => ⟨S14400, .f32⟩
  | 37 => ⟨S14400, .f32⟩
  | 38 => ⟨S14400x1, .f32⟩
  | 39 => ⟨S14400x1, .f32⟩
  | 40 => ⟨S14400x1, .f32⟩
  | 41 => ⟨S14400x1, .f32⟩
  | 42 => ⟨S14400x4, .f32⟩
  | 43 => ⟨S1600x1, .f32⟩
  | 44 => ⟨S1600, .f32⟩
  | 45 => ⟨S1600x1, .f32⟩
  | 46 => ⟨S1600, .f32⟩
  | 47 => ⟨S1600x1, .f32⟩
  | 48 => ⟨S1600, .f32⟩
  | 49 => ⟨S1600x1, .f32⟩
  | 50 => ⟨S1600, .f32⟩
  | 51 => ⟨S_, .f32⟩
  | 52 => ⟨S1600, .f32⟩
  | 53 => ⟨S1600, .f32⟩
  | 54 => ⟨S1600, .f32⟩
  | 55 => ⟨S_, .f32⟩
  | 56 => ⟨S1600, .f32⟩
  | 57 => ⟨S1600, .f32⟩
  | 58 => ⟨S1600, .f32⟩
  | 59 => ⟨S_, .f32⟩
  | 60 => ⟨S1600, .f32⟩
  | 61 => ⟨S1600, .f32⟩
  | 62 => ⟨S1600, .f32⟩
  | 63 => ⟨S_, .f32⟩
  | 64 => ⟨S1600, .f32⟩
  | 65 => ⟨S1600, .f32⟩
  | 66 => ⟨S1600, .f32⟩
  | 67 => ⟨S1600x1, .f32⟩
  | 68 => ⟨S1600x1, .f32⟩
  | 69 => ⟨S1600x1, .f32⟩
  | 70 => ⟨S1600x1, .f32⟩
  | 71 => ⟨S1600x4, .f32⟩
  | 72 => ⟨S14400x1, .f32⟩
  | 73 => ⟨S14400, .f32⟩
  | 74 => ⟨S14400x1, .f32⟩
  | 75 => ⟨S14400, .f32⟩
  | 76 => ⟨S14400, .f32⟩
  | 77 => ⟨S14400x1, .f32⟩
  | 78 => ⟨S14400, .f32⟩
  | 79 => ⟨S14400x1, .f32⟩
  | 80 => ⟨S14400, .f32⟩
  | 81 => ⟨S14400, .f32⟩
  | 82 => ⟨S14400, .f32⟩
  | 83 => ⟨S1600x1, .f32⟩
  | 84 => ⟨S1600, .f32⟩
  | 85 => ⟨S1600x1, .f32⟩
  | 86 => ⟨S1600, .f32⟩
  | 87 => ⟨S1600, .f32⟩
  | 88 => ⟨S1600x1, .f32⟩
  | 89 => ⟨S1600, .f32⟩
  | 90 => ⟨S1600x1, .f32⟩
  | 91 => ⟨S1600, .f32⟩
  | 92 => ⟨S1600, .f32⟩
  | 93 => ⟨S1600, .f32⟩
  | 94 => ⟨S14400x2, .f32⟩
  | 95 => ⟨S14400x1x2, .f32⟩
  | 96 => ⟨S1600x2, .f32⟩
  | 97 => ⟨S1x1600x2, .f32⟩
  | 98 => ⟨S14400x1600x2, .f32⟩
  | 99 => ⟨S14400x1600x2, .f32⟩
  | 100 => ⟨S14400x1600x2, .f32⟩
  | 101 => ⟨S14400x2, .f32⟩
  | 102 => ⟨S14400x1x2, .f32⟩
  | 103 => ⟨S1600x2, .f32⟩
  | 104 => ⟨S1x1600x2, .f32⟩
  | 105 => ⟨S14400x1600x2, .f32⟩
  | 106 => ⟨S14400x1600x2, .f32⟩
  | 107 => ⟨S14400x1600x2, .f32⟩
  | 108 => ⟨S14400x1600x2, .f32⟩
  | 109 => ⟨S_, .f32⟩
  | 110 => ⟨S_, .f32⟩
  | 111 => ⟨S14400x1600x2, .f32⟩
  | 112 => ⟨S14400x1600x2, .f32⟩
  | 113 => ⟨S14400x1600x1, .f32⟩
  | 114 => ⟨S14400x1600, .f32⟩
  | 115 => ⟨S14400x1600x1, .f32⟩
  | 116 => ⟨S14400x1600, .f32⟩
  | 117 => ⟨S14400x1600, .f32⟩
  | 118 => ⟨S14400x1, .f32⟩
  | 119 => ⟨S1x1600, .f32⟩
  | 120 => ⟨S14400x1600, .f32⟩
  | 121 => ⟨S14400x1600, .f32⟩
  | 122 => ⟨S14400x1600, .f32⟩
  | 123 => ⟨S14400x1600, .f32⟩
  | 124 => ⟨S14400x1600, .f32⟩
  | 125 => ⟨S14400x2, .f32⟩
  | 126 => ⟨S14400x1x2, .f32⟩
  | 127 => ⟨S1600x2, .f32⟩
  | _ => ⟨S16x900x91, .f32⟩

abbrev hbmTy0_1 (i : Nat) : BufTy := match i % 128 with
  | 0 => ⟨S1x1600x2, .f32⟩
  | 1 => ⟨S14400x1600x2, .f32⟩
  | 2 => ⟨S14400x1600x2, .f32⟩
  | 3 => ⟨S14400x1600x2, .f32⟩
  | 4 => ⟨S14400x2, .f32⟩
  | 5 => ⟨S14400x1x2, .f32⟩
  | 6 => ⟨S1600x2, .f32⟩
  | 7 => ⟨S1x1600x2, .f32⟩
  | 8 => ⟨S14400x1600x2, .f32⟩
  | 9 => ⟨S14400x1600x2, .f32⟩
  | 10 => ⟨S14400x1600x2, .f32⟩
  | 11 => ⟨S14400x1600x2, .f32⟩
  | 12 => ⟨S_, .f32⟩
  | 13 => ⟨S_, .f32⟩
  | 14 => ⟨S14400x1600x2, .f32⟩
  | 15 => ⟨S14400x1600x2, .f32⟩
  | 16 => ⟨S14400x1600x1, .f32⟩
  | 17 => ⟨S14400x1600, .f32⟩
  | 18 => ⟨S14400x1600x1, .f32⟩
  | 19 => ⟨S14400x1600, .f32⟩
  | 20 => ⟨S14400x1600, .f32⟩
  | 21 => ⟨S14400x1600, .f32⟩
  | 22 => ⟨S14400x1600, .f32⟩
  | 23 => ⟨S14400x1600, .f32⟩
  | 24 => ⟨S14400x1600, .f32⟩
  | 25 => ⟨S_, .f32⟩
  | 26 => ⟨S14400x91, .f32⟩
  | 27 => ⟨S14400x91, .f32⟩
  | 28 => ⟨S_, .f32⟩
  | 29 => ⟨S14400x91, .f32⟩
  | 30 => ⟨S14400x91, .f32⟩
  | 31 => ⟨S14400x91, .f32⟩
  | 32 => ⟨S14400x91, .f32⟩
  | 33 => ⟨S_, .f32⟩
  | 34 => ⟨S14400x91, .f32⟩
  | 35 => ⟨S14400x91, .f32⟩
  | 36 => ⟨S14400x91, .f32⟩
  | 37 => ⟨S14400x91, .f32⟩
  | 38 => ⟨S14400x91, .i1⟩
  | 39 => ⟨S14400x91, .f32⟩
  | 40 => ⟨S14400x91, .f32⟩
  | 41 => ⟨S14400x91, .f32⟩
  | 42 => ⟨S14400x91, .f32⟩
  | 43 => ⟨S14400x91, .f32⟩
  | 44 => ⟨S14400x91, .f32⟩
  | 45 => ⟨S14400x91, .f32⟩
  | 46 => ⟨S14400x91, .f32⟩
  | 47 => ⟨S14400x91, .f32⟩
  | 48 => ⟨S14400x91, .f32⟩
  | 49 => ⟨S14400x91, .f32⟩
  | 50 => ⟨S_, .f32⟩
  | 51 => ⟨S14400x91, .f32⟩
  | 52 => ⟨S14400x91, .f32⟩
  | 53 => ⟨S_, .f32⟩
  | 54 => ⟨S14400x91, .f32⟩
  | 55 => ⟨S14400x91, .f32⟩
  | 56 => ⟨S_, .f32⟩
  | 57 => ⟨S14400x91, .f32⟩
  | 58 => ⟨S14400x91, .f32⟩
  | 59 => ⟨S14400x91, .f32⟩
  | 60 => ⟨S_, .f32⟩
  | 61 => ⟨S14400x91, .f32⟩
  | 62 => ⟨S14400x91, .f32⟩
  | 63 => ⟨S14400x91, .f32⟩
  | 64 => ⟨S14400x91, .f32⟩
  | 65 => ⟨S14400x91, .i1⟩
  | 66 => ⟨S14400x91, .f32⟩
  | 67 => ⟨S14400x91, .f32⟩
  | 68 => ⟨S14400x91, .f32⟩
  | 69 => ⟨S14400x91, .f32⟩
  | 70 => ⟨S14400x91, .f32⟩
  | 71 => ⟨S14400x91, .f32⟩
  | 72 => ⟨S14400x91, .f32⟩
  | 73 => ⟨S14400x91, .f32⟩
  | 74 => ⟨S14400x91, .f32⟩
  | 75 => ⟨S14400x91, .f32⟩
  | 76 => ⟨S14400x91, .f32⟩
  | 77 => ⟨S_, .i32⟩
  | 78 => ⟨S1600, .i32⟩
  | 79 => ⟨S1600, .i1⟩
  | 80 => ⟨S_, .i32⟩
  | 81 => ⟨S1600, .i32⟩
  | 82 => ⟨S1600, .i32⟩
  | 83 => ⟨S1600, .i32⟩
  | 84 => ⟨S1600x1, .i32⟩
  | 85 => ⟨S14400x1600, .f32⟩
  | 86 => ⟨S_, .i32⟩
  | 87 => ⟨S1600, .i32⟩
  | 88 => ⟨S1600, .i1⟩
  | 89 => ⟨S_, .i32⟩
  | 90 => ⟨S1600, .i32⟩
  | 91 => ⟨S1600, .i32⟩
  | 92 => ⟨S1600, .i32⟩
  | 93 => ⟨S1600x1, .i32⟩
  | 94 => ⟨S14400x1600, .f32⟩
  | 95 => ⟨S14400x1600, .f32⟩
  | 96 => ⟨S14400x1x4, .f32⟩
  | 97 => ⟨S1x1600x4, .f32⟩
  | 98 => ⟨S14400x1600x4, .f32⟩
  | 99 => ⟨S14400x1600x4, .f32⟩
  | 100 => ⟨S14400x1600x4, .f32⟩
  | 101 => ⟨S14400x1600x4, .f32⟩
  | 102 => ⟨S_, .f32⟩
  | 103 => ⟨S14400x1600, .f32⟩
  | 104 => ⟨S_, .f32⟩
  | 105 => ⟨S14400x1600, .f32⟩
  | 106 => ⟨S14400x1600, .f32⟩
  | 107 => ⟨S_, .f32⟩
  | 108 => ⟨S14400x1600, .f32⟩
  | 109 => ⟨S14400x1600, .f32⟩
  | 110 => ⟨S14400x1600, .f32⟩
  | 111 => ⟨S_, .f32⟩
  | 112 => ⟨S14400x1600, .f32⟩
  | 113 => ⟨S14400x1600, .f32⟩
  | 114 => ⟨S14400x1600, .f32⟩
  | 115 => ⟨S16x900x1600, .f32⟩
  | 116 => ⟨S16x900x1600, .i1⟩
  | 117 => ⟨S16x900x1600, .f32⟩
  | 118 => ⟨S_, .f32⟩
  | 119 => ⟨S16x900x1600, .f32⟩
  | 120 => ⟨S16x900x1600, .i1⟩
  | 121 => ⟨S16x900x1600, .i1⟩
  | 122 => ⟨S_, .f32⟩
  | 123 => ⟨S16x900x1600, .f32⟩
  | 124 => ⟨S16x900x1600, .f32⟩
  | _ => ⟨S16x900x91, .f32⟩

abbrev hbmTy (i : Nat) : BufTy := match i / 128 with
  | 0 => hbmTy0_0 i
  | 1 => hbmTy0_1 i
  | _ => ⟨S16x900x91, .f32⟩

abbrev bufTy : (tb : Table) → Fin (tcTables nBuf tb) → BufTy
  | .hbm, ⟨i, _⟩ => hbmTy i
  | _, _ => ⟨S16x900x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_9 : Ref sig .tc := ⟨.hbm, 109, rfl⟩
abbrev main_call0_v0 : Ref sig .tc := ⟨.hbm, 110, rfl⟩
abbrev main_call0_v1 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_cst_10 : Ref sig .tc := ⟨.hbm, 140, rfl⟩
abbrev main_call1_v0 : Ref sig .tc := ⟨.hbm, 141, rfl⟩
abbrev main_call1_v1 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_cst_11 : Ref sig .tc := ⟨.hbm, 153, rfl⟩
abbrev main_v133 : Ref sig .tc := ⟨.hbm, 154, rfl⟩
abbrev main_v134 : Ref sig .tc := ⟨.hbm, 155, rfl⟩
abbrev main_cst_12 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_call2_v0 : Ref sig .tc := ⟨.hbm, 160, rfl⟩
abbrev main_call2_call0_cst : Ref sig .tc := ⟨.hbm, 161, rfl⟩
abbrev main_call2_call0_v0 : Ref sig .tc := ⟨.hbm, 162, rfl⟩
abbrev main_call2_call0_v1 : Ref sig .tc := ⟨.hbm, 163, rfl⟩
abbrev main_call2_call0_v2 : Ref sig .tc := ⟨.hbm, 164, rfl⟩
abbrev main_call2_call0_v3 : Ref sig .tc := ⟨.hbm, 165, rfl⟩
abbrev main_call2_call0_v4 : Ref sig .tc := ⟨.hbm, 166, rfl⟩
abbrev main_call2_call0_v5 : Ref sig .tc := ⟨.hbm, 167, rfl⟩
abbrev main_call2_call0_v6 : Ref sig .tc := ⟨.hbm, 168, rfl⟩
abbrev main_call2_call0_v7 : Ref sig .tc := ⟨.hbm, 169, rfl⟩
abbrev main_call2_call0_v8 : Ref sig .tc := ⟨.hbm, 170, rfl⟩
abbrev main_call2_call0_v9 : Ref sig .tc := ⟨.hbm, 171, rfl⟩
abbrev main_call2_call0_v10 : Ref sig .tc := ⟨.hbm, 172, rfl⟩
abbrev main_call2_call0_v11 : Ref sig .tc := ⟨.hbm, 173, rfl⟩
abbrev main_call2_v1 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_13 : Ref sig .tc := ⟨.hbm, 178, rfl⟩
abbrev main_v141 : Ref sig .tc := ⟨.hbm, 179, rfl⟩
abbrev main_v142 : Ref sig .tc := ⟨.hbm, 180, rfl⟩
abbrev main_cst_14 : Ref sig .tc := ⟨.hbm, 181, rfl⟩
abbrev main_v143 : Ref sig .tc := ⟨.hbm, 182, rfl⟩
abbrev main_v144 : Ref sig .tc := ⟨.hbm, 183, rfl⟩
abbrev main_cst_15 : Ref sig .tc := ⟨.hbm, 184, rfl⟩
abbrev main_v145 : Ref sig .tc := ⟨.hbm, 185, rfl⟩
abbrev main_v146 : Ref sig .tc := ⟨.hbm, 186, rfl⟩
abbrev main_call3_v0 : Ref sig .tc := ⟨.hbm, 187, rfl⟩
abbrev main_call3_call0_cst : Ref sig .tc := ⟨.hbm, 188, rfl⟩
abbrev main_call3_call0_v0 : Ref sig .tc := ⟨.hbm, 189, rfl⟩
abbrev main_call3_call0_v1 : Ref sig .tc := ⟨.hbm, 190, rfl⟩
abbrev main_call3_call0_v2 : Ref sig .tc := ⟨.hbm, 191, rfl⟩
abbrev main_call3_call0_v3 : Ref sig .tc := ⟨.hbm, 192, rfl⟩
abbrev main_call3_call0_v4 : Ref sig .tc := ⟨.hbm, 193, rfl⟩
abbrev main_call3_call0_v5 : Ref sig .tc := ⟨.hbm, 194, rfl⟩
abbrev main_call3_call0_v6 : Ref sig .tc := ⟨.hbm, 195, rfl⟩
abbrev main_call3_call0_v7 : Ref sig .tc := ⟨.hbm, 196, rfl⟩
abbrev main_call3_call0_v8 : Ref sig .tc := ⟨.hbm, 197, rfl⟩
abbrev main_call3_call0_v9 : Ref sig .tc := ⟨.hbm, 198, rfl⟩
abbrev main_call3_call0_v10 : Ref sig .tc := ⟨.hbm, 199, rfl⟩
abbrev main_call3_call0_v11 : Ref sig .tc := ⟨.hbm, 200, rfl⟩
abbrev main_call3_v1 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_c : Ref sig .tc := ⟨.hbm, 205, rfl⟩
abbrev main_v150 : Ref sig .tc := ⟨.hbm, 206, rfl⟩
abbrev main_v151 : Ref sig .tc := ⟨.hbm, 207, rfl⟩
abbrev main_c_16 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_c_17 : Ref sig .tc := ⟨.hbm, 214, rfl⟩
abbrev main_v157 : Ref sig .tc := ⟨.hbm, 215, rfl⟩
abbrev main_v158 : Ref sig .tc := ⟨.hbm, 216, rfl⟩
abbrev main_c_18 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_cst_19 : Ref sig .tc := ⟨.hbm, 230, rfl⟩
abbrev main_v171 : Ref sig .tc := ⟨.hbm, 231, rfl⟩
abbrev main_cst_20 : Ref sig .tc := ⟨.hbm, 232, rfl⟩
abbrev main_v172 : Ref sig .tc := ⟨.hbm, 233, rfl⟩
abbrev main_v173 : Ref sig .tc := ⟨.hbm, 234, rfl⟩
abbrev main_cst_21 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_cst_22 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_call4_v0 : Ref sig .tc := ⟨.hbm, 245, rfl⟩
abbrev main_call4_cst : Ref sig .tc := ⟨.hbm, 246, rfl⟩
abbrev main_call4_v1 : Ref sig .tc := ⟨.hbm, 247, rfl⟩
abbrev main_v182 : Ref sig .tc := ⟨.hbm, 248, rfl⟩
abbrev main_v183 : Ref sig .tc := ⟨.hbm, 249, rfl⟩
abbrev main_cst_23 : Ref sig .tc := ⟨.hbm, 250, rfl⟩
abbrev main_call5_v0 : Ref sig .tc := ⟨.hbm, 251, rfl⟩
abbrev main_v184 : Ref sig .tc := ⟨.hbm, 252, rfl⟩

abbrev nD : Nat := 1
abbrev τ : Topo := Topo.v7x

variable {F : FTy → Type} [FloatOps F]

class Facts₀ : Prop where
  shapeCasts_S16x900x91_S14400x91 : S16x900x91.ShapeCasts S14400x91
  bcast_S_S14400x91 : S_.BroadcastsInDim S14400x91 (![] : Fin 0 → Fin S14400x91.rank)
  shapeCasts_S16x900x4_S14400x4 : S16x900x4.ShapeCasts S14400x4
  slices_S14400x4_S14400x1_0_0 : S14400x4.Slices ![0, 0] S14400x1
  shapeCasts_S14400x1_S14400 : S14400x1.ShapeCasts S14400
  slices_S14400x4_S14400x1_0_1 : S14400x4.Slices ![0, 1] S14400x1
  slices_S14400x4_S14400x1_0_2 : S14400x4.Slices ![0, 2] S14400x1
  slices_S14400x4_S14400x1_0_3 : S14400x4.Slices ![0, 3] S14400x1
  bcast_S_S14400 : S_.BroadcastsInDim S14400 (![] : Fin 0 → Fin S14400.rank)
  bcast_S14400_S14400x1_0 : S14400.BroadcastsInDim S14400x1 (![0] : Fin 1 → Fin S14400x1.rank)
  concatenates_S14400x1_S14400x1_S14400x1_S14400x1_S14400x4_d1 : Shape.Concatenates [S14400x1, S14400x1, S14400x1, S14400x1] S14400x4 1
  slices_S1600x4_S1600x1_0_0 : S1600x4.Slices ![0, 0] S1600x1
  shapeCasts_S1600x1_S1600 : S1600x1.ShapeCasts S1600
  slices_S1600x4_S1600x1_0_1 : S1600x4.Slices ![0, 1] S1600x1
  slices_S1600x4_S1600x1_0_2 : S1600x4.Slices ![0, 2] S1600x1
  slices_S1600x4_S1600x1_0_3 : S1600x4.Slices ![0, 3] S1600x1
  bcast_S_S1600 : S_.BroadcastsInDim S1600 (![] : Fin 0 → Fin S1600.rank)
  bcast_S1600_S1600x1_0 : S1600.BroadcastsInDim S1600x1 (![0] : Fin 1 → Fin S1600x1.rank)
  concatenates_S1600x1_S1600x1_S1600x1_S1600x1_S1600x4_d1 : Shape.Concatenates [S1600x1, S1600x1, S1600x1, S1600x1] S1600x4 1
  slices_S14400x4_S14400x2_0_0 : S14400x4.Slices ![0, 0] S14400x2
  bcast_S14400x2_S14400x1x2_0_2 : S14400x2.BroadcastsInDim S14400x1x2 (![0, 2] : Fin 2 → Fin S14400x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S14400x1x2_S14400x1600x2_0_1_2 : S14400x1x2.BroadcastsInDim S14400x1600x2 (![0, 1, 2] : Fin 3 → Fin S14400x1600x2.rank)
  bcast_S1x1600x2_S14400x1600x2_0_1_2 : S1x1600x2.BroadcastsInDim S14400x1600x2 (![0, 1, 2] : Fin 3 → Fin S14400x1600x2.rank)
  slices_S14400x4_S14400x2_0_2 : S14400x4.Slices ![0, 2] S14400x2
  slices_S1600x4_S1600x2_0_2 : S1600x4.Slices ![0, 2] S1600x2
  bcast_S_S14400x1600x2 : S_.BroadcastsInDim S14400x1600x2 (![] : Fin 0 → Fin S14400x1600x2.rank)
  slices_S14400x1600x2_S14400x1600x1_0_0_0 : S14400x1600x2.Slices ![0, 0, 0] S14400x1600x1
  shapeCasts_S14400x1600x1_S14400x1600 : S14400x1600x1.ShapeCasts S14400x1600
  slices_S14400x1600x2_S14400x1600x1_0_0_1 : S14400x1600x2.Slices ![0, 0, 1] S14400x1600x1
  bcast_S1600_S1x1600_1 : S1600.BroadcastsInDim S1x1600 (![1] : Fin 1 → Fin S1x1600.rank)
  bcast_S14400x1_S14400x1600_0_1 : S14400x1.BroadcastsInDim S14400x1600 (![0, 1] : Fin 2 → Fin S14400x1600.rank)
  bcast_S1x1600_S14400x1600_0_1 : S1x1600.BroadcastsInDim S14400x1600 (![0, 1] : Fin 2 → Fin S14400x1600.rank)
  bcast_S14400x4_S14400x1x4_0_2 : S14400x4.BroadcastsInDim S14400x1x4 (![0, 2] : Fin 2 → Fin S14400x1x4.rank)
  bcast_S1600x4_S1x1600x4_1_2 : S1600x4.BroadcastsInDim S1x1600x4 (![1, 2] : Fin 2 → Fin S1x1600x4.rank)
  bcast_S14400x1x4_S14400x1600x4_0_1_2 : S14400x1x4.BroadcastsInDim S14400x1600x4 (![0, 1, 2] : Fin 3 → Fin S14400x1600x4.rank)
  bcast_S1x1600x4_S14400x1600x4_0_1_2 : S1x1600x4.BroadcastsInDim S14400x1600x4 (![0, 1, 2] : Fin 3 → Fin S14400x1600x4.rank)
  reducesTo_S14400x1600x4_S14400x1600_d2 : S14400x1600x4.ReducesTo [2] S14400x1600
  h_S_ : 0 < S_.numel
  bcast_S_S14400x1600 : S_.BroadcastsInDim S14400x1600 (![] : Fin 0 → Fin S14400x1600.rank)
  shapeCasts_S14400x1600_S16x900x1600 : S14400x1600.ShapeCasts S16x900x1600
  bcast_S_S16x900x1600 : S_.BroadcastsInDim S16x900x1600 (![] : Fin 0 → Fin S16x900x1600.rank)
  gather_S14400x91_S1600x1_S14400x1600_0_1_n_n_1_1_144001_wf : GatherDims.WF S14400x91 S1600x1 S14400x1600 [0] [1] [] [1] [] 1 ![14400, 1]

variable [Facts₀]

def gather_S14400x91_S1600x1_S14400x1600_0_1_n_n_1_1_144001 : GatherDims S14400x91 S1600x1 S14400x1600 where
  offsetDims := [0]
  collapsedSliceDims := [1]
  operandBatchingDims := []
  startIndicesBatchingDims := []
  startIndexMap := [1]
  indexVectorDim := 1
  sliceSizes := ![14400, 1]
  wf := gather_S14400x91_S1600x1_S14400x1600_0_1_n_n_1_1_144001_wf

class Facts : Prop extends Facts₀ where

variable [Facts]
-- ==== Proof.Bits.KPrefix.lean ====
/-
  The arrays as the cost kernel's region finds them: the device's buffers after the host operations that run before
  the region — the two reshapes of the logits and the boxes, the one-hot table of the labels, and the target table.
-/
import proofs.«430708_j55284819034883_2_alg».proof.Proof.Gen.Kernel.Launch

noncomputable section

namespace Cert.Kernel.Hand

open Idealize.ShloMosaic Idealize.ShloMosaic.TcCoe Idealize.SL.Sem Cert.Kernel Cert.Kernel.Gen

variable {F : FTy → Type} [FloatOps F]

variable (m : (ℓ : Loc nD τ sig) → Buf (Elt F) ℓ)

/-- Core `c`'s buffer contents when the region is entered, as a valuation: after the three stretches of host
    operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

end Cert.Kernel.Hand

end
-- ==== Proof.Bits.KBody.lean ====
/-
  What the cost kernel's body stores into its output block, as ONE pure function of the eleven values it loads: the
  logits block, the boxes block, the eight rows of the target table (centre x, centre y, width, height, then the four
  corners) and the one-hot class table. The body's printed parts pass intermediate vectors to one another; here they
  are composed in the parts' order, so that the stored value is a closed term over the loads.
-/
import proofs.«430708_j55284819034883_2_alg».proof.Proof.Gen.Kernel.Skeleton

noncomputable section

namespace Cert.Kernel.Hand

open Idealize.ShloMosaic Idealize.SL.Sem Cert.Kernel Cert.Kernel.Gen

variable {F : FTy → Type} [FloatOps F]

/-- The stored block from the loads: `x0` the logits block, `x1` the boxes block, `r0 … r7` the target table's rows,
    `x3` the one-hot table. -/
def bodyVal (x0 : Vec F S320x91 .f32) (x1 : Vec F S320x4 .f32)
    (r0 r1 r2 r3 r4 r5 r6 r7 : Vec F S1x1600 .f32) (x3 : Vec F S91x1600 .bf16) : FVec F S320x1600 .f32 :=
  k0_pay1
    (k0_pay16 (k0_pay8 (k0_pay4 x0) (k0_pay5 x0) (k0_pay6 x0) (k0_pay7 x0) x3) (k0_pay12 (k0_pay3 x1)) (k0_pay13 r3)
      (k0_pay14 (k0_pay3 x1) r0 r1) (k0_pay15 (k0_pay3 x1) r2))
    (k0_pay17 (k0_pay9 (k0_pay3 x1)) (k0_pay11 (k0_pay3 x1)))
    (k0_pay18 (k0_pay10 (k0_pay3 x1)) (k0_pay12 (k0_pay3 x1)))
    (k0_pay19 (k0_pay9 (k0_pay3 x1)) (k0_pay11 (k0_pay3 x1)))
    (k0_pay20 (k0_pay10 (k0_pay3 x1)) (k0_pay12 (k0_pay3 x1)))
    (k0_pay21 r4) (k0_pay22 r5) (k0_pay23 r6) (k0_pay24 r7)
    (k0_pay25 (k0_pay9 (k0_pay3 x1)) (k0_pay11 (k0_pay3 x1)) r4 r6)
    (k0_pay26 (k0_pay10 (k0_pay3 x1)) (k0_pay12 (k0_pay3 x1)) r5 r7)
    (Scalar.ofBits .f32 0x00000000#32)

end Cert.Kernel.Hand

end
-- ==== Proof.Bits.KFrame.lean ====
/-
  The frame of the cost kernel's program, and its run with the output array named.

  @main is host operations, one pipelined region over 45 row tiles, and one reshape. Around the region: the host
  operations before it leave the arrays the windows stage (the flattened logits and boxes, the target table, the
  one-hot table) and touch no argument; the reshape after it reads the region's result. Inside: at every grid point the
  body finds each input window's block in its staging buffer — fetched at that point, or (the two tables, fetched once)
  still in place —, loads them, and stores one whole block into the output window's buffer: the function `bodyVal` of
  the loads. So the output window's buffer after the body is that block whatever it held before, the proof data name it,
  and the library's launch theorem for a region with host lines on both sides gives the run: every weakly fair execution
  terminates, the result array holds at each tile the body's block, every other unscoped buffer what the host lines
  left. The four arguments are among the latter and no host line writes them: the frame.
-/
import proofs.«430708_j55284819034883_2_alg».proof.Proof.Bits.KPrefix
import proofs.«430708_j55284819034883_2_alg».proof.Proof.Bits.KBody
import proofs.«430708_j55284819034883_2_alg».proof.Proof.Gen.Kernel.Launch
import proofs.«430708_j55284819034883_2_alg».proof.Proof.Gen.Kernel.Skeleton
import proofs.«430708_j55284819034883_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the reshape, the arrays held at what the three host stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry one and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run to the library's frame post read at the four argument arrays — each an unscoped buffer no window
    stages, so what the host lines leave, and no host line writes it — the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses and what it leaves in the output window's buffer -/

abbrev rL : Rect S320x91 := Rect.unit (s := S320x91) ![0, 0] S320x91.size inb_S320x91_S320x91_0_0
abbrev rB : Rect S320x4 := Rect.unit (s := S320x4) ![0, 0] S320x4.size inb_S320x4_S320x4_0_0
abbrev rH : Rect S91x1600 := Rect.unit (s := S91x1600) ![0, 0] S91x1600.size inb_S91x1600_S91x1600_0_0
abbrev rT0 : Rect S8x1600 := Rect.unit (s := S8x1600) ![0, 0] S1x1600.size inb_S8x1600_S1x1600_0_0
abbrev rT1 : Rect S8x1600 := Rect.unit (s := S8x1600) ![1, 0] S1x1600.size inb_S8x1600_S1x1600_1_0
abbrev rT2 : Rect S8x1600 := Rect.unit (s := S8x1600) ![2, 0] S1x1600.size inb_S8x1600_S1x1600_2_0
abbrev rT3 : Rect S8x1600 := Rect.unit (s := S8x1600) ![3, 0] S1x1600.size inb_S8x1600_S1x1600_3_0
abbrev rT4 : Rect S8x1600 := Rect.unit (s := S8x1600) ![4, 0] S1x1600.size inb_S8x1600_S1x1600_4_0
abbrev rT5 : Rect S8x1600 := Rect.unit (s := S8x1600) ![5, 0] S1x1600.size inb_S8x1600_S1x1600_5_0
abbrev rT6 : Rect S8x1600 := Rect.unit (s := S8x1600) ![6, 0] S1x1600.size inb_S8x1600_S1x1600_6_0
abbrev rT7 : Rect S8x1600 := Rect.unit (s := S8x1600) ![7, 0] S1x1600.size inb_S8x1600_S1x1600_7_0
abbrev rO : Rect S320x1600 := Rect.unit (s := S320x1600) ![0, 0] S320x1600.size inb_S320x1600_S320x1600_0_0

/-- The output window's staging buffer after the body, from the input windows' blocks: its one store, of the whole
    block, of `bodyVal` of the eleven loads. -/
def out0_4 (x0 : Vec F S320x91 .f32) (x1 : Vec F S320x4 .f32) (x2 : Vec F S8x1600 .f32) (x3 : Vec F S91x1600 .bf16) : Vec F S320x1600 .f32 :=
  View.canon [⟨rO, bodyVal (View.ld x0 rL) (View.ld x1 rB) (View.ld x2 rT0) (View.ld x2 rT1) (View.ld x2 rT2) (View.ld x2 rT3)
    (View.ld x2 rT4) (View.ld x2 rT5) (View.ld x2 rT6) (View.ld x2 rT7) (View.ld x3 rH)⟩]

/-- The one store covers the buffer. -/
theorem cover0_4 (p0 : Vec F S320x1600 .f32) (y : S320x1600.Idx) :
    ∃ pc ∈ ([⟨rO, p0⟩] : List (View.Piece (Elt F) S320x1600 .f32)), y ∈ pc.1.set :=
  View.cover_of_tiled [⟨rO, p0⟩] S320x1600.size (by rfl) y

/-! ## The body's triple -/

set_option maxHeartbeats 4000000 in
/-- The body on whole staging memrefs, the inputs' at contents `xW` and the output's at anything, runs to the continuation
    holding the inputs' as they were and the output's at `out0_4` of them. -/
theorem sound_kernel (c : Dev nD) (E : Set ℕ) (i : grid0.Coords)
    (arg1 : Memref sig .tc .vmem S320x91 .f32) (harg1 : arg1.IsWhole) (arg2 : Memref sig .tc .vmem S320x4 .f32) (harg2 : arg2.IsWhole)
    (arg3 : Memref sig .tc .vmem S8x1600 .f32) (harg3 : arg3.IsWhole) (arg4 : Memref sig .tc .vmem S91x1600 .bf16) (harg4 : arg4.IsWhole)
    (arg5 : Memref sig .tc .vmem S320x1600 .f32) (harg5 : arg5.IsWhole)
    (x0 : Vec F S320x91 .f32) (x1 : Vec F S320x4 .f32) (x2 : Vec F S8x1600 .f32) (x3 : Vec F S91x1600 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__cost_kernel i arg1 harg1 arg2 harg2 arg3 harg3 arg4 harg4 arg5 harg5) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t` each
    input's buffer at its block and the output's at `out0_4` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the pipeline's arrays end at what the library computes from the
    proof data, every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Hand

end
-- ==== Proof.KPrefix.lean ====
/-
  The arrays as the cost kernel's region finds them: the device's buffers after the host operations that run before
  the region — the two reshapes of the logits and the boxes, the one-hot table of the labels, and the target table.
-/
import proofs.«430708_j55284819034883_2_alg».proof.Proof.Gen.KernelIdeal.Launch

noncomputable section

namespace Cert.KernelIdeal.Hand

open Idealize.ShloMosaic Idealize.ShloMosaic.TcCoe Idealize.SL.Sem Cert.KernelIdeal Cert.KernelIdeal.Gen

variable {F : FTy → Type} [FloatOps F]

variable (m : (ℓ : Loc nD τ sig) → Buf (Elt F) ℓ)

/-- Core `c`'s buffer contents when the region is entered, as a valuation: after the three stretches of host
    operations before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

end Cert.KernelIdeal.Hand

end
-- ==== Proof.KBody.lean ====
/-
  What the cost kernel's body stores into its output block, as ONE pure function of the eleven values it loads: the
  logits block, the boxes block, the eight rows of the target table (centre x, centre y, width, height, then the four
  corners) and the one-hot class table. The body's printed parts pass intermediate vectors to one another; here they
  are composed in the parts' order, so that the stored value is a closed term over the loads.
-/
import proofs.«430708_j55284819034883_2_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- The stored block from the loads: `x0` the logits block, `x1` the boxes block, `r0 … r7` the target table's rows,
    `x3` the one-hot table. -/
def bodyVal (x0 : Vec F S320x91 .f32) (x1 : Vec F S320x4 .f32)
    (r0 r1 r2 r3 r4 r5 r6 r7 : Vec F S1x1600 .f32) (x3 : Vec F S91x1600 .bf16) : FVec F S320x1600 .f32 :=
  k0_pay1
    (k0_pay16 (k0_pay8 (k0_pay4 x0) (k0_pay5 x0) (k0_pay6 x0) (k0_pay7 x0) x3) (k0_pay12 (k0_pay3 x1)) (k0_pay13 r3)
      (k0_pay14 (k0_pay3 x1) r0 r1) (k0_pay15 (k0_pay3 x1) r2))
    (k0_pay17 (k0_pay9 (k0_pay3 x1)) (k0_pay11 (k0_pay3 x1)))
    (k0_pay18 (k0_pay10 (k0_pay3 x1)) (k0_pay12 (k0_pay3 x1)))
    (k0_pay19 (k0_pay9 (k0_pay3 x1)) (k0_pay11 (k0_pay3 x1)))
    (k0_pay20 (k0_pay10 (k0_pay3 x1)) (k0_pay12 (k0_pay3 x1)))
    (k0_pay21 r4) (k0_pay22 r5) (k0_pay23 r6) (k0_pay24 r7)
    (k0_pay25 (k0_pay9 (k0_pay3 x1)) (k0_pay11 (k0_pay3 x1)) r4 r6)
    (k0_pay26 (k0_pay10 (k0_pay3 x1)) (k0_pay12 (k0_pay3 x1)) r5 r7)
    (Scalar.ofBits .f32 0x00000000#32)

end Cert.KernelIdeal.Hand

end
-- ==== Proof.KFrame.lean ====
/-
  The frame of the cost kernel's program, and its run with the output array named.

  @main is host operations, one pipelined region over 45 row tiles, and one reshape. Around the region: the host
  operations before it leave the arrays the windows stage (the flattened logits and boxes, the target table, the
  one-hot table) and touch no argument; the reshape after it reads the region's result. Inside: at every grid point the
  body finds each input window's block in its staging buffer — fetched at that point, or (the two tables, fetched once)
  still in place —, loads them, and stores one whole block into the output window's buffer: the function `bodyVal` of
  the loads. So the output window's buffer after the body is that block whatever it held before, the proof data name it,
  and the library's launch theorem for a region with host lines on both sides gives the run: every weakly fair execution
  terminates, the result array holds at each tile the body's block, every other unscoped buffer what the host lines
  left. The four arguments are among the latter and no host line writes them: the frame.
-/
import proofs.«430708_j55284819034883_2_alg».proof.Proof.KPrefix
import proofs.«430708_j55284819034883_2_alg».proof.Proof.KBody
import proofs.«430708_j55284819034883_2_alg».proof.Proof.Gen.KernelIdeal.Launch
import proofs.«430708_j55284819034883_2_alg».proof.Proof.Gen.KernelIdeal.Skeleton
import proofs.«430708_j55284819034883_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the reshape, the arrays held at what the three host stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: only its own result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry one and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run to the library's frame post read at the four argument arrays — each an unscoped buffer no window
    stages, so what the host lines leave, and no host line writes it — the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's accesses and what it leaves in the output window's buffer -/

abbrev rL : Rect S320x91 := Rect.unit (s := S320x91) ![0, 0] S320x91.size inb_S320x91_S320x91_0_0
abbrev rB : Rect S320x4 := Rect.unit (s := S320x4) ![0, 0] S320x4.size inb_S320x4_S320x4_0_0
abbrev rH : Rect S91x1600 := Rect.unit (s := S91x1600) ![0, 0] S91x1600.size inb_S91x1600_S91x1600_0_0
abbrev rT0 : Rect S8x1600 := Rect.unit (s := S8x1600) ![0, 0] S1x1600.size inb_S8x1600_S1x1600_0_0
abbrev rT1 : Rect S8x1600 := Rect.unit (s := S8x1600) ![1, 0] S1x1600.size inb_S8x1600_S1x1600_1_0
abbrev rT2 : Rect S8x1600 := Rect.unit (s := S8x1600) ![2, 0] S1x1600.size inb_S8x1600_S1x1600_2_0
abbrev rT3 : Rect S8x1600 := Rect.unit (s := S8x1600) ![3, 0] S1x1600.size inb_S8x1600_S1x1600_3_0
abbrev rT4 : Rect S8x1600 := Rect.unit (s := S8x1600) ![4, 0] S1x1600.size inb_S8x1600_S1x1600_4_0
abbrev rT5 : Rect S8x1600 := Rect.unit (s := S8x1600) ![5, 0] S1x1600.size inb_S8x1600_S1x1600_5_0
abbrev rT6 : Rect S8x1600 := Rect.unit (s := S8x1600) ![6, 0] S1x1600.size inb_S8x1600_S1x1600_6_0
abbrev rT7 : Rect S8x1600 := Rect.unit (s := S8x1600) ![7, 0] S1x1600.size inb_S8x1600_S1x1600_7_0
abbrev rO : Rect S320x1600 := Rect.unit (s := S320x1600) ![0, 0] S320x1600.size inb_S320x1600_S320x1600_0_0

/-- The output window's staging buffer after the body, from the input windows' blocks: its one store, of the whole
    block, of `bodyVal` of the eleven loads. -/
def out0_4 (x0 : Vec F S320x91 .f32) (x1 : Vec F S320x4 .f32) (x2 : Vec F S8x1600 .f32) (x3 : Vec F S91x1600 .bf16) : Vec F S320x1600 .f32 :=
  View.canon [⟨rO, bodyVal (View.ld x0 rL) (View.ld x1 rB) (View.ld x2 rT0) (View.ld x2 rT1) (View.ld x2 rT2) (View.ld x2 rT3)
    (View.ld x2 rT4) (View.ld x2 rT5) (View.ld x2 rT6) (View.ld x2 rT7) (View.ld x3 rH)⟩]

/-- The one store covers the buffer. -/
theorem cover0_4 (p0 : Vec F S320x1600 .f32) (y : S320x1600.Idx) :
    ∃ pc ∈ ([⟨rO, p0⟩] : List (View.Piece (Elt F) S320x1600 .f32)), y ∈ pc.1.set :=
  View.cover_of_tiled [⟨rO, p0⟩] S320x1600.size (by rfl) y

/-! ## The body's triple -/

set_option maxHeartbeats 4000000 in
/-- The body on whole staging memrefs, the inputs' at contents `xW` and the output's at anything, runs to the continuation
    holding the inputs' as they were and the output's at `out0_4` of them. -/
theorem sound_kernel (c : Dev nD) (E : Set ℕ) (i : grid0.Coords)
    (arg1 : Memref sig .tc .vmem S320x91 .f32) (harg1 : arg1.IsWhole) (arg2 : Memref sig .tc .vmem S320x4 .f32) (harg2 : arg2.IsWhole)
    (arg3 : Memref sig .tc .vmem S8x1600 .f32) (harg3 : arg3.IsWhole) (arg4 : Memref sig .tc .vmem S91x1600 .bf16) (harg4 : arg4.IsWhole)
    (arg5 : Memref sig .tc .vmem S320x1600 .f32) (harg5 : arg5.IsWhole)
    (x0 : Vec F S320x91 .f32) (x1 : Vec F S320x4 .f32) (x2 : Vec F S8x1600 .f32) (x3 : Vec F S91x1600 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__cost_kernel i arg1 harg1 arg2 harg2 arg3 harg3 arg4 harg4 arg5 harg5) K := by
  simp only [cc0__cost_kernel_eq_skeleton]; unfold cc0__cost_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the pipeline on core `c`: the arrays as the region finds them; after the body at point `t` each
    input's buffer at its block and the output's at `out0_4` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the pipeline's arrays end at what the library computes from the
    proof data, every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Hand

end
-- ==== Proof.CostSpec.lean ====
/-
  The matching cost of the Hungarian matcher, as one function of the argument arrays on the extended reals.

  For a query row (an image b, a query q) and a target column m the cost is
      clamp (2 · focal(logit[b, q, ids m]) + 5 · L1(box[b, q], tbox[m]) − 2 · GIoU(box[b, q], tbox[m])),
  where focal is the difference of the positive and the negative focal terms of the class logit, L1 the sum of the four
  absolute coordinate differences of the boxes in centre form, GIoU the generalized intersection over union of the two
  boxes turned to corner form, and clamp replaces a value that is its own unequal or is infinite in size by 10⁶.
  Every scalar below is spelt in one fixed association, so that a program's term read at an index meets it after the
  operations' defining equations; the laws at the end are the ones that join two spellings of the same number: the
  literals 0, 1 and 2 as numbers, the square as a real power, the one-hot contraction, and the regrouping of the three terms.
-/
import Idealize.ShloMosaic.PureOps.Ideal
import Idealize.ShloMosaic.PureOps.Ideal.Laws
import Idealize.ShloMosaic.Lib.ValueIdx
import Idealize.ShloMosaic.Lib.IdealHost

noncomputable section

namespace Cert.Cost

open Idealize.ShloMosaic Idealize.ShloMosaic.ValueIdx

/-! ## The literals both programs carry, as the extended reals their words denote -/

abbrev wOne : EReal := Ideal.ofBits .f32 0x3F800000#32
abbrev wQuarter : EReal := Ideal.ofBits .f32 0x3E800000#32
abbrev wThreeQ : EReal := Ideal.ofBits .f32 0x3F400000#32
abbrev wHalf : EReal := Ideal.ofBits .f32 0x3F000000#32
abbrev wTwo : EReal := Ideal.ofBits .f32 0x40000000#32
abbrev wFive : EReal := Ideal.ofBits .f32 0x40A00000#32
abbrev wInf : EReal := Ideal.ofBits .f32 0x7F800000#32
abbrev wBig : EReal := Ideal.ofBits .f32 0x49742400#32

/-- The word of `2.0` denotes the real number two. -/
theorem wTwo_eq : wTwo = ((2 : ℝ) : EReal) := by
  simp [Ideal.ofBits, Ideal.ieee, -EReal.coe_mul] <;> norm_num

/-- The word of `1.0` denotes one. -/
theorem wOne_eq : wOne = 1 := by
  simp [Ideal.ofBits, Ideal.ieee, -EReal.coe_mul] <;> norm_num

/-! ## The class term -/

/-- The size of an extended real: the larger of it and its negative. -/
def absE (x : EReal) : EReal := max x (-x)

/-- `log (1 + eˣ)` in the stable form both programs use: the positive part plus `log1p` of `e^{-|x|}`. -/
def splus (x : EReal) : EReal := max x 0 + Ideal.log1p (Ideal.exp (-(absE x)))

/-- `log σ(x) = −softplus(−x)`. -/
def lsig (x : EReal) : EReal := -(splus (-x))

/-- The focal class cost of a logit: `¼ (1 − σ)² (−log σ(x)) − ¾ σ² (−log σ(−x))`, σ the logistic of `x`. -/
def focal (x : EReal) : EReal :=
  wQuarter * ((1 - Ideal.logistic x) * (1 - Ideal.logistic x)) * (-(lsig x))
    - wThreeQ * (Ideal.logistic x * Ideal.logistic x) * (-(lsig (-x)))

/-! ## The box terms: a box is (centre x, centre y, width, height) -/

/-- The L1 distance of two boxes in centre form. -/
def l1 (cx cy w h tx ty tw th : EReal) : EReal :=
  absE (cx - tx) + absE (cy - ty) + absE (w - tw) + absE (h - th)

/-- The generalized intersection over union of two boxes given by their corners `(x1, y1)`, `(x2, y2)`: the
    intersection and the enclosing box by coordinatewise extrema, their sides cut off at zero;
    `inter / union − (enclosing − union) / enclosing`. -/
def giouC (ax1 ay1 ax2 ay2 bx1 by1 bx2 by2 : EReal) : EReal :=
  Ideal.div (max 0 (min ax2 bx2 - max ax1 bx1) * max 0 (min ay2 by2 - max ay1 by1))
      ((ax2 - ax1) * (ay2 - ay1) + (bx2 - bx1) * (by2 - by1)
        - max 0 (min ax2 bx2 - max ax1 bx1) * max 0 (min ay2 by2 - max ay1 by1))
    - Ideal.div
        (max 0 (max ax2 bx2 - min ax1 bx1) * max 0 (max ay2 by2 - min ay1 by1)
          - ((ax2 - ax1) * (ay2 - ay1) + (bx2 - bx1) * (by2 - by1)
              - max 0 (min ax2 bx2 - max ax1 bx1) * max 0 (min ay2 by2 - max ay1 by1)))
        (max 0 (max ax2 bx2 - min ax1 bx1) * max 0 (max ay2 by2 - min ay1 by1))

/-- The same of two boxes in centre form, each turned to its corners `c ∓ ½ size`. -/
def giou (cx cy w h tx ty tw th : EReal) : EReal :=
  giouC (cx - wHalf * w) (cy - wHalf * h) (cx + wHalf * w) (cy + wHalf * h)
    (tx - wHalf * tw) (ty - wHalf * th) (tx + wHalf * tw) (ty + wHalf * th)

/-! ## The combination and the clamp -/

/-- The weighted sum of the three terms: `2 · class + 5 · L1 − 2 · GIoU`. -/
def total (cls bb g : EReal) : EReal := wTwo * cls + wFive * bb - wTwo * g

/-- A cost that differs from itself or whose size is the infinite word becomes `10⁶`. -/
def clampC (C : EReal) : EReal :=
  Scalar.select (IntOp.ori (Ideal.cmp .one C C) (Ideal.cmp .oeq (absE C) wInf)) wBig C

/-- The cost of one pair from its scalars. -/
def costAt (x cx cy w h tx ty tw th : EReal) : EReal :=
  clampC (total (focal x) (l1 cx cy w h tx ty tw th) (giou cx cy w h tx ty tw th))

/-! ## The arrays -/

abbrev SLogits : Shape := ⟨3, ![16, 900, 91]⟩
abbrev SBoxes : Shape := ⟨3, ![16, 900, 4]⟩
abbrev SIds : Shape := ⟨1, ![1600]⟩
abbrev STgt : Shape := ⟨2, ![1600, 4]⟩
abbrev SOut : Shape := ⟨3, ![16, 900, 1600]⟩

/-- The class a target's label word names, as a position on the class axis (the label read unsigned, modulo the 91
    classes: on labels in range, the label). -/
def clsOf (w : BitVec 32) : Fin 91 := ⟨w.toNat % 91, Nat.mod_lt _ (by decide)⟩

/-- THE COST ARRAY: entry `(b, q, m)` is the cost of query `(b, q)` against target `m`. -/
def G (lg : SLogits.Idx → EReal) (bx : SBoxes.Idx → EReal) (ids : SIds.Idx → BitVec 32) (tb : STgt.Idx → EReal) :
    SOut.Idx → EReal := fun j =>
  costAt (lg (ix3 (j 0) (j 1) (clsOf (ids (ix1 (j 2))))))
    (bx (ix3 (j 0) (j 1) (0 : Fin 4))) (bx (ix3 (j 0) (j 1) (1 : Fin 4)))
    (bx (ix3 (j 0) (j 1) (2 : Fin 4))) (bx (ix3 (j 0) (j 1) (3 : Fin 4)))
    (tb (ix2 (j 2) (0 : Fin 4))) (tb (ix2 (j 2) (1 : Fin 4))) (tb (ix2 (j 2) (2 : Fin 4))) (tb (ix2 (j 2) (3 : Fin 4)))

/-! ## The laws that join two spellings -/

/-- The operations' fields at the extended reals that have no rewriting lemma in the library. -/
theorem absf_eq (φ : FTy) (x : Ideal φ) : FloatOps.absf (F := Ideal) x = absE x := rfl
theorem cmpf_eq (φ : FTy) (p : CmpFPredicate) (x y : Ideal φ) : FloatOps.cmpf (F := Ideal) p x y = Ideal.cmp p x y := rfl
theorem uitofp_eq (φ : FTy) {w : Nat} (b : BitVec w) : FloatOps.uitofp (F := Ideal) φ b = ((b.toNat : ℝ) : EReal) := rfl

/-- Nothing differs from itself on a linear order: the guard for a value that is not a number never fires. -/
theorem cmp_one_self (x : EReal) : Ideal.cmp .one x x = 0#1 := by simp [Ideal.cmp]
/-- The unordered "not equal" is the ordered one here. -/
theorem cmp_une_eq (x y : EReal) : Ideal.cmp .une x y = Ideal.cmp .one x y := rfl

/-- The logistic of a real is a real. -/
theorem logistic_real (r : ℝ) : ∃ s : ℝ, Ideal.logistic (r : EReal) = (s : EReal) := ⟨_, Ideal.logistic_coe r⟩

/-- A real to the power of the word `2.0` is its square. -/
theorem pow_two_real (s : ℝ) : Ideal.pow (s : EReal) wTwo = (s : EReal) * (s : EReal) := by
  rw [wTwo_eq, Ideal.pow_coe_coe, ← EReal.coe_mul]
  congr 1
  show s ^ (2 : ℝ) = s * s
  rw [Real.rpow_two, sq]

/-- One minus a real, on the extended reals, is a real. -/
theorem one_sub_real (s : ℝ) : (1 : EReal) - (s : EReal) = ((1 - s : ℝ) : EReal) := by
  rw [EReal.coe_sub, EReal.coe_one]

/-- A contraction against a one-hot column picks the entry at the hot position: of a sum over the classes of
    `d k · [t = k]`, the one term at `k = t` is `d t · 1` and every other is `d k · 0 = 0` (on the extended reals too:
    zero annihilates the infinities). -/
theorem onehot_sum (d : Fin 91 → EReal) (t : Fin 91) :
    (0 : EReal) + ∑ k : Fin 91, d k * (if t = k then (1 : EReal) else 0) = d t := by
  rw [zero_add, Finset.sum_eq_single t]
  · rw [if_pos rfl, mul_one]
  · intro k _ hk; rw [if_neg (Ne.symm hk), mul_zero]
  · intro h; exact absurd (Finset.mem_univ t) h

/-- The three weighted terms summed in the reference's order, the GIoU term entering negated, are the kernel's
    `total`: addition commutes and a product with a negative is the negative of the product, on every extended real. -/
theorem total_regroup (cls bb g : EReal) : wFive * bb + wTwo * cls + wTwo * (-g) = total cls bb g := by
  unfold total
  rw [mul_neg, ← sub_eq_add_neg, add_comm (wFive * bb)]

end Cert.Cost

end
-- ==== Proof.KBodyAt.lean ====
/-
  The cost kernel's stored block read at one entry. The block is a closed term over the eleven loaded values; at row
  `p` and column `q` every part of it is a scalar expression in row `p` of the logits and boxes blocks, column `q` of
  the eight target rows and column `q` of the one-hot table. The parts are read one at a time: a cast to the same
  shape changes nothing, a one-column slice of the boxes reads that column, a column spread over the lanes reads its
  row and a row spread over the sublanes reads its lane, and every arithmetic operation acts entry by entry. The class
  term is a product of the focal matrix with the one-hot table into a zero accumulator, hence the sum over the 91
  classes of the focal cost of the row's logit times the table's entry. What comes out is the specification's cost of
  the pair, the class term still written as that sum.
-/
import proofs.«430708_j55284819034883_2_alg».proof.Proof.KBody
import proofs.«430708_j55284819034883_2_alg».proof.Proof.CostSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen Cert.Cost

/-! ## Layout: what a spread column, a spread row and a one-column slice read -/

/-- An `[a, 1]` column spread to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The four one-column slices of the boxes block read the box's centre x, centre y, width and height. -/
theorem k0_pay9_at (v3 : FVec Ideal S320x4 .f32) (p : Fin 320) :
    k0_pay9 (F := Ideal) v3 (ix2 p (0 : Fin 1)) = v3 (ix2 p (0 : Fin 4)) :=
  slice2_axis1_apply 0 v3 slices_S320x4_o0_0_S320x1 p (0 : Fin 1) (0 : Fin 4) rfl
theorem k0_pay10_at (v3 : FVec Ideal S320x4 .f32) (p : Fin 320) :
    k0_pay10 (F := Ideal) v3 (ix2 p (0 : Fin 1)) = v3 (ix2 p (1 : Fin 4)) :=
  slice2_axis1_apply 1 v3 slices_S320x4_o0_1_S320x1 p (0 : Fin 1) (1 : Fin 4) rfl
theorem k0_pay11_at (v3 : FVec Ideal S320x4 .f32) (p : Fin 320) :
    k0_pay11 (F := Ideal) v3 (ix2 p (0 : Fin 1)) = v3 (ix2 p (2 : Fin 4)) :=
  slice2_axis1_apply 2 v3 slices_S320x4_o0_2_S320x1 p (0 : Fin 1) (2 : Fin 4) rfl
theorem k0_pay12_at (v3 : FVec Ideal S320x4 .f32) (p : Fin 320) :
    k0_pay12 (F := Ideal) v3 (ix2 p (0 : Fin 1)) = v3 (ix2 p (3 : Fin 4)) :=
  slice2_axis1_apply 3 v3 slices_S320x4_o0_3_S320x1 p (0 : Fin 1) (3 : Fin 4) rfl

/-- The casts of a loaded block or row to its own shape are the block or row. -/
theorem k0_pay2_eq (x0 : Vec Ideal S320x91 .f32) : k0_pay2 (F := Ideal) x0 = x0 := shapeCast_self _ _
theorem k0_pay3_eq (x1 : Vec Ideal S320x4 .f32) : k0_pay3 (F := Ideal) x1 = x1 := shapeCast_self _ _
theorem k0_pay13_eq (r : Vec Ideal S1x1600 .f32) : k0_pay13 (F := Ideal) r = r := shapeCast_self _ _
theorem k0_pay21_eq (r : Vec Ideal S1x1600 .f32) : k0_pay21 (F := Ideal) r = r := shapeCast_self _ _
theorem k0_pay22_eq (r : Vec Ideal S1x1600 .f32) : k0_pay22 (F := Ideal) r = r := shapeCast_self _ _
theorem k0_pay23_eq (r : Vec Ideal S1x1600 .f32) : k0_pay23 (F := Ideal) r = r := shapeCast_self _ _
theorem k0_pay24_eq (r : Vec Ideal S1x1600 .f32) : k0_pay24 (F := Ideal) r = r := shapeCast_self _ _

/-! ## The box's corners: centre ∓ half the size, entry by entry -/

theorem k0_pay17_at (v64 v66 : FVec Ideal S320x1 .f32) (i : S320x1.Idx) :
    k0_pay17 (F := Ideal) v64 v66 i = v64 i - wHalf * v66 i := rfl
theorem k0_pay18_at (v65 v67 : FVec Ideal S320x1 .f32) (i : S320x1.Idx) :
    k0_pay18 (F := Ideal) v65 v67 i = v65 i - wHalf * v67 i := rfl
theorem k0_pay19_at (v64 v66 : FVec Ideal S320x1 .f32) (i : S320x1.Idx) :
    k0_pay19 (F := Ideal) v64 v66 i = v64 i + wHalf * v66 i := rfl
theorem k0_pay20_at (v65 v67 : FVec Ideal S320x1 .f32) (i : S320x1.Idx) :
    k0_pay20 (F := Ideal) v65 v67 i = v65 i + wHalf * v67 i := rfl

/-! ## More entrywise operations read at an entry: the size, the exponential, `log (1 + ·)`, the logistic, the bitwise or -/

theorem absf_at {s : Shape} {φ : FTy} (a : FVec Ideal s φ) (i : s.Idx) : absf a i = absE (a i) := rfl
theorem exp_at {s : Shape} {φ : FTy} (a : FVec Ideal s φ) (i : s.Idx) : exp a i = Ideal.exp (a i) := rfl
theorem log1p_at {s : Shape} {φ : FTy} (a : FVec Ideal s φ) (i : s.Idx) : log1p a i = Ideal.log1p (a i) := rfl
theorem logistic_at {s : Shape} {φ : FTy} (a : FVec Ideal s φ) (i : s.Idx) : logistic a i = Ideal.logistic (a i) := rfl
theorem ori_at {s : Shape} {w : ℕ} (a b : IVec s w) (i : s.Idx) : ori a b i = IntOp.ori (a i) (b i) := rfl

/-! ## The class term's factors, entry by entry -/

/-- The logistic of the logit. -/
theorem k0_pay4_at (x0 : Vec Ideal S320x91 .f32) (i : S320x91.Idx) :
    k0_pay4 (F := Ideal) x0 i = Ideal.logistic (x0 i) := by
  unfold k0_pay4
  rw [k0_pay2_eq]
  rfl

/-- One minus it; the word of `1.0` is the number one. -/
theorem k0_pay7_at (x0 : Vec Ideal S320x91 .f32) (i : S320x91.Idx) :
    k0_pay7 (F := Ideal) x0 i = 1 - Ideal.logistic (x0 i) := by
  show wOne - k0_pay4 (F := Ideal) x0 i = _
  rw [wOne_eq, k0_pay4_at]

/-- The logarithm of the logistic at the logit: minus the stable soft-plus of the negated logit. The guard on a value
    differing from itself never fires, and subtracting from the zero word is negating. -/
theorem k0_pay5_at (x0 : Vec Ideal S320x91 .f32) (i : S320x91.Idx) :
    k0_pay5 (F := Ideal) x0 i = lsig (x0 i) := by
  unfold k0_pay5
  rw [k0_pay2_eq]
  simp only [subf_apply, addf_apply, maximumf_apply, select_apply, cmpf_apply, broadcast_apply, absf_at, exp_at, log1p_at,
    Ideal.ofBits_def, Ideal.ofBits_zero_f32, cmpf_eq, cmp_one_self, select_zero, zero_sub, sub_zero]
  rfl

/-- The same at the negated logit; the kernel negates twice and the double negation stays. -/
theorem k0_pay6_at (x0 : Vec Ideal S320x91 .f32) (i : S320x91.Idx) :
    k0_pay6 (F := Ideal) x0 i = lsig (-(x0 i)) := by
  unfold k0_pay6
  rw [k0_pay2_eq]
  simp only [subf_apply, addf_apply, maximumf_apply, select_apply, cmpf_apply, broadcast_apply, absf_at, exp_at, log1p_at,
    Ideal.ofBits_def, Ideal.ofBits_zero_f32, cmpf_eq, cmp_one_self, select_zero, zero_sub, sub_zero]
  rfl

/-! ## The product with the one-hot table, at an entry

The dimension numbers contract the logits' class axis with the table's class axis and keep the rows of the one and the
columns of the other. At output entry `(p, q)` and class `k` the left operand is read at `(p, k)` and the right one at
`(k, q)`; each of the four coordinates is read off the dimension numbers separately. -/

theorem lhs_axis0 (j : S320x1600.Idx) (k : dot_S320x91_S91x1600_S320x1600_1_0_0_1_n_n.contr.Idx) :
    (dot_S320x91_S91x1600_S320x1600_1_0_0_1_n_n.lhsIdx j k (0 : Fin S320x91.rank)).val = (j 0).val := by
  unfold DotDims.lhsIdx
  rw [dif_neg (show ¬(0 : Fin S320x91.rank) ∈ dot_S320x91_S91x1600_S320x1600_1_0_0_1_n_n.lhsBatch by decide),
    dif_pos (show (0 : Fin S320x91.rank) ∈ dot_S320x91_S91x1600_S320x1600_1_0_0_1_n_n.lhsNonContracting by decide)]
  rfl

theorem lhs_axis1 (j : S320x1600.Idx) (k : dot_S320x91_S91x1600_S320x1600_1_0_0_1_n_n.contr.Idx) :
    (dot_S320x91_S91x1600_S320x1600_1_0_0_1_n_n.lhsIdx j k (1 : Fin S320x91.rank)).val = (k ⟨0, by decide⟩).val :=
  DotDims.lhsIdx_val_of_single dot_S320x91_S91x1600_S320x1600_1_0_0_1_n_n rfl j k

theorem rhs_axis0 (j : S320x1600.Idx) (k : dot_S320x91_S91x1600_S320x1600_1_0_0_1_n_n.contr.Idx) :
    (dot_S320x91_S91x1600_S320x1600_1_0_0_1_n_n.rhsIdx j k (0 : Fin S91x1600.rank)).val = (k ⟨0, by decide⟩).val :=
  DotDims.rhsIdx_val_of_single dot_S320x91_S91x1600_S320x1600_1_0_0_1_n_n rfl j k

theorem rhs_axis1 (j : S320x1600.Idx) (k : dot_S320x91_S91x1600_S320x1600_1_0_0_1_n_n.contr.Idx) :
    (dot_S320x91_S91x1600_S320x1600_1_0_0_1_n_n.rhsIdx j k (1 : Fin S91x1600.rank)).val = (j 1).val := by
  unfold DotDims.rhsIdx
  rw [dif_neg (show ¬(1 : Fin S91x1600.rank) ∈ dot_S320x91_S91x1600_S320x1600_1_0_0_1_n_n.rhsBatch by decide),
    dif_pos (show (1 : Fin S91x1600.rank) ∈ dot_S320x91_S91x1600_S320x1600_1_0_0_1_n_n.rhsNonContracting by decide)]
  rfl

/-- The left operand's entry for output `(p, q)` and class `k` is `(p, k)`. -/
theorem lhs_at (p : Fin 320) (q : Fin 1600) (k : Fin 91) :
    dot_S320x91_S91x1600_S320x1600_1_0_0_1_n_n.lhsIdx (ix2 p q)
      ((contrEquiv1 dot_S320x91_S91x1600_S320x1600_1_0_0_1_n_n 91 rfl rfl).symm k) = ix2 p k := by
  funext ax; apply Fin.ext
  match ax with
  | ⟨0, _⟩ => exact lhs_axis0 _ _
  | ⟨1, _⟩ => exact (lhs_axis1 _ _).trans (contrEquiv1_symm_val dot_S320x91_S91x1600_S320x1600_1_0_0_1_n_n 91 rfl rfl k)

/-- The right operand's entry is `(k, q)`. -/
theorem rhs_at (p : Fin 320) (q : Fin 1600) (k : Fin 91) :
    dot_S320x91_S91x1600_S320x1600_1_0_0_1_n_n.rhsIdx (ix2 p q)
      ((contrEquiv1 dot_S320x91_S91x1600_S320x1600_1_0_0_1_n_n 91 rfl rfl).symm k) = ix2 k q := by
  funext ax; apply Fin.ext
  match ax with
  | ⟨0, _⟩ => exact (rhs_axis0 _ _).trans (contrEquiv1_symm_val dot_S320x91_S91x1600_S320x1600_1_0_0_1_n_n 91 rfl rfl k)
  | ⟨1, _⟩ => exact rhs_axis1 _ _

/-- So the product at `(p, q)` is the accumulator's entry plus the sum over the 91 classes of the products of the entries. -/
theorem matmul_at (A : FVec Ideal S320x91 .bf16) (B : FVec Ideal S91x1600 .bf16) (acc : FVec Ideal S320x1600 .f32)
    (p : Fin 320) (q : Fin 1600) :
    matmul dot_S320x91_S91x1600_S320x1600_1_0_0_1_n_n none A B acc (ix2 p q)
      = acc (ix2 p q) + ∑ k : Fin 91, A (ix2 p k) * B (ix2 k q) := by
  show FloatOps.matmul dot_S320x91_S91x1600_S320x1600_1_0_0_1_n_n none A B acc (ix2 p q) = _
  rw [Ideal.matmul_apply,
    ← Equiv.sum_comp (contrEquiv1 dot_S320x91_S91x1600_S320x1600_1_0_0_1_n_n 91 rfl rfl).symm]
  refine congrArg (acc (ix2 p q) + ·) (Finset.sum_congr rfl fun k _ => ?_)
  rw [lhs_at, rhs_at]

/-! ## The class term: twice the product of the focal matrix with the one-hot table -/

/-- The stored class term at `(p, q)` over its four factor matrices: the narrowing of the focal matrix changes no
    entry, the table's cast changes nothing, and the accumulator is the zero splat. -/
theorem k0_pay8_at (v4 v22 v42 v44 : FVec Ideal S320x91 .f32) (v59 : Vec Ideal S91x1600 .bf16) (p : Fin 320) (q : Fin 1600) :
    k0_pay8 (F := Ideal) v4 v22 v42 v44 v59 (ix2 p q)
      = wTwo * ((0 : EReal) + ∑ k : Fin 91,
          (wQuarter * (v44 (ix2 p k) * v44 (ix2 p k)) * (-(v22 (ix2 p k)))
            - wThreeQ * (v4 (ix2 p k) * v4 (ix2 p k)) * (-(v42 (ix2 p k)))) * v59 (ix2 k q)) := by
  unfold k0_pay8
  simp only [mulf_apply, subf_apply, broadcast_apply, matmul_at, constant_apply, truncf_apply, shapeCast_self,
    Ideal.ofBits_def, Ideal.ofBits_zero_f32, zero_sub]

/-- With the factors the kernel feeds it, each summand is the focal cost of the row's logit for class `k` times the
    table's entry. -/
theorem cls_at (x0 : Vec Ideal S320x91 .f32) (x3 : Vec Ideal S91x1600 .bf16) (p : Fin 320) (q : Fin 1600) :
    k0_pay8 (F := Ideal) (k0_pay4 x0) (k0_pay5 x0) (k0_pay6 x0) (k0_pay7 x0) x3 (ix2 p q)
      = wTwo * ((0 : EReal) + ∑ k : Fin 91, focal (x0 (ix2 p k)) * x3 (ix2 k q)) := by
  rw [k0_pay8_at]
  simp only [k0_pay4_at, k0_pay5_at, k0_pay6_at, k0_pay7_at]
  rfl

/-! ## The L1 term -/

/-- The first two absolute differences: centre x and centre y. -/
theorem k0_pay14_at (v3 : FVec Ideal S320x4 .f32) (r0 r1 : Vec Ideal S1x1600 .f32) (p : Fin 320) (q : Fin 1600) :
    k0_pay14 (F := Ideal) v3 r0 r1 (ix2 p q)
      = absE (v3 (ix2 p (0 : Fin 4)) - r0 (ix2 (0 : Fin 1) q)) + absE (v3 (ix2 p (1 : Fin 4)) - r1 (ix2 (0 : Fin 1) q)) := by
  unfold k0_pay14
  simp only [addf_apply, subf_apply, absf_at, broadcastTo_a1_ab_apply, broadcastTo_1b_ab_apply, shapeCast_self,
    k0_pay9_at, k0_pay10_at]

/-- The third: the widths. -/
theorem k0_pay15_at (v3 : FVec Ideal S320x4 .f32) (r2 : Vec Ideal S1x1600 .f32) (p : Fin 320) (q : Fin 1600) :
    k0_pay15 (F := Ideal) v3 r2 (ix2 p q) = absE (v3 (ix2 p (2 : Fin 4)) - r2 (ix2 (0 : Fin 1) q)) := by
  unfold k0_pay15
  simp only [subf_apply, absf_at, broadcastTo_a1_ab_apply, broadcastTo_1b_ab_apply, shapeCast_self, k0_pay11_at]

/-- The fourth difference joins them, and five times the sum is added to the class term. -/
theorem k0_pay16_at (v63 : FVec Ideal S320x1600 .f32) (v67 : FVec Ideal S320x1 .f32) (v75 : FVec Ideal S1x1600 .f32)
    (v84 v88 : FVec Ideal S320x1600 .f32) (p : Fin 320) (q : Fin 1600) :
    k0_pay16 (F := Ideal) v63 v67 v75 v84 v88 (ix2 p q)
      = v63 (ix2 p q) + wFive * (v84 (ix2 p q) + v88 (ix2 p q) + absE (v67 (ix2 p (0 : Fin 1)) - v75 (ix2 (0 : Fin 1) q))) := by
  unfold k0_pay16
  simp only [addf_apply, subf_apply, mulf_apply, absf_at, broadcast_apply, broadcastTo_a1_ab_apply, broadcastTo_1b_ab_apply,
    Ideal.ofBits_def]

/-! ## The intersection's sides -/

/-- The horizontal side of the intersection, cut off at zero. -/
theorem k0_pay25_at (v64 v66 : FVec Ideal S320x1 .f32) (r4 r6 : Vec Ideal S1x1600 .f32) (p : Fin 320) (q : Fin 1600) :
    k0_pay25 (F := Ideal) v64 v66 r4 r6 (ix2 p q)
      = max 0 (min (v64 (ix2 p (0 : Fin 1)) + wHalf * v66 (ix2 p (0 : Fin 1))) (r6 (ix2 (0 : Fin 1) q))
          - max (v64 (ix2 p (0 : Fin 1)) - wHalf * v66 (ix2 p (0 : Fin 1))) (r4 (ix2 (0 : Fin 1) q))) := by
  unfold k0_pay25
  simp only [maximumf_apply, minimumf_apply, subf_apply, broadcast_apply, broadcastTo_a1_ab_apply, broadcastTo_1b_ab_apply,
    k0_pay17_at, k0_pay19_at, k0_pay21_eq, k0_pay23_eq, Ideal.ofBits_def, Ideal.ofBits_zero_f32]

/-- The vertical side, not yet cut off. -/
theorem k0_pay26_at (v65 v67 : FVec Ideal S320x1 .f32) (r5 r7 : Vec Ideal S1x1600 .f32) (p : Fin 320) (q : Fin 1600) :
    k0_pay26 (F := Ideal) v65 v67 r5 r7 (ix2 p q)
      = min (v65 (ix2 p (0 : Fin 1)) + wHalf * v67 (ix2 p (0 : Fin 1))) (r7 (ix2 (0 : Fin 1) q))
          - max (v65 (ix2 p (0 : Fin 1)) - wHalf * v67 (ix2 p (0 : Fin 1))) (r5 (ix2 (0 : Fin 1) q)) := by
  unfold k0_pay26
  simp only [maximumf_apply, minimumf_apply, subf_apply, broadcastTo_a1_ab_apply, broadcastTo_1b_ab_apply,
    k0_pay18_at, k0_pay20_at, k0_pay22_eq, k0_pay24_eq]

/-! ## The GIoU term, the weighted total and the clamp -/

/-- The stored entry over the twelve values the last part combines: the class-plus-L1 term `v97`, the box's four
    corners (columns), the target's four corners (rows), the cut-off horizontal side `v132` and the vertical side
    `v133` of the intersection, and the zero it cuts the latter off at. Intersection over union minus the enclosing
    box's excess over its area, twice that taken off `v97`, then the clamp. -/
theorem k0_pay1_at (v97 : FVec Ideal S320x1600 .f32) (v100 v103 v106 v109 : FVec Ideal S320x1 .f32)
    (v111 v113 v115 v117 : FVec Ideal S1x1600 .f32) (v132 v133 : FVec Ideal S320x1600 .f32) (p : Fin 320) (q : Fin 1600) :
    k0_pay1 (F := Ideal) v97 v100 v103 v106 v109 v111 v113 v115 v117 v132 v133 (Scalar.ofBits .f32 0x00000000#32) (ix2 p q)
      = clampC (v97 (ix2 p q) - wTwo *
          (Ideal.div (v132 (ix2 p q) * max 0 (v133 (ix2 p q)))
              ((v106 (ix2 p (0 : Fin 1)) - v100 (ix2 p (0 : Fin 1))) * (v109 (ix2 p (0 : Fin 1)) - v103 (ix2 p (0 : Fin 1)))
                + (v115 (ix2 (0 : Fin 1) q) - v111 (ix2 (0 : Fin 1) q)) * (v117 (ix2 (0 : Fin 1) q) - v113 (ix2 (0 : Fin 1) q))
                - v132 (ix2 p q) * max 0 (v133 (ix2 p q)))
            - Ideal.div
                (max 0 (max (v106 (ix2 p (0 : Fin 1))) (v115 (ix2 (0 : Fin 1) q)) - min (v100 (ix2 p (0 : Fin 1))) (v111 (ix2 (0 : Fin 1) q)))
                    * max 0 (max (v109 (ix2 p (0 : Fin 1))) (v117 (ix2 (0 : Fin 1) q)) - min (v103 (ix2 p (0 : Fin 1))) (v113 (ix2 (0 : Fin 1) q)))
                  - ((v106 (ix2 p (0 : Fin 1)) - v100 (ix2 p (0 : Fin 1))) * (v109 (ix2 p (0 : Fin 1)) - v103 (ix2 p (0 : Fin 1)))
                      + (v115 (ix2 (0 : Fin 1) q) - v111 (ix2 (0 : Fin 1) q)) * (v117 (ix2 (0 : Fin 1) q) - v113 (ix2 (0 : Fin 1) q))
                      - v132 (ix2 p q) * max 0 (v133 (ix2 p q))))
                (max 0 (max (v106 (ix2 p (0 : Fin 1))) (v115 (ix2 (0 : Fin 1) q)) - min (v100 (ix2 p (0 : Fin 1))) (v111 (ix2 (0 : Fin 1) q)))
                    * max 0 (max (v109 (ix2 p (0 : Fin 1))) (v117 (ix2 (0 : Fin 1) q)) - min (v103 (ix2 p (0 : Fin 1))) (v113 (ix2 (0 : Fin 1) q)))))) := by
  unfold k0_pay1
  simp only [select_apply, ori_at, cmpf_apply, absf_at, subf_apply, addf_apply, mulf_apply, divf_apply, maximumf_apply,
    minimumf_apply, broadcast_apply, broadcastTo_a1_ab_apply, broadcastTo_1b_ab_apply, Ideal.ofBits_def,
    Ideal.ofBits_zero_f32, cmpf_eq]
  rfl

/-! ## The stored block at an entry -/

/-- THE BODY AT `(p, q)`: the specification's clamped total of the class term (the sum over the classes of the focal
    cost of row `p`'s logit times the table's entry in column `q`), the L1 distance of row `p`'s box to column `q`'s
    target in centre form, and the GIoU of the box's corners with the target's corner rows. -/
theorem bodyVal_at (x0 : Vec Ideal S320x91 .f32) (x1 : Vec Ideal S320x4 .f32)
    (r0 r1 r2 r3 r4 r5 r6 r7 : Vec Ideal S1x1600 .f32) (x3 : Vec Ideal S91x1600 .bf16) (p : Fin 320) (q : Fin 1600) :
    bodyVal (F := Ideal) x0 x1 r0 r1 r2 r3 r4 r5 r6 r7 x3 (ix2 p q)
      = clampC (total
          ((0 : EReal) + ∑ k : Fin 91, focal (x0 (ix2 p k)) * x3 (ix2 k q))
          (l1 (x1 (ix2 p (0 : Fin 4))) (x1 (ix2 p (1 : Fin 4))) (x1 (ix2 p (2 : Fin 4))) (x1 (ix2 p (3 : Fin 4)))
              (r0 (ix2 (0 : Fin 1) q)) (r1 (ix2 (0 : Fin 1) q)) (r2 (ix2 (0 : Fin 1) q)) (r3 (ix2 (0 : Fin 1) q)))
          (giouC (x1 (ix2 p (0 : Fin 4)) - wHalf * x1 (ix2 p (2 : Fin 4))) (x1 (ix2 p (1 : Fin 4)) - wHalf * x1 (ix2 p (3 : Fin 4)))
                 (x1 (ix2 p (0 : Fin 4)) + wHalf * x1 (ix2 p (2 : Fin 4))) (x1 (ix2 p (1 : Fin 4)) + wHalf * x1 (ix2 p (3 : Fin 4)))
                 (r4 (ix2 (0 : Fin 1) q)) (r5 (ix2 (0 : Fin 1) q)) (r6 (ix2 (0 : Fin 1) q)) (r7 (ix2 (0 : Fin 1) q)))) := by
  unfold bodyVal
  rw [k0_pay1_at]
  simp only [k0_pay16_at, cls_at, k0_pay14_at, k0_pay15_at, k0_pay25_at, k0_pay26_at, k0_pay17_at, k0_pay18_at, k0_pay19_at,
    k0_pay20_at, k0_pay9_at, k0_pay10_at, k0_pay11_at, k0_pay12_at, k0_pay3_eq, k0_pay13_eq, k0_pay21_eq, k0_pay22_eq,
    k0_pay23_eq, k0_pay24_eq]
  rfl

end Cert.KernelIdeal.Hand

end
-- ==== Proof.KGflat.lean ====
/-
  The cost of a flattened query row against a target, from the four arrays the kernel's windows stage: the flattened
  logits, the flattened boxes, the target table (rows: centre x, centre y, width, height, then the four corners) and
  the one-hot class table, against which the focal terms of the row's 91 logits are contracted.
-/
import proofs.«430708_j55284819034883_2_alg».proof.Proof.CostSpec
import proofs.«430708_j55284819034883_2_alg».proof.KernelIdeal

noncomputable section

namespace Cert.KernelIdeal.Hand

open Idealize.ShloMosaic Idealize.ShloMosaic.ValueIdx Cert.KernelIdeal Cert.Cost

/-- Entry `i` = (flat query row, target). -/
def Gflat (L : S14400x91.Idx → EReal) (B : S14400x4.Idx → EReal) (T : S8x1600.Idx → EReal) (H : S91x1600.Idx → EReal) :
    S14400x1600.Idx → EReal := fun i =>
  clampC (total ((0 : EReal) + ∑ k : Fin 91, focal (L (ix2 (i 0) k)) * H (ix2 k (i 1)))
    (l1 (B (ix2 (i 0) (0 : Fin 4))) (B (ix2 (i 0) (1 : Fin 4))) (B (ix2 (i 0) (2 : Fin 4))) (B (ix2 (i 0) (3 : Fin 4)))
        (T (ix2 (0 : Fin 8) (i 1))) (T (ix2 (1 : Fin 8) (i 1))) (T (ix2 (2 : Fin 8) (i 1))) (T (ix2 (3 : Fin 8) (i 1))))
    (giouC (B (ix2 (i 0) (0 : Fin 4)) - wHalf * B (ix2 (i 0) (2 : Fin 4))) (B (ix2 (i 0) (1 : Fin 4)) - wHalf * B (ix2 (i 0) (3 : Fin 4)))
           (B (ix2 (i 0) (0 : Fin 4)) + wHalf * B (ix2 (i 0) (2 : Fin 4))) (B (ix2 (i 0) (1 : Fin 4)) + wHalf * B (ix2 (i 0) (3 : Fin 4)))
           (T (ix2 (4 : Fin 8) (i 1))) (T (ix2 (5 : Fin 8) (i 1))) (T (ix2 (6 : Fin 8) (i 1))) (T (ix2 (7 : Fin 8) (i 1)))))

end Cert.KernelIdeal.Hand

end
-- ==== Proof.KValue.lean ====
/-
  From the row tiles to the whole cost array, and the kernel's run with the result named.

  The region walks 45 row tiles. At tile t the logits and boxes windows hold rows 320 t … 320 t + 319 of the flattened
  logits and boxes, the two table windows hold their whole arrays, and the body stores one [320, 1600] block whose entry
  (p, q) is the clamped total of the class sum, the L1 distance and the GIoU of flattened row 320 t + p against target q.
  That is entry (320 t + p, q) of ONE function of the four staged arrays, so what each tile writes back is its block of
  that function, the 45 blocks cover the 14400 rows, and the result array ends holding the function. The reshape after
  the region reads it as [16, 900, 1600]; no host line writes an argument.
-/
import proofs.«430708_j55284819034883_2_alg».proof.Proof.KFrame
import proofs.«430708_j55284819034883_2_alg».proof.Proof.KBodyAt
import proofs.«430708_j55284819034883_2_alg».proof.Proof.CostSpec
import proofs.«430708_j55284819034883_2_alg».proof.Proof.KGflat
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Cert.Cost Idealize.ShloMosaic.ValueIdx

variable (m : (ℓ : Loc nD τ sig) → Buf (Elt Ideal) ℓ) (ρ : Dev nD → PrngReg)

/-- The zero offsets of a whole block, as the constant function. -/
theorem off_zero : (![0, 0] : Fin 2 → Nat) = fun _ => 0 := funext fun a => by fin_cases a <;> rfl

/-! ## The stored block at an entry, over the four staged blocks -/

/-- A load of one row of the target table reads, at lane `q`, the table's entry of that row. -/
theorem ld_row_apply (X : Vec Ideal S8x1600 .f32) (off : Fin 2 → Nat) (inb : ∀ a, off a + S1x1600.size a ≤ S8x1600.size a)
    (k : Fin 8) (h0 : off 0 = k.val) (h1 : off 1 = 0) (q : Fin 1600) :
    View.ld X (Rect.unit (s := S8x1600) off S1x1600.size inb) (ix2 (0 : Fin 1) q) = X (ix2 k q) := by
  show X _ = X _
  refine congrArg X (funext fun a => Fin.ext ?_)
  match a with
  | ⟨0, _⟩ => show off 0 + 1 * 0 = k.val; omega
  | ⟨1, _⟩ => show off 1 + 1 * q.val = q.val; omega

/-- THE STORED BLOCK AT (p, q), over the four windows' blocks. -/
theorem out_at (x0 : Vec Ideal S320x91 .f32) (x1 : Vec Ideal S320x4 .f32) (x2 : Vec Ideal S8x1600 .f32)
    (x3 : Vec Ideal S91x1600 .bf16) (p : Fin 320) (q : Fin 1600) :
    out0_4 (F := Ideal) x0 x1 x2 x3 (ix2 p q)
      = clampC (total ((0 : EReal) + ∑ k : Fin 91, focal (x0 (ix2 p k)) * x3 (ix2 k q))
          (l1 (x1 (ix2 p (0 : Fin 4))) (x1 (ix2 p (1 : Fin 4))) (x1 (ix2 p (2 : Fin 4))) (x1 (ix2 p (3 : Fin 4)))
              (x2 (ix2 (0 : Fin 8) q)) (x2 (ix2 (1 : Fin 8) q)) (x2 (ix2 (2 : Fin 8) q)) (x2 (ix2 (3 : Fin 8) q)))
          (giouC (x1 (ix2 p (0 : Fin 4)) - wHalf * x1 (ix2 p (2 : Fin 4))) (x1 (ix2 p (1 : Fin 4)) - wHalf * x1 (ix2 p (3 : Fin 4)))
                 (x1 (ix2 p (0 : Fin 4)) + wHalf * x1 (ix2 p (2 : Fin 4))) (x1 (ix2 p (1 : Fin 4)) + wHalf * x1 (ix2 p (3 : Fin 4)))
                 (x2 (ix2 (4 : Fin 8) q)) (x2 (ix2 (5 : Fin 8) q)) (x2 (ix2 (6 : Fin 8) q)) (x2 (ix2 (7 : Fin 8) q)))) := by
  unfold out0_4
  rw [View.canon_unit_zero off_zero]
  rw [View.ld_unit_zero (S := S320x91) off_zero, View.ld_unit_zero (S := S320x4) off_zero,
    View.ld_unit_zero (S := S91x1600) off_zero]
  rw [bodyVal_at]
  rw [ld_row_apply x2 _ _ 0 rfl rfl q, ld_row_apply x2 _ _ 1 rfl rfl q, ld_row_apply x2 _ _ 2 rfl rfl q,
    ld_row_apply x2 _ _ 3 rfl rfl q, ld_row_apply x2 _ _ 4 rfl rfl q, ld_row_apply x2 _ _ 5 rfl rfl q,
    ld_row_apply x2 _ _ 6 rfl rfl q, ld_row_apply x2 _ _ 7 rfl rfl q]

/-! ## The windows' blocks as rows of the staged arrays -/

/-- The windows' index maps, decided once over the 45 tiles: the logits, boxes and result windows sit at row tile `t`,
    column tile 0; the two table windows at their one block. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The logits window's block at tile `t`: row `p` of it is flattened row `320 t + p`. -/
theorem logits_blk (c : Dev nD) (t : Fin cfg0.N) (p : Fin 320) (k : Fin 91) (r : Fin 14400) (hr : r.val = 320 * t.val + p.val) :
    (iblk m c 0 t : Vec Ideal S320x91 .f32) (ix2 p k) = (V m c main_v0 : S14400x91.Idx → EReal) (ix2 r k) := by
  obtain ⟨e0, e1, -⟩ := tile_index t
  unfold iblk
  rw [View.read_apply]
  show (V m c main_v0 : S14400x91.Idx → EReal) _ = (V m c main_v0 : S14400x91.Idx → EReal) _
  refine congrArg (V m c main_v0 : S14400x91.Idx → EReal) (funext fun a => Fin.ext ?_)
  match a with
  | ⟨0, _⟩ => show win0_0.index t (0 : Fin 2) * 320 + 1 * p.val = r.val; rw [e0, hr]; omega
  | ⟨1, _⟩ => show win0_0.index t (1 : Fin 2) * 91 + 1 * k.val = k.val; rw [e1]; omega

/-- The boxes window's block at tile `t`: row `p` of it is flattened row `320 t + p`. -/
theorem boxes_blk (c : Dev nD) (t : Fin cfg0.N) (p : Fin 320) (k : Fin 4) (r : Fin 14400) (hr : r.val = 320 * t.val + p.val) :
    (iblk m c 1 t : Vec Ideal S320x4 .f32) (ix2 p k) = (V m c main_v1 : S14400x4.Idx → EReal) (ix2 r k) := by
  obtain ⟨-, -, e0, e1, -⟩ := tile_index t
  unfold iblk
  rw [View.read_apply]
  show (V m c main_v1 : S14400x4.Idx → EReal) _ = (V m c main_v1 : S14400x4.Idx → EReal) _
  refine congrArg (V m c main_v1 : S14400x4.Idx → EReal) (funext fun a => Fin.ext ?_)
  match a with
  | ⟨0, _⟩ => show win0_1.index t (0 : Fin 2) * 320 + 1 * p.val = r.val; rw [e0, hr]; omega
  | ⟨1, _⟩ => show win0_1.index t (1 : Fin 2) * 4 + 1 * k.val = k.val; rw [e1]; omega

/-- The target table's window holds the whole table at every tile. -/
theorem table_blk (c : Dev nD) (t : Fin cfg0.N) (k : Fin 8) (q : Fin 1600) :
    (iblk m c 2 t : Vec Ideal S8x1600 .f32) (ix2 k q) = (V m c main_v33 : S8x1600.Idx → EReal) (ix2 k q) := by
  obtain ⟨-, -, -, -, e0, e1, -⟩ := tile_index t
  unfold iblk
  rw [View.read_apply]
  show (V m c main_v33 : S8x1600.Idx → EReal) _ = (V m c main_v33 : S8x1600.Idx → EReal) _
  refine congrArg (V m c main_v33 : S8x1600.Idx → EReal) (funext fun a => Fin.ext ?_)
  match a with
  | ⟨0, _⟩ => show win0_2.index t (0 : Fin 2) * 8 + 1 * k.val = k.val; rw [e0]; omega
  | ⟨1, _⟩ => show win0_2.index t (1 : Fin 2) * 1600 + 1 * q.val = q.val; rw [e1]; omega

/-- The one-hot table's window holds the whole table at every tile. -/
theorem onehot_blk (c : Dev nD) (t : Fin cfg0.N) (k : Fin 91) (q : Fin 1600) :
    (iblk m c 3 t : Vec Ideal S91x1600 .bf16) (ix2 k q) = (V m c main_v4 : S91x1600.Idx → EReal) (ix2 k q) := by
  obtain ⟨-, -, -, -, -, -, e0, e1, -⟩ := tile_index t
  unfold iblk
  rw [View.read_apply]
  show (V m c main_v4 : S91x1600.Idx → EReal) _ = (V m c main_v4 : S91x1600.Idx → EReal) _
  refine congrArg (V m c main_v4 : S91x1600.Idx → EReal) (funext fun a => Fin.ext ?_)
  match a with
  | ⟨0, _⟩ => show win0_3.index t (0 : Fin 2) * 91 + 1 * k.val = k.val; rw [e0]; omega
  | ⟨1, _⟩ => show win0_3.index t (1 : Fin 2) * 1600 + 1 * q.val = q.val; rw [e1]; omega

/-! ## What a tile writes back, and the array after the run -/

/-- The array function at an entry given by its two coordinates. -/
theorem Gflat_at (L : S14400x91.Idx → EReal) (B : S14400x4.Idx → EReal) (T : S8x1600.Idx → EReal) (H : S91x1600.Idx → EReal)
    (r : Fin 14400) (q : Fin 1600) :
    Gflat L B T H (ix2 r q)
      = clampC (total ((0 : EReal) + ∑ k : Fin 91, focal (L (ix2 r k)) * H (ix2 k q))
          (l1 (B (ix2 r (0 : Fin 4))) (B (ix2 r (1 : Fin 4))) (B (ix2 r (2 : Fin 4))) (B (ix2 r (3 : Fin 4)))
              (T (ix2 (0 : Fin 8) q)) (T (ix2 (1 : Fin 8) q)) (T (ix2 (2 : Fin 8) q)) (T (ix2 (3 : Fin 8) q)))
          (giouC (B (ix2 r (0 : Fin 4)) - wHalf * B (ix2 r (2 : Fin 4))) (B (ix2 r (1 : Fin 4)) - wHalf * B (ix2 r (3 : Fin 4)))
                 (B (ix2 r (0 : Fin 4)) + wHalf * B (ix2 r (2 : Fin 4))) (B (ix2 r (1 : Fin 4)) + wHalf * B (ix2 r (3 : Fin 4)))
                 (T (ix2 (4 : Fin 8) q)) (T (ix2 (5 : Fin 8) q)) (T (ix2 (6 : Fin 8) q)) (T (ix2 (7 : Fin 8) q)))) := rfl

/-- Entry `(p, q)` of the block tile `t` stores is entry `(320 t + p, q)` of the array function: the class sum reads
    row `320 t + p` of the logits and column `q` of the one-hot table, the box terms row `320 t + p` of the boxes and
    column `q` of the target table. -/
theorem stored_at (c : Dev nD) (t : Fin cfg0.N) (p : Fin 320) (q : Fin 1600) (r : Fin 14400) (hr : r.val = 320 * t.val + p.val) :
    out0_4 (F := Ideal) (iblk m c 0 t) (iblk m c 1 t) (iblk m c 2 t) (iblk m c 3 t) (ix2 p q)
      = Gflat (V m c main_v0) (V m c main_v1) (V m c main_v33) (V m c main_v4) (ix2 r q) := by
  refine (out_at (iblk m c 0 t) (iblk m c 1 t) (iblk m c 2 t) (iblk m c 3 t) p q).trans ?_
  refine Eq.trans ?_ (Gflat_at (V m c main_v0) (V m c main_v1) (V m c main_v33) (V m c main_v4) r q).symm
  simp only [logits_blk m c t p _ r hr, boxes_blk m c t p _ r hr, table_blk m c t, onehot_blk m c t]

/-- WHAT TILE `t` WRITES BACK is block `t` of the array function of the region-entry arrays. -/
theorem flushed4_eq (c : Dev nD) (t : Fin cfg0.N) :
    (dats (F := Ideal) m 0 c).flushed 4 t = ((cfg0.win 4).blk t).view.read (Elt Ideal)
      (Gflat (V m c main_v0) (V m c main_v1) (V m c main_v33) (V m c main_v4)) := by
  show (cfg0.win 4).cut (grid0.coords t) ((dats m 0 c).after 4 t) = _
  rw [after0_4]
  obtain ⟨-, -, -, -, -, -, -, -, e0, e1⟩ := tile_index t
  funext j
  obtain ⟨p, q, rfl⟩ : ∃ (p : Fin 320) (q : Fin 1600), j = ix2 p q := ⟨j 0, j 1, eq_ix2 j⟩
  have hlt : 320 * t.val + p.val < 14400 := by
    have ht : t.val < 45 := Nat.lt_of_lt_of_eq t.isLt N_0
    have := p.isLt; omega
  refine (stored_at m c t p q ⟨320 * t.val + p.val, hlt⟩ rfl).trans ?_
  rw [View.read_apply]
  show Gflat _ _ _ _ _ = Gflat _ _ _ _ _
  refine congrArg (Gflat (V m c main_v0) (V m c main_v1) (V m c main_v33) (V m c main_v4)) (funext fun a => Fin.ext ?_)
  match a with
  | ⟨0, _⟩ => show 320 * t.val + p.val = win0_4.index t (0 : Fin 2) * 320 + 1 * p.val; rw [e0]; omega
  | ⟨1, _⟩ => show q.val = win0_4.index t (1 : Fin 2) * 1600 + 1 * q.val; rw [e1]; omega

/-- An entry of the array is in tile `t`'s block iff each coordinate is in the block's range on its axis. -/
theorem mem_tile (t : Fin cfg0.N) (i : S14400x1600.Idx) :
    i ∈ ((cfg0.win 4).blk t).view.set ↔ ∀ a : Fin 2, win0_4.index t a * S320x1600.size a ≤ (i a).val
      ∧ (i a).val < win0_4.index t a * S320x1600.size a + S320x1600.size a := by
  show i ∈ ((View.whole main_v34).slice (win0_4.rect t)).set ↔ _
  rw [View.set_slice_whole, Rect.mem_set_unit]
  exact Iff.rfl

/-- The 45 blocks cover the array: row `r` lies in the block of tile `r / 320`. -/
theorem tiles_cover (i : S14400x1600.Idx) :
    ∃ t : Fin cfg0.N, (cfg0.win 4).flush t = true ∧ i ∈ ((cfg0.win 4).blk t).view.set := by
  have h0 : (i 0).val < 14400 := idx2_lt0 i
  have h1 : (i 1).val < 1600 := idx2_lt1 i
  have hN : (i 0).val / 320 < cfg0.N := Nat.lt_of_lt_of_eq (by omega : (i 0).val / 320 < 45) N_0.symm
  refine ⟨⟨(i 0).val / 320, hN⟩, flush0_4 _, ?_⟩
  obtain ⟨-, -, -, -, -, -, -, -, e0, e1⟩ := tile_index ⟨(i 0).val / 320, hN⟩
  rw [mem_tile]
  intro a
  match a with
  | ⟨0, _⟩ =>
    show win0_4.index ⟨(i 0).val / 320, hN⟩ (0 : Fin 2) * 320 ≤ (i 0).val
      ∧ (i 0).val < win0_4.index ⟨(i 0).val / 320, hN⟩ (0 : Fin 2) * 320 + 320
    rw [e0]
    show (i 0).val / 320 * 320 ≤ (i 0).val ∧ (i 0).val < (i 0).val / 320 * 320 + 320
    omega
  | ⟨1, _⟩ =>
    show win0_4.index ⟨(i 0).val / 320, hN⟩ (1 : Fin 2) * 1600 ≤ (i 1).val
      ∧ (i 1).val < win0_4.index ⟨(i 0).val / 320, hN⟩ (1 : Fin 2) * 1600 + 1600
    rw [e1]
    omega

/-- THE RESULT ARRAY after the run is the array function of the region-entry arrays. -/
theorem final4 (c : Dev nD) :
    (dats (F := Ideal) m 0 c).arrAt 4 cfg0.N = Gflat (V m c main_v0) (V m c main_v1) (V m c main_v33) (V m c main_v4) :=
  (dats m 0 c).arrAt_eq_of_cover 4 (Gflat (V m c main_v0) (V m c main_v1) (V m c main_v33) (V m c main_v4))
    (fun t _ => flushed4_eq m c t) tiles_cover

/-! ## The run -/

/-- The reshape after the region reads the result array as [16, 900, 1600]. -/
theorem tail_v35 (c : Dev nD) :
    Pipeline.afterTail₀ cfgs (dats (F := Ideal) m) 0 (V0 m) [hostOps1] c main_v35
      = shapeCast S16x900x1600 (Gflat (V m c main_v0) (V m c main_v1) (V m c main_v33) (V m c main_v4))
          shapeCasts_S14400x1600_S16x900x1600 := by
  have e : Pipeline.withArrays (cfgs 0).spec c (V0 m c) (fun w => (dats (F := Ideal) m 0 c).arrAt w (cfgs 0).N)
        (Proc.devRef .tc main_v34)
      = Gflat (V m c main_v0) (V m c main_v1) (V m c main_v33) (V m c main_v4) :=
    (Pipeline.withArrays_arr spec0 launch0.win.arr_inj c _ _ 4).trans (final4 m c)
  unfold Pipeline.afterTail₀
  show StableHlo.after hostOps1 _ (Proc.devRef .tc main_v35) = _
  after_results
  rw [e]
  rfl

/-- THE RUN with the result named: every weakly fair execution terminates; the reshaped result is the array function
    of the region-entry arrays read as [16, 900, 1600]; the four arguments end as launched. -/
theorem kernel_flat_run :
    θ_run defs (onTc (τ := τ) (main (F := Ideal))) ⟨m, fun _ => 0, ρ⟩ (fun r => ∀ c : Dev nD,
      r.2.mem ((c.tc : Thread nD τ).loc main_v35)
        = shapeCast S16x900x1600 (Gflat (V m c main_v0) (V m c main_v1) (V m c main_v33) (V m c main_v4))
            shapeCasts_S14400x1600_S16x900x1600
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v35 (Pipeline.mem_restRefs_of main_v35 (by decide) (by decide))).trans (tail_v35 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Hand

end
-- ==== Proof.KPrefixAt.lean ====
/-
  The four arrays the cost kernel's region reads, at an index, as entries of the argument arrays.

  Before the region the program reshapes the logits [16,900,91] and the boxes [16,900,4] to 14400 rows, builds the
  one-hot table of the labels — label q against class k, compared, the bit made a number, the matrix transposed to
  [91,1600] and narrowed —, and builds the target table [8,1600]: the four columns of the targets in centre form, then
  the two corners c − ½ · size and c + ½ · size, each column laid as a row and the eight rows stacked.
  Each array is first stated whole as the composed term of those operations over the argument array, then read at an
  index: a reshape keeps the row-major position (n = (n / 900) · 900 + n % 900), a slice shifts a coordinate by its
  offset, a broadcast repeats along the new axis, a transpose swaps the two coordinates, a stack of rows of extent one
  reads row r in its r-th piece, and the arithmetic is entrywise on the extended reals. For the one-hot table the
  comparison bit as a number is 1 or 0, and a label below 91 equals the word of class k exactly when its class is k.
-/
import proofs.«430708_j55284819034883_2_alg».proof.Proof.KPrefix
import proofs.«430708_j55284819034883_2_alg».proof.Proof.CostSpec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Idealize.ShloMosaic Idealize.ShloMosaic.TcCoe Idealize.ShloMosaic.ValueIdx Idealize.SL.Sem Cert.KernelIdeal Cert.KernelIdeal.Gen Cert.Cost

variable (m : (ℓ : Loc nD τ sig) → Buf (Elt Ideal) ℓ)

/-! ## The two flattened arrays -/

/-- the flattened logits are the logits, reshaped -/
theorem V_v0_eq (c : Dev nD) :
    (V m c main_v0 : S14400x91.Idx → EReal)
      = shapeCast S14400x91 (m ((c.tc : Thread nD τ).loc main_arg0) : S16x900x91.Idx → EReal) shapeCasts_S16x900x91_S14400x91 := by
  dsimp only [V, V0]
  simp only [hostOps0, hostOps0_1, hostOps0_2, List.flatten_cons, List.flatten_nil, List.append_nil, List.cons_append, List.nil_append]
  after_results
  rfl

/-- the flattened boxes are the boxes, reshaped -/
theorem V_v1_eq (c : Dev nD) :
    (V m c main_v1 : S14400x4.Idx → EReal)
      = shapeCast S14400x4 (m ((c.tc : Thread nD τ).loc main_arg1) : S16x900x4.Idx → EReal) shapeCasts_S16x900x4_S14400x4 := by
  dsimp only [V, V0]
  simp only [hostOps0, hostOps0_1, hostOps0_2, List.flatten_cons, List.flatten_nil, List.append_nil, List.cons_append, List.nil_append]
  after_results
  rfl

/-- a [16,900,d] array flattened to [14400,d]: row n is row (n / 900, n % 900), since n = (n / 900) · 900 + n % 900
    names the same row-major position -/
theorem flat_rows_at {d : Nat} (x : (⟨3, ![16, 900, d]⟩ : Shape).Idx → EReal)
    (h : (⟨3, ![16, 900, d]⟩ : Shape).ShapeCasts ⟨2, ![14400, d]⟩) (n : Fin 14400) (k : Fin d) :
    shapeCast ⟨2, ![14400, d]⟩ x h (ix2 n k)
      = x (ix3 (⟨n.val / 900, by omega⟩ : Fin 16) (⟨n.val % 900, Nat.mod_lt _ (by decide)⟩ : Fin 900) k) :=
  shapeCast_apply x h _ _ (by
    rw [Shape.rowMajor_val_three, Shape.rowMajor_val_two]
    show (n.val / 900 * 900 + n.val % 900) * d + k.val = n.val * d + k.val
    rw [Nat.div_add_mod' n.val 900])

/-- row n of the flattened logits is row (n / 900, n % 900) of the logits -/
theorem V_v0_at (c : Dev nD) (n : Fin 14400) (k : Fin 91) :
    (V m c main_v0 : S14400x91.Idx → EReal) (ix2 n k)
      = (m ((c.tc : Thread nD τ).loc main_arg0) : S16x900x91.Idx → EReal) (ix3 (⟨n.val / 900, by omega⟩ : Fin 16) (⟨n.val % 900, Nat.mod_lt _ (by decide)⟩ : Fin 900) k) := by
  rw [V_v0_eq]
  exact flat_rows_at _ _ n k

/-- row n of the flattened boxes is row (n / 900, n % 900) of the boxes -/
theorem V_v1_at (c : Dev nD) (n : Fin 14400) (a : Fin 4) :
    (V m c main_v1 : S14400x4.Idx → EReal) (ix2 n a)
      = (m ((c.tc : Thread nD τ).loc main_arg1) : S16x900x4.Idx → EReal) (ix3 (⟨n.val / 900, by omega⟩ : Fin 16) (⟨n.val % 900, Nat.mod_lt _ (by decide)⟩ : Fin 900) a) := by
  rw [V_v1_eq]
  exact flat_rows_at _ _ n a

/-! ## The target table -/

/-- column o of the targets as a vector: the slice [0:1600, o:o+1] with its unit axis dropped -/
abbrev tcol (tb : FVec Ideal S1600x4 .f32) (o : Nat) (h : S1600x4.Slices ![0, o] S1600x1) : FVec Ideal S1600 .f32 :=
  shapeCast S1600 (extractStridedSlice S1600x1 ![0, o] tb h) shapeCasts_S1600x1_S1600
/-- the word of one half at every target -/
abbrev halfs : FVec Ideal S1600 .f32 :=
  broadcastInDim S1600 ![] bcast_S_S1600 (constant (F := Ideal) S_ .f32 0x3F000000#32)
/-- a vector over the targets as one row -/
abbrev trow (u : FVec Ideal S1600 .f32) : FVec Ideal S1x1600 .f32 := broadcastInDim S1x1600 ![1] bcast_S1600_S1x1600_1 u

/-- the target table as the operations' composed term: the four columns, then centre ∓ half · size, each as a row,
    stacked -/
abbrev ttable (tb : FVec Ideal S1600x4 .f32) : FVec Ideal S8x1600 .f32 :=
  concatenate S8x1600 0
    [⟨S1x1600, trow (tcol tb 0 slices_S1600x4_S1600x1_0_0)⟩,
     ⟨S1x1600, trow (tcol tb 1 slices_S1600x4_S1600x1_0_1)⟩,
     ⟨S1x1600, trow (tcol tb 2 slices_S1600x4_S1600x1_0_2)⟩,
     ⟨S1x1600, trow (tcol tb 3 slices_S1600x4_S1600x1_0_3)⟩,
     ⟨S1x1600, trow (subf (tcol tb 0 slices_S1600x4_S1600x1_0_0) (mulf halfs (tcol tb 2 slices_S1600x4_S1600x1_0_2)))⟩,
     ⟨S1x1600, trow (subf (tcol tb 1 slices_S1600x4_S1600x1_0_1) (mulf halfs (tcol tb 3 slices_S1600x4_S1600x1_0_3)))⟩,
     ⟨S1x1600, trow (addf (tcol tb 0 slices_S1600x4_S1600x1_0_0) (mulf halfs (tcol tb 2 slices_S1600x4_S1600x1_0_2)))⟩,
     ⟨S1x1600, trow (addf (tcol tb 1 slices_S1600x4_S1600x1_0_1) (mulf halfs (tcol tb 3 slices_S1600x4_S1600x1_0_3)))⟩]
    concatenates_S1x1600_S1x1600_S1x1600_S1x1600_S1x1600_S1x1600_S1x1600_S1x1600_S8x1600_d0

/-- the target table is that term of the targets -/
theorem V_v33_eq (c : Dev nD) :
    (V m c main_v33 : S8x1600.Idx → EReal) = ttable (m ((c.tc : Thread nD τ).loc main_arg3)) := by
  dsimp only [V, V0]
  simp only [hostOps0, hostOps0_1, hostOps0_2, List.flatten_cons, List.flatten_nil, List.append_nil, List.cons_append, List.nil_append]
  after_results
  rfl

/-- column a at target q is the targets' entry (q, a): the slice shifts the column by its offset, the dropped unit
    axis keeps the row-major position -/
theorem tcol_at (tb : FVec Ideal S1600x4 .f32) (o : Nat) (h : S1600x4.Slices ![0, o] S1600x1) (a : Fin 4) (ha : a.val = o)
    (q : Fin 1600) : tcol tb o h (ix1 q) = tb (ix2 q a) := by
  refine (shapeCast_apply _ shapeCasts_S1600x1_S1600 (ix1 q) (ix2 q (0 : Fin 1)) ?_).trans ?_
  · rw [Shape.rowMajor_val_two, Shape.rowMajor_val_one]
    show q.val * 1 + 0 = q.val
    omega
  · exact slice2_axis1_apply o tb h q (0 : Fin 1) a (by show a.val = o + 0; omega)

/-- the broadcast constant reads the half word at every target -/
theorem halfs_at (q : Fin 1600) : halfs (ix1 q) = wHalf := rfl

/-- a row read at (0, q) is the vector at q -/
theorem trow_at (u : FVec Ideal S1600 .f32) (z : Fin 1) (q : Fin 1600) : trow u (ix2 z q) = u (ix1 q) :=
  broadcastInDim_apply _ _ u _ _ (fun a => match a with | ⟨0, _⟩ => rfl)

/-- eight rows stacked: row r of the stack at column q is the r-th row at (0, q) — r rows of extent one come before it -/
theorem stack8_at (u0 u1 u2 u3 u4 u5 u6 u7 : FVec Ideal S1x1600 .f32)
    (h : Shape.Concatenates (([⟨S1x1600, u0⟩, ⟨S1x1600, u1⟩, ⟨S1x1600, u2⟩, ⟨S1x1600, u3⟩, ⟨S1x1600, u4⟩, ⟨S1x1600, u5⟩,
        ⟨S1x1600, u6⟩, ⟨S1x1600, u7⟩] : List ((s : Shape) × (s.Idx → EReal))).map (·.1)) S8x1600 0)
    (q : Fin 1600) :
    let T : S8x1600.Idx → EReal := concatenate S8x1600 0 [⟨S1x1600, u0⟩, ⟨S1x1600, u1⟩, ⟨S1x1600, u2⟩, ⟨S1x1600, u3⟩,
      ⟨S1x1600, u4⟩, ⟨S1x1600, u5⟩, ⟨S1x1600, u6⟩, ⟨S1x1600, u7⟩] h
    T (ix2 (0 : Fin 8) q) = u0 (ix2 (0 : Fin 1) q) ∧ T (ix2 (1 : Fin 8) q) = u1 (ix2 (0 : Fin 1) q)
    ∧ T (ix2 (2 : Fin 8) q) = u2 (ix2 (0 : Fin 1) q) ∧ T (ix2 (3 : Fin 8) q) = u3 (ix2 (0 : Fin 1) q)
    ∧ T (ix2 (4 : Fin 8) q) = u4 (ix2 (0 : Fin 1) q) ∧ T (ix2 (5 : Fin 8) q) = u5 (ix2 (0 : Fin 1) q)
    ∧ T (ix2 (6 : Fin 8) q) = u6 (ix2 (0 : Fin 1) q) ∧ T (ix2 (7 : Fin 8) q) = u7 (ix2 (0 : Fin 1) q) := by
  intro T
  have off : ∀ (r : Fin 8) (b : Fin S1x1600.rank), b.cast (rfl : S1x1600.rank = S8x1600.rank) ≠ (0 : Fin S8x1600.rank) →
      ((ix2 (0 : Fin 1) q : S1x1600.Idx) b).val = ((ix2 r q : S8x1600.Idx) (b.cast rfl)).val := fun r b hb =>
    match b, hb with
    | ⟨0, _⟩, hb => absurd rfl hb
    | ⟨1, _⟩, _ => rfl
  refine ⟨?_, ?_, ?_, ?_, ?_, ?_, ?_, ?_⟩
  · exact concatenate_apply_piece (0 : Fin S8x1600.rank) _ h _ 0 (by show 0 < 8; omega) S1x1600 u0 rfl rfl 0 rfl _ (off 0) rfl
  · exact concatenate_apply_piece (0 : Fin S8x1600.rank) _ h _ 1 (by show 1 < 8; omega) S1x1600 u1 rfl rfl 1 rfl _ (off 1) rfl
  · exact concatenate_apply_piece (0 : Fin S8x1600.rank) _ h _ 2 (by show 2 < 8; omega) S1x1600 u2 rfl rfl 2 rfl _ (off 2) rfl
  · exact concatenate_apply_piece (0 : Fin S8x1600.rank) _ h _ 3 (by show 3 < 8; omega) S1x1600 u3 rfl rfl 3 rfl _ (off 3) rfl
  · exact concatenate_apply_piece (0 : Fin S8x1600.rank) _ h _ 4 (by show 4 < 8; omega) S1x1600 u4 rfl rfl 4 rfl _ (off 4) rfl
  · exact concatenate_apply_piece (0 : Fin S8x1600.rank) _ h _ 5 (by show 5 < 8; omega) S1x1600 u5 rfl rfl 5 rfl _ (off 5) rfl
  · exact concatenate_apply_piece (0 : Fin S8x1600.rank) _ h _ 6 (by show 6 < 8; omega) S1x1600 u6 rfl rfl 6 rfl _ (off 6) rfl
  · exact concatenate_apply_piece (0 : Fin S8x1600.rank) _ h _ 7 (by show 7 < 8; omega) S1x1600 u7 rfl rfl 7 rfl _ (off 7) rfl

/-- the target table: rows 0–3 the target's centre x, centre y, width, height; rows 4–7 its corners c ∓ ½ size -/
theorem V_v33_at (c : Dev nD) (q : Fin 1600) :
    let tb : S1600x4.Idx → EReal := m ((c.tc : Thread nD τ).loc main_arg3)
    let T : S8x1600.Idx → EReal := V m c main_v33
    T (ix2 (0 : Fin 8) q) = tb (ix2 q (0 : Fin 4)) ∧ T (ix2 (1 : Fin 8) q) = tb (ix2 q (1 : Fin 4))
    ∧ T (ix2 (2 : Fin 8) q) = tb (ix2 q (2 : Fin 4)) ∧ T (ix2 (3 : Fin 8) q) = tb (ix2 q (3 : Fin 4))
    ∧ T (ix2 (4 : Fin 8) q) = tb (ix2 q (0 : Fin 4)) - wHalf * tb (ix2 q (2 : Fin 4))
    ∧ T (ix2 (5 : Fin 8) q) = tb (ix2 q (1 : Fin 4)) - wHalf * tb (ix2 q (3 : Fin 4))
    ∧ T (ix2 (6 : Fin 8) q) = tb (ix2 q (0 : Fin 4)) + wHalf * tb (ix2 q (2 : Fin 4))
    ∧ T (ix2 (7 : Fin 8) q) = tb (ix2 q (1 : Fin 4)) + wHalf * tb (ix2 q (3 : Fin 4)) := by
  intro tb T
  have e : T = ttable tb := V_v33_eq m c
  have c0 := tcol_at tb 0 slices_S1600x4_S1600x1_0_0 0 rfl q
  have c1 := tcol_at tb 1 slices_S1600x4_S1600x1_0_1 1 rfl q
  have c2 := tcol_at tb 2 slices_S1600x4_S1600x1_0_2 2 rfl q
  have c3 := tcol_at tb 3 slices_S1600x4_S1600x1_0_3 3 rfl q
  obtain ⟨h0, h1, h2, h3, h4, h5, h6, h7⟩ := stack8_at _ _ _ _ _ _ _ _
    concatenates_S1x1600_S1x1600_S1x1600_S1x1600_S1x1600_S1x1600_S1x1600_S1x1600_S8x1600_d0 q
  rw [e]
  refine ⟨?_, ?_, ?_, ?_, ?_, ?_, ?_, ?_⟩
  · exact (h0.trans (trow_at _ 0 q)).trans c0
  · exact (h1.trans (trow_at _ 0 q)).trans c1
  · exact (h2.trans (trow_at _ 0 q)).trans c2
  · exact (h3.trans (trow_at _ 0 q)).trans c3
  · refine (h4.trans (trow_at _ 0 q)).trans ?_
    show tcol tb 0 slices_S1600x4_S1600x1_0_0 (ix1 q) - halfs (ix1 q) * tcol tb 2 slices_S1600x4_S1600x1_0_2 (ix1 q) = _
    rw [c0, c2, halfs_at]
  · refine (h5.trans (trow_at _ 0 q)).trans ?_
    show tcol tb 1 slices_S1600x4_S1600x1_0_1 (ix1 q) - halfs (ix1 q) * tcol tb 3 slices_S1600x4_S1600x1_0_3 (ix1 q) = _
    rw [c1, c3, halfs_at]
  · refine (h6.trans (trow_at _ 0 q)).trans ?_
    show tcol tb 0 slices_S1600x4_S1600x1_0_0 (ix1 q) + halfs (ix1 q) * tcol tb 2 slices_S1600x4_S1600x1_0_2 (ix1 q) = _
    rw [c0, c2, halfs_at]
  · refine (h7.trans (trow_at _ 0 q)).trans ?_
    show tcol tb 1 slices_S1600x4_S1600x1_0_1 (ix1 q) + halfs (ix1 q) * tcol tb 3 slices_S1600x4_S1600x1_0_3 (ix1 q) = _
    rw [c1, c3, halfs_at]

/-! ## The one-hot table -/

/-- the one-hot table as the operations' composed term: the labels down the columns against the class numbers along
    the rows, compared, the bit made a number, the matrix transposed, the format narrowed -/
abbrev ohot (ids : IVec S1600 32) : FVec Ideal S91x1600 .bf16 :=
  truncf .bf16
    (transpose S91x1600 [1, 0]
      (uitofp (F := Ideal) .f32
        (cmpi .eq
          (broadcastInDim S1600x91 ![0, 1] bcast_S1600x1_S1600x91_0_1 (broadcastInDim S1600x1 ![0] bcast_S1600_S1600x1_0 ids))
          (broadcastInDim S1600x91 ![0, 1] bcast_S1x91_S1600x91_0_1 (iotaInDim S1x91 32 1))))
      transposes_S1600x91_S91x1600_1_0)
    bitsLt_bf16_f32

/-- the one-hot table is that term of the labels -/
theorem V_v4_eq (c : Dev nD) :
    (V m c main_v4 : S91x1600.Idx → EReal) = ohot (m ((c.tc : Thread nD τ).loc main_arg2)) := by
  dsimp only [V, V0]
  simp only [hostOps0, hostOps0_1, hostOps0_2, List.flatten_cons, List.flatten_nil, List.append_nil, List.cons_append, List.nil_append]
  after_results
  rfl

/-- a comparison for equality, read as a number, is one on equal words and zero otherwise -/
theorem cmpi_eq_toNat (x y : BitVec 32) : (IntOp.cmpi .eq x y).toNat = if x = y then 1 else 0 := by
  by_cases h : x = y
  · rw [if_pos h]
    show (BitVec.ofBool (x == y)).toNat = 1
    rw [beq_iff_eq.2 h]
    rfl
  · rw [if_neg h]
    show (BitVec.ofBool (x == y)).toNat = 0
    rw [beq_eq_false_iff_ne.2 h]
    rfl

/-- a label in range is the word of class k exactly when it names class k: both words are below 91, where a word is
    its number and the class of a label is the label -/
theorem label_eq_iff (w : BitVec 32) (hw : w.toNat < 91) (k : Fin 91) : w = BitVec.ofNat 32 k.val ↔ clsOf w = k := by
  have hk : (BitVec.ofNat 32 k.val).toNat = k.val := by
    rw [BitVec.toNat_ofNat]
    exact Nat.mod_eq_of_lt (by have := k.isLt; omega)
  constructor
  · intro h
    apply Fin.ext
    show w.toNat % 91 = k.val
    rw [h, hk]
    exact Nat.mod_eq_of_lt k.isLt
  · intro h
    apply BitVec.eq_of_toNat_eq
    rw [hk]
    have h' : w.toNat % 91 = k.val := congrArg Fin.val h
    rw [Nat.mod_eq_of_lt hw] at h'
    exact h'

/-- the term at (k, q): the comparison of label q with the word of k, as a number -/
theorem ohot_at (ids : IVec S1600 32) (k : Fin 91) (q : Fin 1600) :
    ohot ids (ix2 k q) = (((IntOp.cmpi .eq (ids (ix1 q)) (BitVec.ofNat 32 k.val)).toNat : ℝ) : EReal) := by
  refine (truncf_apply _ bitsLt_bf16_f32 (ix2 k q)).trans ?_
  refine (transpose_ix2_apply _ transposes_S1600x91_S91x1600_1_0 k q).trans ?_
  show FloatOps.uitofp (F := Ideal) .f32 (IntOp.cmpi .eq
      (broadcastInDim S1600x91 ![0, 1] bcast_S1600x1_S1600x91_0_1 (broadcastInDim S1600x1 ![0] bcast_S1600_S1600x1_0 ids) (ix2 q k))
      (broadcastInDim S1600x91 ![0, 1] bcast_S1x91_S1600x91_0_1 (iotaInDim S1x91 32 1) (ix2 q k))) = _
  rw [uitofp_eq]
  have ea : broadcastInDim S1600x91 ![0, 1] bcast_S1600x1_S1600x91_0_1 (broadcastInDim S1600x1 ![0] bcast_S1600_S1600x1_0 ids) (ix2 q k)
      = ids (ix1 q) :=
    (broadcastInDim_apply _ bcast_S1600x1_S1600x91_0_1 _ (ix2 q k) (ix2 q (0 : Fin 1))
        (fun a => match a with | ⟨0, _⟩ => rfl | ⟨1, _⟩ => rfl)).trans
      (broadcastInDim_apply _ bcast_S1600_S1600x1_0 ids (ix2 q (0 : Fin 1)) (ix1 q) (fun a => match a with | ⟨0, _⟩ => rfl))
  have eb : broadcastInDim S1600x91 ![0, 1] bcast_S1x91_S1600x91_0_1 (iotaInDim S1x91 32 1) (ix2 q k) = BitVec.ofNat 32 k.val :=
    broadcastInDim_apply _ bcast_S1x91_S1600x91_0_1 (iotaInDim S1x91 32 1) (ix2 q k) (ix2 (0 : Fin 1) k)
      (fun a => match a with | ⟨0, _⟩ => rfl | ⟨1, _⟩ => rfl)
  rw [ea, eb]

/-- the one-hot table: entry (k, q) is 1 when target q's label names class k, else 0 (labels in range) -/
theorem V_v4_at (c : Dev nD) (k : Fin 91) (q : Fin 1600)
    (hq : ((m ((c.tc : Thread nD τ).loc main_arg2) : S1600.Idx → BitVec 32) (ix1 q)).toNat < 91) :
    (V m c main_v4 : S91x1600.Idx → EReal) (ix2 k q)
      = if clsOf ((m ((c.tc : Thread nD τ).loc main_arg2) : S1600.Idx → BitVec 32) (ix1 q)) = k then (1 : EReal) else 0 := by
  rw [V_v4_eq, ohot_at, cmpi_eq_toNat]
  by_cases h : clsOf ((m ((c.tc : Thread nD τ).loc main_arg2) : S1600.Idx → BitVec 32) (ix1 q)) = k
  · rw [if_pos h, if_pos ((label_eq_iff _ hq k).2 h), Nat.cast_one, EReal.coe_one]
  · rw [if_neg h, if_neg (fun e => h ((label_eq_iff _ hq k).1 e)), Nat.cast_zero, EReal.coe_zero]

end Cert.KernelIdeal.Hand

end
-- ==== Proof.OutIndex.lean ====
/-
  Query rows, flat and by image: row `n` of the flattened [14400, ·] arrays is query `n % 900` of image `n / 900`, and
  the [16, 900, 1600] result read at `(b, r, q)` is the [14400, 1600] array at row `900 · b + r`, column `q` (the two
  indices have the same row-major position).
-/
import Idealize.ShloMosaic.Lib.Pipeline.Value
import Idealize.ShloMosaic.Lib.ValueIdx

namespace Cert.Cost

open Idealize.ShloMosaic Idealize.ShloMosaic.ValueIdx

/-- The flat row of query `r` of image `b`. -/
def flatRow (b : Fin 16) (r : Fin 900) : Fin 14400 := ⟨900 * b.val + r.val, by have := b.isLt; have := r.isLt; omega⟩

theorem flatRow_div (b : Fin 16) (r : Fin 900) (h : (flatRow b r).val / 900 < 16) :
    (⟨(flatRow b r).val / 900, h⟩ : Fin 16) = b :=
  Fin.ext (by show (900 * b.val + r.val) / 900 = b.val; have := r.isLt; omega)

theorem flatRow_mod (b : Fin 16) (r : Fin 900) (h : (flatRow b r).val % 900 < 900) :
    (⟨(flatRow b r).val % 900, h⟩ : Fin 900) = r :=
  Fin.ext (by show (900 * b.val + r.val) % 900 = r.val; have := r.isLt; omega)

/-- The result array by (image, query, target) is the flat one at the query's flat row. -/
theorem unflatten_at {α : Type} (x : (⟨2, ![14400, 1600]⟩ : Shape).Idx → α)
    (h : (⟨2, ![14400, 1600]⟩ : Shape).ShapeCasts ⟨3, ![16, 900, 1600]⟩) (b : Fin 16) (r : Fin 900) (q : Fin 1600) :
    shapeCast ⟨3, ![16, 900, 1600]⟩ x h (ix3 b r q) = x (ix2 (flatRow b r) q) :=
  shapeCast_apply x h _ _ (by
    rw [Shape.rowMajor_val_two, Shape.rowMajor_val_three]
    show (900 * b.val + r.val) * 1600 + q.val = (b.val * 900 + r.val) * 1600 + q.val
    omega)

end Cert.Cost
-- ==== Proof.KFinal.lean ====
/-
  The kernel's result array is the cost array of the arguments.

  The region leaves, at (flat query row n, target q), the cost computed from the arrays the windows stage. Those are,
  entry by entry, the arguments: row n of the flattened logits and boxes is query n % 900 of image n / 900; the target
  table's first four rows are the target boxes' coordinates and its last four their corners c ∓ ½ size; and column q of
  the one-hot table has a one at the class the label names and zeros elsewhere, so the contraction of the row's 91 focal
  terms against it is the focal term at that class. The reshape to (image, query, target) reads the flat row 900·b + r.
-/
import proofs.«430708_j55284819034883_2_alg».proof.Proof.KGflat
import proofs.«430708_j55284819034883_2_alg».proof.Proof.KPrefixAt
import proofs.«430708_j55284819034883_2_alg».proof.Proof.OutIndex

noncomputable section

namespace Cert.KernelIdeal.Hand

open Idealize.ShloMosaic Idealize.ShloMosaic.TcCoe Idealize.ShloMosaic.ValueIdx Idealize.SL.Sem Cert.KernelIdeal Cert.KernelIdeal.Gen Cert.Cost

variable (m : (ℓ : Loc nD τ sig) → Buf (Elt Ideal) ℓ)

/-- The flat cost array at (row, target), its two coordinates named. -/
theorem Gflat_entry (L : S14400x91.Idx → EReal) (B : S14400x4.Idx → EReal) (T : S8x1600.Idx → EReal) (H : S91x1600.Idx → EReal)
    (n : Fin 14400) (q : Fin 1600) :
    Gflat L B T H (ix2 n q)
      = clampC (total ((0 : EReal) + ∑ k : Fin 91, focal (L (ix2 n k)) * H (ix2 k q))
          (l1 (B (ix2 n (0 : Fin 4))) (B (ix2 n (1 : Fin 4))) (B (ix2 n (2 : Fin 4))) (B (ix2 n (3 : Fin 4)))
              (T (ix2 (0 : Fin 8) q)) (T (ix2 (1 : Fin 8) q)) (T (ix2 (2 : Fin 8) q)) (T (ix2 (3 : Fin 8) q)))
          (giouC (B (ix2 n (0 : Fin 4)) - wHalf * B (ix2 n (2 : Fin 4))) (B (ix2 n (1 : Fin 4)) - wHalf * B (ix2 n (3 : Fin 4)))
                 (B (ix2 n (0 : Fin 4)) + wHalf * B (ix2 n (2 : Fin 4))) (B (ix2 n (1 : Fin 4)) + wHalf * B (ix2 n (3 : Fin 4)))
                 (T (ix2 (4 : Fin 8) q)) (T (ix2 (5 : Fin 8) q)) (T (ix2 (6 : Fin 8) q)) (T (ix2 (7 : Fin 8) q)))) := rfl

/-- The specification's array at (image, query, target), its coordinates named. -/
theorem G_entry (lg : SLogits.Idx → EReal) (bx : SBoxes.Idx → EReal) (ids : SIds.Idx → BitVec 32) (tb : STgt.Idx → EReal)
    (b : Fin 16) (r : Fin 900) (q : Fin 1600) :
    G lg bx ids tb (ix3 b r q)
      = clampC (total (focal (lg (ix3 b r (clsOf (ids (ix1 q))))))
          (l1 (bx (ix3 b r (0 : Fin 4))) (bx (ix3 b r (1 : Fin 4))) (bx (ix3 b r (2 : Fin 4))) (bx (ix3 b r (3 : Fin 4)))
              (tb (ix2 q (0 : Fin 4))) (tb (ix2 q (1 : Fin 4))) (tb (ix2 q (2 : Fin 4))) (tb (ix2 q (3 : Fin 4))))
          (giouC (bx (ix3 b r (0 : Fin 4)) - wHalf * bx (ix3 b r (2 : Fin 4))) (bx (ix3 b r (1 : Fin 4)) - wHalf * bx (ix3 b r (3 : Fin 4)))
                 (bx (ix3 b r (0 : Fin 4)) + wHalf * bx (ix3 b r (2 : Fin 4))) (bx (ix3 b r (1 : Fin 4)) + wHalf * bx (ix3 b r (3 : Fin 4)))
                 (tb (ix2 q (0 : Fin 4)) - wHalf * tb (ix2 q (2 : Fin 4))) (tb (ix2 q (1 : Fin 4)) - wHalf * tb (ix2 q (3 : Fin 4)))
                 (tb (ix2 q (0 : Fin 4)) + wHalf * tb (ix2 q (2 : Fin 4))) (tb (ix2 q (1 : Fin 4)) + wHalf * tb (ix2 q (3 : Fin 4))))) := rfl

/-- THE KERNEL'S RESULT: the flat cost array of the region-entry arrays, read by (image, query, target), is the
    specification's array of the arguments, when every label is below 91. -/
theorem result_eq_G (c : Dev nD)
    (hq : ∀ q : Fin 1600, ((m ((c.tc : Thread nD τ).loc main_arg2) : S1600.Idx → BitVec 32) (ix1 q)).toNat < 91) :
    shapeCast S16x900x1600 (Gflat (V m c main_v0) (V m c main_v1) (V m c main_v33) (V m c main_v4)) shapeCasts_S14400x1600_S16x900x1600
      = G (m ((c.tc : Thread nD τ).loc main_arg0)) (m ((c.tc : Thread nD τ).loc main_arg1))
          (m ((c.tc : Thread nD τ).loc main_arg2)) (m ((c.tc : Thread nD τ).loc main_arg3)) := by
  funext j
  obtain ⟨b, r, q, rfl⟩ : ∃ (b : Fin 16) (r : Fin 900) (q : Fin 1600), j = ix3 b r q := ⟨j 0, j 1, j 2, eq_ix3 j⟩
  rw [unflatten_at, Gflat_entry, G_entry]
  obtain ⟨t0, t1, t2, t3, t4, t5, t6, t7⟩ := V_v33_at m c q
  rw [t0, t1, t2, t3, t4, t5, t6, t7]
  simp only [V_v0_at m c, V_v1_at m c, fun k => V_v4_at m c k q (hq q), flatRow_div, flatRow_mod]
  rw [show (0 : EReal) + ∑ k : Fin 91, focal ((m ((c.tc : Thread nD τ).loc main_arg0) : S16x900x91.Idx → EReal) (ix3 b r k))
        * (if clsOf ((m ((c.tc : Thread nD τ).loc main_arg2) : S1600.Idx → BitVec 32) (ix1 q)) = k then (1 : EReal) else 0)
      = focal ((m ((c.tc : Thread nD τ).loc main_arg0) : S16x900x91.Idx → EReal) (ix3 b r (clsOf ((m ((c.tc : Thread nD τ).loc main_arg2) : S1600.Idx → BitVec 32) (ix1 q)))))
      from onehot_sum (fun k => focal ((m ((c.tc : Thread nD τ).loc main_arg0) : S16x900x91.Idx → EReal) (ix3 b r k))) _]

end Cert.KernelIdeal.Hand

end
-- ==== Proof.RefOps.lean ====
/- GENERATED by: cd $KIT/certs/proofs/430708_j55284819034883_2_alg && bun scratch/mk_ref.js  (the script is filed with the unit; a table, no argument) — from proof/ReferenceIdeal.lean:
   the reference program's @main as LISTS of its 249 host operations, each outlined function's operations written at its
   call site over that call's buffer record: cut into thirteen consecutive stages (stA … stM: what a later stage reads of an
   earlier one is a handful of arrays) and, the same operations, into the four printed parts of @main (pt0 … pt3). With
   each stage the list of the buffers it writes, that its operations write only those, and that they touch TensorCore
   references only. -/
import proofs.«430708_j55284819034883_2_alg».proof.Proof.Gen.ReferenceIdeal
import Idealize.ShloMosaic.Lib.StableHlo.Run
import Idealize.ShloMosaic.Lib.Pipeline.Frame

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stage A: operations 0 … 8 of @main; later stages read main_v0, main_v6. -/
abbrev stA : List (HloOp τ sig (Elt F)) :=
  [ StableHlo.reshape main_arg0 main_v0 rfl shapeCasts_S16x900x91_S14400x91,
    StableHlo.unary main_v0 main_v1 (Host.negf : (⟨S14400x91, .f32⟩ : BufTy).Contents (Elt F) → (⟨S14400x91, .f32⟩ : BufTy).Contents (Elt F)),
    StableHlo.unary main_v1 main_v2 (Host.exp : (⟨S14400x91, .f32⟩ : BufTy).Contents (Elt F) → (⟨S14400x91, .f32⟩ : BufTy).Contents (Elt F)),
    StableHlo.nullary main_cst (constant S_ .f32 0x3F800000#32),
    StableHlo.unary main_cst main_v3 (broadcastInDim S14400x91 ![] bcast_S_S14400x91 : (⟨S_, .f32⟩ : BufTy).Contents (Elt F) → (⟨S14400x91, .f32⟩ : BufTy).Contents (Elt F)),
    StableHlo.binary main_v3 main_v2 main_v4 (addf : (⟨S14400x91, .f32⟩ : BufTy).Contents (Elt F) → (⟨S14400x91, .f32⟩ : BufTy).Contents (Elt F) → (⟨S14400x91, .f32⟩ : BufTy).Contents (Elt F)),
    StableHlo.nullary main_cst_0 (constant S_ .f32 0x3F800000#32),
    StableHlo.unary main_cst_0 main_v5 (broadcastInDim S14400x91 ![] bcast_S_S14400x91 : (⟨S_, .f32⟩ : BufTy).Contents (Elt F) → (⟨S14400x91, .f32⟩ : BufTy).Contents (Elt F)),
    StableHlo.binary main_v5 main_v4 main_v6 (Host.divf : (⟨S14400x91, .f32⟩ : BufTy).Contents (Elt F) → (⟨S14400x91, .f32⟩ : BufTy).Contents (Elt F) → (⟨S14400x91, .f32⟩ : BufTy).Contents (Elt F)) ]
/-- The buffers stage A writes. -/
abbrev stA_W : List (Ref sig .tc) := [main_v0, main_v1, main_v2, main_cst, main_v3, main_v4, main_cst_0, main_v5, main_v6]
theorem stA_writes : (stA : List (HloOp τ sig (Elt F))).Forall fun op => op.writes ⊆ (stA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stA_sub : (stA : List (HloOp τ sig (Elt F))).Forall fun op => op.bufs ⊆ tcRefs τ sig :=
  ⟨reshape_bufs_sub .., unary_bufs_sub .., unary_bufs_sub .., nullary_bufs_sub .., unary_bufs_sub .., binary_bufs_sub .., nullary_bufs_sub .., unary_bufs_sub .., binary_bufs_sub ..⟩

/-- Stage B: operations 9 … 38 of @main; later stages read main_v7, main_v32. -/
abbrev stB : List (HloOp τ sig (Elt F)) :=
  [ StableHlo.reshape main_arg1 main_v7 rfl shapeCasts_S16x900x4_S14400x4,
    StableHlo.unary main_v7 main_v8 ((extractStridedSlice S14400x1 ![0, 0] · slices_S14400x4_S14400x1_0_0) : (⟨S14400x4, .f32⟩ : BufTy).Contents (Elt F) → (⟨S14400x1, .f32⟩ : BufTy).Contents (Elt F)),
    StableHlo.reshape main_v8 main_v9 rfl shapeCasts_S14400x1_S14400,
    StableHlo.unary main_v7 main_v10 ((extractStridedSlice S14400x1 ![0, 1] · slices_S14400x4_S14400x1_0_1) : (⟨S14400x4, .f32⟩ : BufTy).Contents (Elt F) → (⟨S14400x1, .f32⟩ : BufTy).Contents (Elt F)),
    StableHlo.reshape main_v10 main_v11 rfl shapeCasts_S14400x1_S14400,
    StableHlo.unary main_v7 main_v12 ((extractStridedSlice S14400x1 ![0, 2] · slices_S14400x4_S14400x1_0_2) : (⟨S14400x4, .f32⟩ : BufTy).Contents (Elt F) → (⟨S14400x1, .f32⟩ : BufTy).Contents (Elt F)),
    StableHlo.reshape main_v12 main_v13 rfl shapeCasts_S14400x1_S14400,
    StableHlo.unary main_v7 main_v14 ((extractStridedSlice S14400x1 ![0, 3] · slices_S14400x4_S14400x1_0_3) : (⟨S14400x4, .f32⟩ : BufTy).Contents (Elt F) → (⟨S14400x1, .f32⟩ : BufTy).Contents (Elt F)),
    StableHlo.reshape main_v14 main_v15 rfl shapeCasts_S14400x1_S14400,
    StableHlo.nullary main_cst_1 (constant S_ .f32 0x3F000000#32),
    StableHlo.unary main_cst_1 main_v16 (broadcastInDim S14400 ![] bcast_S_S14400 : (⟨S_, .f32⟩ : BufTy).Contents (Elt F) → (⟨S14400, .f32⟩ : BufTy).Contents (Elt F)),
    StableHlo.binary main_v16 main_v13 main_v17 (mulf : (⟨S14400, .f32⟩ : BufTy).Contents (Elt F) → (⟨S14400, .f32⟩ : BufTy).Contents (Elt F) → (⟨S14400, .f32⟩ : BufTy).Contents (Elt F)),
    StableHlo.binary main_v9 main_v17 main_v18 (subf : (⟨S14400, .f32⟩ : BufTy).Contents (Elt F) → (⟨S14400, .f32⟩ : BufTy).Contents (Elt F) → (⟨S14400, .f32⟩ : BufTy).Contents (Elt F)),
    StableHlo.nullary main_cst_2 (constant S_ .f32 0x3F000000#32),
    StableHlo.unary main_cst_2 main_v19 (broadcastInDim S14400 ![] bcast_S_S14400 : (⟨S_, .f32⟩ : BufTy).Contents (Elt F) → (⟨S14400, .f32⟩ : BufTy).Contents (Elt F)),
    StableHlo.binary main_v19 main_v15 main_v20 (mulf : (⟨S14400, .f32⟩ : BufTy).Contents (Elt F) → (⟨S14400, .f32⟩ : BufTy).Contents (Elt F) → (⟨S14400, .f32⟩ : BufTy).Contents (Elt F)),
    StableHlo.binary main_v11 main_v20 main_v21 (subf : (⟨S14400, .f32⟩ : BufTy).Contents (Elt F) → (⟨S14400, .f32⟩ : BufTy).Contents (Elt F) → (⟨S14400, .f32⟩ : BufTy).Contents (Elt F)),
    StableHlo.nullary main_cst_3 (constant S_ .f32 0x3F000000#32),
    StableHlo.unary main_cst_3 main_v22 (broadcastInDim S14400 ![] bcast_S_S14400 : (⟨S_, .f32⟩ : BufTy).Contents (Elt F) → (⟨S14400, .f32⟩ : BufTy).Contents (Elt F)),
    StableHlo.binary main_v22 main_v13 main_v23 (mulf : (⟨S14400, .f32⟩ : BufTy).Contents (Elt F) → (⟨S14400, .f32⟩ : BufTy).Contents (Elt F) → (⟨S14400, .f32⟩ : BufTy).Contents (Elt F)),
    StableHlo.binary main_v9 main_v23 main_v24 (addf : (⟨S14400, .f32⟩ : BufTy).Contents (Elt F) → (⟨S14400, .f32⟩ : BufTy).Contents (Elt F) → (⟨S14400, .f32⟩ : BufTy).Contents (Elt F)),
    StableHlo.nullary main_cst_4 (constant S_ .f32 0x3F000000#32),
    StableHlo.unary main_cst_4 main_v25 (broadcastInDim S14400 ![] bcast_S_S14400 : (⟨S_, .f32⟩ : BufTy).Contents (Elt F) → (⟨S14400, .f32⟩ : BufTy).Contents (Elt F)),
    StableHlo.binary main_v25 main_v15 main_v26 (mulf : (⟨S14400, .f32⟩ : BufTy).Contents (Elt F) → (⟨S14400, .f32⟩ : BufTy).Contents (Elt F) → (⟨S14400, .f32⟩ : BufTy).Contents (Elt F)),
    StableHlo.binary main_v11 main_v26 main_v27 (addf : (⟨S14400, .f32⟩ : BufTy).Contents (Elt F) → (⟨S14400, .f32⟩ : BufTy).Contents (Elt F) → (⟨S14400, .f32⟩ : BufTy).Contents (Elt F)),
    StableHlo.unary main_v18 main_v28 (broadcastInDim S14400x1 ![0] bcast_S14400_S14400x1_0 : (⟨S14400, .f32⟩ : BufTy).Contents (Elt F) → (⟨S14400x1, .f32⟩ : BufTy).Contents (Elt F)),
    StableHlo.unary main_v21 main_v29 (broadcastInDim S14400x1 ![0] bcast_S14400_S14400x1_0 : (⟨S14400, .f32⟩ : BufTy).Contents (Elt F) → (⟨S14400x1, .f32⟩ : BufTy).Contents (Elt F)),
    StableHlo.unary main_v24 main_v30 (broadcastInDim S14400x1 ![0] bcast_S14400_S14400x1_0 : (⟨S14400, .f32⟩ : BufTy).Contents (Elt F) → (⟨S14400x1, .f32⟩ : BufTy).Contents (Elt F)),
    StableHlo.unary main_v27 main_v31 (broadcastInDim S14400x1 ![0] bcast_S14400_S14400x1_0 : (⟨S14400, .f32⟩ : BufTy).Contents (Elt F) → (⟨S14400x1, .f32⟩ : BufTy).Contents (Elt F)),
    StableHlo.nary ![main_v28, main_v29, main_v30, main_v31] main_v32 (fun u => concatenate S14400x4 1 [⟨S14400x1, u 0⟩, ⟨S14400x1, u 1⟩, ⟨S14400x1, u 2⟩, ⟨S14400x1, u 3⟩] concatenates_S14400x1_S14400x1_S14400x1_S14400x1_S14400x4_d1) ]
/-- The buffers stage B writes. -/
abbrev stB_W : List (Ref sig .tc) := [main_v7, main_v8, main_v9, main_v10, main_v11, main_v12, main_v13, main_v14, main_v15, main_cst_1, main_v16, main_v17, main_v18, main_cst_2, main_v19, main_v20, main_v21, main_cst_3, main_v22, main_v23, main_v24, main_cst_4, main_v25, main_v26, main_v27, main_v28, main_v29, main_v30, main_v31, main_v32]
theorem stB_writes : (stB : List (HloOp τ sig (Elt F))).Forall fun op => op.writes ⊆ (stB_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stB_sub : (stB : List (HloOp τ sig (Elt F))).Forall fun op => op.bufs ⊆ tcRefs τ sig :=
  ⟨reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., nary_bufs_sub ..⟩

/-- Stage C: operations 39 … 67 of @main; later stages read main_v57. -/
abbrev stC : List (HloOp τ sig (Elt F)) :=
  [ StableHlo.unary main_arg3 main_v33 ((extractStridedSlice S1600x1 ![0, 0] · slices_S1600x4_S1600x1_0_0) : (⟨S1600x4, .f32⟩ : BufTy).Contents (Elt F) → (⟨S1600x1, .f32⟩ : BufTy).Contents (Elt F)),
    StableHlo.reshape main_v33 main_v34 rfl shapeCasts_S1600x1_S1600,
    StableHlo.unary main_arg3 main_v35 ((extractStridedSlice S1600x1 ![0, 1] · slices_S1600x4_S1600x1_0_1) : (⟨S1600x4, .f32⟩ : BufTy).Contents (Elt F) → (⟨S1600x1, .f32⟩ : BufTy).Contents (Elt F)),
    StableHlo.reshape main_v35 main_v36 rfl shapeCasts_S1600x1_S1600,
    StableHlo.unary main_arg3 main_v37 ((extractStridedSlice S1600x1 ![0, 2] · slices_S1600x4_S1600x1_0_2) : (⟨S1600x4, .f32⟩ : BufTy).Contents (Elt F) → (⟨S1600x1, .f32⟩ : BufTy).Contents (Elt F)),
    StableHlo.reshape main_v37 main_v38 rfl shapeCasts_S1600x1_S1600,
    StableHlo.unary main_arg3 main_v39 ((extractStridedSlice S1600x1 ![0, 3] · slices_S1600x4_S1600x1_0_3) : (⟨S1600x4, .f32⟩ : BufTy).Contents (Elt F) → (⟨S1600x1, .f32⟩ : BufTy).Contents (Elt F)),
    StableHlo.reshape main_v39 main_v40 rfl shapeCasts_S1600x1_S1600,
    StableHlo.nullary main_cst_5 (constant S_ .f32 0x3F000000#32),
    StableHlo.unary main_cst_5 main_v41 (broadcastInDim S1600 ![] bcast_S_S1600 : (⟨S_, .f32⟩ : BufTy).Contents (Elt F) → (⟨S1600, .f32⟩ : BufTy).Contents (Elt F)),
    StableHlo.binary main_v41 main_v38 main_v42 (mulf : (⟨S1600, .f32⟩ : BufTy).Contents (Elt F) → (⟨S1600, .f32⟩ : BufTy).Contents (Elt F) → (⟨S1600, .f32⟩ : BufTy).Contents (Elt F)),
    StableHlo.binary main_v34 main_v42 main_v43 (subf : (⟨S1600, .f32⟩ : BufTy).Contents (Elt F) → (⟨S1600, .f32⟩ : BufTy).Contents (Elt F) → (⟨S1600, .f32⟩ : BufTy).Contents (Elt F)),
    StableHlo.nullary main_cst_6 (constant S_ .f32 0x3F000000#32),
    StableHlo.unary main_cst_6 main_v44 (broadcastInDim S1600 ![] bcast_S_S1600 : (⟨S_, .f32⟩ : BufTy).Contents (Elt F) → (⟨S1600, .f32⟩ : BufTy).Contents (Elt F)),
    StableHlo.binary main_v44 main_v40 main_v45 (mulf : (⟨S1600, .f32⟩ : BufTy).Contents (Elt F) → (⟨S1600, .f32⟩ : BufTy).Contents (Elt F) → (⟨S1600, .f32⟩ : BufTy).Contents (Elt F)),
    StableHlo.binary main_v36 main_v45 main_v46 (subf : (⟨S1600, .f32⟩ : BufTy).Contents (Elt F) → (⟨S1600, .f32⟩ : BufTy).Contents (Elt F) → (⟨S1600, .f32⟩ : BufTy).Contents (Elt F)),
    StableHlo.nullary main_cst_7 (constant S_ .f32 0x3F000000#32),
    StableHlo.unary main_cst_7 main_v47 (broadcastInDim S1600 ![] bcast_S_S1600 : (⟨S_, .f32⟩ : BufTy).Contents (Elt F) → (⟨S1600, .f32⟩ : BufTy).Contents (Elt F)),
    StableHlo.binary main_v47 main_v38 main_v48 (mulf : (⟨S1600, .f32⟩ : BufTy).Contents (Elt F) → (⟨S1600, .f32⟩ : BufTy).Contents (Elt F) → (⟨S1600, .f32⟩ : BufTy).Contents (Elt F)),
    StableHlo.binary main_v34 main_v48 main_v49 (addf : (⟨S1600, .f32⟩ : BufTy).Contents (Elt F) → (⟨S1600, .f32⟩ : BufTy).Contents (Elt F) → (⟨S1600, .f32⟩ : BufTy).Contents (Elt F)),
    StableHlo.nullary main_cst_8 (constant S_ .f32 0x3F000000#32),
    StableHlo.unary main_cst_8 main_v50 (broadcastInDim S1600 ![] bcast_S_S1600 : (⟨S_, .f32⟩ : BufTy).Contents (Elt F) → (⟨S1600, .f32⟩ : BufTy).Contents (Elt F)),
    StableHlo.binary main_v50 main_v40 main_v51 (mulf : (⟨S1600, .f32⟩ : BufTy).Contents (Elt F) → (⟨S1600, .f32⟩ : BufTy).Contents (Elt F) → (⟨S1600, .f32⟩ : BufTy).Contents (Elt F)),
    StableHlo.binary main_v36 main_v51 main_v52 (addf : (⟨S1600, .f32⟩ : BufTy).Contents (Elt F) → (⟨S1600, .f32⟩ : BufTy).Contents (Elt F) → (⟨S1600, .f32⟩ : BufTy).Contents (Elt F)),
    StableHlo.unary main_v43 main_v53 (broadcastInDim S1600x1 ![0] bcast_S1600_S1600x1_0 : (⟨S1600, .f32⟩ : BufTy).Contents (Elt F) → (⟨S1600x1, .f32⟩ : BufTy).Contents (Elt F)),
    StableHlo.unary main_v46 main_v54 (broadcastInDim S1600x1 ![0] bcast_S1600_S1600x1_0 : (⟨S1600, .f32⟩ : BufTy).Contents (Elt F) → (⟨S1600x1, .f32⟩ : BufTy).Contents (Elt F)),
    StableHlo.unary main_v49 main_v55 (broadcastInDim S1600x1 ![0] bcast_S1600_S1600x1_0 : (⟨S1600, .f32⟩ : BufTy).Contents (Elt F) → (⟨S1600x1, .f32⟩ : BufTy).Contents (Elt F)),
    StableHlo.unary main_v52 main_v56 (broadcastInDim S1600x1 ![0] bcast_S1600_S1600x1_0 : (⟨S1600, .f32⟩ : BufTy).Contents (Elt F) → (⟨S1600x1, .f32⟩ : BufTy).Contents (Elt F)),
    StableHlo.nary ![main_v53, main_v54, main_v55, main_v56] main_v57 (fun u => concatenate S1600x4 1 [⟨S1600x1, u 0⟩, ⟨S1600x1, u 1⟩, ⟨S1600x1, u 2⟩, ⟨S1600x1, u 3⟩] concatenates_S1600x1_S1600x1_S1600x1_S1600x1_S1600x4_d1) ]
/-- The buffers stage C writes. -/
abbrev stC_W : List (Ref sig .tc) := [main_v33, main_v34, main_v35, main_v36, main_v37, main_v38, main_v39, main_v40, main_cst_5, main_v41, main_v42, main_v43, main_cst_6, main_v44, main_v45, main_v46, main_cst_7, main_v47, main_v48, main_v49, main_cst_8, main_v50, main_v51, main_v52, main_v53, main_v54, main_v55, main_v56, main_v57]
theorem stC_writes : (stC : List (HloOp τ sig (Elt F))).Forall fun op => op.writes ⊆ (stC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stC_sub : (stC : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., nary_bufs_sub ..⟩

/-- Stage D: operations 68 … 89 of @main; later stages read main_v68, main_v79. -/
abbrev stD : List (HloOp τ sig (Elt F)) :=
  [ StableHlo.unary main_v32 main_v58 ((extractStridedSlice S14400x1 ![0, 2] · slices_S14400x4_S14400x1_0_2) : (⟨S14400x4, .f32⟩ : BufTy).Contents (Elt F) → (⟨S14400x1, .f32⟩ : BufTy).Contents (Elt F)),
    StableHlo.reshape main_v58 main_v59 rfl shapeCasts_S14400x1_S14400,
    StableHlo.unary main_v32 main_v60 ((extractStridedSlice S14400x1 ![0, 0] · slices_S14400x4_S14400x1_0_0) : (⟨S14400x4, .f32⟩ : BufTy).Contents (Elt F) → (⟨S14400x1, .f32⟩ : BufTy).Contents (Elt F)),
    StableHlo.reshape main_v60 main_v61 rfl shapeCasts_S14400x1_S14400,
    StableHlo.binary main_v59 main_v61 main_v62 (subf : (⟨S14400, .f32⟩ : BufTy).Contents (Elt F) → (⟨S14400, .f32⟩ : BufTy).Contents (Elt F) → (⟨S14400, .f32⟩ : BufTy).Contents (Elt F)),
    StableHlo.unary main_v32 main_v63 ((extractStridedSlice S14400x1 ![0, 3] · slices_S14400x4_S14400x1_0_3) : (⟨S14400x4, .f32⟩ : BufTy).Contents (Elt F) → (⟨S14400x1, .f32⟩ : BufTy).Contents (Elt F)),
    StableHlo.reshape main_v63 main_v64 rfl shapeCasts_S14400x1_S14400,
    StableHlo.unary main_v32 main_v65 ((extractStridedSlice S14400x1 ![0, 1] · slices_S14400x4_S14400x1_0_1) : (⟨S14400x4, .f32⟩ : BufTy).Contents (Elt F) → (⟨S14400x1, .f32⟩ : BufTy).Contents (Elt F)),
    StableHlo.reshape main_v65 main_v66 rfl shapeCasts_S14400x1_S14400,
    StableHlo.binary main_v64 main_v66 main_v67 (subf : (⟨S14400, .f32⟩ : BufTy).Contents (Elt F) → (⟨S14400, .f32⟩ : BufTy).Contents (Elt F) → (⟨S14400, .f32⟩ : BufTy).Contents (Elt F)),
    StableHlo.binary main_v62 main_v67 main_v68 (mulf : (⟨S14400, .f32⟩ : BufTy).Contents (Elt F) → (⟨S14400, .f32⟩ : BufTy).Contents (Elt F) → (⟨S14400, .f32⟩ : BufTy).Contents (Elt F)),
    StableHlo.unary main_v57 main_v69 ((extractStridedSlice S1600x1 ![0, 2] · slices_S1600x4_S1600x1_0_2) : (⟨S1600x4, .f32⟩ : BufTy).Contents (Elt F) → (⟨S1600x1, .f32⟩ : BufTy).Contents (Elt F)),
    StableHlo.reshape main_v69 main_v70 rfl shapeCasts_S1600x1_S1600,
    StableHlo.unary main_v57 main_v71 ((extractStridedSlice S1600x1 ![0, 0] · slices_S1600x4_S1600x1_0_0) : (⟨S1600x4, .f32⟩ : BufTy).Contents (Elt F) → (⟨S1600x1, .f32⟩ : BufTy).Contents (Elt F)),
    StableHlo.reshape main_v71 main_v72 rfl shapeCasts_S1600x1_S1600,
    StableHlo.binary main_v70 main_v72 main_v73 (subf : (⟨S1600, .f32⟩ : BufTy).Contents (Elt F) → (⟨S1600, .f32⟩ : BufTy).Contents (Elt F) → (⟨S1600, .f32⟩ : BufTy).Contents (Elt F)),
    StableHlo.unary main_v57 main_v74 ((extractStridedSlice S1600x1 ![0, 3] · slices_S1600x4_S1600x1_0_3) : (⟨S1600x4, .f32⟩ : BufTy).Contents (Elt F) → (⟨S1600x1, .f32⟩ : BufTy).Contents (Elt F)),
    StableHlo.reshape main_v74 main_v75 rfl shapeCasts_S1600x1_S1600,
    StableHlo.unary main_v57 main_v76 ((extractStridedSlice S1600x1 ![0, 1] · slices_S1600x4_S1600x1_0_1) : (⟨S1600x4, .f32⟩ : BufTy).Contents (Elt F) → (⟨S1600x1, .f32⟩ : BufTy).Contents (Elt F)),
    StableHlo.reshape main_v76 main_v77 rfl shapeCasts_S1600x1_S1600,
    StableHlo.binary main_v75 main_v77 main_v78 (subf : (⟨S1600, .f32⟩ : BufTy).Contents (Elt F) → (⟨S1600, .f32⟩ : BufTy).Contents (Elt F) → (⟨S1600, .f32⟩ : BufTy).Contents (Elt F)),
    StableHlo.binary main_v73 main_v78 main_v79 (mulf : (⟨S1600, .f32⟩ : BufTy).Contents (Elt F) → (⟨S1600, .f32⟩ : BufTy).Contents (Elt F) → (⟨S1600, .f32⟩ : BufTy).Contents (Elt F)) ]
/-- The buffers stage D writes. -/
abbrev stD_W : List (Ref sig .tc) := [main_v58, main_v59, main_v60, main_v61, main_v62, main_v63, main_v64, main_v65, main_v66, main_v67, main_v68, main_v69, main_v70, main_v71, main_v72, main_v73, main_v74, main_v75, main_v76, main_v77, main_v78, main_v79]
theorem stD_writes : (stD : List (HloOp τ sig (Elt F))).Forall fun op => op.writes ⊆ (stD_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stD_sub : (stD : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub ..⟩

/-- Stage E: operations 90 … 113 of @main; later stages read main_v100. -/
abbrev stE : List (HloOp τ sig (Elt F)) :=
  [ StableHlo.unary main_v32 main_v80 ((extractStridedSlice S14400x2 ![0, 0] · slices_S14400x4_S14400x2_0_0) : (⟨S14400x4, .f32⟩ : BufTy).Contents (Elt F) → (⟨S14400x2, .f32⟩ : BufTy).Contents (Elt F)),
    StableHlo.unary main_v80 main_v81 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v57 main_v82 ((extractStridedSlice S1600x2 ![0, 0] · slices_S1600x4_S1600x2_0_0) : (⟨S1600x4, .f32⟩ : BufTy).Contents (Elt F) → (⟨S1600x2, .f32⟩ : BufTy).Contents (Elt F)),
    StableHlo.unary main_v82 main_v83 (broadcastInDim S1x1600x2 ![1, 2] bcast_S1600x2_S1x1600x2_1_2 : (⟨S1600x2, .f32⟩ : BufTy).Contents (Elt F) → (⟨S1x1600x2, .f32⟩ : BufTy).Contents (Elt F)),
    StableHlo.unary main_v81 main_v84 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    StableHlo.unary main_v83 main_v85 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    StableHlo.binary main_v84 main_v85 main_v86 (maximumf : (⟨S14400x1600x2, .f32⟩ : BufTy).Contents (Elt F) → (⟨S14400x1600x2, .f32⟩ : BufTy).Contents (Elt F) → (⟨S14400x1600x2, .f32⟩ : BufTy).Contents (Elt F)),
    StableHlo.unary main_v32 main_v87 ((extractStridedSlice S14400x2 ![0, 2] · slices_S14400x4_S14400x2_0_2) : (⟨S14400x4, .f32⟩ : BufTy).Contents (Elt F) → (⟨S14400x2, .f32⟩ : BufTy).Contents (Elt F)),
    StableHlo.unary main_v87 main_v88 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v57 main_v89 ((extractStridedSlice S1600x2 ![0, 2] · slices_S1600x4_S1600x2_0_2) : (⟨S1600x4, .f32⟩ : BufTy).Contents (Elt F) → (⟨S1600x2, .f32⟩ : BufTy).Contents (Elt F)),
    StableHlo.unary main_v89 main_v90 (broadcastInDim S1x1600x2 ![1, 2] bcast_S1600x2_S1x1600x2_1_2 : (⟨S1600x2, .f32⟩ : BufTy).Contents (Elt F) → (⟨S1x1600x2, .f32⟩ : BufTy).Contents (Elt F)),
    StableHlo.unary main_v88 main_v91 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    StableHlo.unary main_v90 main_v92 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    StableHlo.binary main_v91 main_v92 main_v93 (minimumf : (⟨S14400x1600x2, .f32⟩ : BufTy).Contents (Elt F) → (⟨S14400x1600x2, .f32⟩ : BufTy).Contents (Elt F) → (⟨S14400x1600x2, .f32⟩ : BufTy).Contents (Elt F)),
    StableHlo.binary main_v93 main_v86 main_v94 (subf : (⟨S14400x1600x2, .f32⟩ : BufTy).Contents (Elt F) → (⟨S14400x1600x2, .f32⟩ : BufTy).Contents (Elt F) → (⟨S14400x1600x2, .f32⟩ : BufTy).Contents (Elt F)),
    StableHlo.nullary main_cst_9 (constant S_ .f32 0x00000000#32),
    StableHlo.TRef.unary (.of main_cst_9 : StableHlo.TRef sig ⟨S_, .f32⟩) main_call0.v0 id,
    StableHlo.TRef.unary main_call0.v0 main_call0.v1 (broadcastInDim S14400x1600x2 ![] bcast_S_S14400x1600x2),
    StableHlo.TRef.binary main_call0.v1 (.of main_v94 : StableHlo.TRef sig ⟨S14400x1600x2, .f32⟩) main_call0.v2 maximumf,
    StableHlo.unary main_v95 main_v96 ((extractStridedSlice S14400x1600x1 ![0, 0, 0] · slices_S14400x1600x2_S14400x1600x1_0_0_0) : (⟨S14400x1600x2, .f32⟩ : BufTy).Contents (Elt F) → (⟨S14400x1600x1, .f32⟩ : BufTy).Contents (Elt F)),
    StableHlo.reshape main_v96 main_v97 rfl shapeCasts_S14400x1600x1_S14400x1600,
    StableHlo.unary main_v95 main_v98 ((extractStridedSlice S14400x1600x1 ![0, 0, 1] · slices_S14400x1600x2_S14400x1600x1_0_0_1) : (⟨S14400x1600x2, .f32⟩ : BufTy).Contents (Elt F) → (⟨S14400x1600x1, .f32⟩ : BufTy).Contents (Elt F)),
    StableHlo.reshape main_v98 main_v99 rfl shapeCasts_S14400x1600x1_S14400x1600,
    StableHlo.binary main_v97 main_v99 main_v100 (mulf : (⟨S14400x1600, .f32⟩ : BufTy).Contents (Elt F) → (⟨S14400x1600, .f32⟩ : BufTy).Contents (Elt F) → (⟨S14400x1600, .f32⟩ : BufTy).Contents (Elt F)) ]
/-- The buffers stage E writes. -/
abbrev stE_W : List (Ref sig .tc) := [main_v80, main_v81, main_v82, main_v83, main_v84, main_v85, main_v86, main_v87, main_v88, main_v89, main_v90, main_v91, main_v92, main_v93, main_v94, main_cst_9, main_call0_v0, main_call0_v1, main_v95, main_v96, main_v97, main_v98, main_v99, main_v100]
theorem stE_writes : (stE : List (HloOp τ sig (Elt F))).Forall fun op => op.writes ⊆ (stE_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stE_sub : (stE : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub ..⟩

/-- Stage F: operations 114 … 120 of @main; later stages read main_v106, main_v107. -/
abbrev stF : List (HloOp τ sig (Elt F)) :=
  [ StableHlo.unary main_v68 main_v101 (broadcastInDim S14400x1 ![0] bcast_S14400_S14400x1_0 : (⟨S14400, .f32⟩ : BufTy).Contents (Elt F) → (⟨S14400x1, .f32⟩ : BufTy).Contents (Elt F)),
    StableHlo.unary main_v79 main_v102 (broadcastInDim S1x1600 ![1] bcast_S1600_S1x1600_1 : (⟨S1600, .f32⟩ : BufTy).Contents (Elt F) → (⟨S1x1600, .f32⟩ : BufTy).Contents (Elt F)),
    StableHlo.unary main_v101 main_v103 (broadcastInDim S14400x1600 ![0, 1] bcast_S14400x1_S14400x1600_0_1 : (⟨S14400x1, .f32⟩ : BufTy).Contents (Elt F) → (⟨S14400x1600, .f32⟩ : BufTy).Contents (Elt F)),
    StableHlo.unary main_v102 main_v104 (broadcastInDim S14400x1600 ![0, 1] bcast_S1x1600_S14400x1600_0_1 : (⟨S1x1600, .f32⟩ : BufTy).Contents (Elt F) → (⟨S14400x1600, .f32⟩ : BufTy).Contents (Elt F)),
    StableHlo.binary main_v103 main_v104 main_v105 (addf : (⟨S14400x1600, .f32⟩ : BufTy).Contents (Elt F) → (⟨S14400x1600, .f32⟩ : BufTy).Contents (Elt F) → (⟨S14400x1600, .f32⟩ : BufTy).Contents (Elt F)),
    StableHlo.binary main_v105 main_v100 main_v106 (subf : (⟨S14400x1600, .f32⟩ : BufTy).Contents (Elt F) → (⟨S14400x1600, .f32⟩ : BufTy).Contents (Elt F) → (⟨S14400x1600, .f32⟩ : BufTy).Contents (Elt F)),
    StableHlo.binary main_v100 main_v106 main_v107 (Host.divf : (⟨S14400x1600, .f32⟩ : BufTy).Contents (Elt F) → (⟨S14400x1600, .f32⟩ : BufTy).Contents (Elt F) → (⟨S14400x1600, .f32⟩ : BufTy).Contents (Elt F)) ]
/-- The buffers stage F writes. -/
abbrev stF_W : List (Ref sig .tc) := [main_v101, main_v102, main_v103, main_v104, main_v105, main_v106, main_v107]
theorem stF_writes : (stF : List (HloOp τ sig (Elt F))).Forall fun op => op.writes ⊆ (stF_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stF_sub : (stF : List (HloOp τ sig (Elt F))).Forall fun op => op.bufs ⊆ tcRefs τ sig :=
  ⟨unary_bufs_sub .., unary_bufs_sub .., unary_bufs_sub .., unary_bufs_sub .., binary_bufs_sub .., binary_bufs_sub .., binary_bufs_sub ..⟩

/-- Stage G: operations 121 … 144 of @main; later stages read main_v128. -/
abbrev stG : List (HloOp τ sig (Elt F)) :=
  [ StableHlo.unary main_v32 main_v108 ((extractStridedSlice S14400x2 ![0, 0] · slices_S14400x4_S14400x2_0_0) : (⟨S14400x4, .f32⟩ : BufTy).Contents (Elt F) → (⟨S14400x2, .f32⟩ : BufTy).Contents (Elt F)),
    StableHlo.unary main_v108 main_v109 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v57 main_v110 ((extractStridedSlice S1600x2 ![0, 0] · slices_S1600x4_S1600x2_0_0) : (⟨S1600x4, .f32⟩ : BufTy).Contents (Elt F) → (⟨S1600x2, .f32⟩ : BufTy).Contents (Elt F)),
    StableHlo.unary main_v110 main_v111 (broadcastInDim S1x1600x2 ![1, 2] bcast_S1600x2_S1x1600x2_1_2 : (⟨S1600x2, .f32⟩ : BufTy).Contents (Elt F) → (⟨S1x1600x2, .f32⟩ : BufTy).Contents (Elt F)),
    StableHlo.unary main_v109 main_v112 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    StableHlo.unary main_v111 main_v113 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    StableHlo.binary main_v112 main_v113 main_v114 (minimumf : (⟨S14400x1600x2, .f32⟩ : BufTy).Contents (Elt F) → (⟨S14400x1600x2, .f32⟩ : BufTy).Contents (Elt F) → (⟨S14400x1600x2, .f32⟩ : BufTy).Contents (Elt F)),
    StableHlo.unary main_v32 main_v115 ((extractStridedSlice S14400x2 ![0, 2] · slices_S14400x4_S14400x2_0_2) : (⟨S14400x4, .f32⟩ : BufTy).Contents (Elt F) → (⟨S14400x2, .f32⟩ : BufTy).Contents (Elt F)),
    StableHlo.unary main_v115 main_v116 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v57 main_v117 ((extractStridedSlice S1600x2 ![0, 2] · slices_S1600x4_S1600x2_0_2) : (⟨S1600x4, .f32⟩ : BufTy).Contents (Elt F) → (⟨S1600x2, .f32⟩ : BufTy).Contents (Elt F)),
    StableHlo.unary main_v117 main_v118 (broadcastInDim S1x1600x2 ![1, 2] bcast_S1600x2_S1x1600x2_1_2 : (⟨S1600x2, .f32⟩ : BufTy).Contents (Elt F) → (⟨S1x1600x2, .f32⟩ : BufTy).Contents (Elt F)),
    StableHlo.unary main_v116 main_v119 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    StableHlo.unary main_v118 main_v120 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    StableHlo.binary main_v119 main_v120 main_v121 (maximumf : (⟨S14400x1600x2, .f32⟩ : BufTy).Contents (Elt F) → (⟨S14400x1600x2, .f32⟩ : BufTy).Contents (Elt F) → (⟨S14400x1600x2, .f32⟩ : BufTy).Contents (Elt F)),
    StableHlo.binary main_v121 main_v114 main_v122 (subf : (⟨S14400x1600x2, .f32⟩ : BufTy).Contents (Elt F) → (⟨S14400x1600x2, .f32⟩ : BufTy).Contents (Elt F) → (⟨S14400x1600x2, .f32⟩ : BufTy).Contents (Elt F)),
    StableHlo.nullary main_cst_10 (constant S_ .f32 0x00000000#32),
    StableHlo.TRef.unary (.of main_cst_10 : StableHlo.TRef sig ⟨S_, .f32⟩) main_call1.v0 id,
    StableHlo.TRef.unary main_call1.v0 main_call1.v1 (broadcastInDim S14400x1600x2 ![] bcast_S_S14400x1600x2),
    StableHlo.TRef.binary main_call1.v1 (.of main_v122 : StableHlo.TRef sig ⟨S14400x1600x2, .f32⟩) main_call1.v2 maximumf,
    StableHlo.unary main_v123 main_v124 ((extractStridedSlice S14400x1600x1 ![0, 0, 0] · slices_S14400x1600x2_S14400x1600x1_0_0_0) : (⟨S14400x1600x2, .f32⟩ : BufTy).Contents (Elt F) → (⟨S14400x1600x1, .f32⟩ : BufTy).Contents (Elt F)),
    StableHlo.reshape main_v124 main_v125 rfl shapeCasts_S14400x1600x1_S14400x1600,
    StableHlo.unary main_v123 main_v126 ((extractStridedSlice S14400x1600x1 ![0, 0, 1] · slices_S14400x1600x2_S14400x1600x1_0_0_1) : (⟨S14400x1600x2, .f32⟩ : BufTy).Contents (Elt F) → (⟨S14400x1600x1, .f32⟩ : BufTy).Contents (Elt F)),
    StableHlo.reshape main_v126 main_v127 rfl shapeCasts_S14400x1600x1_S14400x1600,
    StableHlo.binary main_v125 main_v127 main_v128 (mulf : (⟨S14400x1600, .f32⟩ : BufTy).Contents (Elt F) → (⟨S14400x1600, .f32⟩ : BufTy).Contents (Elt F) → (⟨S14400x1600, .f32⟩ : BufTy).Contents (Elt F)) ]
/-- The buffers stage G writes. -/
abbrev stG_W : List (Ref sig .tc) := [main_v108, main_v109, main_v110, main_v111, main_v112, main_v113, main_v114, main_v115, main_v116, main_v117, main_v118, main_v119, main_v120, main_v121, main_v122, main_cst_10, main_call1_v0, main_call1_v1, main_v123, main_v124, main_v125, main_v126, main_v127, main_v128]
theorem stG_writes : (stG : List (HloOp τ sig (Elt F))).Forall fun op => op.writes ⊆ (stG_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stG_sub : (stG : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub ..⟩

/-- Stage H: operations 145 … 148 of @main; later stages read main_v132. -/
abbrev stH : List (HloOp τ sig (Elt F)) :=
  [ StableHlo.binary main_v128 main_v106 main_v129 (subf : (⟨S14400x1600, .f32⟩ : BufTy).Contents (Elt F) → (⟨S14400x1600, .f32⟩ : BufTy).Contents (Elt F) → (⟨S14400x1600, .f32⟩ : BufTy).Contents (Elt F)),
    StableHlo.binary main_v129 main_v128 main_v130 (Host.divf : (⟨S14400x1600, .f32⟩ : BufTy).Contents (Elt F) → (⟨S14400x1600, .f32⟩ : BufTy).Contents (Elt F) → (⟨S14400x1600, .f32⟩ : BufTy).Contents (Elt F)),
    StableHlo.binary main_v107 main_v130 main_v131 (subf : (⟨S14400x1600, .f32⟩ : BufTy).Contents (Elt F) → (⟨S14400x1600, .f32⟩ : BufTy).Contents (Elt F) → (⟨S14400x1600, .f32⟩ : BufTy).Contents (Elt F)),
    StableHlo.unary main_v131 main_v132 (Host.negf : (⟨S14400x1600, .f32⟩ : BufTy).Contents (Elt F) → (⟨S14400x1600, .f32⟩ : BufTy).Contents (Elt F)) ]
/-- The buffers stage H writes. -/
abbrev stH_W : List (Ref sig .tc) := [main_v129, main_v130, main_v131, main_v132]
theorem stH_writes : (stH : List (HloOp τ sig (Elt F))).Forall fun op => op.writes ⊆ (stH_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stH_sub : (stH : List (HloOp τ sig (Elt F))).Forall fun op => op.bufs ⊆ tcRefs τ sig :=
  ⟨binary_bufs_sub .., binary_bufs_sub .., binary_bufs_sub .., unary_bufs_sub ..⟩

/-- Stage I: operations 149 … 173 of @main; later stages read main_v140. -/
abbrev stI : List (HloOp τ sig (Elt F)) :=
  [ StableHlo.nullary main_cst_11 (constant S_ .f32 0x40000000#32),
    StableHlo.unary main_cst_11 main_v133 (broadcastInDim S14400x91 ![] bcast_S_S14400x91 : (⟨S_, .f32⟩ : BufTy).Contents (Elt F) → (⟨S14400x91, .f32⟩ : BufTy).Contents (Elt F)),
    StableHlo.binary main_v6 main_v133 main_v134 (Host.powf : (⟨S14400x91, .f32⟩ : BufTy).Contents (Elt F) → (⟨S14400x91, .f32⟩ : BufTy).Contents (Elt F) → (⟨S14400x91, .f32⟩ : BufTy).Contents (Elt F)),
    StableHlo.nullary main_cst_12 (constant S_ .f32 0x3F400000#32),
    StableHlo.unary main_cst_12 main_v135 (broadcastInDim S14400x91 ![] bcast_S_S14400x91 : (⟨S_, .f32⟩ : BufTy).Contents (Elt F) → (⟨S14400x91, .f32⟩ : BufTy).Contents (Elt F)),
    StableHlo.binary main_v135 main_v134 main_v136 (mulf : (⟨S14400x91, .f32⟩ : BufTy).Contents (Elt F) → (⟨S14400x91, .f32⟩ : BufTy).Contents (Elt F) → (⟨S14400x91, .f32⟩ : BufTy).Contents (Elt F)),
    StableHlo.unary main_v0 main_v137 (Host.negf : (⟨S14400x91, .f32⟩ : BufTy).Contents (Elt F) → (⟨S14400x91, .f32⟩ : BufTy).Contents (Elt F)),
    StableHlo.TRef.unary (.of main_v137 : StableHlo.TRef sig ⟨S14400x91, .f32⟩) main_call2.v0 Host.negf,
    StableHlo.TRef.nullary main_call2_call0.cst (constant S_ .f32 0x00000000#32),
    StableHlo.TRef.unary main_call2_call0.cst main_call2_call0.v0 (broadcastInDim S14400x91 ![] bcast_S_S14400x91),
    StableHlo.TRef.binary main_call2.v0 main_call2_call0.v0 main_call2_call0.v1 maximumf,
    StableHlo.TRef.unary main_call2_call0.cst main_call2_call0.v2 (broadcastInDim S14400x91 ![] bcast_S_S14400x91),
    StableHlo.TRef.binary main_call2.v0 main_call2_call0.v2 main_call2_call0.v3 subf,
    StableHlo.TRef.binary main_call2_call0.v3 main_call2_call0.v3 main_call2_call0.v4 (cmpf .une),
    StableHlo.TRef.unary main_call2_call0.cst main_call2_call0.v5 (broadcastInDim S14400x91 ![] bcast_S_S14400x91),
    StableHlo.TRef.binary main_call2.v0 main_call2_call0.v5 main_call2_call0.v6 addf,
    StableHlo.TRef.unary main_call2_call0.v3 main_call2_call0.v7 Host.absf,
    StableHlo.TRef.unary main_call2_call0.v7 main_call2_call0.v8 Host.negf,
    StableHlo.TRef.unary main_call2_call0.v8 main_call2_call0.v9 Host.exp,
    StableHlo.TRef.unary main_call2_call0.v9 main_call2_call0.v10 Host.log1p,
    StableHlo.TRef.binary main_call2_call0.v1 main_call2_call0.v10 main_call2_call0.v11 addf,
    StableHlo.TRef.ternary main_call2_call0.v4 main_call2_call0.v6 main_call2_call0.v11 main_call2_call0.v12 select,
    StableHlo.TRef.unary main_call2.call0.v12 main_call2.v2 Host.negf,
    StableHlo.unary main_v138 main_v139 (Host.negf : (⟨S14400x91, .f32⟩ : BufTy).Contents (Elt F) → (⟨S14400x91, .f32⟩ : BufTy).Contents (Elt F)),
    StableHlo.binary main_v136 main_v139 main_v140 (mulf : (⟨S14400x91, .f32⟩ : BufTy).Contents (Elt F) → (⟨S14400x91, .f32⟩ : BufTy).Contents (Elt F) → (⟨S14400x91, .f32⟩ : BufTy).Contents (Elt F)) ]
/-- The buffers stage I writes. -/
abbrev stI_W : List (Ref sig .tc) := [main_cst_11, main_v133, main_v134, main_cst_12, main_v135, main_v136, main_v137, main_call2_v0, main_call2_call0_cst, main_call2_call0_v0, main_call2_call0_v1, main_call2_call0_v2, main_call2_call0_v3, main_call2_call0_v4, main_call2_call0_v5, main_call2_call0_v6, main_call2_call0_v7, main_call2_call0_v8, main_call2_call0_v9, main_call2_call0_v10, main_call2_call0_v11, main_call2_v1, main_v138, main_v139, main_v140]
theorem stI_writes : (stI : List (HloOp τ sig (Elt F))).Forall fun op => op.writes ⊆ (stI_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stI_sub : (stI : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., binary_bufs_sub ..⟩

/-- Stage J: operations 174 … 200 of @main; later stages read main_v149. -/
abbrev stJ : List (HloOp τ sig (Elt F)) :=
  [ StableHlo.nullary main_cst_13 (constant S_ .f32 0x3F800000#32),
    StableHlo.unary main_cst_13 main_v141 (broadcastInDim S14400x91 ![] bcast_S_S14400x91 : (⟨S_, .f32⟩ : BufTy).Contents (Elt F) → (⟨S14400x91, .f32⟩ : BufTy).Contents (Elt F)),
    StableHlo.binary main_v141 main_v6 main_v142 (subf : (⟨S14400x91, .f32⟩ : BufTy).Contents (Elt F) → (⟨S14400x91, .f32⟩ : BufTy).Contents (Elt F) → (⟨S14400x91, .f32⟩ : BufTy).Contents (Elt F)),
    StableHlo.nullary main_cst_14 (constant S_ .f32 0x40000000#32),
    StableHlo.unary main_cst_14 main_v143 (broadcastInDim S14400x91 ![] bcast_S_S14400x91 : (⟨S_, .f32⟩ : BufTy).Contents (Elt F) → (⟨S14400x91, .f32⟩ : BufTy).Contents (Elt F)),
    StableHlo.binary main_v142 main_v143 main_v144 (Host.powf : (⟨S14400x91, .f32⟩ : BufTy).Contents (Elt F) → (⟨S14400x91, .f32⟩ : BufTy).Contents (Elt F) → (⟨S14400x91, .f32⟩ : BufTy).Contents (Elt F)),
    StableHlo.nullary main_cst_15 (constant S_ .f32 0x3E800000#32),
    StableHlo.unary main_cst_15 main_v145 (broadcastInDim S14400x91 ![] bcast_S_S14400x91 : (⟨S_, .f32⟩ : BufTy).Contents (Elt F) → (⟨S14400x91, .f32⟩ : BufTy).Contents (Elt F)),
    StableHlo.binary main_v145 main_v144 main_v146 (mulf : (⟨S14400x91, .f32⟩ : BufTy).Contents (Elt F) → (⟨S14400x91, .f32⟩ : BufTy).Contents (Elt F) → (⟨S14400x91, .f32⟩ : BufTy).Contents (Elt F)),
    StableHlo.TRef.unary (.of main_v0 : StableHlo.TRef sig ⟨S14400x91, .f32⟩) main_call3.v0 Host.negf,
    StableHlo.TRef.nullary main_call3_call0.cst (constant S_ .f32 0x00000000#32),
    StableHlo.TRef.unary main_call3_call0.cst main_call3_call0.v0 (broadcastInDim S14400x91 ![] bcast_S_S14400x91),
    StableHlo.TRef.binary main_call3.v0 main_call3_call0.v0 main_call3_call0.v1 maximumf,
    StableHlo.TRef.unary main_call3_call0.cst main_call3_call0.v2 (broadcastInDim S14400x91 ![] bcast_S_S14400x91),
    StableHlo.TRef.binary main_call3.v0 main_call3_call0.v2 main_call3_call0.v3 subf,
    StableHlo.TRef.binary main_call3_call0.v3 main_call3_call0.v3 main_call3_call0.v4 (cmpf .une),
    StableHlo.TRef.unary main_call3_call0.cst main_call3_call0.v5 (broadcastInDim S14400x91 ![] bcast_S_S14400x91),
    StableHlo.TRef.binary main_call3.v0 main_call3_call0.v5 main_call3_call0.v6 addf,
    StableHlo.TRef.unary main_call3_call0.v3 main_call3_call0.v7 Host.absf,
    StableHlo.TRef.unary main_call3_call0.v7 main_call3_call0.v8 Host.negf,
    StableHlo.TRef.unary main_call3_call0.v8 main_call3_call0.v9 Host.exp,
    StableHlo.TRef.unary main_call3_call0.v9 main_call3_call0.v10 Host.log1p,
    StableHlo.TRef.binary main_call3_call0.v1 main_call3_call0.v10 main_call3_call0.v11 addf,
    StableHlo.TRef.ternary main_call3_call0.v4 main_call3_call0.v6 main_call3_call0.v11 main_call3_call0.v12 select,
    StableHlo.TRef.unary main_call3.call0.v12 main_call3.v2 Host.negf,
    StableHlo.unary main_v147 main_v148 (Host.negf : (⟨S14400x91, .f32⟩ : BufTy).Contents (Elt F) → (⟨S14400x91, .f32⟩ : BufTy).Contents (Elt F)),
    StableHlo.binary main_v146 main_v148 main_v149 (mulf : (⟨S14400x91, .f32⟩ : BufTy).Contents (Elt F) → (⟨S14400x91, .f32⟩ : BufTy).Contents (Elt F) → (⟨S14400x91, .f32⟩ : BufTy).Contents (Elt F)) ]
/-- The buffers stage J writes. -/
abbrev stJ_W : List (Ref sig .tc) := [main_cst_13, main_v141, main_v142, main_cst_14, main_v143, main_v144, main_cst_15, main_v145, main_v146, main_call3_v0, main_call3_call0_cst, main_call3_call0_v0, main_call3_call0_v1, main_call3_call0_v2, main_call3_call0_v3, main_call3_call0_v4, main_call3_call0_v5, main_call3_call0_v6, main_call3_call0_v7, main_call3_call0_v8, main_call3_call0_v9, main_call3_call0_v10, main_call3_call0_v11, main_call3_v1, main_v147, main_v148, main_v149]
theorem stJ_writes : (stJ : List (HloOp τ sig (Elt F))).Forall fun op => op.writes ⊆ (stJ_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stJ_sub : (stJ : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., binary_bufs_sub ..⟩

/-- Stage K: operations 201 … 219 of @main; later stages read main_v164. -/
abbrev stK : List (HloOp τ sig (Elt F)) :=
  [ StableHlo.nullary main_c (constantI S_ 32 0#32),
    StableHlo.unary main_c main_v150 (broadcastInDim S1600 ![] bcast_S_S1600 : (⟨S_, .i32⟩ : BufTy).Contents (Elt F) → (⟨S1600, .i32⟩ : BufTy).Contents (Elt F)),
    StableHlo.binary main_arg2 main_v150 main_v151 (cmpi .slt : (⟨S1600, .i32⟩ : BufTy).Contents (Elt F) → (⟨S1600, .i32⟩ : BufTy).Contents (Elt F) → (⟨S1600, .i1⟩ : BufTy).Contents (Elt F)),
    StableHlo.nullary main_c_16 (constantI S_ 32 91#32),
    StableHlo.unary main_c_16 main_v152 (broadcastInDim S1600 ![] bcast_S_S1600 : (⟨S_, .i32⟩ : BufTy).Contents (Elt F) → (⟨S1600, .i32⟩ : BufTy).Contents (Elt F)),
    StableHlo.binary main_arg2 main_v152 main_v153 (addi : (⟨S1600, .i32⟩ : BufTy).Contents (Elt F) → (⟨S1600, .i32⟩ : BufTy).Contents (Elt F) → (⟨S1600, .i32⟩ : BufTy).Contents (Elt F)),
    StableHlo.ternary main_v151 main_v153 main_arg2 main_v154 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    StableHlo.unary main_v154 main_v155 (broadcastInDim S1600x1 ![0] bcast_S1600_S1600x1_0 : (⟨S1600, .i32⟩ : BufTy).Contents (Elt F) → (⟨S1600x1, .i32⟩ : BufTy).Contents (Elt F)),
    StableHlo.binary main_v149 main_v155 main_v156 ((fun x i => Host.gather gather_S14400x91_S1600x1_S14400x1600_0_1_n_n_1_1_144001 x i) : (⟨S14400x91, .f32⟩ : BufTy).Contents (Elt F) → (⟨S1600x1, .i32⟩ : BufTy).Contents (Elt F) → (⟨S14400x1600, .f32⟩ : BufTy).Contents (Elt F)),
    StableHlo.nullary main_c_17 (constantI S_ 32 0#32),
    StableHlo.unary main_c_17 main_v157 (broadcastInDim S1600 ![] bcast_S_S1600 : (⟨S_, .i32⟩ : BufTy).Contents (Elt F) → (⟨S1600, .i32⟩ : BufTy).Contents (Elt F)),
    StableHlo.binary main_arg2 main_v157 main_v158 (cmpi .slt : (⟨S1600, .i32⟩ : BufTy).Contents (Elt F) → (⟨S1600, .i32⟩ : BufTy).Contents (Elt F) → (⟨S1600, .i1⟩ : BufTy).Contents (Elt F)),
    StableHlo.nullary main_c_18 (constantI S_ 32 91#32),
    StableHlo.unary main_c_18 main_v159 (broadcastInDim S1600 ![] bcast_S_S1600 : (⟨S_, .i32⟩ : BufTy).Contents (Elt F) → (⟨S1600, .i32⟩ : BufTy).Contents (Elt F)),
    StableHlo.binary main_arg2 main_v159 main_v160 (addi : (⟨S1600, .i32⟩ : BufTy).Contents (Elt F) → (⟨S1600, .i32⟩ : BufTy).Contents (Elt F) → (⟨S1600, .i32⟩ : BufTy).Contents (Elt F)),
    StableHlo.ternary main_v158 main_v160 main_arg2 main_v161 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    StableHlo.unary main_v161 main_v162 (broadcastInDim S1600x1 ![0] bcast_S1600_S1600x1_0 : (⟨S1600, .i32⟩ : BufTy).Contents (Elt F) → (⟨S1600x1, .i32⟩ : BufTy).Contents (Elt F)),
    StableHlo.binary main_v140 main_v162 main_v163 ((fun x i => Host.gather gather_S14400x91_S1600x1_S14400x1600_0_1_n_n_1_1_144001 x i) : (⟨S14400x91, .f32⟩ : BufTy).Contents (Elt F) → (⟨S1600x1, .i32⟩ : BufTy).Contents (Elt F) → (⟨S14400x1600, .f32⟩ : BufTy).Contents (Elt F)),
    StableHlo.binary main_v156 main_v163 main_v164 (subf : (⟨S14400x1600, .f32⟩ : BufTy).Contents (Elt F) → (⟨S14400x1600, .f32⟩ : BufTy).Contents (Elt F) → (⟨S14400x1600, .f32⟩ : BufTy).Contents (Elt F)) ]
/-- The buffers stage K writes. -/
abbrev stK_W : List (Ref sig .tc) := [main_c, main_v150, main_v151, main_c_16, main_v152, main_v153, main_v154, main_v155, main_v156, main_c_17, main_v157, main_v158, main_c_18, main_v159, main_v160, main_v161, main_v162, main_v163, main_v164]
theorem stK_writes : (stK : List (HloOp τ sig (Elt F))).Forall fun op => op.writes ⊆ (stK_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stK_sub : (stK : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Stage L: operations 220 … 227 of @main; later stages read main_v171. -/
abbrev stL : List (HloOp τ sig (Elt F)) :=
  [ StableHlo.unary main_v7 main_v165 (broadcastInDim S14400x1x4 ![0, 2] bcast_S14400x4_S14400x1x4_0_2 : (⟨S14400x4, .f32⟩ : BufTy).Contents (Elt F) → (⟨S14400x1x4, .f32⟩ : BufTy).Contents (Elt F)),
    StableHlo.unary main_arg3 main_v166 (broadcastInDim S1x1600x4 ![1, 2] bcast_S1600x4_S1x1600x4_1_2 : (⟨S1600x4, .f32⟩ : BufTy).Contents (Elt F) → (⟨S1x1600x4, .f32⟩ : BufTy).Contents (Elt F)),
    StableHlo.unary main_v165 main_v167 (broadcastInDim S14400x1600x4 ![0, 1, 2] bcast_S14400x1x4_S14400x1600x4_0_1_2 : (⟨S14400x1x4, .f32⟩ : BufTy).Contents (Elt F) → (⟨S14400x1600x4, .f32⟩ : BufTy).Contents (Elt F)),
    StableHlo.unary main_v166 main_v168 (broadcastInDim S14400x1600x4 ![0, 1, 2] bcast_S1x1600x4_S14400x1600x4_0_1_2 : (⟨S1x1600x4, .f32⟩ : BufTy).Contents (Elt F) → (⟨S14400x1600x4, .f32⟩ : BufTy).Contents (Elt F)),
    StableHlo.binary main_v167 main_v168 main_v169 (subf : (⟨S14400x1600x4, .f32⟩ : BufTy).Contents (Elt F) → (⟨S14400x1600x4, .f32⟩ : BufTy).Contents (Elt F) → (⟨S14400x1600x4, .f32⟩ : BufTy).Contents (Elt F)),
    StableHlo.unary main_v169 main_v170 (Host.absf : (⟨S14400x1600x4, .f32⟩ : BufTy).Contents (Elt F) → (⟨S14400x1600x4, .f32⟩ : BufTy).Contents (Elt F)),
    StableHlo.nullary main_cst_19 (constant S_ .f32 0x00000000#32),
    StableHlo.binary main_v170 main_cst_19 main_v171 ((fun x v => Host.reduceAdd x v reducesTo_S14400x1600x4_S14400x1600_d2 h_S_) : (⟨S14400x1600x4, .f32⟩ : BufTy).Contents (Elt F) → (⟨S_, .f32⟩ : BufTy).Contents (Elt F) → (⟨S14400x1600, .f32⟩ : BufTy).Contents (Elt F)) ]
/-- The buffers stage L writes. -/
abbrev stL_W : List (Ref sig .tc) := [main_v165, main_v166, main_v167, main_v168, main_v169, main_v170, main_cst_19, main_v171]
theorem stL_writes : (stL : List (HloOp τ sig (Elt F))).Forall fun op => op.writes ⊆ (stL_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stL_sub : (stL : List (HloOp τ sig (Elt F))).Forall fun op => op.bufs ⊆ tcRefs τ sig :=
  ⟨unary_bufs_sub .., unary_bufs_sub .., unary_bufs_sub .., unary_bufs_sub .., binary_bufs_sub .., unary_bufs_sub .., nullary_bufs_sub .., binary_bufs_sub ..⟩

/-- Stage M: operations 228 … 248 of @main; later stages read main_v184. -/
abbrev stM : List (HloOp τ sig (Elt F)) :=
  [ StableHlo.nullary main_cst_20 (constant S_ .f32 0x40A00000#32),
    StableHlo.unary main_cst_20 main_v172 (broadcastInDim S14400x1600 ![] bcast_S_S14400x1600 : (⟨S_, .f32⟩ : BufTy).Contents (Elt F) → (⟨S14400x1600, .f32⟩ : BufTy).Contents (Elt F)),
    StableHlo.binary main_v172 main_v171 main_v173 (mulf : (⟨S14400x1600, .f32⟩ : BufTy).Contents (Elt F) → (⟨S14400x1600, .f32⟩ : BufTy).Contents (Elt F) → (⟨S14400x1600, .f32⟩ : BufTy).Contents (Elt F)),
    StableHlo.nullary main_cst_21 (constant S_ .f32 0x40000000#32),
    StableHlo.unary main_cst_21 main_v174 (broadcastInDim S14400x1600 ![] bcast_S_S14400x1600 : (⟨S_, .f32⟩ : BufTy).Contents (Elt F) → (⟨S14400x1600, .f32⟩ : BufTy).Contents (Elt F)),
    StableHlo.binary main_v174 main_v164 main_v175 (mulf : (⟨S14400x1600, .f32⟩ : BufTy).Contents (Elt F) → (⟨S14400x1600, .f32⟩ : BufTy).Contents (Elt F) → (⟨S14400x1600, .f32⟩ : BufTy).Contents (Elt F)),
    StableHlo.binary main_v173 main_v175 main_v176 (addf : (⟨S14400x1600, .f32⟩ : BufTy).Contents (Elt F) → (⟨S14400x1600, .f32⟩ : BufTy).Contents (Elt F) → (⟨S14400x1600, .f32⟩ : BufTy).Contents (Elt F)),
    StableHlo.nullary main_cst_22 (constant S_ .f32 0x40000000#32),
    StableHlo.unary main_cst_22 main_v177 (broadcastInDim S14400x1600 ![] bcast_S_S14400x1600 : (⟨S_, .f32⟩ : BufTy).Contents (Elt F) → (⟨S14400x1600, .f32⟩ : BufTy).Contents (Elt F)),
    StableHlo.binary main_v177 main_v132 main_v178 (mulf : (⟨S14400x1600, .f32⟩ : BufTy).Contents (Elt F) → (⟨S14400x1600, .f32⟩ : BufTy).Contents (Elt F) → (⟨S14400x1600, .f32⟩ : BufTy).Contents (Elt F)),
    StableHlo.binary main_v176 main_v178 main_v179 (addf : (⟨S14400x1600, .f32⟩ : BufTy).Contents (Elt F) → (⟨S14400x1600, .f32⟩ : BufTy).Contents (Elt F) → (⟨S14400x1600, .f32⟩ : BufTy).Contents (Elt F)),
    StableHlo.reshape main_v179 main_v180 rfl shapeCasts_S14400x1600_S16x900x1600,
    StableHlo.binary main_v180 main_v180 main_v181 (cmpf .une : (⟨S16x900x1600, .f32⟩ : BufTy).Contents (Elt F) → (⟨S16x900x1600, .f32⟩ : BufTy).Contents (Elt F) → (⟨S16x900x1600, .i1⟩ : BufTy).Contents (Elt F)),
    StableHlo.TRef.unary (.of main_v180 : StableHlo.TRef sig ⟨S16x900x1600, .f32⟩) main_call4.v0 Host.absf,
    StableHlo.TRef.nullary main_call4.cst (constant S_ .f32 0x7F800000#32),
    StableHlo.TRef.unary main_call4.cst main_call4.v1 (broadcastInDim S16x900x1600 ![] bcast_S_S16x900x1600),
    StableHlo.TRef.binary main_call4.v0 main_call4.v1 main_call4.v2 (cmpf .oeq),
    StableHlo.binary main_v181 main_v182 main_v183 (ori : (⟨S16x900x1600, .i1⟩ : BufTy).Contents (Elt F) → (⟨S16x900x1600, .i1⟩ : BufTy).Contents (Elt F) → (⟨S16x900x1600, .i1⟩ : BufTy).Contents (Elt F)),
    StableHlo.nullary main_cst_23 (constant S_ .f32 0x49742400#32),
    StableHlo.TRef.unary (.of main_cst_23 : StableHlo.TRef sig ⟨S_, .f32⟩) main_call5.v0 (broadcastInDim S16x900x1600 ![] bcast_S_S16x900x1600),
    StableHlo.TRef.ternary (.of main_v183 : StableHlo.TRef sig ⟨S16x900x1600, .i1⟩) main_call5.v0 (.of main_v180 : StableHlo.TRef sig ⟨S16x900x1600, .f32⟩) main_call5.v1 select ]
/-- The buffers stage M writes. -/
abbrev stM_W : List (Ref sig .tc) := [main_cst_20, main_v172, main_v173, main_cst_21, main_v174, main_v175, main_v176, main_cst_22, main_v177, main_v178, main_v179, main_v180, main_v181, main_call4_v0, main_call4_cst, main_call4_v1, main_v182, main_v183, main_cst_23, main_call5_v0, main_v184]
theorem stM_writes : (stM : List (HloOp τ sig (Elt F))).Forall fun op => op.writes ⊆ (stM_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem stM_sub : (stM : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., nullary_bufs_sub .., unary_bufs_sub .., binary_bufs_sub .., binary_bufs_sub .., reshape_bufs_sub .., binary_bufs_sub .., unary_bufs_sub .., nullary_bufs_sub .., unary_bufs_sub .., binary_bufs_sub .., binary_bufs_sub .., nullary_bufs_sub .., unary_bufs_sub .., ternary_bufs_sub ..⟩

/-- @main's operations, in order. -/
abbrev ops : List (HloOp τ sig (Elt F)) := stA ++ stB ++ stC ++ stD ++ stE ++ stF ++ stG ++ stH ++ stI ++ stJ ++ stK ++ stL ++ stM

/-- The operations of the printed main_part0 (0 … 59), its calls inlined. -/
abbrev pt0 : List (HloOp τ sig (Elt F)) :=
  [ StableHlo.reshape main_arg0 main_v0 rfl shapeCasts_S16x900x91_S14400x91,
    StableHlo.unary main_v0 main_v1 (Host.negf : (⟨S14400x91, .f32⟩ : BufTy).Contents (Elt F) → (⟨S14400x91, .f32⟩ : BufTy).Contents (Elt F)),
    StableHlo.unary main_v1 main_v2 (Host.exp : (⟨S14400x91, .f32⟩ : BufTy).Contents (Elt F) → (⟨S14400x91, .f32⟩ : BufTy).Contents (Elt F)),
    StableHlo.nullary main_cst (constant S_ .f32 0x3F800000#32),
    StableHlo.unary main_cst main_v3 (broadcastInDim S14400x91 ![] bcast_S_S14400x91 : (⟨S_, .f32⟩ : BufTy).Contents (Elt F) → (⟨S14400x91, .f32⟩ : BufTy).Contents (Elt F)),
    StableHlo.binary main_v3 main_v2 main_v4 (addf : (⟨S14400x91, .f32⟩ : BufTy).Contents (Elt F) → (⟨S14400x91, .f32⟩ : BufTy).Contents (Elt F) → (⟨S14400x91, .f32⟩ : BufTy).Contents (Elt F)),
    StableHlo.nullary main_cst_0 (constant S_ .f32 0x3F800000#32),
    StableHlo.unary main_cst_0 main_v5 (broadcastInDim S14400x91 ![] bcast_S_S14400x91 : (⟨S_, .f32⟩ : BufTy).Contents (Elt F) → (⟨S14400x91, .f32⟩ : BufTy).Contents (Elt F)),
    StableHlo.binary main_v5 main_v4 main_v6 (Host.divf : (⟨S14400x91, .f32⟩ : BufTy).Contents (Elt F) → (⟨S14400x91, .f32⟩ : BufTy).Contents (Elt F) → (⟨S14400x91, .f32⟩ : BufTy).Contents (Elt F)),
    StableHlo.reshape main_arg1 main_v7 rfl shapeCasts_S16x900x4_S14400x4,
    StableHlo.unary main_v7 main_v8 ((extractStridedSlice S14400x1 ![0, 0] · slices_S14400x4_S14400x1_0_0) : (⟨S14400x4, .f32⟩ : BufTy).Contents (Elt F) → (⟨S14400x1, .f32⟩ : BufTy).Contents (Elt F)),
    StableHlo.reshape main_v8 main_v9 rfl shapeCasts_S14400x1_S14400,
    StableHlo.unary main_v7 main_v10 ((extractStridedSlice S14400x1 ![0, 1] · slices_S14400x4_S14400x1_0_1) : (⟨S14400x4, .f32⟩ : BufTy).Contents (Elt F) → (⟨S14400x1, .f32⟩ : BufTy).Contents (Elt F)),
    StableHlo.reshape main_v10 main_v11 rfl shapeCasts_S14400x1_S14400,
    StableHlo.unary main_v7 main_v12 ((extractStridedSlice S14400x1 ![0, 2] · slices_S14400x4_S14400x1_0_2) : (⟨S14400x4, .f32⟩ : BufTy).Contents (Elt F) → (⟨S14400x1, .f32⟩ : BufTy).Contents (Elt F)),
    StableHlo.reshape main_v12 main_v13 rfl shapeCasts_S14400x1_S14400,
    StableHlo.unary main_v7 main_v14 ((extractStridedSlice S14400x1 ![0, 3] · slices_S14400x4_S14400x1_0_3) : (⟨S14400x4, .f32⟩ : BufTy).Contents (Elt F) → (⟨S14400x1, .f32⟩ : BufTy).Contents (Elt F)),
    StableHlo.reshape main_v14 main_v15 rfl shapeCasts_S14400x1_S14400,
    StableHlo.nullary main_cst_1 (constant S_ .f32 0x3F000000#32),
    StableHlo.unary main_cst_1 main_v16 (broadcastInDim S14400 ![] bcast_S_S14400 : (⟨S_, .f32⟩ : BufTy).Contents (Elt F) → (⟨S14400, .f32⟩ : BufTy).Contents (Elt F)),
    StableHlo.binary main_v16 main_v13 main_v17 (mulf : (⟨S14400, .f32⟩ : BufTy).Contents (Elt F) → (⟨S14400, .f32⟩ : BufTy).Contents (Elt F) → (⟨S14400, .f32⟩ : BufTy).Contents (Elt F)),
    StableHlo.binary main_v9 main_v17 main_v18 (subf : (⟨S14400, .f32⟩ : BufTy).Contents (Elt F) → (⟨S14400, .f32⟩ : BufTy).Contents (Elt F) → (⟨S14400, .f32⟩ : BufTy).Contents (Elt F)),
    StableHlo.nullary main_cst_2 (constant S_ .f32 0x3F000000#32),
    StableHlo.unary main_cst_2 main_v19 (broadcastInDim S14400 ![] bcast_S_S14400 : (⟨S_, .f32⟩ : BufTy).Contents (Elt F) → (⟨S14400, .f32⟩ : BufTy).Contents (Elt F)),
    StableHlo.binary main_v19 main_v15 main_v20 (mulf : (⟨S14400, .f32⟩ : BufTy).Contents (Elt F) → (⟨S14400, .f32⟩ : BufTy).Contents (Elt F) → (⟨S14400, .f32⟩ : BufTy).Contents (Elt F)),
    StableHlo.binary main_v11 main_v20 main_v21 (subf : (⟨S14400, .f32⟩ : BufTy).Contents (Elt F) → (⟨S14400, .f32⟩ : BufTy).Contents (Elt F) → (⟨S14400, .f32⟩ : BufTy).Contents (Elt F)),
    StableHlo.nullary main_cst_3 (constant S_ .f32 0x3F000000#32),
    StableHlo.unary main_cst_3 main_v22 (broadcastInDim S14400 ![] bcast_S_S14400 : (⟨S_, .f32⟩ : BufTy).Contents (Elt F) → (⟨S14400, .f32⟩ : BufTy).Contents (Elt F)),
    StableHlo.binary main_v22 main_v13 main_v23 (mulf : (⟨S14400, .f32⟩ : BufTy).Contents (Elt F) → (⟨S14400, .f32⟩ : BufTy).Contents (Elt F) → (⟨S14400, .f32⟩ : BufTy).Contents (Elt F)),
    StableHlo.binary main_v9 main_v23 main_v24 (addf : (⟨S14400, .f32⟩ : BufTy).Contents (Elt F) → (⟨S14400, .f32⟩ : BufTy).Contents (Elt F) → (⟨S14400, .f32⟩ : BufTy).Contents (Elt F)),
    StableHlo.nullary main_cst_4 (constant S_ .f32 0x3F000000#32),
    StableHlo.unary main_cst_4 main_v25 (broadcastInDim S14400 ![] bcast_S_S14400 : (⟨S_, .f32⟩ : BufTy).Contents (Elt F) → (⟨S14400, .f32⟩ : BufTy).Contents (Elt F)),
    StableHlo.binary main_v25 main_v15 main_v26 (mulf : (⟨S14400, .f32⟩ : BufTy).Contents (Elt F) → (⟨S14400, .f32⟩ : BufTy).Contents (Elt F) → (⟨S14400, .f32⟩ : BufTy).Contents (Elt F)),
    StableHlo.binary main_v11 main_v26 main_v27 (addf : (⟨S14400, .f32⟩ : BufTy).Contents (Elt F) → (⟨S14400, .f32⟩ : BufTy).Contents (Elt F) → (⟨S14400, .f32⟩ : BufTy).Contents (Elt F)),
    StableHlo.unary main_v18 main_v28 (broadcastInDim S14400x1 ![0] bcast_S14400_S14400x1_0 : (⟨S14400, .f32⟩ : BufTy).Contents (Elt F) → (⟨S14400x1, .f32⟩ : BufTy).Contents (Elt F)),
    StableHlo.unary main_v21 main_v29 (broadcastInDim S14400x1 ![0] bcast_S14400_S14400x1_0 : (⟨S14400, .f32⟩ : BufTy).Contents (Elt F) → (⟨S14400x1, .f32⟩ : BufTy).Contents (Elt F)),
    StableHlo.unary main_v24 main_v30 (broadcastInDim S14400x1 ![0] bcast_S14400_S14400x1_0 : (⟨S14400, .f32⟩ : BufTy).Contents (Elt F) → (⟨S14400x1, .f32⟩ : BufTy).Contents (Elt F)),
    StableHlo.unary main_v27 main_v31 (broadcastInDim S14400x1 ![0] bcast_S14400_S14400x1_0 : (⟨S14400, .f32⟩ : BufTy).Contents (Elt F) → (⟨S14400x1, .f32⟩ : BufTy).Contents (Elt F)),
    StableHlo.nary ![main_v28, main_v29, main_v30, main_v31] main_v32 (fun u => concatenate S14400x4 1 [⟨S14400x1, u 0⟩, ⟨S14400x1, u 1⟩, ⟨S14400x1, u 2⟩, ⟨S14400x1, u 3⟩] concatenates_S14400x1_S14400x1_S14400x1_S14400x1_S14400x4_d1),
    StableHlo.unary main_arg3 main_v33 ((extractStridedSlice S1600x1 ![0, 0] · slices_S1600x4_S1600x1_0_0) : (⟨S1600x4, .f32⟩ : BufTy).Contents (Elt F) → (⟨S1600x1, .f32⟩ : BufTy).Contents (Elt F)),
    StableHlo.reshape main_v33 main_v34 rfl shapeCasts_S1600x1_S1600,
    StableHlo.unary main_arg3 main_v35 ((extractStridedSlice S1600x1 ![0, 1] · slices_S1600x4_S1600x1_0_1) : (⟨S1600x4, .f32⟩ : BufTy).Contents (Elt F) → (⟨S1600x1, .f32⟩ : BufTy).Contents (Elt F)),
    StableHlo.reshape main_v35 main_v36 rfl shapeCasts_S1600x1_S1600,
    StableHlo.unary main_arg3 main_v37 ((extractStridedSlice S1600x1 ![0, 2] · slices_S1600x4_S1600x1_0_2) : (⟨S1600x4, .f32⟩ : BufTy).Contents (Elt F) → (⟨S1600x1, .f32⟩ : BufTy).Contents (Elt F)),
    StableHlo.reshape main_v37 main_v38 rfl shapeCasts_S1600x1_S1600,
    StableHlo.unary main_arg3 main_v39 ((extractStridedSlice S1600x1 ![0, 3] · slices_S1600x4_S1600x1_0_3) : (⟨S1600x4, .f32⟩ : BufTy).Contents (Elt F) → (⟨S1600x1, .f32⟩ : BufTy).Contents (Elt F)),
    StableHlo.reshape main_v39 main_v40 rfl shapeCasts_S1600x1_S1600,
    StableHlo.nullary main_cst_5 (constant S_ .f32 0x3F000000#32),
    StableHlo.unary main_cst_5 main_v41 (broadcastInDim S1600 ![] bcast_S_S1600 : (⟨S_, .f32⟩ : BufTy).Contents (Elt F) → (⟨S1600, .f32⟩ : BufTy).Contents (Elt F)),
    StableHlo.binary main_v41 main_v38 main_v42 (mulf : (⟨S1600, .f32⟩ : BufTy).Contents (Elt F) → (⟨S1600, .f32⟩ : BufTy).Contents (Elt F) → (⟨S1600, .f32⟩ : BufTy).Contents (Elt F)),
    StableHlo.binary main_v34 main_v42 main_v43 (subf : (⟨S1600, .f32⟩ : BufTy).Contents (Elt F) → (⟨S1600, .f32⟩ : BufTy).Contents (Elt F) → (⟨S1600, .f32⟩ : BufTy).Contents (Elt F)),
    StableHlo.nullary main_cst_6 (constant S_ .f32 0x3F000000#32),
    StableHlo.unary main_cst_6 main_v44 (broadcastInDim S1600 ![] bcast_S_S1600 : (⟨S_, .f32⟩ : BufTy).Contents (Elt F) → (⟨S1600, .f32⟩ : BufTy).Contents (Elt F)),
    StableHlo.binary main_v44 main_v40 main_v45 (mulf : (⟨S1600, .f32⟩ : BufTy).Contents (Elt F) → (⟨S1600, .f32⟩ : BufTy).Contents (Elt F) → (⟨S1600, .f32⟩ : BufTy).Contents (Elt F)),
    StableHlo.binary main_v36 main_v45 main_v46 (subf : (⟨S1600, .f32⟩ : BufTy).Contents (Elt F) → (⟨S1600, .f32⟩ : BufTy).Contents (Elt F) → (⟨S1600, .f32⟩ : BufTy).Contents (Elt F)),
    StableHlo.nullary main_cst_7 (constant S_ .f32 0x3F000000#32),
    StableHlo.unary main_cst_7 main_v47 (broadcastInDim S1600 ![] bcast_S_S1600 : (⟨S_, .f32⟩ : BufTy).Contents (Elt F) → (⟨S1600, .f32⟩ : BufTy).Contents (Elt F)),
    StableHlo.binary main_v47 main_v38 main_v48 (mulf : (⟨S1600, .f32⟩ : BufTy).Contents (Elt F) → (⟨S1600, .f32⟩ : BufTy).Contents (Elt F) → (⟨S1600, .f32⟩ : BufTy).Contents (Elt F)),
    StableHlo.binary main_v34 main_v48 main_v49 (addf : (⟨S1600, .f32⟩ : BufTy).Contents (Elt F) → (⟨S1600, .f32⟩ : BufTy).Contents (Elt F) → (⟨S1600, .f32⟩ : BufTy).Contents (Elt F)),
    StableHlo.nullary main_cst_8 (constant S_ .f32 0x3F000000#32) ]

/-- The operations of the printed main_part1 (60 … 121), its calls inlined. -/
abbrev pt1 : List (HloOp τ sig (Elt F)) :=
  [ StableHlo.unary main_cst_8 main_v50 (broadcastInDim S1600 ![] bcast_S_S1600 : (⟨S_, .f32⟩ : BufTy).Contents (Elt F) → (⟨S1600, .f32⟩ : BufTy).Contents (Elt F)),
    StableHlo.binary main_v50 main_v40 main_v51 (mulf : (⟨S1600, .f32⟩ : BufTy).Contents (Elt F) → (⟨S1600, .f32⟩ : BufTy).Contents (Elt F) → (⟨S1600, .f32⟩ : BufTy).Contents (Elt F)),
    StableHlo.binary main_v36 main_v51 main_v52 (addf : (⟨S1600, .f32⟩ : BufTy).Contents (Elt F) → (⟨S1600, .f32⟩ : BufTy).Contents (Elt F) → (⟨S1600, .f32⟩ : BufTy).Contents (Elt F)),
    StableHlo.unary main_v43 main_v53 (broadcastInDim S1600x1 ![0] bcast_S1600_S1600x1_0 : (⟨S1600, .f32⟩ : BufTy).Contents (Elt F) → (⟨S1600x1, .f32⟩ : BufTy).Contents (Elt F)),
    StableHlo.unary main_v46 main_v54 (broadcastInDim S1600x1 ![0] bcast_S1600_S1600x1_0 : (⟨S1600, .f32⟩ : BufTy).Contents (Elt F) → (⟨S1600x1, .f32⟩ : BufTy).Contents (Elt F)),
    StableHlo.unary main_v49 main_v55 (broadcastInDim S1600x1 ![0] bcast_S1600_S1600x1_0 : (⟨S1600, .f32⟩ : BufTy).Contents (Elt F) → (⟨S1600x1, .f32⟩ : BufTy).Contents (Elt F)),
    StableHlo.unary main_v52 main_v56 (broadcastInDim S1600x1 ![0] bcast_S1600_S1600x1_0 : (⟨S1600, .f32⟩ : BufTy).Contents (Elt F) → (⟨S1600x1, .f32⟩ : BufTy).Contents (Elt F)),
    StableHlo.nary ![main_v53, main_v54, main_v55, main_v56] main_v57 (fun u => concatenate S1600x4 1 [⟨S1600x1, u 0⟩, ⟨S1600x1, u 1⟩, ⟨S1600x1, u 2⟩, ⟨S1600x1, u 3⟩] concatenates_S1600x1_S1600x1_S1600x1_S1600x1_S1600x4_d1),
    StableHlo.unary main_v32 main_v58 ((extractStridedSlice S14400x1 ![0, 2] · slices_S14400x4_S14400x1_0_2) : (⟨S14400x4, .f32⟩ : BufTy).Contents (Elt F) → (⟨S14400x1, .f32⟩ : BufTy).Contents (Elt F)),
    StableHlo.reshape main_v58 main_v59 rfl shapeCasts_S14400x1_S14400,
    StableHlo.unary main_v32 main_v60 ((extractStridedSlice S14400x1 ![0, 0] · slices_S14400x4_S14400x1_0_0) : (⟨S14400x4, .f32⟩ : BufTy).Contents (Elt F) → (⟨S14400x1, .f32⟩ : BufTy).Contents (Elt F)),
    StableHlo.reshape main_v60 main_v61 rfl shapeCasts_S14400x1_S14400,
    StableHlo.binary main_v59 main_v61 main_v62 (subf : (⟨S14400, .f32⟩ : BufTy).Contents (Elt F) → (⟨S14400, .f32⟩ : BufTy).Contents (Elt F) → (⟨S14400, .f32⟩ : BufTy).Contents (Elt F)),
    StableHlo.unary main_v32 main_v63 ((extractStridedSlice S14400x1 ![0, 3] · slices_S14400x4_S14400x1_0_3) : (⟨S14400x4, .f32⟩ : BufTy).Contents (Elt F) → (⟨S14400x1, .f32⟩ : BufTy).Contents (Elt F)),
    StableHlo.reshape main_v63 main_v64 rfl shapeCasts_S14400x1_S14400,
    StableHlo.unary main_v32 main_v65 ((extractStridedSlice S14400x1 ![0, 1] · slices_S14400x4_S14400x1_0_1) : (⟨S14400x4, .f32⟩ : BufTy).Contents (Elt F) → (⟨S14400x1, .f32⟩ : BufTy).Contents (Elt F)),
    StableHlo.reshape main_v65 main_v66 rfl shapeCasts_S14400x1_S14400,
    StableHlo.binary main_v64 main_v66 main_v67 (subf : (⟨S14400, .f32⟩ : BufTy).Contents (Elt F) → (⟨S14400, .f32⟩ : BufTy).Contents (Elt F) → (⟨S14400, .f32⟩ : BufTy).Contents (Elt F)),
    StableHlo.binary main_v62 main_v67 main_v68 (mulf : (⟨S14400, .f32⟩ : BufTy).Contents (Elt F) → (⟨S14400, .f32⟩ : BufTy).Contents (Elt F) → (⟨S14400, .f32⟩ : BufTy).Contents (Elt F)),
    StableHlo.unary main_v57 main_v69 ((extractStridedSlice S1600x1 ![0, 2] · slices_S1600x4_S1600x1_0_2) : (⟨S1600x4, .f32⟩ : BufTy).Contents (Elt F) → (⟨S1600x1, .f32⟩ : BufTy).Contents (Elt F)),
    StableHlo.reshape main_v69 main_v70 rfl shapeCasts_S1600x1_S1600,
    StableHlo.unary main_v57 main_v71 ((extractStridedSlice S1600x1 ![0, 0] · slices_S1600x4_S1600x1_0_0) : (⟨S1600x4, .f32⟩ : BufTy).Contents (Elt F) → (⟨S1600x1, .f32⟩ : BufTy).Contents (Elt F)),
    StableHlo.reshape main_v71 main_v72 rfl shapeCasts_S1600x1_S1600,
    StableHlo.binary main_v70 main_v72 main_v73 (subf : (⟨S1600, .f32⟩ : BufTy).Contents (Elt F) → (⟨S1600, .f32⟩ : BufTy).Contents (Elt F) → (⟨S1600, .f32⟩ : BufTy).Contents (Elt F)),
    StableHlo.unary main_v57 main_v74 ((extractStridedSlice S1600x1 ![0, 3] · slices_S1600x4_S1600x1_0_3) : (⟨S1600x4, .f32⟩ : BufTy).Contents (Elt F) → (⟨S1600x1, .f32⟩ : BufTy).Contents (Elt F)),
    StableHlo.reshape main_v74 main_v75 rfl shapeCasts_S1600x1_S1600,
    StableHlo.unary main_v57 main_v76 ((extractStridedSlice S1600x1 ![0, 1] · slices_S1600x4_S1600x1_0_1) : (⟨S1600x4, .f32⟩ : BufTy).Contents (Elt F) → (⟨S1600x1, .f32⟩ : BufTy).Contents (Elt F)),
    StableHlo.reshape main_v76 main_v77 rfl shapeCasts_S1600x1_S1600,
    StableHlo.binary main_v75 main_v77 main_v78 (subf : (⟨S1600, .f32⟩ : BufTy).Contents (Elt F) → (⟨S1600, .f32⟩ : BufTy).Contents (Elt F) → (⟨S1600, .f32⟩ : BufTy).Contents (Elt F)),
    StableHlo.binary main_v73 main_v78 main_v79 (mulf : (⟨S1600, .f32⟩ : BufTy).Contents (Elt F) → (⟨S1600, .f32⟩ : BufTy).Contents (Elt F) → (⟨S1600, .f32⟩ : BufTy).Contents (Elt F)),
    StableHlo.unary main_v32 main_v80 ((extractStridedSlice S14400x2 ![0, 0] · slices_S14400x4_S14400x2_0_0) : (⟨S14400x4, .f32⟩ : BufTy).Contents (Elt F) → (⟨S14400x2, .f32⟩ : BufTy).Contents (Elt F)),
    StableHlo.unary main_v80 main_v81 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v57 main_v82 ((extractStridedSlice S1600x2 ![0, 0] · slices_S1600x4_S1600x2_0_0) : (⟨S1600x4, .f32⟩ : BufTy).Contents (Elt F) → (⟨S1600x2, .f32⟩ : BufTy).Contents (Elt F)),
    StableHlo.unary main_v82 main_v83 (broadcastInDim S1x1600x2 ![1, 2] bcast_S1600x2_S1x1600x2_1_2 : (⟨S1600x2, .f32⟩ : BufTy).Contents (Elt F) → (⟨S1x1600x2, .f32⟩ : BufTy).Contents (Elt F)),
    StableHlo.unary main_v81 main_v84 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    StableHlo.unary main_v83 main_v85 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    StableHlo.binary main_v84 main_v85 main_v86 (maximumf : (⟨S14400x1600x2, .f32⟩ : BufTy).Contents (Elt F) → (⟨S14400x1600x2, .f32⟩ : BufTy).Contents (Elt F) → (⟨S14400x1600x2, .f32⟩ : BufTy).Contents (Elt F)),
    StableHlo.unary main_v32 main_v87 ((extractStridedSlice S14400x2 ![0, 2] · slices_S14400x4_S14400x2_0_2) : (⟨S14400x4, .f32⟩ : BufTy).Contents (Elt F) → (⟨S14400x2, .f32⟩ : BufTy).Contents (Elt F)),
    StableHlo.unary main_v87 main_v88 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v57 main_v89 ((extractStridedSlice S1600x2 ![0, 2] · slices_S1600x4_S1600x2_0_2) : (⟨S1600x4, .f32⟩ : BufTy).Contents (Elt F) → (⟨S1600x2, .f32⟩ : BufTy).Contents (Elt F)),
    StableHlo.unary main_v89 main_v90 (broadcastInDim S1x1600x2 ![1, 2] bcast_S1600x2_S1x1600x2_1_2 : (⟨S1600x2, .f32⟩ : BufTy).Contents (Elt F) → (⟨S1x1600x2, .f32⟩ : BufTy).Contents (Elt F)),
    StableHlo.unary main_v88 main_v91 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    StableHlo.unary main_v90 main_v92 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    StableHlo.binary main_v91 main_v92 main_v93 (minimumf : (⟨S14400x1600x2, .f32⟩ : BufTy).Contents (Elt F) → (⟨S14400x1600x2, .f32⟩ : BufTy).Contents (Elt F) → (⟨S14400x1600x2, .f32⟩ : BufTy).Contents (Elt F)),
    StableHlo.binary main_v93 main_v86 main_v94 (subf : (⟨S14400x1600x2, .f32⟩ : BufTy).Contents (Elt F) → (⟨S14400x1600x2, .f32⟩ : BufTy).Contents (Elt F) → (⟨S14400x1600x2, .f32⟩ : BufTy).Contents (Elt F)),
    StableHlo.nullary main_cst_9 (constant S_ .f32 0x00000000#32),
    StableHlo.TRef.unary (.of main_cst_9 : StableHlo.TRef sig ⟨S_, .f32⟩) main_call0.v0 id,
    StableHlo.TRef.unary main_call0.v0 main_call0.v1 (broadcastInDim S14400x1600x2 ![] bcast_S_S14400x1600x2),
    StableHlo.TRef.binary main_call0.v1 (.of main_v94 : StableHlo.TRef sig ⟨S14400x1600x2, .f32⟩) main_call0.v2 maximumf,
    StableHlo.unary main_v95 main_v96 ((extractStridedSlice S14400x1600x1 ![0, 0, 0] · slices_S14400x1600x2_S14400x1600x1_0_0_0) : (⟨S14400x1600x2, .f32⟩ : BufTy).Contents (Elt F) → (⟨S14400x1600x1, .f32⟩ : BufTy).Contents (Elt F)),
    StableHlo.reshape main_v96 main_v97 rfl shapeCasts_S14400x1600x1_S14400x1600,
    StableHlo.unary main_v95 main_v98 ((extractStridedSlice S14400x1600x1 ![0, 0, 1] · slices_S14400x1600x2_S14400x1600x1_0_0_1) : (⟨S14400x1600x2, .f32⟩ : BufTy).Contents (Elt F) → (⟨S14400x1600x1, .f32⟩ : BufTy).Contents (Elt F)),
    StableHlo.reshape main_v98 main_v99 rfl shapeCasts_S14400x1600x1_S14400x1600,
    StableHlo.binary main_v97 main_v99 main_v100 (mulf : (⟨S14400x1600, .f32⟩ : BufTy).Contents (Elt F) → (⟨S14400x1600, .f32⟩ : BufTy).Contents (Elt F) → (⟨S14400x1600, .f32⟩ : BufTy).Contents (Elt F)),
    StableHlo.unary main_v68 main_v101 (broadcastInDim S14400x1 ![0] bcast_S14400_S14400x1_0 : (⟨S14400, .f32⟩ : BufTy).Contents (Elt F) → (⟨S14400x1, .f32⟩ : BufTy).Contents (Elt F)),
    StableHlo.unary main_v79 main_v102 (broadcastInDim S1x1600 ![1] bcast_S1600_S1x1600_1 : (⟨S1600, .f32⟩ : BufTy).Contents (Elt F) → (⟨S1x1600, .f32⟩ : BufTy).Contents (Elt F)),
    StableHlo.unary main_v101 main_v103 (broadcastInDim S14400x1600 ![0, 1] bcast_S14400x1_S14400x1600_0_1 : (⟨S14400x1, .f32⟩ : BufTy).Contents (Elt F) → (⟨S14400x1600, .f32⟩ : BufTy).Contents (Elt F)),
    StableHlo.unary main_v102 main_v104 (broadcastInDim S14400x1600 ![0, 1] bcast_S1x1600_S14400x1600_0_1 : (⟨S1x1600, .f32⟩ : BufTy).Contents (Elt F) → (⟨S14400x1600, .f32⟩ : BufTy).Contents (Elt F)),
    StableHlo.binary main_v103 main_v104 main_v105 (addf : (⟨S14400x1600, .f32⟩ : BufTy).Contents (Elt F) → (⟨S14400x1600, .f32⟩ : BufTy).Contents (Elt F) → (⟨S14400x1600, .f32⟩ : BufTy).Contents (Elt F)),
    StableHlo.binary main_v105 main_v100 main_v106 (subf : (⟨S14400x1600, .f32⟩ : BufTy).Contents (Elt F) → (⟨S14400x1600, .f32⟩ : BufTy).Contents (Elt F) → (⟨S14400x1600, .f32⟩ : BufTy).Contents (Elt F)),
    StableHlo.binary main_v100 main_v106 main_v107 (Host.divf : (⟨S14400x1600, .f32⟩ : BufTy).Contents (Elt F) → (⟨S14400x1600, .f32⟩ : BufTy).Contents (Elt F) → (⟨S14400x1600, .f32⟩ : BufTy).Contents (Elt F)),
    StableHlo.unary main_v32 main_v108 ((extractStridedSlice S14400x2 ![0, 0] · slices_S14400x4_S14400x2_0_0) : (⟨S14400x4, .f32⟩ : BufTy).Contents (Elt F) → (⟨S14400x2, .f32⟩ : BufTy).Contents (Elt F)) ]

/-- The operations of the printed main_part2 (122 … 213), its calls inlined. -/
abbrev pt2 : List (HloOp τ sig (Elt F)) :=
  [ StableHlo.unary main_v108 main_v109 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v57 main_v110 ((extractStridedSlice S1600x2 ![0, 0] · slices_S1600x4_S1600x2_0_0) : (⟨S1600x4, .f32⟩ : BufTy).Contents (Elt F) → (⟨S1600x2, .f32⟩ : BufTy).Contents (Elt F)),
    StableHlo.unary main_v110 main_v111 (broadcastInDim S1x1600x2 ![1, 2] bcast_S1600x2_S1x1600x2_1_2 : (⟨S1600x2, .f32⟩ : BufTy).Contents (Elt F) → (⟨S1x1600x2, .f32⟩ : BufTy).Contents (Elt F)),
    StableHlo.unary main_v109 main_v112 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    StableHlo.unary main_v111 main_v113 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    StableHlo.binary main_v112 main_v113 main_v114 (minimumf : (⟨S14400x1600x2, .f32⟩ : BufTy).Contents (Elt F) → (⟨S14400x1600x2, .f32⟩ : BufTy).Contents (Elt F) → (⟨S14400x1600x2, .f32⟩ : BufTy).Contents (Elt F)),
    StableHlo.unary main_v32 main_v115 ((extractStridedSlice S14400x2 ![0, 2] · slices_S14400x4_S14400x2_0_2) : (⟨S14400x4, .f32⟩ : BufTy).Contents (Elt F) → (⟨S14400x2, .f32⟩ : BufTy).Contents (Elt F)),
    StableHlo.unary main_v115 main_v116 (broadcastInDim S14400x1x2 ![0, 2] bcast_S14400x2_S14400x1x2_0_2 : (⟨S14400x2, .f32⟩ : BufTy).Contents (Elt F) → (⟨S14400x1x2, .f32⟩ : BufTy).Contents (Elt F)),
    StableHlo.unary main_v57 main_v117 ((extractStridedSlice S1600x2 ![0, 2] · slices_S1600x4_S1600x2_0_2) : (⟨S1600x4, .f32⟩ : BufTy).Contents (Elt F) → (⟨S1600x2, .f32⟩ : BufTy).Contents (Elt F)),
    StableHlo.unary main_v117 main_v118 (broadcastInDim S1x1600x2 ![1, 2] bcast_S1600x2_S1x1600x2_1_2 : (⟨S1600x2, .f32⟩ : BufTy).Contents (Elt F) → (⟨S1x1600x2, .f32⟩ : BufTy).Contents (Elt F)),
    StableHlo.unary main_v116 main_v119 (broadcastInDim S14400x1600x2 ![0, 1, 2] bcast_S14400x1x2_S14400x1600x2_0_1_2 : (⟨S14400x1x2, .f32⟩ : BufTy).Contents (Elt F) → (⟨S14400x1600x2, .f32⟩ : BufTy).Contents (Elt F)),
    StableHlo.unary main_v118 main_v120 (broadcastInDim S14400x1600x2 ![0, 1, 2] bcast_S1x1600x2_S14400x1600x2_0_1_2 : (⟨S1x1600x2, .f32⟩ : BufTy).Contents (Elt F) → (⟨S14400x1600x2, .f32⟩ : BufTy).Contents (Elt F)),
    StableHlo.binary main_v119 main_v120 main_v121 (maximumf : (⟨S14400x1600x2, .f32⟩ : BufTy).Contents (Elt F) → (⟨S14400x1600x2, .f32⟩ : BufTy).Contents (Elt F) → (⟨S14400x1600x2, .f32⟩ : BufTy).Contents (Elt F)),
    StableHlo.binary main_v121 main_v114 main_v122 (subf : (⟨S14400x1600x2, .f32⟩ : BufTy).Contents (Elt F) → (⟨S14400x1600x2, .f32⟩ : BufTy).Contents (Elt F) → (⟨S14400x1600x2, .f32⟩ : BufTy).Contents (Elt F)),
    StableHlo.nullary main_cst_10 (constant S_ .f32 0x00000000#32),
    StableHlo.TRef.unary (.of main_cst_10 : StableHlo.TRef sig ⟨S_, .f32⟩) main_call1.v0 id,
    StableHlo.TRef.unary main_call1.v0 main_call1.v1 (broadcastInDim S14400x1600x2 ![] bcast_S_S14400x1600x2),
    StableHlo.TRef.binary main_call1.v1 (.of main_v122 : StableHlo.TRef sig ⟨S14400x1600x2, .f32⟩) main_call1.v2 maximumf,
    StableHlo.unary main_v123 main_v124 ((extractStridedSlice S14400x1600x1 ![0, 0, 0] · slices_S14400x1600x2_S14400x1600x1_0_0_0) : (⟨S14400x1600x2, .f32⟩ : BufTy).Contents (Elt F) → (⟨S14400x1600x1, .f32⟩ : BufTy).Contents (Elt F)),
    StableHlo.reshape main_v124 main_v125 rfl shapeCasts_S14400x1600x1_S14400x1600,
    StableHlo.unary main_v123 main_v126 ((extractStridedSlice S14400x1600x1 ![0, 0, 1] · slices_S14400x1600x2_S14400x1600x1_0_0_1) : (⟨S14400x1600x2, .f32⟩ : BufTy).Contents (Elt F) → (⟨S14400x1600x1, .f32⟩ : BufTy).Contents (Elt F)),
    StableHlo.reshape main_v126 main_v127 rfl shapeCasts_S14400x1600x1_S14400x1600,
    StableHlo.binary main_v125 main_v127 main_v128 (mulf : (⟨S14400x1600, .f32⟩ : BufTy).Contents (Elt F) → (⟨S14400x1600, .f32⟩ : BufTy).Contents (Elt F) → (⟨S14400x1600, .f32⟩ : BufTy).Contents (Elt F)),
    StableHlo.binary main_v128 main_v106 main_v129 (subf : (⟨S14400x1600, .f32⟩ : BufTy).Contents (Elt F) → (⟨S14400x1600, .f32⟩ : BufTy).Contents (Elt F) → (⟨S14400x1600, .f32⟩ : BufTy).Contents (Elt F)),
    StableHlo.binary main_v129 main_v128 main_v130 (Host.divf : (⟨S14400x1600, .f32⟩ : BufTy).Contents (Elt F) → (⟨S14400x1600, .f32⟩ : BufTy).Contents (Elt F) → (⟨S14400x1600, .f32⟩ : BufTy).Contents (Elt F)),
    StableHlo.binary main_v107 main_v130 main_v131 (subf : (⟨S14400x1600, .f32⟩ : BufTy).Contents (Elt F) → (⟨S14400x1600, .f32⟩ : BufTy).Contents (Elt F) → (⟨S14400x1600, .f32⟩ : BufTy).Contents (Elt F)),
    StableHlo.unary main_v131 main_v132 (Host.negf : (⟨S14400x1600, .f32⟩ : BufTy).Contents (Elt F) → (⟨S14400x1600, .f32⟩ : BufTy).Contents (Elt F)),
    StableHlo.nullary main_cst_11 (constant S_ .f32 0x40000000#32),
    StableHlo.unary main_cst_11 main_v133 (broadcastInDim S14400x91 ![] bcast_S_S14400x91 : (⟨S_, .f32⟩ : BufTy).Contents (Elt F) → (⟨S14400x91, .f32⟩ : BufTy).Contents (Elt F)),
    StableHlo.binary main_v6 main_v133 main_v134 (Host.powf : (⟨S14400x91, .f32⟩ : BufTy).Contents (Elt F) → (⟨S14400x91, .f32⟩ : BufTy).Contents (Elt F) → (⟨S14400x91, .f32⟩ : BufTy).Contents (Elt F)),
    StableHlo.nullary main_cst_12 (constant S_ .f32 0x3F400000#32),
    StableHlo.unary main_cst_12 main_v135 (broadcastInDim S14400x91 ![] bcast_S_S14400x91 : (⟨S_, .f32⟩ : BufTy).Contents (Elt F) → (⟨S14400x91, .f32⟩ : BufTy).Contents (Elt F)),
    StableHlo.binary main_v135 main_v134 main_v136 (mulf : (⟨S14400x91, .f32⟩ : BufTy).Contents (Elt F) → (⟨S14400x91, .f32⟩ : BufTy).Contents (Elt F) → (⟨S14400x91, .f32⟩ : BufTy).Contents (Elt F)),
    StableHlo.unary main_v0 main_v137 (Host.negf : (⟨S14400x91, .f32⟩ : BufTy).Contents (Elt F) → (⟨S14400x91, .f32⟩ : BufTy).Contents (Elt F)),
    StableHlo.TRef.unary (.of main_v137 : StableHlo.TRef sig ⟨S14400x91, .f32⟩) main_call2.v0 Host.negf,
    StableHlo.TRef.nullary main_call2_call0.cst (constant S_ .f32 0x00000000#32),
    StableHlo.TRef.unary main_call2_call0.cst main_call2_call0.v0 (broadcastInDim S14400x91 ![] bcast_S_S14400x91),
    StableHlo.TRef.binary main_call2.v0 main_call2_call0.v0 main_call2_call0.v1 maximumf,
    StableHlo.TRef.unary main_call2_call0.cst main_call2_call0.v2 (broadcastInDim S14400x91 ![] bcast_S_S14400x91),
    StableHlo.TRef.binary main_call2.v0 main_call2_call0.v2 main_call2_call0.v3 subf,
    StableHlo.TRef.binary main_call2_call0.v3 main_call2_call0.v3 main_call2_call0.v4 (cmpf .une),
    StableHlo.TRef.unary main_call2_call0.cst main_call2_call0.v5 (broadcastInDim S14400x91 ![] bcast_S_S14400x91),
    StableHlo.TRef.binary main_call2.v0 main_call2_call0.v5 main_call2_call0.v6 addf,
    StableHlo.TRef.unary main_call2_call0.v3 main_call2_call0.v7 Host.absf,
    StableHlo.TRef.unary main_call2_call0.v7 main_call2_call0.v8 Host.negf,
    StableHlo.TRef.unary main_call2_call0.v8 main_call2_call0.v9 Host.exp,
    StableHlo.TRef.unary main_call2_call0.v9 main_call2_call0.v10 Host.log1p,
    StableHlo.TRef.binary main_call2_call0.v1 main_call2_call0.v10 main_call2_call0.v11 addf,
    StableHlo.TRef.ternary main_call2_call0.v4 main_call2_call0.v6 main_call2_call0.v11 main_call2_call0.v12 select,
    StableHlo.TRef.unary main_call2.call0.v12 main_call2.v2 Host.negf,
    StableHlo.unary main_v138 main_v139 (Host.negf : (⟨S14400x91, .f32⟩ : BufTy).Contents (Elt F) → (⟨S14400x91, .f32⟩ : BufTy).Contents (Elt F)),
    StableHlo.binary main_v136 main_v139 main_v140 (mulf : (⟨S14400x91, .f32⟩ : BufTy).Contents (Elt F) → (⟨S14400x91, .f32⟩ : BufTy).Contents (Elt F) → (⟨S14400x91, .f32⟩ : BufTy).Contents (Elt F)),
    StableHlo.nullary main_cst_13 (constant S_ .f32 0x3F800000#32),
    StableHlo.unary main_cst_13 main_v141 (broadcastInDim S14400x91 ![] bcast_S_S14400x91 : (⟨S_, .f32⟩ : BufTy).Contents (Elt F) → (⟨S14400x91, .f32⟩ : BufTy).Contents (Elt F)),
    StableHlo.binary main_v141 main_v6 main_v142 (subf : (⟨S14400x91, .f32⟩ : BufTy).Contents (Elt F) → (⟨S14400x91, .f32⟩ : BufTy).Contents (Elt F) → (⟨S14400x91, .f32⟩ : BufTy).Contents (Elt F)),
    StableHlo.nullary main_cst_14 (constant S_ .f32 0x40000000#32),
    StableHlo.unary main_cst_14 main_v143 (broadcastInDim S14400x91 ![] bcast_S_S14400x91 : (⟨S_, .f32⟩ : BufTy).Contents (Elt F) → (⟨S14400x91, .f32⟩ : BufTy).Contents (Elt F)),
    StableHlo.binary main_v142 main_v143 main_v144 (Host.powf : (⟨S14400x91, .f32⟩ : BufTy).Contents (Elt F) → (⟨S14400x91, .f32⟩ : BufTy).Contents (Elt F) → (⟨S14400x91, .f32⟩ : BufTy).Contents (Elt F)),
    StableHlo.nullary main_cst_15 (constant S_ .f32 0x3E800000#32),
    StableHlo.unary main_cst_15 main_v145 (broadcastInDim S14400x91 ![] bcast_S_S14400x91 : (⟨S_, .f32⟩ : BufTy).Contents (Elt F) → (⟨S14400x91, .f32⟩ : BufTy).Contents (Elt F)),
    StableHlo.binary main_v145 main_v144 main_v146 (mulf : (⟨S14400x91, .f32⟩ : BufTy).Contents (Elt F) → (⟨S14400x91, .f32⟩ : BufTy).Contents (Elt F) → (⟨S14400x91, .f32⟩ : BufTy).Contents (Elt F)),
    StableHlo.TRef.unary (.of main_v0 : StableHlo.TRef sig ⟨S14400x91, .f32⟩) main_call3.v0 Host.negf,
    StableHlo.TRef.nullary main_call3_call0.cst (constant S_ .f32 0x00000000#32),
    StableHlo.TRef.unary main_call3_call0.cst main_call3_call0.v0 (broadcastInDim S14400x91 ![] bcast_S_S14400x91),
    StableHlo.TRef.binary main_call3.v0 main_call3_call0.v0 main_call3_call0.v1 maximumf,
    StableHlo.TRef.unary main_call3_call0.cst main_call3_call0.v2 (broadcastInDim S14400x91 ![] bcast_S_S14400x91),
    StableHlo.TRef.binary main_call3.v0 main_call3_call0.v2 main_call3_call0.v3 subf,
    StableHlo.TRef.binary main_call3_call0.v3 main_call3_call0.v3 main_call3_call0.v4 (cmpf .une),
    StableHlo.TRef.unary main_call3_call0.cst main_call3_call0.v5 (broadcastInDim S14400x91 ![] bcast_S_S14400x91),
    StableHlo.TRef.binary main_call3.v0 main_call3_call0.v5 main_call3_call0.v6 addf,
    StableHlo.TRef.unary main_call3_call0.v3 main_call3_call0.v7 Host.absf,
    StableHlo.TRef.unary main_call3_call0.v7 main_call3_call0.v8 Host.negf,
    StableHlo.TRef.unary main_call3_call0.v8 main_call3_call0.v9 Host.exp,
    StableHlo.TRef.unary main_call3_call0.v9 main_call3_call0.v10 Host.log1p,
    StableHlo.TRef.binary main_call3_call0.v1 main_call3_call0.v10 main_call3_call0.v11 addf,
    StableHlo.TRef.ternary main_call3_call0.v4 main_call3_call0.v6 main_call3_call0.v11 main_call3_call0.v12 select,
    StableHlo.TRef.unary main_call3.call0.v12 main_call3.v2 Host.negf,
    StableHlo.unary main_v147 main_v148 (Host.negf : (⟨S14400x91, .f32⟩ : BufTy).Contents (Elt F) → (⟨S14400x91, .f32⟩ : BufTy).Contents (Elt F)),
    StableHlo.binary main_v146 main_v148 main_v149 (mulf : (⟨S14400x91, .f32⟩ : BufTy).Contents (Elt F) → (⟨S14400x91, .f32⟩ : BufTy).Contents (Elt F) → (⟨S14400x91, .f32⟩ : BufTy).Contents (Elt F)),
    StableHlo.nullary main_c (constantI S_ 32 0#32),
    StableHlo.unary main_c main_v150 (broadcastInDim S1600 ![] bcast_S_S1600 : (⟨S_, .i32⟩ : BufTy).Contents (Elt F) → (⟨S1600, .i32⟩ : BufTy).Contents (Elt F)),
    StableHlo.binary main_arg2 main_v150 main_v151 (cmpi .slt : (⟨S1600, .i32⟩ : BufTy).Contents (Elt F) → (⟨S1600, .i32⟩ : BufTy).Contents (Elt F) → (⟨S1600, .i1⟩ : BufTy).Contents (Elt F)),
    StableHlo.nullary main_c_16 (constantI S_ 32 91#32),
    StableHlo.unary main_c_16 main_v152 (broadcastInDim S1600 ![] bcast_S_S1600 : (⟨S_, .i32⟩ : BufTy).Contents (Elt F) → (⟨S1600, .i32⟩ : BufTy).Contents (Elt F)),
    StableHlo.binary main_arg2 main_v152 main_v153 (addi : (⟨S1600, .i32⟩ : BufTy).Contents (Elt F) → (⟨S1600, .i32⟩ : BufTy).Contents (Elt F) → (⟨S1600, .i32⟩ : BufTy).Contents (Elt F)),
    StableHlo.ternary main_v151 main_v153 main_arg2 main_v154 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    StableHlo.unary main_v154 main_v155 (broadcastInDim S1600x1 ![0] bcast_S1600_S1600x1_0 : (⟨S1600, .i32⟩ : BufTy).Contents (Elt F) → (⟨S1600x1, .i32⟩ : BufTy).Contents (Elt F)),
    StableHlo.binary main_v149 main_v155 main_v156 ((fun x i => Host.gather gather_S14400x91_S1600x1_S14400x1600_0_1_n_n_1_1_144001 x i) : (⟨S14400x91, .f32⟩ : BufTy).Contents (Elt F) → (⟨S1600x1, .i32⟩ : BufTy).Contents (Elt F) → (⟨S14400x1600, .f32⟩ : BufTy).Contents (Elt F)),
    StableHlo.nullary main_c_17 (constantI S_ 32 0#32),
    StableHlo.unary main_c_17 main_v157 (broadcastInDim S1600 ![] bcast_S_S1600 : (⟨S_, .i32⟩ : BufTy).Contents (Elt F) → (⟨S1600, .i32⟩ : BufTy).Contents (Elt F)),
    StableHlo.binary main_arg2 main_v157 main_v158 (cmpi .slt : (⟨S1600, .i32⟩ : BufTy).Contents (Elt F) → (⟨S1600, .i32⟩ : BufTy).Contents (Elt F) → (⟨S1600, .i1⟩ : BufTy).Contents (Elt F)),
    StableHlo.nullary main_c_18 (constantI S_ 32 91#32) ]

/-- The operations of the printed main_part3 (214 … 248), its calls inlined. -/
abbrev pt3 : List (HloOp τ sig (Elt F)) :=
  [ StableHlo.unary main_c_18 main_v159 (broadcastInDim S1600 ![] bcast_S_S1600 : (⟨S_, .i32⟩ : BufTy).Contents (Elt F) → (⟨S1600, .i32⟩ : BufTy).Contents (Elt F)),
    StableHlo.binary main_arg2 main_v159 main_v160 (addi : (⟨S1600, .i32⟩ : BufTy).Contents (Elt F) → (⟨S1600, .i32⟩ : BufTy).Contents (Elt F) → (⟨S1600, .i32⟩ : BufTy).Contents (Elt F)),
    StableHlo.ternary main_v158 main_v160 main_arg2 main_v161 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    StableHlo.unary main_v161 main_v162 (broadcastInDim S1600x1 ![0] bcast_S1600_S1600x1_0 : (⟨S1600, .i32⟩ : BufTy).Contents (Elt F) → (⟨S1600x1, .i32⟩ : BufTy).Contents (Elt F)),
    StableHlo.binary main_v140 main_v162 main_v163 ((fun x i => Host.gather gather_S14400x91_S1600x1_S14400x1600_0_1_n_n_1_1_144001 x i) : (⟨S14400x91, .f32⟩ : BufTy).Contents (Elt F) → (⟨S1600x1, .i32⟩ : BufTy).Contents (Elt F) → (⟨S14400x1600, .f32⟩ : BufTy).Contents (Elt F)),
    StableHlo.binary main_v156 main_v163 main_v164 (subf : (⟨S14400x1600, .f32⟩ : BufTy).Contents (Elt F) → (⟨S14400x1600, .f32⟩ : BufTy).Contents (Elt F) → (⟨S14400x1600, .f32⟩ : BufTy).Contents (Elt F)),
    StableHlo.unary main_v7 main_v165 (broadcastInDim S14400x1x4 ![0, 2] bcast_S14400x4_S14400x1x4_0_2 : (⟨S14400x4, .f32⟩ : BufTy).Contents (Elt F) → (⟨S14400x1x4, .f32⟩ : BufTy).Contents (Elt F)),
    StableHlo.unary main_arg3 main_v166 (broadcastInDim S1x1600x4 ![1, 2] bcast_S1600x4_S1x1600x4_1_2 : (⟨S1600x4, .f32⟩ : BufTy).Contents (Elt F) → (⟨S1x1600x4, .f32⟩ : BufTy).Contents (Elt F)),
    StableHlo.unary main_v165 main_v167 (broadcastInDim S14400x1600x4 ![0, 1, 2] bcast_S14400x1x4_S14400x1600x4_0_1_2 : (⟨S14400x1x4, .f32⟩ : BufTy).Contents (Elt F) → (⟨S14400x1600x4, .f32⟩ : BufTy).Contents (Elt F)),
    StableHlo.unary main_v166 main_v168 (broadcastInDim S14400x1600x4 ![0, 1, 2] bcast_S1x1600x4_S14400x1600x4_0_1_2 : (⟨S1x1600x4, .f32⟩ : BufTy).Contents (Elt F) → (⟨S14400x1600x4, .f32⟩ : BufTy).Contents (Elt F)),
    StableHlo.binary main_v167 main_v168 main_v169 (subf : (⟨S14400x1600x4, .f32⟩ : BufTy).Contents (Elt F) → (⟨S14400x1600x4, .f32⟩ : BufTy).Contents (Elt F) → (⟨S14400x1600x4, .f32⟩ : BufTy).Contents (Elt F)),
    StableHlo.unary main_v169 main_v170 (Host.absf : (⟨S14400x1600x4, .f32⟩ : BufTy).Contents (Elt F) → (⟨S14400x1600x4, .f32⟩ : BufTy).Contents (Elt F)),
    StableHlo.nullary main_cst_19 (constant S_ .f32 0x00000000#32),
    StableHlo.binary main_v170 main_cst_19 main_v171 ((fun x v => Host.reduceAdd x v reducesTo_S14400x1600x4_S14400x1600_d2 h_S_) : (⟨S14400x1600x4, .f32⟩ : BufTy).Contents (Elt F) → (⟨S_, .f32⟩ : BufTy).Contents (Elt F) → (⟨S14400x1600, .f32⟩ : BufTy).Contents (Elt F)),
    StableHlo.nullary main_cst_20 (constant S_ .f32 0x40A00000#32),
    StableHlo.unary main_cst_20 main_v172 (broadcastInDim S14400x1600 ![] bcast_S_S14400x1600 : (⟨S_, .f32⟩ : BufTy).Contents (Elt F) → (⟨S14400x1600, .f32⟩ : BufTy).Contents (Elt F)),
    StableHlo.binary main_v172 main_v171 main_v173 (mulf : (⟨S14400x1600, .f32⟩ : BufTy).Contents (Elt F) → (⟨S14400x1600, .f32⟩ : BufTy).Contents (Elt F) → (⟨S14400x1600, .f32⟩ : BufTy).Contents (Elt F)),
    StableHlo.nullary main_cst_21 (constant S_ .f32 0x40000000#32),
    StableHlo.unary main_cst_21 main_v174 (broadcastInDim S14400x1600 ![] bcast_S_S14400x1600 : (⟨S_, .f32⟩ : BufTy).Contents (Elt F) → (⟨S14400x1600, .f32⟩ : BufTy).Contents (Elt F)),
    StableHlo.binary main_v174 main_v164 main_v175 (mulf : (⟨S14400x1600, .f32⟩ : BufTy).Contents (Elt F) → (⟨S14400x1600, .f32⟩ : BufTy).Contents (Elt F) → (⟨S14400x1600, .f32⟩ : BufTy).Contents (Elt F)),
    StableHlo.binary main_v173 main_v175 main_v176 (addf : (⟨S14400x1600, .f32⟩ : BufTy).Contents (Elt F) → (⟨S14400x1600, .f32⟩ : BufTy).Contents (Elt F) → (⟨S14400x1600, .f32⟩ : BufTy).Contents (Elt F)),
    StableHlo.nullary main_cst_22 (constant S_ .f32 0x40000000#32),
    StableHlo.unary main_cst_22 main_v177 (broadcastInDim S14400x1600 ![] bcast_S_S14400x1600 : (⟨S_, .f32⟩ : BufTy).Contents (Elt F) → (⟨S14400x1600, .f32⟩ : BufTy).Contents (Elt F)),
    StableHlo.binary main_v177 main_v132 main_v178 (mulf : (⟨S14400x1600, .f32⟩ : BufTy).Contents (Elt F) → (⟨S14400x1600, .f32⟩ : BufTy).Contents (Elt F) → (⟨S14400x1600, .f32⟩ : BufTy).Contents (Elt F)),
    StableHlo.binary main_v176 main_v178 main_v179 (addf : (⟨S14400x1600, .f32⟩ : BufTy).Contents (Elt F) → (⟨S14400x1600, .f32⟩ : BufTy).Contents (Elt F) → (⟨S14400x1600, .f32⟩ : BufTy).Contents (Elt F)),
    StableHlo.reshape main_v179 main_v180 rfl shapeCasts_S14400x1600_S16x900x1600,
    StableHlo.binary main_v180 main_v180 main_v181 (cmpf .une : (⟨S16x900x1600, .f32⟩ : BufTy).Contents (Elt F) → (⟨S16x900x1600, .f32⟩ : BufTy).Contents (Elt F) → (⟨S16x900x1600, .i1⟩ : BufTy).Contents (Elt F)),
    StableHlo.TRef.unary (.of main_v180 : StableHlo.TRef sig ⟨S16x900x1600, .f32⟩) main_call4.v0 Host.absf,
    StableHlo.TRef.nullary main_call4.cst (constant S_ .f32 0x7F800000#32),
    StableHlo.TRef.unary main_call4.cst main_call4.v1 (broadcastInDim S16x900x1600 ![] bcast_S_S16x900x1600),
    StableHlo.TRef.binary main_call4.v0 main_call4.v1 main_call4.v2 (cmpf .oeq),
    StableHlo.binary main_v181 main_v182 main_v183 (ori : (⟨S16x900x1600, .i1⟩ : BufTy).Contents (Elt F) → (⟨S16x900x1600, .i1⟩ : BufTy).Contents (Elt F) → (⟨S16x900x1600, .i1⟩ : BufTy).Contents (Elt F)),
    StableHlo.nullary main_cst_23 (constant S_ .f32 0x49742400#32),
    StableHlo.TRef.unary (.of main_cst_23 : StableHlo.TRef sig ⟨S_, .f32⟩) main_call5.v0 (broadcastInDim S16x900x1600 ![] bcast_S_S16x900x1600),
    StableHlo.TRef.ternary (.of main_v183 : StableHlo.TRef sig ⟨S16x900x1600, .i1⟩) main_call5.v0 (.of main_v180 : StableHlo.TRef sig ⟨S16x900x1600, .f32⟩) main_call5.v1 select ]

end Cert.ReferenceIdeal.Hand

end
-- ==== Proof.RefDefs.lean ====
/- GENERATED by: cd $KIT/certs/proofs/430708_j55284819034883_2_alg && bun scratch/mk_ref.js  (the script is filed with the unit; a table, no argument) — from proof/ReferenceIdeal.lean:
   the reference program's thirteen stages as PURE functions of arrays: for each array a later stage reads, the stage's
   operations that compute it, one let per printed operation in the printed order, over the arrays the stage reads.
   Nothing here mentions a buffer or a run. -/
import proofs.«430708_j55284819034883_2_alg».proof.Proof.Gen.ReferenceIdeal

noncomputable section

namespace Cert.ReferenceIdeal.Hand

open Cert.ReferenceIdeal Cert.ReferenceIdeal.Gen Idealize.ShloMosaic

variable {F : FTy → Type} [FloatOps F]

/-- The array main_v0 from main_arg0 (stage A, 1 operations). -/
def stA_v0 (x_arg0 : FVec F S16x900x91 .f32) : FVec F S14400x91 .f32 :=
  let x_v0 : FVec F S14400x91 .f32 := shapeCast S14400x91 x_arg0 shapeCasts_S16x900x91_S14400x91
  x_v0

/-- The array main_v6 from main_arg0 (stage A, 9 operations). -/
def stA_v6 (x_arg0 : FVec F S16x900x91 .f32) : FVec F S14400x91 .f32 :=
  let x_v0 : FVec F S14400x91 .f32 := shapeCast S14400x91 x_arg0 shapeCasts_S16x900x91_S14400x91
  let x_v1 : FVec F S14400x91 .f32 := (Host.negf) x_v0
  let x_v2 : FVec F S14400x91 .f32 := (Host.exp) x_v1
  let x_cst : FVec F S_ .f32 := (constant (F := F) S_ .f32 0x3F800000#32)
  let x_v3 : FVec F S14400x91 .f32 := (broadcastInDim S14400x91 ![] bcast_S_S14400x91) x_cst
  let x_v4 : FVec F S14400x91 .f32 := (addf) x_v3 x_v2
  let x_cst_0 : FVec F S_ .f32 := (constant (F := F) S_ .f32 0x3F800000#32)
  let x_v5 : FVec F S14400x91 .f32 := (broadcastInDim S14400x91 ![] bcast_S_S14400x91) x_cst_0
  let x_v6 : FVec F S14400x91 .f32 := (Host.divf) x_v5 x_v4
  x_v6

/-- The array main_v7 from main_arg1 (stage B, 1 operations). -/
def stB_v7 (x_arg1 : FVec F S16x900x4 .f32) : FVec F S14400x4 .f32 :=
  let x_v7 : FVec F S14400x4 .f32 := shapeCast S14400x4 x_arg1 shapeCasts_S16x900x4_S14400x4
  x_v7

/-- The array main_v32 from main_arg1 (stage B, 30 operations). -/
def stB_v32 (x_arg1 : FVec F S16x900x4 .f32) : FVec F S14400x4 .f32 :=
  let x_v7 : FVec F S14400x4 .f32 := shapeCast S14400x4 x_arg1 shapeCasts_S16x900x4_S14400x4
  let x_v8 : FVec F S14400x1 .f32 := ((extractStridedSlice S14400x1 ![0, 0] · slices_S14400x4_S14400x1_0_0)) x_v7
  let x_v9 : FVec F S14400 .f32 := shapeCast S14400 x_v8 shapeCasts_S14400x1_S14400
  let x_v10 : FVec F S14400x1 .f32 := ((extractStridedSlice S14400x1 ![0, 1] · slices_S14400x4_S14400x1_0_1)) x_v7
  let x_v11 : FVec F S14400 .f32 := shapeCast S14400 x_v10 shapeCasts_S14400x1_S14400
  let x_v12 : FVec F S14400x1 .f32 := ((extractStridedSlice S14400x1 ![0, 2] · slices_S14400x4_S14400x1_0_2)) x_v7
  let x_v13 : FVec F S14400 .f32 := shapeCast S14400 x_v12 shapeCasts_S14400x1_S14400
  let x_v14 : FVec F S14400x1 .f32 := ((extractStridedSlice S14400x1 ![0, 3] · slices_S14400x4_S14400x1_0_3)) x_v7
  let x_v15 : FVec F S14400 .f32 := shapeCast S14400 x_v14 shapeCasts_S14400x1_S14400
  let x_cst_1 : FVec F S_ .f32 := (constant (F := F) S_ .f32 0x3F000000#32)
  let x_v16 : FVec F S14400 .f32 := (broadcastInDim S14400 ![] bcast_S_S14400) x_cst_1
  let x_v17 : FVec F S14400 .f32 := (mulf) x_v16 x_v13
  let x_v18 : FVec F S14400 .f32 := (subf) x_v9 x_v17
  let x_cst_2 : FVec F S_ .f32 := (constant (F := F) S_ .f32 0x3F000000#32)
  let x_v19 : FVec F S14400 .f32 := (broadcastInDim S14400 ![] bcast_S_S14400) x_cst_2
  let x_v20 : FVec F S14400 .f32 := (mulf) x_v19 x_v15
  let x_v21 : FVec F S14400 .f32 := (subf) x_v11 x_v20
  let x_cst_3 : FVec F S_ .f32 := (constant (F := F) S_ .f32 0x3F000000#32)
  let x_v22 : FVec F S14400 .f32 := (broadcastInDim S14400 ![] bcast_S_S14400) x_cst_3
  let x_v23 : FVec F S14400 .f32 := (mulf) x_v22 x_v13
  let x_v24 : FVec F S14400 .f32 := (addf) x_v9 x_v23
  let x_cst_4 : FVec F S_ .f32 := (constant (F := F) S_ .f32 0x3F000000#32)
  let x_v25 : FVec F S14400 .f32 := (broadcastInDim S14400 ![] bcast_S_S14400) x_cst_4
  let x_v26 : FVec F S14400 .f32 := (mulf) x_v25 x_v15
  let x_v27 : FVec F S14400 .f32 := (addf) x_v11 x_v26
  let x_v28 : FVec F S14400x1 .f32 := (broadcastInDim S14400x1 ![0] bcast_S14400_S14400x1_0) x_v18
  let x_v29 : FVec F S14400x1 .f32 := (broadcastInDim S14400x1 ![0] bcast_S14400_S14400x1_0) x_v21
  let x_v30 : FVec F S14400x1 .f32 := (broadcastInDim S14400x1 ![0] bcast_S14400_S14400x1_0) x_v24
  let x_v31 : FVec F S14400x1 .f32 := (broadcastInDim S14400x1 ![0] bcast_S14400_S14400x1_0) x_v27
  let x_v32 : FVec F S14400x4 .f32 := concatenate S14400x4 1 [⟨S14400x1, x_v28⟩, ⟨S14400x1, x_v29⟩, ⟨S14400x1, x_v30⟩, ⟨S14400x1, x_v31⟩] concatenates_S14400x1_S14400x1_S14400x1_S14400x1_S14400x4_d1
  x_v32

/-- The array main_v57 from main_arg3 (stage C, 29 operations). -/
def stC_v57 (x_arg3 : FVec F S1600x4 .f32) : FVec F S1600x4 .f32 :=
  let x_v33 : FVec F S1600x1 .f32 := ((extractStridedSlice S1600x1 ![0, 0] · slices_S1600x4_S1600x1_0_0)) x_arg3
  let x_v34 : FVec F S1600 .f32 := shapeCast S1600 x_v33 shapeCasts_S1600x1_S1600
  let x_v35 : FVec F S1600x1 .f32 := ((extractStridedSlice S1600x1 ![0, 1] · slices_S1600x4_S1600x1_0_1)) x_arg3
  let x_v36 : FVec F S1600 .f32 := shapeCast S1600 x_v35 shapeCasts_S1600x1_S1600
  let x_v37 : FVec F S1600x1 .f32 := ((extractStridedSlice S1600x1 ![0, 2] · slices_S1600x4_S1600x1_0_2)) x_arg3
  let x_v38 : FVec F S1600 .f32 := shapeCast S1600 x_v37 shapeCasts_S1600x1_S1600
  let x_v39 : FVec F S1600x1 .f32 := ((extractStridedSlice S1600x1 ![0, 3] · slices_S1600x4_S1600x1_0_3)) x_arg3
  let x_v40 : FVec F S1600 .f32 := shapeCast S1600 x_v39 shapeCasts_S1600x1_S1600
  let x_cst_5 : FVec F S_ .f32 := (constant (F := F) S_ .f32 0x3F000000#32)
  let x_v41 : FVec F S1600 .f32 := (broadcastInDim S1600 ![] bcast_S_S1600) x_cst_5
  let x_v42 : FVec F S1600 .f32 := (mulf) x_v41 x_v38
  let x_v43 : FVec F S1600 .f32 := (subf) x_v34 x_v42
  let x_cst_6 : FVec F S_ .f32 := (constant (F := F) S_ .f32 0x3F000000#32)
  let x_v44 : FVec F S1600 .f32 := (broadcastInDim S1600 ![] bcast_S_S1600) x_cst_6
  let x_v45 : FVec F S1600 .f32 := (mulf) x_v44 x_v40
  let x_v46 : FVec F S1600 .f32 := (subf) x_v36 x_v45
  let x_cst_7 : FVec F S_ .f32 := (constant (F := F) S_ .f32 0x3F000000#32)
  let x_v47 : FVec F S1600 .f32 := (broadcastInDim S1600 ![] bcast_S_S1600) x_cst_7
  let x_v48 : FVec F S1600 .f32 := (mulf) x_v47 x_v38
  let x_v49 : FVec F S1600 .f32 := (addf) x_v34 x_v48
  let x_cst_8 : FVec F S_ .f32 := (constant (F := F) S_ .f32 0x3F000000#32)
  let x_v50 : FVec F S1600 .f32 := (broadcastInDim S1600 ![] bcast_S_S1600) x_cst_8
  let x_v51 : FVec F S1600 .f32 := (mulf) x_v50 x_v40
  let x_v52 : FVec F S1600 .f32 := (addf) x_v36 x_v51
  let x_v53 : FVec F S1600x1 .f32 := (broadcastInDim S1600x1 ![0] bcast_S1600_S1600x1_0) x_v43
  let x_v54 : FVec F S1600x1 .f32 := (broadcastInDim S1600x1 ![0] bcast_S1600_S1600x1_0) x_v46
  let x_v55 : FVec F S1600x1 .f32 := (broadcastInDim S1600x1 ![0] bcast_S1600_S1600x1_0) x_v49
  let x_v56 : FVec F S1600x1 .f32 := (broadcastInDim S1600x1 ![0] bcast_S1600_S1600x1_0) x_v52
  let x_v57 : FVec F S1600x4 .f32 := concatenate S1600x4 1 [⟨S1600x1, x_v53⟩, ⟨S1600x1, x_v54⟩, ⟨S1600x1, x_v55⟩, ⟨S1600x1, x_v56⟩] concatenates_S1600x1_S1600x1_S1600x1_S1600x1_S1600x4_d1
  x_v57

/-- The array main_v68 from main_v32 (stage D, 11 operations). -/
def stD_v68 (x_v32 : FVec F S14400x4 .f32) : FVec F S14400 .f32 :=
  let x_v58 : FVec F S14400x1 .f32 := ((extractStridedSlice S14400x1 ![0, 2] · slices_S14400x4_S14400x1_0_2)) x_v32
  let x_v59 : FVec F S14400 .f32 := shapeCast S14400 x_v58 shapeCasts_S14400x1_S14400
  let x_v60 : FVec F S14400x1 .f32 := ((extractStridedSlice S14400x1 ![0, 0] · slices_S14400x4_S14400x1_0_0)) x_v32
  let x_v61 : FVec F S14400 .f32 := shapeCast S14400 x_v60 shapeCasts_S14400x1_S14400
  let x_v62 : FVec F S14400 .f32 := (subf) x_v59 x_v61
  let x_v63 : FVec F S14400x1 .f32 := ((extractStridedSlice S14400x1 ![0, 3] · slices_S14400x4_S14400x1_0_3)) x_v32
  let x_v64 : FVec F S14400 .f32 := shapeCast S14400 x_v63 shapeCasts_S14400x1_S14400
  let x_v65 : FVec F S14400x1 .f32 := ((extractStridedSlice S14400x1 ![0, 1] · slices_S14400x4_S14400x1_0_1)) x_v32
  let x_v66 : FVec F S14400 .f32 := shapeCast S14400 x_v65 shapeCasts_S14400x1_S14400
  let x_v67 : FVec F S14400 .f32 := (subf) x_v64 x_v66
  let x_v68 : FVec F S14400 .f32 := (mulf) x_v62 x_v67
  x_v68

/-- The array main_v79 from main_v57 (stage D, 11 operations). -/
def stD_v79 (x_v57 : FVec F S1600x4 .f32) : FVec F S1600 .f32 :=
  let x_v69 : FVec F S1600x1 .f32 := ((extractStridedSlice S1600x1 ![0, 2] · slices_S1600x4_S1600x1_0_2)) x_v57
  let x_v70 : FVec F S1600 .f32 := shapeCast S1600 x_v69 shapeCasts_S1600x1_S1600
  let x_v71 : FVec F S1600x1 .f32 := ((extractStridedSlice S1600x1 ![0, 0] · slices_S1600x4_S1600x1_0_0)) x_v57
  let x_v72 : FVec F S1600 .f32 := shapeCast S1600 x_v71 shapeCasts_S1600x1_S1600
  let x_v73 : FVec F S1600 .f32 := (subf) x_v70 x_v72
  let x_v74 : FVec F S1600x1 .f32 := ((extractStridedSlice S1600x1 ![0, 3] · slices_S1600x4_S1600x1_0_3)) x_v57
  let x_v75 : FVec F S1600 .f32 := shapeCast S1600 x_v74 shapeCasts_S1600x1_S1600
  let x_v76 : FVec F S1600x1 .f32 := ((extractStridedSlice S1600x1 ![0, 1] · slices_S1600x4_S1600x1_0_1)) x_v57
  let x_v77 : FVec F S1600 .f32 := shapeCast S1600 x_v76 shapeCasts_S1600x1_S1600
  let x_v78 : FVec F S1600 .f32 := (subf) x_v75 x_v77
  let x_v79 : FVec F S1600 .f32 := (mulf) x_v73 x_v78
  x_v79

/-- The array main_v100 from main_v32, main_v57 (stage E, 24 operations). -/
def stE_v100 (x_v32 : FVec F S14400x4 .f32) (x_v57 : FVec F S1600x4 .f32) : FVec F S14400x1600 .f32 :=
  let x_v80 : FVec F S14400x2 .f32 := ((extractStridedSlice S14400x2 ![0, 0] · slices_S14400x4_S14400x2_0_0)) x_v32
  let x_v81 : FVec F S14400x1x2 .f32 := (broadcastInDim S14400x1x2 ![0, 2] bcast_S14400x2_S14400x1x2_0_2) x_v80
  let x_v82 : FVec F S1600x2 .f32 := ((extractStridedSlice S1600x2 ![0, 0] · slices_S1600x4_S1600x2_0_0)) x_v57
  let x_v83 : FVec F S1x1600x2 .f32 := (broadcastInDim S1x1600x2 ![1, 2] bcast_S1600x2_S1x1600x2_1_2) x_v82
  let x_v84 : FVec F S14400x1600x2 .f32 := (broadcastInDim S14400x1600x2 ![0, 1, 2] bcast_S14400x1x2_S14400x1600x2_0_1_2) x_v81
  let x_v85 : FVec F S14400x1600x2 .f32 := (broadcastInDim S14400x1600x2 ![0, 1, 2] bcast_S1x1600x2_S14400x1600x2_0_1_2) x_v83
  let x_v86 : FVec F S14400x1600x2 .f32 := (maximumf) x_v84 x_v85
  let x_v87 : FVec F S14400x2 .f32 := ((extractStridedSlice S14400x2 ![0, 2] · slices_S14400x4_S14400x2_0_2)) x_v32
  let x_v88 : FVec F S14400x1x2 .f32 := (broadcastInDim S14400x1x2 ![0, 2] bcast_S14400x2_S14400x1x2_0_2) x_v87
  let x_v89 : FVec F S1600x2 .f32 := ((extractStridedSlice S1600x2 ![0, 2] · slices_S1600x4_S1600x2_0_2)) x_v57
  let x_v90 : FVec F S1x1600x2 .f32 := (broadcastInDim S1x1600x2 ![1, 2] bcast_S1600x2_S1x1600x2_1_2) x_v89
  let x_v91 : FVec F S14400x1600x2 .f32 := (broadcastInDim S14400x1600x2 ![0, 1, 2] bcast_S14400x1x2_S14400x1600x2_0_1_2) x_v88
  let x_v92 : FVec F S14400x1600x2 .f32 := (broadcastInDim S14400x1600x2 ![0, 1, 2] bcast_S1x1600x2_S14400x1600x2_0_1_2) x_v90
  let x_v93 : FVec F S14400x1600x2 .f32 := (minimumf) x_v91 x_v92
  let x_v94 : FVec F S14400x1600x2 .f32 := (subf) x_v93 x_v86
  let x_cst_9 : FVec F S_ .f32 := (constant (F := F) S_ .f32 0x00000000#32)
  let x_call0_v0 : FVec F S_ .f32 := (id) x_cst_9
  let x_call0_v1 : FVec F S14400x1600x2 .f32 := ((broadcastInDim S14400x1600x2 ![] bcast_S_S14400x1600x2)) x_call0_v0
  let x_v95 : FVec F S14400x1600x2 .f32 := (maximumf) x_call0_v1 x_v94
  let x_v96 : FVec F S14400x1600x1 .f32 := ((extractStridedSlice S14400x1600x1 ![0, 0, 0] · slices_S14400x1600x2_S14400x1600x1_0_0_0)) x_v95
  let x_v97 : FVec F S14400x1600 .f32 := shapeCast S14400x1600 x_v96 shapeCasts_S14400x1600x1_S14400x1600
  let x_v98 : FVec F S14400x1600x1 .f32 := ((extractStridedSlice S14400x1600x1 ![0, 0, 1] · slices_S14400x1600x2_S14400x1600x1_0_0_1)) x_v95
  let x_v99 : FVec F S14400x1600 .f32 := shapeCast S14400x1600 x_v98 shapeCasts_S14400x1600x1_S14400x1600
  let x_v100 : FVec F S14400x1600 .f32 := (mulf) x_v97 x_v99
  x_v100

/-- The array main_v106 from main_v68, main_v79, main_v100 (stage F, 6 operations). -/
def stF_v106 (x_v68 : FVec F S14400 .f32) (x_v79 : FVec F S1600 .f32) (x_v100 : FVec F S14400x1600 .f32) : FVec F S14400x1600 .f32 :=
  let x_v101 : FVec F S14400x1 .f32 := (broadcastInDim S14400x1 ![0] bcast_S14400_S14400x1_0) x_v68
  let x_v102 : FVec F S1x1600 .f32 := (broadcastInDim S1x1600 ![1] bcast_S1600_S1x1600_1) x_v79
  let x_v103 : FVec F S14400x1600 .f32 := (broadcastInDim S14400x1600 ![0, 1] bcast_S14400x1_S14400x1600_0_1) x_v101
  let x_v104 : FVec F S14400x1600 .f32 := (broadcastInDim S14400x1600 ![0, 1] bcast_S1x1600_S14400x1600_0_1) x_v102
  let x_v105 : FVec F S14400x1600 .f32 := (addf) x_v103 x_v104
  let x_v106 : FVec F S14400x1600 .f32 := (subf) x_v105 x_v100
  x_v106

/-- The array main_v107 from main_v100, main_v68, main_v79 (stage F, 7 operations). -/
def stF_v107 (x_v100 : FVec F S14400x1600 .f32) (x_v68 : FVec F S14400 .f32) (x_v79 : FVec F S1600 .f32) : FVec F S14400x1600 .f32 :=
  let x_v101 : FVec F S14400x1 .f32 := (broadcastInDim S14400x1 ![0] bcast_S14400_S14400x1_0) x_v68
  let x_v102 : FVec F S1x1600 .f32 := (broadcastInDim S1x1600 ![1] bcast_S1600_S1x1600_1) x_v79
  let x_v103 : FVec F S14400x1600 .f32 := (broadcastInDim S14400x1600 ![0, 1] bcast_S14400x1_S14400x1600_0_1) x_v101
  let x_v104 : FVec F S14400x1600 .f32 := (broadcastInDim S14400x1600 ![0, 1] bcast_S1x1600_S14400x1600_0_1) x_v102
  let x_v105 : FVec F S14400x1600 .f32 := (addf) x_v103 x_v104
  let x_v106 : FVec F S14400x1600 .f32 := (subf) x_v105 x_v100
  let x_v107 : FVec F S14400x1600 .f32 := (Host.divf) x_v100 x_v106
  x_v107

/-- The array main_v128 from main_v32, main_v57 (stage G, 24 operations). -/
def stG_v128 (x_v32 : FVec F S14400x4 .f32) (x_v57 : FVec F S1600x4 .f32) : FVec F S14400x1600 .f32 :=
  let x_v108 : FVec F S14400x2 .f32 := ((extractStridedSlice S14400x2 ![0, 0] · slices_S14400x4_S14400x2_0_0)) x_v32
  let x_v109 : FVec F S14400x1x2 .f32 := (broadcastInDim S14400x1x2 ![0, 2] bcast_S14400x2_S14400x1x2_0_2) x_v108
  let x_v110 : FVec F S1600x2 .f32 := ((extractStridedSlice S1600x2 ![0, 0] · slices_S1600x4_S1600x2_0_0)) x_v57
  let x_v111 : FVec F S1x1600x2 .f32 := (broadcastInDim S1x1600x2 ![1, 2] bcast_S1600x2_S1x1600x2_1_2) x_v110
  let x_v112 : FVec F S14400x1600x2 .f32 := (broadcastInDim S14400x1600x2 ![0, 1, 2] bcast_S14400x1x2_S14400x1600x2_0_1_2) x_v109
  let x_v113 : FVec F S14400x1600x2 .f32 := (broadcastInDim S14400x1600x2 ![0, 1, 2] bcast_S1x1600x2_S14400x1600x2_0_1_2) x_v111
  let x_v114 : FVec F S14400x1600x2 .f32 := (minimumf) x_v112 x_v113
  let x_v115 : FVec F S14400x2 .f32 := ((extractStridedSlice S14400x2 ![0, 2] · slices_S14400x4_S14400x2_0_2)) x_v32
  let x_v116 : FVec F S14400x1x2 .f32 := (broadcastInDim S14400x1x2 ![0, 2] bcast_S14400x2_S14400x1x2_0_2) x_v115
  let x_v117 : FVec F S1600x2 .f32 := ((extractStridedSlice S1600x2 ![0, 2] · slices_S1600x4_S1600x2_0_2)) x_v57
  let x_v118 : FVec F S1x1600x2 .f32 := (broadcastInDim S1x1600x2 ![1, 2] bcast_S1600x2_S1x1600x2_1_2) x_v117
  let x_v119 : FVec F S14400x1600x2 .f32 := (broadcastInDim S14400x1600x2 ![0, 1, 2] bcast_S14400x1x2_S14400x1600x2_0_1_2) x_v116
  let x_v120 : FVec F S14400x1600x2 .f32 := (broadcastInDim S14400x1600x2 ![0, 1, 2] bcast_S1x1600x2_S14400x1600x2_0_1_2) x_v118
  let x_v121 : FVec F S14400x1600x2 .f32 := (maximumf) x_v119 x_v120
  let x_v122 : FVec F S14400x1600x2 .f32 := (subf) x_v121 x_v114
  let x_cst_10 : FVec F S_ .f32 := (constant (F := F) S_ .f32 0x00000000#32)
  let x_call1_v0 : FVec F S_ .f32 := (id) x_cst_10
  let x_call1_v1 : FVec F S14400x1600x2 .f32 := ((broadcastInDim S14400x1600x2 ![] bcast_S_S14400x1600x2)) x_call1_v0
  let x_v123 : FVec F S14400x1600x2 .f32 := (maximumf) x_call1_v1 x_v122
  let x_v124 : FVec F S14400x1600x1 .f32 := ((extractStridedSlice S14400x1600x1 ![0, 0, 0] · slices_S14400x1600x2_S14400x1600x1_0_0_0)) x_v123
  let x_v125 : FVec F S14400x1600 .f32 := shapeCast S14400x1600 x_v124 shapeCasts_S14400x1600x1_S14400x1600
  let x_v126 : FVec F S14400x1600x1 .f32 := ((extractStridedSlice S14400x1600x1 ![0, 0, 1] · slices_S14400x1600x2_S14400x1600x1_0_0_1)) x_v123
  let x_v127 : FVec F S14400x1600 .f32 := shapeCast S14400x1600 x_v126 shapeCasts_S14400x1600x1_S14400x1600
  let x_v128 : FVec F S14400x1600 .f32 := (mulf) x_v125 x_v127
  x_v128

/-- The array main_v132 from main_v107, main_v128, main_v106 (stage H, 4 operations). -/
def stH_v132 (x_v107 : FVec F S14400x1600 .f32) (x_v128 : FVec F S14400x1600 .f32) (x_v106 : FVec F S14400x1600 .f32) : FVec F S14400x1600 .f32 :=
  let x_v129 : FVec F S14400x1600 .f32 := (subf) x_v128 x_v106
  let x_v130 : FVec F S14400x1600 .f32 := (Host.divf) x_v129 x_v128
  let x_v131 : FVec F S14400x1600 .f32 := (subf) x_v107 x_v130
  let x_v132 : FVec F S14400x1600 .f32 := (Host.negf) x_v131
  x_v132

/-- The array main_v140 from main_v6, main_v0 (stage I, 25 operations). -/
def stI_v140 (x_v6 : FVec F S14400x91 .f32) (x_v0 : FVec F S14400x91 .f32) : FVec F S14400x91 .f32 :=
  let x_cst_11 : FVec F S_ .f32 := (constant (F := F) S_ .f32 0x40000000#32)
  let x_v133 : FVec F S14400x91 .f32 := (broadcastInDim S14400x91 ![] bcast_S_S14400x91) x_cst_11
  let x_v134 : FVec F S14400x91 .f32 := (Host.powf) x_v6 x_v133
  let x_cst_12 : FVec F S_ .f32 := (constant (F := F) S_ .f32 0x3F400000#32)
  let x_v135 : FVec F S14400x91 .f32 := (broadcastInDim S14400x91 ![] bcast_S_S14400x91) x_cst_12
  let x_v136 : FVec F S14400x91 .f32 := (mulf) x_v135 x_v134
  let x_v137 : FVec F S14400x91 .f32 := (Host.negf) x_v0
  let x_call2_v0 : FVec F S14400x91 .f32 := (Host.negf) x_v137
  let x_call2_call0_cst : FVec F S_ .f32 := (constant (F := F) S_ .f32 0x00000000#32)
  let x_call2_call0_v0 : FVec F S14400x91 .f32 := ((broadcastInDim S14400x91 ![] bcast_S_S14400x91)) x_call2_call0_cst
  let x_call2_call0_v1 : FVec F S14400x91 .f32 := (maximumf) x_call2_v0 x_call2_call0_v0
  let x_call2_call0_v2 : FVec F S14400x91 .f32 := ((broadcastInDim S14400x91 ![] bcast_S_S14400x91)) x_call2_call0_cst
  let x_call2_call0_v3 : FVec F S14400x91 .f32 := (subf) x_call2_v0 x_call2_call0_v2
  let x_call2_call0_v4 : IVec S14400x91 1 := ((cmpf .une)) x_call2_call0_v3 x_call2_call0_v3
  let x_call2_call0_v5 : FVec F S14400x91 .f32 := ((broadcastInDim S14400x91 ![] bcast_S_S14400x91)) x_call2_call0_cst
  let x_call2_call0_v6 : FVec F S14400x91 .f32 := (addf) x_call2_v0 x_call2_call0_v5
  let x_call2_call0_v7 : FVec F S14400x91 .f32 := (Host.absf) x_call2_call0_v3
  let x_call2_call0_v8 : FVec F S14400x91 .f32 := (Host.negf) x_call2_call0_v7
  let x_call2_call0_v9 : FVec F S14400x91 .f32 := (Host.exp) x_call2_call0_v8
  let x_call2_call0_v10 : FVec F S14400x91 .f32 := (Host.log1p) x_call2_call0_v9
  let x_call2_call0_v11 : FVec F S14400x91 .f32 := (addf) x_call2_call0_v1 x_call2_call0_v10
  let x_call2_v1 : FVec F S14400x91 .f32 := (select) x_call2_call0_v4 x_call2_call0_v6 x_call2_call0_v11
  let x_v138 : FVec F S14400x91 .f32 := (Host.negf) x_call2_v1
  let x_v139 : FVec F S14400x91 .f32 := (Host.negf) x_v138
  let x_v140 : FVec F S14400x91 .f32 := (mulf) x_v136 x_v139
  x_v140

/-- The array main_v149 from main_v6, main_v0 (stage J, 27 operations). -/
def stJ_v149 (x_v6 : FVec F S14400x91 .f32) (x_v0 : FVec F S14400x91 .f32) : FVec F S14400x91 .f32 :=
  let x_cst_13 : FVec F S_ .f32 := (constant (F := F) S_ .f32 0x3F800000#32)
  let x_v141 : FVec F S14400x91 .f32 := (broadcastInDim S14400x91 ![] bcast_S_S14400x91) x_cst_13
  let x_v142 : FVec F S14400x91 .f32 := (subf) x_v141 x_v6
  let x_cst_14 : FVec F S_ .f32 := (constant (F := F) S_ .f32 0x40000000#32)
  let x_v143 : FVec F S14400x91 .f32 := (broadcastInDim S14400x91 ![] bcast_S_S14400x91) x_cst_14
  let x_v144 : FVec F S14400x91 .f32 := (Host.powf) x_v142 x_v143
  let x_cst_15 : FVec F S_ .f32 := (constant (F := F) S_ .f32 0x3E800000#32)
  let x_v145 : FVec F S14400x91 .f32 := (broadcastInDim S14400x91 ![] bcast_S_S14400x91) x_cst_15
  let x_v146 : FVec F S14400x91 .f32 := (mulf) x_v145 x_v144
  let x_call3_v0 : FVec F S14400x91 .f32 := (Host.negf) x_v0
  let x_call3_call0_cst : FVec F S_ .f32 := (constant (F := F) S_ .f32 0x00000000#32)
  let x_call3_call0_v0 : FVec F S14400x91 .f32 := ((broadcastInDim S14400x91 ![] bcast_S_S14400x91)) x_call3_call0_cst
  let x_call3_call0_v1 : FVec F S14400x91 .f32 := (maximumf) x_call3_v0 x_call3_call0_v0
  let x_call3_call0_v2 : FVec F S14400x91 .f32 := ((broadcastInDim S14400x91 ![] bcast_S_S14400x91)) x_call3_call0_cst
  let x_call3_call0_v3 : FVec F S14400x91 .f32 := (subf) x_call3_v0 x_call3_call0_v2
  let x_call3_call0_v4 : IVec S14400x91 1 := ((cmpf .une)) x_call3_call0_v3 x_call3_call0_v3
  let x_call3_call0_v5 : FVec F S14400x91 .f32 := ((broadcastInDim S14400x91 ![] bcast_S_S14400x91)) x_call3_call0_cst
  let x_call3_call0_v6 : FVec F S14400x91 .f32 := (addf) x_call3_v0 x_call3_call0_v5
  let x_call3_call0_v7 : FVec F S14400x91 .f32 := (Host.absf) x_call3_call0_v3
  let x_call3_call0_v8 : FVec F S14400x91 .f32 := (Host.negf) x_call3_call0_v7
  let x_call3_call0_v9 : FVec F S14400x91 .f32 := (Host.exp) x_call3_call0_v8
  let x_call3_call0_v10 : FVec F S14400x91 .f32 := (Host.log1p) x_call3_call0_v9
  let x_call3_call0_v11 : FVec F S14400x91 .f32 := (addf) x_call3_call0_v1 x_call3_call0_v10
  let x_call3_v1 : FVec F S14400x91 .f32 := (select) x_call3_call0_v4 x_call3_call0_v6 x_call3_call0_v11
  let x_v147 : FVec F S14400x91 .f32 := (Host.negf) x_call3_v1
  let x_v148 : FVec F S14400x91 .f32 := (Host.negf) x_v147
  let x_v149 : FVec F S14400x91 .f32 := (mulf) x_v146 x_v148
  x_v149

/-- The array main_v164 from main_v149, main_arg2, main_v140 (stage K, 19 operations). -/
def stK_v164 (x_v149 : FVec F S14400x91 .f32) (x_arg2 : IVec S1600 32) (x_v140 : FVec F S14400x91 .f32) : FVec F S14400x1600 .f32 :=
  let x_c : IVec S_ 32 := (constantI S_ 32 0#32)
  let x_v150 : IVec S1600 32 := (broadcastInDim S1600 ![] bcast_S_S1600) x_c
  let x_v151 : IVec S1600 1 := (cmpi .slt) x_arg2 x_v150
  let x_c_16 : IVec S_ 32 := (constantI S_ 32 91#32)
  let x_v152 : IVec S1600 32 := (broadcastInDim S1600 ![] bcast_S_S1600) x_c_16
  let x_v153 : IVec S1600 32 := (addi) x_arg2 x_v152
  let x_v154 : IVec S1600 32 := (select) x_v151 x_v153 x_arg2
  let x_v155 : IVec S1600x1 32 := (broadcastInDim S1600x1 ![0] bcast_S1600_S1600x1_0) x_v154
  let x_v156 : FVec F S14400x1600 .f32 := ((fun x i => Host.gather gather_S14400x91_S1600x1_S14400x1600_0_1_n_n_1_1_144001 x i)) x_v149 x_v155
  let x_c_17 : IVec S_ 32 := (constantI S_ 32 0#32)
  let x_v157 : IVec S1600 32 := (broadcastInDim S1600 ![] bcast_S_S1600) x_c_17
  let x_v158 : IVec S1600 1 := (cmpi .slt) x_arg2 x_v157
  let x_c_18 : IVec S_ 32 := (constantI S_ 32 91#32)
  let x_v159 : IVec S1600 32 := (broadcastInDim S1600 ![] bcast_S_S1600) x_c_18
  let x_v160 : IVec S1600 32 := (addi) x_arg2 x_v159
  let x_v161 : IVec S1600 32 := (select) x_v158 x_v160 x_arg2
  let x_v162 : IVec S1600x1 32 := (broadcastInDim S1600x1 ![0] bcast_S1600_S1600x1_0) x_v161
  let x_v163 : FVec F S14400x1600 .f32 := ((fun x i => Host.gather gather_S14400x91_S1600x1_S14400x1600_0_1_n_n_1_1_144001 x i)) x_v140 x_v162
  let x_v164 : FVec F S14400x1600 .f32 := (subf) x_v156 x_v163
  x_v164

/-- The array main_v171 from main_v7, main_arg3 (stage L, 8 operations). -/
def stL_v171 (x_v7 : FVec F S14400x4 .f32) (x_arg3 : FVec F S1600x4 .f32) : FVec F S14400x1600 .f32 :=
  let x_v165 : FVec F S14400x1x4 .f32 := (broadcastInDim S14400x1x4 ![0, 2] bcast_S14400x4_S14400x1x4_0_2) x_v7
  let x_v166 : FVec F S1x1600x4 .f32 := (broadcastInDim S1x1600x4 ![1, 2] bcast_S1600x4_S1x1600x4_1_2) x_arg3
  let x_v167 : FVec F S14400x1600x4 .f32 := (broadcastInDim S14400x1600x4 ![0, 1, 2] bcast_S14400x1x4_S14400x1600x4_0_1_2) x_v165
  let x_v168 : FVec F S14400x1600x4 .f32 := (broadcastInDim S14400x1600x4 ![0, 1, 2] bcast_S1x1600x4_S14400x1600x4_0_1_2) x_v166
  let x_v169 : FVec F S14400x1600x4 .f32 := (subf) x_v167 x_v168
  let x_v170 : FVec F S14400x1600x4 .f32 := (Host.absf) x_v169
  let x_cst_19 : FVec F S_ .f32 := (constant (F := F) S_ .f32 0x00000000#32)
  let x_v171 : FVec F S14400x1600 .f32 := ((fun x v => Host.reduceAdd x v reducesTo_S14400x1600x4_S14400x1600_d2 h_S_)) x_v170 x_cst_19
  x_v171

/-- The array main_v184 from main_v171, main_v164, main_v132 (stage M, 21 operations). -/
def stM_v184 (x_v171 : FVec F S14400x1600 .f32) (x_v164 : FVec F S14400x1600 .f32) (x_v132 : FVec F S14400x1600 .f32) : FVec F S16x900x1600 .f32 :=
  let x_cst_20 : FVec F S_ .f32 := (constant (F := F) S_ .f32 0x40A00000#32)
  let x_v172 : FVec F S14400x1600 .f32 := (broadcastInDim S14400x1600 ![] bcast_S_S14400x1600) x_cst_20
  let x_v173 : FVec F S14400x1600 .f32 := (mulf) x_v172 x_v171
  let x_cst_21 : FVec F S_ .f32 := (constant (F := F) S_ .f32 0x40000000#32)
  let x_v174 : FVec F S14400x1600 .f32 := (broadcastInDim S14400x1600 ![] bcast_S_S14400x1600) x_cst_21
  let x_v175 : FVec F S14400x1600 .f32 := (mulf) x_v174 x_v164
  let x_v176 : FVec F S14400x1600 .f32 := (addf) x_v173 x_v175
  let x_cst_22 : FVec F S_ .f32 := (constant (F := F) S_ .f32 0x40000000#32)
  let x_v177 : FVec F S14400x1600 .f32 := (broadcastInDim S14400x1600 ![] bcast_S_S14400x1600) x_cst_22
  let x_v178 : FVec F S14400x1600 .f32 := (mulf) x_v177 x_v132
  let x_v179 : FVec F S14400x1600 .f32 := (addf) x_v176 x_v178
  let x_v180 : FVec F S16x900x1600 .f32 := shapeCast S16x900x1600 x_v179 shapeCasts_S14400x1600_S16x900x1600
  let x_v181 : IVec S16x900x1600 1 := (cmpf .une) x_v180 x_v180
  let x_call4_v0 : FVec F S16x900x1600 .f32 := (Host.absf) x_v180
  let x_call4_cst : FVec F S_ .f32 := (constant (F := F) S_ .f32 0x7F800000#32)
  let x_call4_v1 : FVec F S16x900x1600 .f32 := ((broadcastInDim S16x900x1600 ![] bcast_S_S16x900x1600)) x_call4_cst
  let x_v182 : IVec S16x900x1600 1 := ((cmpf .oeq)) x_call4_v0 x_call4_v1
  let x_v183 : IVec S16x900x1600 1 := (ori) x_v181 x_v182
  let x_cst_23 : FVec F S_ .f32 := (constant (F := F) S_ .f32 0x49742400#32)
  let x_call5_v0 : FVec F S16x900x1600 .f32 := ((broadcastInDim S16x900x1600 ![] bcast_S_S16x900x1600)) x_cst_23
  let x_v184 : FVec F S16x900x1600 .f32 := (select) x_v183 x_call5_v0 x_v180
  x_v184

end Cert.ReferenceIdeal.Hand

end
-- ==== Proof.RefOut.lean ====
/-
  The reference's result as one function of the four argument arrays: its thirteen stages composed. The class cost of
  each (query, target) pair comes from the logits and the labels alone, the L1 and the generalized-IoU costs from the
  two box arrays alone; the last stage weighs the three, reshapes to (image, query, target) and clamps.
-/
import proofs.«430708_j55284819034883_2_alg».proof.Proof.RefDefs

noncomputable section

namespace Cert.ReferenceIdeal.Hand

open Cert.ReferenceIdeal Cert.ReferenceIdeal.Gen Idealize.ShloMosaic

variable {F : FTy → Type} [FloatOps F]

/-- The positive minus the negative focal class cost of every (query row, target): from the logits and the labels. -/
def refCls (a0 : FVec F S16x900x91 .f32) (a2 : IVec S1600 32) : FVec F S14400x1600 .f32 :=
  stK_v164 (stJ_v149 (stA_v6 a0) (stA_v0 a0)) a2 (stI_v140 (stA_v6 a0) (stA_v0 a0))

/-- The negated generalized IoU of every (query row, target): from the two box arrays. -/
def refNegGiou (a1 : FVec F S16x900x4 .f32) (a3 : FVec F S1600x4 .f32) : FVec F S14400x1600 .f32 :=
  stH_v132
    (stF_v107 (stE_v100 (stB_v32 a1) (stC_v57 a3)) (stD_v68 (stB_v32 a1)) (stD_v79 (stC_v57 a3)))
    (stG_v128 (stB_v32 a1) (stC_v57 a3))
    (stF_v106 (stD_v68 (stB_v32 a1)) (stD_v79 (stC_v57 a3)) (stE_v100 (stB_v32 a1) (stC_v57 a3)))

/-- The L1 box cost of every (query row, target). -/
def refL1 (a1 : FVec F S16x900x4 .f32) (a3 : FVec F S1600x4 .f32) : FVec F S14400x1600 .f32 :=
  stL_v171 (stB_v7 a1) a3

/-- The reference's result. -/
def refOut (a0 : FVec F S16x900x91 .f32) (a1 : FVec F S16x900x4 .f32) (a2 : IVec S1600 32) (a3 : FVec F S1600x4 .f32) :
    FVec F S16x900x1600 .f32 :=
  stM_v184 (refL1 a1 a3) (refCls a0 a2) (refNegGiou a1 a3)

end Cert.ReferenceIdeal.Hand

end
-- ==== Proof.RefRun.lean ====
/-
  The reference program's run, read back. @main is the straight line of its 249 host operations (its four printed
  parts, the outlined clamp, softplus, log-sigmoid, infinity test and selection written where they are called), so
  every weakly fair execution ends with each buffer at the fold of the operations' results over the launch contents.
  The fold is then read stage by stage: after each of the thirteen stages, every buffer a later stage reads holds the
  stage's function (RefDefs.lean) of what the stage read, and a buffer the stage does not write holds what it held.
  At the end the result buffer holds the reference's result function of the four arguments, and the arguments, which
  nothing writes, are unchanged. Everything here is for any float values.
-/
import proofs.«430708_j55284819034883_2_alg».proof.Proof.RefOps
import proofs.«430708_j55284819034883_2_alg».proof.Proof.RefOut

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The program is the straight line of its operations -/

set_option maxRecDepth 8192 in
/-- The first printed part of @main is its operations 0 … 59 run in order: both sides are the same chain of steps. -/
theorem main_part0_eq (c : Dev nD) : main_part0 (F := F) c = seq pt0 := rfl

set_option maxRecDepth 8192 in
/-- The second part, operations 60 … 121: the clamp's three operations stand where the part calls it. -/
theorem main_part1_eq (c : Dev nD) : main_part1 (F := F) c = seq pt1 := rfl

set_option maxRecDepth 8192 in
/-- The third part, operations 122 … 213: the second clamp and the two log-sigmoids (each with its softplus inside) unfolded
    at their calls. -/
theorem main_part2_eq (c : Dev nD) : main_part2 (F := F) c = seq pt2 := rfl

set_option maxRecDepth 8192 in
/-- The fourth part, operations 214 … 248: the infinity test and the final selection unfolded at their calls. -/
theorem main_part3_eq (c : Dev nD) : main_part3 (F := F) c = seq pt3 := rfl

set_option maxRecDepth 8192 in
/-- The thirteen stages, in order, are the four printed parts, in order: one list of 249 operations cut two ways. -/
theorem ops_eq_parts : (ops : List (HloOp τ sig (Elt F))) = pt0 ++ (pt1 ++ (pt2 ++ pt3)) := rfl

/-- @main is the straight line `ops`: it runs its four parts in order, each part is the line of its own operations, and
    lines run one after the other are their concatenation run as one. -/
theorem main_eq (c : Dev nD) : main (F := F) c = seq ops := by
  rw [ops_eq_parts, seq_append, seq_append, seq_append, ← main_part0_eq c, ← main_part1_eq c, ← main_part2_eq c,
    ← main_part3_eq c]
  rfl

/-- No TensorCore buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation touches TensorCore buffers only: stage by stage, a list that is a concatenation satisfies a
    property of its members when each piece does. -/
theorem ops_sub : (ops : List (HloOp τ sig (Elt F))).Forall fun op => op.bufs ⊆ tcRefs τ sig :=
  List.forall_iff_forall_mem.mpr fun op h => by
    simp only [ops, List.mem_append] at h
    rcases h with ((((((((((((h | h) | h) | h) | h) | h) | h) | h) | h) | h) | h) | h) | h)
    exacts [List.forall_iff_forall_mem.mp stA_sub op h, List.forall_iff_forall_mem.mp stB_sub op h,
      List.forall_iff_forall_mem.mp stC_sub op h, List.forall_iff_forall_mem.mp stD_sub op h,
      List.forall_iff_forall_mem.mp stE_sub op h, List.forall_iff_forall_mem.mp stF_sub op h,
      List.forall_iff_forall_mem.mp stG_sub op h, List.forall_iff_forall_mem.mp stH_sub op h,
      List.forall_iff_forall_mem.mp stI_sub op h, List.forall_iff_forall_mem.mp stJ_sub op h,
      List.forall_iff_forall_mem.mp stK_sub op h, List.forall_iff_forall_mem.mp stL_sub op h,
      List.forall_iff_forall_mem.mp stM_sub op h]

/-! ## Every operation determines what it writes

None of the operations is an allocation: each is a builder that writes a function of what it reads, so the set of
buffers it leaves undetermined is empty, by computation on each member of each stage's list. -/

theorem stA_fresh : ∀ op ∈ (stA : List (HloOp τ sig (Elt F))), op.fresh = ∅ := by
  intro op h; (repeat (cases h with | head => rfl | tail _ h => ?_)); exact nomatch h
theorem stB_fresh : ∀ op ∈ (stB : List (HloOp τ sig (Elt F))), op.fresh = ∅ := by
  intro op h; (repeat (cases h with | head => rfl | tail _ h => ?_)); exact nomatch h
theorem stC_fresh : ∀ op ∈ (stC : List (HloOp τ sig (Elt F))), op.fresh = ∅ := by
  intro op h; (repeat (cases h with | head => rfl | tail _ h => ?_)); exact nomatch h
theorem stD_fresh : ∀ op ∈ (stD : List (HloOp τ sig (Elt F))), op.fresh = ∅ := by
  intro op h; (repeat (cases h with | head => rfl | tail _ h => ?_)); exact nomatch h
theorem stE_fresh : ∀ op ∈ (stE : List (HloOp τ sig (Elt F))), op.fresh = ∅ := by
  intro op h; (repeat (cases h with | head => rfl | tail _ h => ?_)); exact nomatch h
theorem stF_fresh : ∀ op ∈ (stF : List (HloOp τ sig (Elt F))), op.fresh = ∅ := by
  intro op h; (repeat (cases h with | head => rfl | tail _ h => ?_)); exact nomatch h
theorem stG_fresh : ∀ op ∈ (stG : List (HloOp τ sig (Elt F))), op.fresh = ∅ := by
  intro op h; (repeat (cases h with | head => rfl | tail _ h => ?_)); exact nomatch h
theorem stH_fresh : ∀ op ∈ (stH : List (HloOp τ sig (Elt F))), op.fresh = ∅ := by
  intro op h; (repeat (cases h with | head => rfl | tail _ h => ?_)); exact nomatch h
theorem stI_fresh : ∀ op ∈ (stI : List (HloOp τ sig (Elt F))), op.fresh = ∅ := by
  intro op h; (repeat (cases h with | head => rfl | tail _ h => ?_)); exact nomatch h
theorem stJ_fresh : ∀ op ∈ (stJ : List (HloOp τ sig (Elt F))), op.fresh = ∅ := by
  intro op h; (repeat (cases h with | head => rfl | tail _ h => ?_)); exact nomatch h
theorem stK_fresh : ∀ op ∈ (stK : List (HloOp τ sig (Elt F))), op.fresh = ∅ := by
  intro op h; (repeat (cases h with | head => rfl | tail _ h => ?_)); exact nomatch h
theorem stL_fresh : ∀ op ∈ (stL : List (HloOp τ sig (Elt F))), op.fresh = ∅ := by
  intro op h; (repeat (cases h with | head => rfl | tail _ h => ?_)); exact nomatch h
theorem stM_fresh : ∀ op ∈ (stM : List (HloOp τ sig (Elt F))), op.fresh = ∅ := by
  intro op h; (repeat (cases h with | head => rfl | tail _ h => ?_)); exact nomatch h

/-- The same for the whole line: a member of a concatenation is a member of one of the pieces. -/
theorem ops_fresh : ∀ op ∈ (ops : List (HloOp τ sig (Elt F))), op.fresh = ∅ := by
  intro op h
  simp only [ops, List.mem_append] at h
  rcases h with ((((((((((((h | h) | h) | h) | h) | h) | h) | h) | h) | h) | h) | h) | h)
  exacts [stA_fresh op h, stB_fresh op h, stC_fresh op h, stD_fresh op h, stE_fresh op h, stF_fresh op h, stG_fresh op h,
    stH_fresh op h, stI_fresh op h, stJ_fresh op h, stK_fresh op h, stL_fresh op h, stM_fresh op h]

/-- On every device, for any float values, from any memory with zero counters: every weakly fair execution of @main on
    the TensorCores terminates, and every final state has each TensorCore buffer at the fold of the operations' results
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The fold, stage by stage

The device's contents after the first K stages, and for every buffer a later stage still reads (the four arguments to
the end) what it holds then: a stage function of RefDefs.lean applied to what the stage read. A buffer the stage does
not write keeps what it held; one it writes holds its operation's function of the operands' contents, the operands
read the same way in turn, down to buffers written before the stage. -/

/-- The four argument arrays as a valuation holds them. -/
def ar0 (V0 : Valuation τ sig (Elt F)) : FVec F S16x900x91 .f32 := V0 (Proc.devRef .tc main_arg0)
@[inherit_doc ar0] def ar1 (V0 : Valuation τ sig (Elt F)) : FVec F S16x900x4 .f32 := V0 (Proc.devRef .tc main_arg1)
@[inherit_doc ar0] def ar2 (V0 : Valuation τ sig (Elt F)) : IVec S1600 32 := V0 (Proc.devRef .tc main_arg2)
@[inherit_doc ar0] def ar3 (V0 : Valuation τ sig (Elt F)) : FVec F S1600x4 .f32 := V0 (Proc.devRef .tc main_arg3)

/-- The flattened logits. -/
def res_v0 (V0 : Valuation τ sig (Elt F)) : FVec F S14400x91 .f32 := stA_v0 (ar0 V0)
/-- Their sigmoid. -/
def res_v6 (V0 : Valuation τ sig (Elt F)) : FVec F S14400x91 .f32 := stA_v6 (ar0 V0)
/-- The flattened query boxes. -/
def res_v7 (V0 : Valuation τ sig (Elt F)) : FVec F S14400x4 .f32 := stB_v7 (ar1 V0)
/-- The query boxes as corners. -/
def res_v32 (V0 : Valuation τ sig (Elt F)) : FVec F S14400x4 .f32 := stB_v32 (ar1 V0)
/-- The target boxes as corners. -/
def res_v57 (V0 : Valuation τ sig (Elt F)) : FVec F S1600x4 .f32 := stC_v57 (ar3 V0)
/-- The query boxes' areas. -/
def res_v68 (V0 : Valuation τ sig (Elt F)) : FVec F S14400 .f32 := stD_v68 (res_v32 V0)
/-- The target boxes' areas. -/
def res_v79 (V0 : Valuation τ sig (Elt F)) : FVec F S1600 .f32 := stD_v79 (res_v57 V0)
/-- The intersection areas. -/
def res_v100 (V0 : Valuation τ sig (Elt F)) : FVec F S14400x1600 .f32 := stE_v100 (res_v32 V0) (res_v57 V0)
/-- The union areas. -/
def res_v106 (V0 : Valuation τ sig (Elt F)) : FVec F S14400x1600 .f32 := stF_v106 (res_v68 V0) (res_v79 V0) (res_v100 V0)
/-- Intersection over union. -/
def res_v107 (V0 : Valuation τ sig (Elt F)) : FVec F S14400x1600 .f32 := stF_v107 (res_v100 V0) (res_v68 V0) (res_v79 V0)
/-- The enclosing boxes' areas. -/
def res_v128 (V0 : Valuation τ sig (Elt F)) : FVec F S14400x1600 .f32 := stG_v128 (res_v32 V0) (res_v57 V0)
/-- The negated generalized intersection over union. -/
def res_v132 (V0 : Valuation τ sig (Elt F)) : FVec F S14400x1600 .f32 := stH_v132 (res_v107 V0) (res_v128 V0) (res_v106 V0)
/-- The negative focal class cost of every (query row, class). -/
def res_v140 (V0 : Valuation τ sig (Elt F)) : FVec F S14400x91 .f32 := stI_v140 (res_v6 V0) (res_v0 V0)
/-- The positive focal class cost of every (query row, class). -/
def res_v149 (V0 : Valuation τ sig (Elt F)) : FVec F S14400x91 .f32 := stJ_v149 (res_v6 V0) (res_v0 V0)
/-- The class cost of every (query row, target): the two gathered at the targets' labels, subtracted. -/
def res_v164 (V0 : Valuation τ sig (Elt F)) : FVec F S14400x1600 .f32 := stK_v164 (res_v149 V0) (ar2 V0) (res_v140 V0)
/-- The L1 box cost. -/
def res_v171 (V0 : Valuation τ sig (Elt F)) : FVec F S14400x1600 .f32 := stL_v171 (res_v7 V0) (ar3 V0)
/-- The weighted, reshaped and clamped total. -/
def res_v184 (V0 : Valuation τ sig (Elt F)) : FVec F S16x900x1600 .f32 := stM_v184 (res_v171 V0) (res_v164 V0) (res_v132 V0)

/-- The device's buffer contents before the first stage. -/
def val0 (V0 : Valuation τ sig (Elt F)) : Valuation τ sig (Elt F) := V0
theorem val0_main_arg0 (V0 : Valuation τ sig (Elt F)) : val0 V0 (no_index (Proc.devRef .tc main_arg0)) = ar0 V0 := rfl
theorem val0_main_arg1 (V0 : Valuation τ sig (Elt F)) : val0 V0 (no_index (Proc.devRef .tc main_arg1)) = ar1 V0 := rfl
theorem val0_main_arg2 (V0 : Valuation τ sig (Elt F)) : val0 V0 (no_index (Proc.devRef .tc main_arg2)) = ar2 V0 := rfl
theorem val0_main_arg3 (V0 : Valuation τ sig (Elt F)) : val0 V0 (no_index (Proc.devRef .tc main_arg3)) = ar3 V0 := rfl

/-! ### Stage A: the logits flattened, and their sigmoid -/

/-- The device's buffer contents after stage A. -/
def val1 (V0 : Valuation τ sig (Elt F)) : Valuation τ sig (Elt F) := after stA (val0 V0)
/-- A buffer stage A does not write keeps its contents through it. -/
theorem val1_keep (V0 : Valuation τ sig (Elt F)) (r : Ref sig .tc) (h : r ∉ stA_W) :
    val1 V0 (Proc.devRef .tc r) = val0 V0 (Proc.devRef .tc r) :=
  after_of_writes_sub stA _ stA_writes h
theorem val1_main_arg0 (V0 : Valuation τ sig (Elt F)) : val1 V0 (no_index (Proc.devRef .tc main_arg0)) = ar0 V0 :=
  (val1_keep V0 main_arg0 (by decide)).trans (val0_main_arg0 V0)
theorem val1_main_arg1 (V0 : Valuation τ sig (Elt F)) : val1 V0 (no_index (Proc.devRef .tc main_arg1)) = ar1 V0 :=
  (val1_keep V0 main_arg1 (by decide)).trans (val0_main_arg1 V0)
theorem val1_main_arg2 (V0 : Valuation τ sig (Elt F)) : val1 V0 (no_index (Proc.devRef .tc main_arg2)) = ar2 V0 :=
  (val1_keep V0 main_arg2 (by decide)).trans (val0_main_arg2 V0)
theorem val1_main_arg3 (V0 : Valuation τ sig (Elt F)) : val1 V0 (no_index (Proc.devRef .tc main_arg3)) = ar3 V0 :=
  (val1_keep V0 main_arg3 (by decide)).trans (val0_main_arg3 V0)
/-- The reshape's result is the reshape of the first argument. -/
theorem val1_main_v0 (V0 : Valuation τ sig (Elt F)) : val1 V0 (no_index (Proc.devRef .tc main_v0)) = res_v0 V0 := by
  unfold val1
  simp only [stA]
  after_results_simp
  simp only [val0_main_arg0] <;> rfl
set_option maxHeartbeats 900000 in
/-- The quotient's operands are read back through the sum, the exponential, the negation and the two broadcast ones to
    the reshaped first argument. -/
theorem val1_main_v6 (V0 : Valuation τ sig (Elt F)) : val1 V0 (no_index (Proc.devRef .tc main_v6)) = res_v6 V0 := by
  unfold val1
  simp only [stA]
  after_results_simp
  simp only [val0_main_arg0] <;> rfl

/-! ### Stage B: the query boxes flattened, and as corners -/

/-- The device's buffer contents after stages A and B. -/
def val2 (V0 : Valuation τ sig (Elt F)) : Valuation τ sig (Elt F) := after stB (val1 V0)
/-- A buffer stage B does not write keeps its contents through it. -/
theorem val2_keep (V0 : Valuation τ sig (Elt F)) (r : Ref sig .tc) (h : r ∉ stB_W) :
    val2 V0 (Proc.devRef .tc r) = val1 V0 (Proc.devRef .tc r) :=
  after_of_writes_sub stB _ stB_writes h
theorem val2_main_arg0 (V0 : Valuation τ sig (Elt F)) : val2 V0 (no_index (Proc.devRef .tc main_arg0)) = ar0 V0 :=
  (val2_keep V0 main_arg0 (by decide)).trans (val1_main_arg0 V0)
theorem val2_main_arg1 (V0 : Valuation τ sig (Elt F)) : val2 V0 (no_index (Proc.devRef .tc main_arg1)) = ar1 V0 :=
  (val2_keep V0 main_arg1 (by decide)).trans (val1_main_arg1 V0)
theorem val2_main_arg2 (V0 : Valuation τ sig (Elt F)) : val2 V0 (no_index (Proc.devRef .tc main_arg2)) = ar2 V0 :=
  (val2_keep V0 main_arg2 (by decide)).trans (val1_main_arg2 V0)
theorem val2_main_arg3 (V0 : Valuation τ sig (Elt F)) : val2 V0 (no_index (Proc.devRef .tc main_arg3)) = ar3 V0 :=
  (val2_keep V0 main_arg3 (by decide)).trans (val1_main_arg3 V0)
theorem val2_main_v0 (V0 : Valuation τ sig (Elt F)) : val2 V0 (no_index (Proc.devRef .tc main_v0)) = res_v0 V0 :=
  (val2_keep V0 main_v0 (by decide)).trans (val1_main_v0 V0)
theorem val2_main_v6 (V0 : Valuation τ sig (Elt F)) : val2 V0 (no_index (Proc.devRef .tc main_v6)) = res_v6 V0 :=
  (val2_keep V0 main_v6 (by decide)).trans (val1_main_v6 V0)
set_option maxHeartbeats 1000000 in
/-- The reshape's result is the reshape of the second argument; the twenty-nine operations after it leave it alone. -/
theorem val2_main_v7 (V0 : Valuation τ sig (Elt F)) : val2 V0 (no_index (Proc.devRef .tc main_v7)) = res_v7 V0 := by
  unfold val2
  simp only [stB]
  after_results_simp
  simp only [val1_main_arg1] <;> rfl
set_option maxRecDepth 8192 in
set_option maxHeartbeats 2000000 in
/-- The concatenation's four operands are read each at its own buffer (the operand family is a literal one of four, so
    its members are the four buffers themselves), then every read is taken back operation by operation — at the
    operation that wrote the buffer to its function of the operands, past any other to what was there — down to the
    second argument: each operand a broadcast column of a centre minus or plus half an extent, the centres and extents
    the four sliced columns of the reshaped argument. -/
theorem val2_main_v32 (V0 : Valuation τ sig (Elt F)) : val2 V0 (no_index (Proc.devRef .tc main_v32)) = res_v32 V0 := by
  unfold val2
  simp only [stB]
  simp only [after_cons, after_nil]
  rw [nary4_result]
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [val1_main_arg1]
  rfl

/-! ### Stage C: the target boxes as corners -/

/-- The device's buffer contents after stages A to C. -/
def val3 (V0 : Valuation τ sig (Elt F)) : Valuation τ sig (Elt F) := after stC (val2 V0)
/-- A buffer stage C does not write keeps its contents through it. -/
theorem val3_keep (V0 : Valuation τ sig (Elt F)) (r : Ref sig .tc) (h : r ∉ stC_W) :
    val3 V0 (Proc.devRef .tc r) = val2 V0 (Proc.devRef .tc r) :=
  after_of_writes_sub stC _ stC_writes h
theorem val3_main_arg0 (V0 : Valuation τ sig (Elt F)) : val3 V0 (no_index (Proc.devRef .tc main_arg0)) = ar0 V0 :=
  (val3_keep V0 main_arg0 (by decide)).trans (val2_main_arg0 V0)
theorem val3_main_arg1 (V0 : Valuation τ sig (Elt F)) : val3 V0 (no_index (Proc.devRef .tc main_arg1)) = ar1 V0 :=
  (val3_keep V0 main_arg1 (by decide)).trans (val2_main_arg1 V0)
theorem val3_main_arg2 (V0 : Valuation τ sig (Elt F)) : val3 V0 (no_index (Proc.devRef .tc main_arg2)) = ar2 V0 :=
  (val3_keep V0 main_arg2 (by decide)).trans (val2_main_arg2 V0)
theorem val3_main_arg3 (V0 : Valuation τ sig (Elt F)) : val3 V0 (no_index (Proc.devRef .tc main_arg3)) = ar3 V0 :=
  (val3_keep V0 main_arg3 (by decide)).trans (val2_main_arg3 V0)
theorem val3_main_v0 (V0 : Valuation τ sig (Elt F)) : val3 V0 (no_index (Proc.devRef .tc main_v0)) = res_v0 V0 :=
  (val3_keep V0 main_v0 (by decide)).trans (val2_main_v0 V0)
theorem val3_main_v6 (V0 : Valuation τ sig (Elt F)) : val3 V0 (no_index (Proc.devRef .tc main_v6)) = res_v6 V0 :=
  (val3_keep V0 main_v6 (by decide)).trans (val2_main_v6 V0)
theorem val3_main_v7 (V0 : Valuation τ sig (Elt F)) : val3 V0 (no_index (Proc.devRef .tc main_v7)) = res_v7 V0 :=
  (val3_keep V0 main_v7 (by decide)).trans (val2_main_v7 V0)
theorem val3_main_v32 (V0 : Valuation τ sig (Elt F)) : val3 V0 (no_index (Proc.devRef .tc main_v32)) = res_v32 V0 :=
  (val3_keep V0 main_v32 (by decide)).trans (val2_main_v32 V0)
set_option maxRecDepth 8192 in
set_option maxHeartbeats 2000000 in
/-- As for the query boxes: the concatenation of the four broadcast corner columns, computed from the four sliced
    columns of the fourth argument. -/
theorem val3_main_v57 (V0 : Valuation τ sig (Elt F)) : val3 V0 (no_index (Proc.devRef .tc main_v57)) = res_v57 V0 := by
  unfold val3
  simp only [stC]
  simp only [after_cons, after_nil]
  rw [nary4_result]
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rw [val2_main_arg3]
  rfl

/-! ### Stage D: the boxes' areas -/

/-- The device's buffer contents after stages A to D. -/
def val4 (V0 : Valuation τ sig (Elt F)) : Valuation τ sig (Elt F) := after stD (val3 V0)
/-- A buffer stage D does not write keeps its contents through it. -/
theorem val4_keep (V0 : Valuation τ sig (Elt F)) (r : Ref sig .tc) (h : r ∉ stD_W) :
    val4 V0 (Proc.devRef .tc r) = val3 V0 (Proc.devRef .tc r) :=
  after_of_writes_sub stD _ stD_writes h
theorem val4_main_arg0 (V0 : Valuation τ sig (Elt F)) : val4 V0 (no_index (Proc.devRef .tc main_arg0)) = ar0 V0 :=
  (val4_keep V0 main_arg0 (by decide)).trans (val3_main_arg0 V0)
theorem val4_main_arg1 (V0 : Valuation τ sig (Elt F)) : val4 V0 (no_index (Proc.devRef .tc main_arg1)) = ar1 V0 :=
  (val4_keep V0 main_arg1 (by decide)).trans (val3_main_arg1 V0)
theorem val4_main_arg2 (V0 : Valuation τ sig (Elt F)) : val4 V0 (no_index (Proc.devRef .tc main_arg2)) = ar2 V0 :=
  (val4_keep V0 main_arg2 (by decide)).trans (val3_main_arg2 V0)
theorem val4_main_arg3 (V0 : Valuation τ sig (Elt F)) : val4 V0 (no_index (Proc.devRef .tc main_arg3)) = ar3 V0 :=
  (val4_keep V0 main_arg3 (by decide)).trans (val3_main_arg3 V0)
theorem val4_main_v0 (V0 : Valuation τ sig (Elt F)) : val4 V0 (no_index (Proc.devRef .tc main_v0)) = res_v0 V0 :=
  (val4_keep V0 main_v0 (by decide)).trans (val3_main_v0 V0)
theorem val4_main_v6 (V0 : Valuation τ sig (Elt F)) : val4 V0 (no_index (Proc.devRef .tc main_v6)) = res_v6 V0 :=
  (val4_keep V0 main_v6 (by decide)).trans (val3_main_v6 V0)
theorem val4_main_v7 (V0 : Valuation τ sig (Elt F)) : val4 V0 (no_index (Proc.devRef .tc main_v7)) = res_v7 V0 :=
  (val4_keep V0 main_v7 (by decide)).trans (val3_main_v7 V0)
theorem val4_main_v32 (V0 : Valuation τ sig (Elt F)) : val4 V0 (no_index (Proc.devRef .tc main_v32)) = res_v32 V0 :=
  (val4_keep V0 main_v32 (by decide)).trans (val3_main_v32 V0)
theorem val4_main_v57 (V0 : Valuation τ sig (Elt F)) : val4 V0 (no_index (Proc.devRef .tc main_v57)) = res_v57 V0 :=
  (val4_keep V0 main_v57 (by decide)).trans (val3_main_v57 V0)
set_option maxHeartbeats 2000000 in
/-- Width times height of the query boxes, each a difference of two sliced corner columns. -/
theorem val4_main_v68 (V0 : Valuation τ sig (Elt F)) : val4 V0 (no_index (Proc.devRef .tc main_v68)) = res_v68 V0 := by
  unfold val4
  simp only [stD]
  after_results_simp
  simp only [val3_main_v32] <;> rfl
set_option maxHeartbeats 2000000 in
/-- Width times height of the target boxes. -/
theorem val4_main_v79 (V0 : Valuation τ sig (Elt F)) : val4 V0 (no_index (Proc.devRef .tc main_v79)) = res_v79 V0 := by
  unfold val4
  simp only [stD]
  after_results_simp
  simp only [val3_main_v57] <;> rfl

/-! ### Stage E: the intersection areas -/

/-- The device's buffer contents after stages A to E. -/
def val5 (V0 : Valuation τ sig (Elt F)) : Valuation τ sig (Elt F) := after stE (val4 V0)
/-- A buffer stage E does not write keeps its contents through it. -/
theorem val5_keep (V0 : Valuation τ sig (Elt F)) (r : Ref sig .tc) (h : r ∉ stE_W) :
    val5 V0 (Proc.devRef .tc r) = val4 V0 (Proc.devRef .tc r) :=
  after_of_writes_sub stE _ stE_writes h
theorem val5_main_arg0 (V0 : Valuation τ sig (Elt F)) : val5 V0 (no_index (Proc.devRef .tc main_arg0)) = ar0 V0 :=
  (val5_keep V0 main_arg0 (by decide)).trans (val4_main_arg0 V0)
theorem val5_main_arg1 (V0 : Valuation τ sig (Elt F)) : val5 V0 (no_index (Proc.devRef .tc main_arg1)) = ar1 V0 :=
  (val5_keep V0 main_arg1 (by decide)).trans (val4_main_arg1 V0)
theorem val5_main_arg2 (V0 : Valuation τ sig (Elt F)) : val5 V0 (no_index (Proc.devRef .tc main_arg2)) = ar2 V0 :=
  (val5_keep V0 main_arg2 (by decide)).trans (val4_main_arg2 V0)
theorem val5_main_arg3 (V0 : Valuation τ sig (Elt F)) : val5 V0 (no_index (Proc.devRef .tc main_arg3)) = ar3 V0 :=
  (val5_keep V0 main_arg3 (by decide)).trans (val4_main_arg3 V0)
theorem val5_main_v0 (V0 : Valuation τ sig (Elt F)) : val5 V0 (no_index (Proc.devRef .tc main_v0)) = res_v0 V0 :=
  (val5_keep V0 main_v0 (by decide)).trans (val4_main_v0 V0)
theorem val5_main_v6 (V0 : Valuation τ sig (Elt F)) : val5 V0 (no_index (Proc.devRef .tc main_v6)) = res_v6 V0 :=
  (val5_keep V0 main_v6 (by decide)).trans (val4_main_v6 V0)
theorem val5_main_v7 (V0 : Valuation τ sig (Elt F)) : val5 V0 (no_index (Proc.devRef .tc main_v7)) = res_v7 V0 :=
  (val5_keep V0 main_v7 (by decide)).trans (val4_main_v7 V0)
theorem val5_main_v32 (V0 : Valuation τ sig (Elt F)) : val5 V0 (no_index (Proc.devRef .tc main_v32)) = res_v32 V0 :=
  (val5_keep V0 main_v32 (by decide)).trans (val4_main_v32 V0)
theorem val5_main_v57 (V0 : Valuation τ sig (Elt F)) : val5 V0 (no_index (Proc.devRef .tc main_v57)) = res_v57 V0 :=
  (val5_keep V0 main_v57 (by decide)).trans (val4_main_v57 V0)
theorem val5_main_v68 (V0 : Valuation τ sig (Elt F)) : val5 V0 (no_index (Proc.devRef .tc main_v68)) = res_v68 V0 :=
  (val5_keep V0 main_v68 (by decide)).trans (val4_main_v68 V0)
theorem val5_main_v79 (V0 : Valuation τ sig (Elt F)) : val5 V0 (no_index (Proc.devRef .tc main_v79)) = res_v79 V0 :=
  (val5_keep V0 main_v79 (by decide)).trans (val4_main_v79 V0)
set_option maxRecDepth 8192 in
set_option maxHeartbeats 2000000 in
/-- The product of the two sliced sides of the clamped overlap: the lesser upper corners minus the greater lower
    corners of the broadcast boxes, the greater of that and a broadcast zero (the clamp's three operations move values
    between a buffer's own type and the function's along identities). -/
theorem val5_main_v100 (V0 : Valuation τ sig (Elt F)) : val5 V0 (no_index (Proc.devRef .tc main_v100)) = res_v100 V0 := by
  unfold val5
  simp only [stE]
  after_results_simp
  simp only [val4_main_v32, val4_main_v57]
  (try simp only [TRef.ofBuf, TRef.toBuf, cast_eq]) <;> rfl

/-! ### Stage F: the union areas, and intersection over union -/

/-- The device's buffer contents after stages A to F. -/
def val6 (V0 : Valuation τ sig (Elt F)) : Valuation τ sig (Elt F) := after stF (val5 V0)
/-- A buffer stage F does not write keeps its contents through it. -/
theorem val6_keep (V0 : Valuation τ sig (Elt F)) (r : Ref sig .tc) (h : r ∉ stF_W) :
    val6 V0 (Proc.devRef .tc r) = val5 V0 (Proc.devRef .tc r) :=
  after_of_writes_sub stF _ stF_writes h
theorem val6_main_arg0 (V0 : Valuation τ sig (Elt F)) : val6 V0 (no_index (Proc.devRef .tc main_arg0)) = ar0 V0 :=
  (val6_keep V0 main_arg0 (by decide)).trans (val5_main_arg0 V0)
theorem val6_main_arg1 (V0 : Valuation τ sig (Elt F)) : val6 V0 (no_index (Proc.devRef .tc main_arg1)) = ar1 V0 :=
  (val6_keep V0 main_arg1 (by decide)).trans (val5_main_arg1 V0)
theorem val6_main_arg2 (V0 : Valuation τ sig (Elt F)) : val6 V0 (no_index (Proc.devRef .tc main_arg2)) = ar2 V0 :=
  (val6_keep V0 main_arg2 (by decide)).trans (val5_main_arg2 V0)
theorem val6_main_arg3 (V0 : Valuation τ sig (Elt F)) : val6 V0 (no_index (Proc.devRef .tc main_arg3)) = ar3 V0 :=
  (val6_keep V0 main_arg3 (by decide)).trans (val5_main_arg3 V0)
theorem val6_main_v0 (V0 : Valuation τ sig (Elt F)) : val6 V0 (no_index (Proc.devRef .tc main_v0)) = res_v0 V0 :=
  (val6_keep V0 main_v0 (by decide)).trans (val5_main_v0 V0)
theorem val6_main_v6 (V0 : Valuation τ sig (Elt F)) : val6 V0 (no_index (Proc.devRef .tc main_v6)) = res_v6 V0 :=
  (val6_keep V0 main_v6 (by decide)).trans (val5_main_v6 V0)
theorem val6_main_v7 (V0 : Valuation τ sig (Elt F)) : val6 V0 (no_index (Proc.devRef .tc main_v7)) = res_v7 V0 :=
  (val6_keep V0 main_v7 (by decide)).trans (val5_main_v7 V0)
theorem val6_main_v32 (V0 : Valuation τ sig (Elt F)) : val6 V0 (no_index (Proc.devRef .tc main_v32)) = res_v32 V0 :=
  (val6_keep V0 main_v32 (by decide)).trans (val5_main_v32 V0)
theorem val6_main_v57 (V0 : Valuation τ sig (Elt F)) : val6 V0 (no_index (Proc.devRef .tc main_v57)) = res_v57 V0 :=
  (val6_keep V0 main_v57 (by decide)).trans (val5_main_v57 V0)
/-- The two broadcast areas added, the intersection taken off. -/
theorem val6_main_v106 (V0 : Valuation τ sig (Elt F)) : val6 V0 (no_index (Proc.devRef .tc main_v106)) = res_v106 V0 := by
  unfold val6
  simp only [stF]
  after_results_simp
  simp only [val5_main_v68, val5_main_v79, val5_main_v100] <;> rfl
/-- The intersection divided by that union. -/
theorem val6_main_v107 (V0 : Valuation τ sig (Elt F)) : val6 V0 (no_index (Proc.devRef .tc main_v107)) = res_v107 V0 := by
  unfold val6
  simp only [stF]
  after_results_simp
  simp only [val5_main_v68, val5_main_v79, val5_main_v100] <;> rfl

/-! ### Stage G: the enclosing boxes' areas -/

/-- The device's buffer contents after stages A to G. -/
def val7 (V0 : Valuation τ sig (Elt F)) : Valuation τ sig (Elt F) := after stG (val6 V0)
/-- A buffer stage G does not write keeps its contents through it. -/
theorem val7_keep (V0 : Valuation τ sig (Elt F)) (r : Ref sig .tc) (h : r ∉ stG_W) :
    val7 V0 (Proc.devRef .tc r) = val6 V0 (Proc.devRef .tc r) :=
  after_of_writes_sub stG _ stG_writes h
theorem val7_main_arg0 (V0 : Valuation τ sig (Elt F)) : val7 V0 (no_index (Proc.devRef .tc main_arg0)) = ar0 V0 :=
  (val7_keep V0 main_arg0 (by decide)).trans (val6_main_arg0 V0)
theorem val7_main_arg1 (V0 : Valuation τ sig (Elt F)) : val7 V0 (no_index (Proc.devRef .tc main_arg1)) = ar1 V0 :=
  (val7_keep V0 main_arg1 (by decide)).trans (val6_main_arg1 V0)
theorem val7_main_arg2 (V0 : Valuation τ sig (Elt F)) : val7 V0 (no_index (Proc.devRef .tc main_arg2)) = ar2 V0 :=
  (val7_keep V0 main_arg2 (by decide)).trans (val6_main_arg2 V0)
theorem val7_main_arg3 (V0 : Valuation τ sig (Elt F)) : val7 V0 (no_index (Proc.devRef .tc main_arg3)) = ar3 V0 :=
  (val7_keep V0 main_arg3 (by decide)).trans (val6_main_arg3 V0)
theorem val7_main_v0 (V0 : Valuation τ sig (Elt F)) : val7 V0 (no_index (Proc.devRef .tc main_v0)) = res_v0 V0 :=
  (val7_keep V0 main_v0 (by decide)).trans (val6_main_v0 V0)
theorem val7_main_v6 (V0 : Valuation τ sig (Elt F)) : val7 V0 (no_index (Proc.devRef .tc main_v6)) = res_v6 V0 :=
  (val7_keep V0 main_v6 (by decide)).trans (val6_main_v6 V0)
theorem val7_main_v7 (V0 : Valuation τ sig (Elt F)) : val7 V0 (no_index (Proc.devRef .tc main_v7)) = res_v7 V0 :=
  (val7_keep V0 main_v7 (by decide)).trans (val6_main_v7 V0)
theorem val7_main_v106 (V0 : Valuation τ sig (Elt F)) : val7 V0 (no_index (Proc.devRef .tc main_v106)) = res_v106 V0 :=
  (val7_keep V0 main_v106 (by decide)).trans (val6_main_v106 V0)
theorem val7_main_v107 (V0 : Valuation τ sig (Elt F)) : val7 V0 (no_index (Proc.devRef .tc main_v107)) = res_v107 V0 :=
  (val7_keep V0 main_v107 (by decide)).trans (val6_main_v107 V0)
set_option maxRecDepth 8192 in
set_option maxHeartbeats 2000000 in
/-- As for the intersection with the lesser and the greater exchanged: the greater upper corners minus the lesser
    lower corners, clamped at zero, the two sides multiplied. -/
theorem val7_main_v128 (V0 : Valuation τ sig (Elt F)) : val7 V0 (no_index (Proc.devRef .tc main_v128)) = res_v128 V0 := by
  unfold val7
  simp only [stG]
  after_results_simp
  simp only [val6_main_v32, val6_main_v57]
  (try simp only [TRef.ofBuf, TRef.toBuf, cast_eq]) <;> rfl

/-! ### Stage H: the negated generalized intersection over union -/

/-- The device's buffer contents after stages A to H. -/
def val8 (V0 : Valuation τ sig (Elt F)) : Valuation τ sig (Elt F) := after stH (val7 V0)
/-- A buffer stage H does not write keeps its contents through it. -/
theorem val8_keep (V0 : Valuation τ sig (Elt F)) (r : Ref sig .tc) (h : r ∉ stH_W) :
    val8 V0 (Proc.devRef .tc r) = val7 V0 (Proc.devRef .tc r) :=
  after_of_writes_sub stH _ stH_writes h
theorem val8_main_arg0 (V0 : Valuation τ sig (Elt F)) : val8 V0 (no_index (Proc.devRef .tc main_arg0)) = ar0 V0 :=
  (val8_keep V0 main_arg0 (by decide)).trans (val7_main_arg0 V0)
theorem val8_main_arg1 (V0 : Valuation τ sig (Elt F)) : val8 V0 (no_index (Proc.devRef .tc main_arg1)) = ar1 V0 :=
  (val8_keep V0 main_arg1 (by decide)).trans (val7_main_arg1 V0)
theorem val8_main_arg2 (V0 : Valuation τ sig (Elt F)) : val8 V0 (no_index (Proc.devRef .tc main_arg2)) = ar2 V0 :=
  (val8_keep V0 main_arg2 (by decide)).trans (val7_main_arg2 V0)
theorem val8_main_arg3 (V0 : Valuation τ sig (Elt F)) : val8 V0 (no_index (Proc.devRef .tc main_arg3)) = ar3 V0 :=
  (val8_keep V0 main_arg3 (by decide)).trans (val7_main_arg3 V0)
theorem val8_main_v0 (V0 : Valuation τ sig (Elt F)) : val8 V0 (no_index (Proc.devRef .tc main_v0)) = res_v0 V0 :=
  (val8_keep V0 main_v0 (by decide)).trans (val7_main_v0 V0)
theorem val8_main_v6 (V0 : Valuation τ sig (Elt F)) : val8 V0 (no_index (Proc.devRef .tc main_v6)) = res_v6 V0 :=
  (val8_keep V0 main_v6 (by decide)).trans (val7_main_v6 V0)
theorem val8_main_v7 (V0 : Valuation τ sig (Elt F)) : val8 V0 (no_index (Proc.devRef .tc main_v7)) = res_v7 V0 :=
  (val8_keep V0 main_v7 (by decide)).trans (val7_main_v7 V0)
/-- Intersection over union, less the share of the enclosing box outside the union, negated. -/
theorem val8_main_v132 (V0 : Valuation τ sig (Elt F)) : val8 V0 (no_index (Proc.devRef .tc main_v132)) = res_v132 V0 := by
  unfold val8
  simp only [stH]
  after_results_simp
  simp only [val7_main_v107, val7_main_v128, val7_main_v106] <;> rfl

/-! ### Stage I: the negative focal class cost -/

/-- The device's buffer contents after stages A to I. -/
def val9 (V0 : Valuation τ sig (Elt F)) : Valuation τ sig (Elt F) := after stI (val8 V0)
/-- A buffer stage I does not write keeps its contents through it. -/
theorem val9_keep (V0 : Valuation τ sig (Elt F)) (r : Ref sig .tc) (h : r ∉ stI_W) :
    val9 V0 (Proc.devRef .tc r) = val8 V0 (Proc.devRef .tc r) :=
  after_of_writes_sub stI _ stI_writes h
theorem val9_main_arg0 (V0 : Valuation τ sig (Elt F)) : val9 V0 (no_index (Proc.devRef .tc main_arg0)) = ar0 V0 :=
  (val9_keep V0 main_arg0 (by decide)).trans (val8_main_arg0 V0)
theorem val9_main_arg1 (V0 : Valuation τ sig (Elt F)) : val9 V0 (no_index (Proc.devRef .tc main_arg1)) = ar1 V0 :=
  (val9_keep V0 main_arg1 (by decide)).trans (val8_main_arg1 V0)
theorem val9_main_arg2 (V0 : Valuation τ sig (Elt F)) : val9 V0 (no_index (Proc.devRef .tc main_arg2)) = ar2 V0 :=
  (val9_keep V0 main_arg2 (by decide)).trans (val8_main_arg2 V0)
theorem val9_main_arg3 (V0 : Valuation τ sig (Elt F)) : val9 V0 (no_index (Proc.devRef .tc main_arg3)) = ar3 V0 :=
  (val9_keep V0 main_arg3 (by decide)).trans (val8_main_arg3 V0)
theorem val9_main_v0 (V0 : Valuation τ sig (Elt F)) : val9 V0 (no_index (Proc.devRef .tc main_v0)) = res_v0 V0 :=
  (val9_keep V0 main_v0 (by decide)).trans (val8_main_v0 V0)
theorem val9_main_v6 (V0 : Valuation τ sig (Elt F)) : val9 V0 (no_index (Proc.devRef .tc main_v6)) = res_v6 V0 :=
  (val9_keep V0 main_v6 (by decide)).trans (val8_main_v6 V0)
theorem val9_main_v7 (V0 : Valuation τ sig (Elt F)) : val9 V0 (no_index (Proc.devRef .tc main_v7)) = res_v7 V0 :=
  (val9_keep V0 main_v7 (by decide)).trans (val8_main_v7 V0)
theorem val9_main_v132 (V0 : Valuation τ sig (Elt F)) : val9 V0 (no_index (Proc.devRef .tc main_v132)) = res_v132 V0 :=
  (val9_keep V0 main_v132 (by decide)).trans (val8_main_v132 V0)
set_option maxRecDepth 8192 in
set_option maxHeartbeats 2000000 in
/-- Three quarters of the squared sigmoid, times the doubly negated log-sigmoid of the negated logits: the log-sigmoid
    is the negated softplus of the negation, the softplus its fifteen operations read back to the operand. -/
theorem val9_main_v140 (V0 : Valuation τ sig (Elt F)) : val9 V0 (no_index (Proc.devRef .tc main_v140)) = res_v140 V0 := by
  unfold val9
  simp only [stI]
  after_results_simp
  simp only [val8_main_v6, val8_main_v0]
  (try simp only [TRef.ofBuf, TRef.toBuf, cast_eq]) <;> rfl

/-! ### Stage J: the positive focal class cost -/

/-- The device's buffer contents after stages A to J. -/
def val10 (V0 : Valuation τ sig (Elt F)) : Valuation τ sig (Elt F) := after stJ (val9 V0)
/-- A buffer stage J does not write keeps its contents through it. -/
theorem val10_keep (V0 : Valuation τ sig (Elt F)) (r : Ref sig .tc) (h : r ∉ stJ_W) :
    val10 V0 (Proc.devRef .tc r) = val9 V0 (Proc.devRef .tc r) :=
  after_of_writes_sub stJ _ stJ_writes h
theorem val10_main_arg0 (V0 : Valuation τ sig (Elt F)) : val10 V0 (no_index (Proc.devRef .tc main_arg0)) = ar0 V0 :=
  (val10_keep V0 main_arg0 (by decide)).trans (val9_main_arg0 V0)
theorem val10_main_arg1 (V0 : Valuation τ sig (Elt F)) : val10 V0 (no_index (Proc.devRef .tc main_arg1)) = ar1 V0 :=
  (val10_keep V0 main_arg1 (by decide)).trans (val9_main_arg1 V0)
theorem val10_main_arg2 (V0 : Valuation τ sig (Elt F)) : val10 V0 (no_index (Proc.devRef .tc main_arg2)) = ar2 V0 :=
  (val10_keep V0 main_arg2 (by decide)).trans (val9_main_arg2 V0)
theorem val10_main_arg3 (V0 : Valuation τ sig (Elt F)) : val10 V0 (no_index (Proc.devRef .tc main_arg3)) = ar3 V0 :=
  (val10_keep V0 main_arg3 (by decide)).trans (val9_main_arg3 V0)
theorem val10_main_v7 (V0 : Valuation τ sig (Elt F)) : val10 V0 (no_index (Proc.devRef .tc main_v7)) = res_v7 V0 :=
  (val10_keep V0 main_v7 (by decide)).trans (val9_main_v7 V0)
theorem val10_main_v132 (V0 : Valuation τ sig (Elt F)) : val10 V0 (no_index (Proc.devRef .tc main_v132)) = res_v132 V0 :=
  (val10_keep V0 main_v132 (by decide)).trans (val9_main_v132 V0)
theorem val10_main_v140 (V0 : Valuation τ sig (Elt F)) : val10 V0 (no_index (Proc.devRef .tc main_v140)) = res_v140 V0 :=
  (val10_keep V0 main_v140 (by decide)).trans (val9_main_v140 V0)
set_option maxRecDepth 8192 in
set_option maxHeartbeats 2000000 in
/-- A quarter of the squared complement of the sigmoid, times the negated log-sigmoid of the logits. -/
theorem val10_main_v149 (V0 : Valuation τ sig (Elt F)) : val10 V0 (no_index (Proc.devRef .tc main_v149)) = res_v149 V0 := by
  unfold val10
  simp only [stJ]
  after_results_simp
  simp only [val9_main_v6, val9_main_v0]
  (try simp only [TRef.ofBuf, TRef.toBuf, cast_eq]) <;> rfl

/-! ### Stage K: the class cost gathered at the targets' labels -/

/-- The device's buffer contents after stages A to K. -/
def val11 (V0 : Valuation τ sig (Elt F)) : Valuation τ sig (Elt F) := after stK (val10 V0)
/-- A buffer stage K does not write keeps its contents through it. -/
theorem val11_keep (V0 : Valuation τ sig (Elt F)) (r : Ref sig .tc) (h : r ∉ stK_W) :
    val11 V0 (Proc.devRef .tc r) = val10 V0 (Proc.devRef .tc r) :=
  after_of_writes_sub stK _ stK_writes h
theorem val11_main_arg0 (V0 : Valuation τ sig (Elt F)) : val11 V0 (no_index (Proc.devRef .tc main_arg0)) = ar0 V0 :=
  (val11_keep V0 main_arg0 (by decide)).trans (val10_main_arg0 V0)
theorem val11_main_arg1 (V0 : Valuation τ sig (Elt F)) : val11 V0 (no_index (Proc.devRef .tc main_arg1)) = ar1 V0 :=
  (val11_keep V0 main_arg1 (by decide)).trans (val10_main_arg1 V0)
theorem val11_main_arg2 (V0 : Valuation τ sig (Elt F)) : val11 V0 (no_index (Proc.devRef .tc main_arg2)) = ar2 V0 :=
  (val11_keep V0 main_arg2 (by decide)).trans (val10_main_arg2 V0)
theorem val11_main_arg3 (V0 : Valuation τ sig (Elt F)) : val11 V0 (no_index (Proc.devRef .tc main_arg3)) = ar3 V0 :=
  (val11_keep V0 main_arg3 (by decide)).trans (val10_main_arg3 V0)
theorem val11_main_v7 (V0 : Valuation τ sig (Elt F)) : val11 V0 (no_index (Proc.devRef .tc main_v7)) = res_v7 V0 :=
  (val11_keep V0 main_v7 (by decide)).trans (val10_main_v7 V0)
theorem val11_main_v132 (V0 : Valuation τ sig (Elt F)) : val11 V0 (no_index (Proc.devRef .tc main_v132)) = res_v132 V0 :=
  (val11_keep V0 main_v132 (by decide)).trans (val10_main_v132 V0)
set_option maxRecDepth 8192 in
set_option maxHeartbeats 2000000 in
/-- The positive cost gathered at the labels (a negative label moved up by the number of classes) minus the negative
    cost gathered the same way. -/
theorem val11_main_v164 (V0 : Valuation τ sig (Elt F)) : val11 V0 (no_index (Proc.devRef .tc main_v164)) = res_v164 V0 := by
  unfold val11
  simp only [stK]
  after_results_simp
  simp only [val10_main_v149, val10_main_arg2, val10_main_v140] <;> rfl

/-! ### Stage L: the L1 box cost -/

/-- The device's buffer contents after stages A to L. -/
def val12 (V0 : Valuation τ sig (Elt F)) : Valuation τ sig (Elt F) := after stL (val11 V0)
/-- A buffer stage L does not write keeps its contents through it. -/
theorem val12_keep (V0 : Valuation τ sig (Elt F)) (r : Ref sig .tc) (h : r ∉ stL_W) :
    val12 V0 (Proc.devRef .tc r) = val11 V0 (Proc.devRef .tc r) :=
  after_of_writes_sub stL _ stL_writes h
theorem val12_main_arg0 (V0 : Valuation τ sig (Elt F)) : val12 V0 (no_index (Proc.devRef .tc main_arg0)) = ar0 V0 :=
  (val12_keep V0 main_arg0 (by decide)).trans (val11_main_arg0 V0)
theorem val12_main_arg1 (V0 : Valuation τ sig (Elt F)) : val12 V0 (no_index (Proc.devRef .tc main_arg1)) = ar1 V0 :=
  (val12_keep V0 main_arg1 (by decide)).trans (val11_main_arg1 V0)
theorem val12_main_arg2 (V0 : Valuation τ sig (Elt F)) : val12 V0 (no_index (Proc.devRef .tc main_arg2)) = ar2 V0 :=
  (val12_keep V0 main_arg2 (by decide)).trans (val11_main_arg2 V0)
theorem val12_main_arg3 (V0 : Valuation τ sig (Elt F)) : val12 V0 (no_index (Proc.devRef .tc main_arg3)) = ar3 V0 :=
  (val12_keep V0 main_arg3 (by decide)).trans (val11_main_arg3 V0)
theorem val12_main_v132 (V0 : Valuation τ sig (Elt F)) : val12 V0 (no_index (Proc.devRef .tc main_v132)) = res_v132 V0 :=
  (val12_keep V0 main_v132 (by decide)).trans (val11_main_v132 V0)
theorem val12_main_v164 (V0 : Valuation τ sig (Elt F)) : val12 V0 (no_index (Proc.devRef .tc main_v164)) = res_v164 V0 :=
  (val12_keep V0 main_v164 (by decide)).trans (val11_main_v164 V0)
/-- The sum over the four coordinates of the absolute differences of the broadcast boxes. -/
theorem val12_main_v171 (V0 : Valuation τ sig (Elt F)) : val12 V0 (no_index (Proc.devRef .tc main_v171)) = res_v171 V0 := by
  unfold val12
  simp only [stL]
  after_results_simp
  simp only [val11_main_v7, val11_main_arg3] <;> rfl

/-! ### Stage M: the weighted total, reshaped and clamped -/

/-- The device's buffer contents after all thirteen stages. -/
def val13 (V0 : Valuation τ sig (Elt F)) : Valuation τ sig (Elt F) := after stM (val12 V0)
/-- A buffer stage M does not write keeps its contents through it. -/
theorem val13_keep (V0 : Valuation τ sig (Elt F)) (r : Ref sig .tc) (h : r ∉ stM_W) :
    val13 V0 (Proc.devRef .tc r) = val12 V0 (Proc.devRef .tc r) :=
  after_of_writes_sub stM _ stM_writes h
theorem val13_main_arg0 (V0 : Valuation τ sig (Elt F)) : val13 V0 (no_index (Proc.devRef .tc main_arg0)) = ar0 V0 :=
  (val13_keep V0 main_arg0 (by decide)).trans (val12_main_arg0 V0)
theorem val13_main_arg1 (V0 : Valuation τ sig (Elt F)) : val13 V0 (no_index (Proc.devRef .tc main_arg1)) = ar1 V0 :=
  (val13_keep V0 main_arg1 (by decide)).trans (val12_main_arg1 V0)
theorem val13_main_arg2 (V0 : Valuation τ sig (Elt F)) : val13 V0 (no_index (Proc.devRef .tc main_arg2)) = ar2 V0 :=
  (val13_keep V0 main_arg2 (by decide)).trans (val12_main_arg2 V0)
theorem val13_main_arg3 (V0 : Valuation τ sig (Elt F)) : val13 V0 (no_index (Proc.devRef .tc main_arg3)) = ar3 V0 :=
  (val13_keep V0 main_arg3 (by decide)).trans (val12_main_arg3 V0)
set_option maxRecDepth 8192 in
set_option maxHeartbeats 2000000 in
/-- Five times the L1 cost plus twice the class cost plus twice the negated overlap measure, reshaped to (image, query,
    target); where that is not a number or is infinite in size, the broadcast large constant instead. -/
theorem val13_main_v184 (V0 : Valuation τ sig (Elt F)) : val13 V0 (no_index (Proc.devRef .tc main_v184)) = res_v184 V0 := by
  unfold val13
  simp only [stM]
  after_results_simp
  simp only [val12_main_v171, val12_main_v164, val12_main_v132]
  (try simp only [TRef.ofBuf, TRef.toBuf, cast_eq]) <;> rfl

/-! ## The whole line -/

/-- The fold over the whole line is the thirteen stage folds one after the other. -/
theorem after_ops (V0 : Valuation τ sig (Elt F)) : after ops V0 = val13 V0 := by
  simp only [ops, StableHlo.after_append]
  rfl

/-- The fold at the result buffer is the reference's result function of the four arguments' contents. -/
theorem after_out (V : Valuation τ sig (Elt F)) :
    after ops V (main_v184 : DevRef τ sig)
      = refOut (V (main_arg0 : DevRef τ sig)) (V (main_arg1 : DevRef τ sig)) (V (main_arg2 : DevRef τ sig)) (V (main_arg3 : DevRef τ sig)) := by
  rw [after_ops]
  exact val13_main_v184 V

/-- No operation writes the first argument. -/
theorem after_arg0 (V : Valuation τ sig (Elt F)) : after ops V (main_arg0 : DevRef τ sig) = V (main_arg0 : DevRef τ sig) := by
  rw [after_ops]
  exact val13_main_arg0 V
/-- No operation writes the second argument. -/
theorem after_arg1 (V : Valuation τ sig (Elt F)) : after ops V (main_arg1 : DevRef τ sig) = V (main_arg1 : DevRef τ sig) := by
  rw [after_ops]
  exact val13_main_arg1 V
/-- No operation writes the third argument. -/
theorem after_arg2 (V : Valuation τ sig (Elt F)) : after ops V (main_arg2 : DevRef τ sig) = V (main_arg2 : DevRef τ sig) := by
  rw [after_ops]
  exact val13_main_arg2 V
/-- No operation writes the fourth argument. -/
theorem after_arg3 (V : Valuation τ sig (Elt F)) : after ops V (main_arg3 : DevRef τ sig) = V (main_arg3 : DevRef τ sig) := by
  rw [after_ops]
  exact val13_main_arg3 V

end Cert.ReferenceIdeal.Hand

end
-- ==== Proof.RefLast.lean ====
/-
  The reference's last stage at an index: it weighs the three cost arrays of the flattened (query row, target) pairs —
  five times the L1 cost plus twice the class cost plus twice the NEGATED generalized IoU —, reshapes the sum to
  (image, query, target) and clamps it. At (b, r, q) the sum is read at the query's flat row; the clamp's two tests are
  the specification's (on a linear order the unordered "not equal" is the ordered one, and the size of a value is the
  larger of it and its negative).
-/
import proofs.«430708_j55284819034883_2_alg».proof.Proof.RefOut
import proofs.«430708_j55284819034883_2_alg».proof.Proof.CostSpec
import proofs.«430708_j55284819034883_2_alg».proof.Proof.OutIndex

noncomputable section

namespace Cert.ReferenceIdeal.Hand

open Cert.ReferenceIdeal Cert.ReferenceIdeal.Gen Idealize.ShloMosaic Idealize.ShloMosaic.ValueIdx Cert.Cost

/-- The last stage is the clamp of the reshaped weighted sum. -/
theorem stM_v184_eq (x171 x164 x132 : FVec Ideal S14400x1600 .f32) (j : S16x900x1600.Idx) :
    stM_v184 (F := Ideal) x171 x164 x132 j
      = clampC (shapeCast S16x900x1600 (fun i => wFive * x171 i + wTwo * x164 i + wTwo * x132 i)
          shapeCasts_S14400x1600_S16x900x1600 j) := rfl

/-- At (image b, query r, target q): the clamp of the weighted sum at the query's flat row. -/
theorem stM_v184_at (x171 x164 x132 : FVec Ideal S14400x1600 .f32) (b : Fin 16) (r : Fin 900) (q : Fin 1600) :
    stM_v184 (F := Ideal) x171 x164 x132 (ix3 b r q)
      = clampC (wFive * x171 (ix2 (flatRow b r) q) + wTwo * x164 (ix2 (flatRow b r) q) + wTwo * x132 (ix2 (flatRow b r) q)) := by
  rw [stM_v184_eq, unflatten_at]

end Cert.ReferenceIdeal.Hand

end
-- ==== Proof.RefClsAt.lean ====
/-
  The reference's class cost read at one (query row, target) pair.

  The class cost of the pair (n, q) is the positive focal term minus the negative focal term of one logit: the logit of
  query row n in the column the target's label names. Row n of the flattened logits is (image n / 900, query n % 900)
  of the argument; the probability is the logistic of the logit; each focal term is a constant times the square of a
  probability times the negated logarithm of a probability, the logarithm written through the stable form of
  log (1 + eˣ), whose guard for a value unequal to itself never fires on a linear order. The column is chosen by a gather
  along the class axis whose start index is the label, read signed and cut off to the last class; a label between 0 and 90
  is left alone both by the wrap of negative labels and by the cut-off, and is then its own remainder modulo 91.
  On a real logit the probability and its complement are real, so each power by the word of 2.0 is a product, which
  is how the specification spells the squares.
-/
import proofs.«430708_j55284819034883_2_alg».proof.Proof.RefOut
import proofs.«430708_j55284819034883_2_alg».proof.Proof.CostSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx Cert.Cost

/-! ## The flattened logits and the probability -/

/-- Row `n` of the logits flattened to 14400 rows is query `n % 900` of image `n / 900`: both indices have the
    row-major position `n · 91 + k`, since `(n / 900) · 900 + n % 900 = n`. -/
theorem stA_v0_at (a0 : FVec Ideal S16x900x91 .f32) (n : Fin 14400) (k : Fin 91) :
    stA_v0 a0 (ix2 n k)
      = a0 (ix3 (⟨n.val / 900, by omega⟩ : Fin 16) (⟨n.val % 900, Nat.mod_lt _ (by decide)⟩ : Fin 900) k) := by
  unfold stA_v0
  refine shapeCast_apply _ _ _ _ ?_
  rw [Shape.rowMajor_val_three, Shape.rowMajor_val_two]
  show ((n.val / 900) * 900 + n.val % 900) * 91 + k.val = n.val * 91 + k.val
  rw [Nat.div_add_mod' n.val 900]

/-- The probability array is the logistic of the flattened logits: `1 / (1 + e^{-x})` with the word of `1.0` for both
    ones, and that word denotes one. -/
theorem stA_v6_at (a0 : FVec Ideal S16x900x91 .f32) (j : S14400x91.Idx) :
    stA_v6 a0 j = Ideal.logistic (stA_v0 a0 j) := by
  show Ideal.div wOne (wOne + Ideal.exp (-(stA_v0 a0 j))) = _
  rw [wOne_eq]
  rfl

/-! ## The two focal terms -/

/-- The reference's `log (1 + e^z)` at a scalar: a select between `z + 0` and the stable form, on whether `z − 0`
    differs from itself. Nothing differs from itself, so the stable form is taken; the word of zero is zero and
    `z − 0 = z`, which leaves the specification's `splus z`. -/
theorem softplus_eq (z : EReal) :
    Scalar.select (Ideal.cmp .une (z - Ideal.ofBits .f32 0x00000000#32) (z - Ideal.ofBits .f32 0x00000000#32))
        (z + Ideal.ofBits .f32 0x00000000#32)
        (max z (Ideal.ofBits .f32 0x00000000#32)
          + Ideal.log1p (Ideal.exp (-(absE (z - Ideal.ofBits .f32 0x00000000#32))))) = splus z := by
  rw [cmp_une_eq, cmp_one_self, select_zero, Ideal.ofBits_zero_f32, sub_zero]
  rfl

/-- The positive focal term at an index: a quarter of the complement of the probability to the power `2.0`, times the
    negated `log σ` of the logit (`log σ(y) = −log (1 + e^{−y})`). -/
theorem stJ_v149_at (v6 v0 : FVec Ideal S14400x91 .f32) (j : S14400x91.Idx) :
    stJ_v149 v6 v0 j = wQuarter * Ideal.pow (wOne - v6 j) wTwo * (-(lsig (v0 j))) := by
  unfold lsig
  rw [← softplus_eq]
  rfl

/-- The negative focal term at an index: three quarters of the probability to the power `2.0`, times the negated
    `log σ` of the negated logit; the reference negates the logit twice inside, and the specification keeps both signs. -/
theorem stI_v140_at (v6 v0 : FVec Ideal S14400x91 .f32) (j : S14400x91.Idx) :
    stI_v140 v6 v0 j = wThreeQ * Ideal.pow (v6 j) wTwo * (-(lsig (-(v0 j)))) := by
  unfold lsig
  rw [← softplus_eq]
  rfl

/-! ## The gather along the class axis -/

/-- The gather with one offset axis (the rows, taken whole) and the class axis collapsed and start-indexed, over a
    column of 1600 start indices: entry `(n, q)` is the operand at row `n` and at the column that start index `q`
    names, read signed and cut off to `[0, 90]`. On the row axis the start is zero (the axis is not start-indexed) and
    the offset is the result's first coordinate; on the class axis the offset is zero (the axis is collapsed) and the start
    is the clamped component, found at the start indices' position `(q, 0)`; there is no batching axis. -/
theorem gather_col_at {α : Type} (x : S14400x91.Idx → α) (idx : IVec S1600x1 32) (n : Fin 14400) (q : Fin 1600) :
    Host.gather gather_S14400x91_S1600x1_S14400x1600_0_1_n_n_1_1_144001 x idx (ix2 n q)
      = x (ix2 n (⟨min (idx (ix2 q (0 : Fin 1))).toInt.toNat 90, by omega⟩ : Fin 91)) := by
  unfold Host.gather
  congr 1
  funext a
  apply Fin.ext
  have hb : ∀ c : Fin 2, c ∉ gather_S14400x91_S1600x1_S14400x1600_0_1_n_n_1_1_144001.operandBatchingDims :=
    fun _ => List.not_mem_nil
  show gather_S14400x91_S1600x1_S14400x1600_0_1_n_n_1_1_144001.start (ix2 n q) idx a
      + gather_S14400x91_S1600x1_S14400x1600_0_1_n_n_1_1_144001.batchCoord (ix2 n q) a
      + gather_S14400x91_S1600x1_S14400x1600_0_1_n_n_1_1_144001.offCoord (ix2 n q) a = _
  rw [GatherDims.batchCoord_eq_zero _ _ _ (hb a), Nat.add_zero]
  match a with
  | ⟨0, _⟩ =>
    have h0 : (⟨0, by decide⟩ : Fin 2) ∉ gather_S14400x91_S1600x1_S14400x1600_0_1_n_n_1_1_144001.startIndexMap := by decide
    have hk : (⟨0, by decide⟩ : Fin 2) ∈ gather_S14400x91_S1600x1_S14400x1600_0_1_n_n_1_1_144001.sKept := by decide
    unfold GatherDims.start GatherDims.offCoord
    rw [dif_neg h0, dif_pos hk, Nat.zero_add]
    rfl
  | ⟨1, _⟩ =>
    have h1 : (⟨1, by decide⟩ : Fin 2) ∈ gather_S14400x91_S1600x1_S14400x1600_0_1_n_n_1_1_144001.startIndexMap := by decide
    have hk : (⟨1, by decide⟩ : Fin 2) ∉ gather_S14400x91_S1600x1_S14400x1600_0_1_n_n_1_1_144001.sKept := by decide
    rw [GatherDims.offCoord_eq_zero _ _ _ hk, Nat.add_zero]
    unfold GatherDims.start
    rw [dif_pos h1]
    have hsi : gather_S14400x91_S1600x1_S14400x1600_0_1_n_n_1_1_144001.siIdx (ix2 n q)
        ⟨List.idxOf (⟨1, by decide⟩ : Fin 2) gather_S14400x91_S1600x1_S14400x1600_0_1_n_n_1_1_144001.startIndexMap,
          List.idxOf_lt_length_iff.2 h1⟩ = ix2 q (0 : Fin 1) := by
      funext b; refine Fin.ext ?_
      match b with
      | ⟨0, _⟩ => rfl
      | ⟨1, _⟩ => rfl
    rw [hsi]
    rfl

/-! ## A label in range -/

/-- A label that is not negative as a signed word is not below zero, so the wrap of negative labels by 91 returns it. -/
theorem wrap_label (w : BitVec 32) (h0 : 0 ≤ w.toInt) :
    Scalar.select (IntOp.cmpi .slt w 0#32) (IntOp.addi w 91#32) w = w := by
  have hs : w.slt 0#32 = false := by
    unfold BitVec.slt
    rw [decide_eq_false_iff_not, BitVec.toInt_zero]
    omega
  show Scalar.select (BitVec.ofBool (w.slt 0#32)) (IntOp.addi w 91#32) w = w
  rw [hs]
  exact select_zero _ _

/-- A label between 0 and 90 as a signed word has that value unsigned too, is below the cut-off, and is its own remainder
    modulo 91: the clamped start index is the specification's class position. -/
theorem label_col (w : BitVec 32) (h0 : 0 ≤ w.toInt) (h1 : w.toInt < 91) :
    (⟨min w.toInt.toNat 90, by omega⟩ : Fin 91) = clsOf w := by
  apply Fin.ext
  show min w.toInt.toNat 90 = w.toNat % 91
  have hc := BitVec.toInt_eq_toNat_cond w
  have hl := w.isLt
  split at hc <;> omega

/-- The gather read at `(n, q)` when the start index at `(q, 0)` is a label in range: row `n`, the label's column. -/
theorem gather_label_at {α : Type} (x : S14400x91.Idx → α) (idx : IVec S1600x1 32) (n : Fin 14400) (q : Fin 1600)
    (w : BitVec 32) (hw : idx (ix2 q (0 : Fin 1)) = w) (h0 : 0 ≤ w.toInt) (h1 : w.toInt < 91) :
    Host.gather gather_S14400x91_S1600x1_S14400x1600_0_1_n_n_1_1_144001 x idx (ix2 n q) = x (ix2 n (clsOf w)) := by
  subst hw
  rw [gather_col_at, label_col _ h0 h1]

/-- The column of wrapped labels at `(q, 0)` is label `q`: the column reads the vector at its first coordinate, and a
    label in range is not wrapped. -/
theorem wrapped_label_at (a2 : IVec S1600 32) (hid : ∀ i, 0 ≤ (a2 i).toInt ∧ (a2 i).toInt < 91) (q : Fin 1600) :
    (broadcastInDim S1600x1 ![0] bcast_S1600_S1600x1_0
      (select (cmpi .slt a2 (broadcastInDim S1600 ![] bcast_S_S1600 (constantI S_ 32 0#32)))
        (addi a2 (broadcastInDim S1600 ![] bcast_S_S1600 (constantI S_ 32 91#32))) a2) : IVec S1600x1 32)
        (ix2 q (0 : Fin 1))
      = a2 (ix1 q) := by
  rw [broadcastInDim_apply _ _ _ _ (ix1 q) (by intro a; match a with | ⟨0, _⟩ => rfl)]
  exact wrap_label _ (hid _).1

/-- The difference of the two gathered terms at `(n, q)`, on labels in range: both terms at row `n` and the column of
    label `q`. -/
theorem stK_v164_at (v149 v140 : FVec Ideal S14400x91 .f32) (a2 : IVec S1600 32)
    (hid : ∀ i, 0 ≤ (a2 i).toInt ∧ (a2 i).toInt < 91) (n : Fin 14400) (q : Fin 1600) :
    stK_v164 v149 a2 v140 (ix2 n q)
      = v149 (ix2 n (clsOf (a2 (ix1 q)))) - v140 (ix2 n (clsOf (a2 (ix1 q)))) := by
  show Host.gather _ v149 _ (ix2 n q) - Host.gather _ v140 _ (ix2 n q) = _
  rw [gather_label_at v149 _ n q _ (wrapped_label_at a2 hid q) (hid _).1 (hid _).2,
    gather_label_at v140 _ n q _ (wrapped_label_at a2 hid q) (hid _).1 (hid _).2]

/-! ## The class cost at a pair -/

/-- THE CLASS COST AT `(n, q)`, on real logits and labels in range: the focal cost of the logit of image `n / 900`,
    query `n % 900`, in the class of target `q`'s label. The logit is a real `r`, so the probability is a real `s`
    and its complement the real `1 − s`; a real to the power of the word `2.0` is its product with itself, the
    specification's square. -/
theorem refCls_at (a0 : FVec Ideal S16x900x91 .f32) (a2 : IVec S1600 32)
    (hfin : ∀ i, ∃ r : ℝ, a0 i = (r : EReal)) (hid : ∀ i, 0 ≤ (a2 i).toInt ∧ (a2 i).toInt < 91)
    (n : Fin 14400) (q : Fin 1600) :
    refCls (F := Ideal) a0 a2 (ix2 n q)
      = focal (a0 (ix3 (⟨n.val / 900, by omega⟩ : Fin 16) (⟨n.val % 900, Nat.mod_lt _ (by decide)⟩ : Fin 900)
          (clsOf (a2 (ix1 q))))) := by
  unfold refCls
  rw [stK_v164_at _ _ a2 hid n q, stJ_v149_at, stI_v140_at, stA_v6_at, stA_v0_at]
  obtain ⟨r, hr⟩ := hfin (ix3 (⟨n.val / 900, by omega⟩ : Fin 16) (⟨n.val % 900, Nat.mod_lt _ (by decide)⟩ : Fin 900)
    (clsOf (a2 (ix1 q))))
  rw [hr]
  obtain ⟨s, hs⟩ := logistic_real r
  unfold focal
  rw [hs, wOne_eq, one_sub_real, pow_two_real, pow_two_real]

end Cert.ReferenceIdeal.Hand

end
-- ==== Proof.RefBoxAt.lean ====
/-
  The reference's two box costs read at an index, on the extended reals.

  The reference flattens the (image, query) pairs to 14400 rows, turns both box arrays from centre form to corners
  (`centre ∓ ½ size`, the four columns laid side by side), and computes for every (row, target) pair the two areas, the
  intersection and the enclosing box through arrays of shape [14400, 1600, 2] (component 0 the x side, component 1 the y
  side), the union, the two quotients and the negated generalized intersection over union; the L1 cost is the sum over
  the last axis of [14400, 1600, 4] of the absolute coordinate differences. Here every layout operation on the way is
  read at coordinates, each stage is read at an index as a scalar expression of its inputs' entries, and the stages are
  composed: at row `n` and target `q` the two costs are `−giou` and `l1` of the entries of box `(n / 900, n % 900)` and of
  target box `q`, spelt in the association the specification fixes.
-/
import proofs.«430708_j55284819034883_2_alg».proof.Proof.RefOut
import proofs.«430708_j55284819034883_2_alg».proof.Proof.CostSpec
import Idealize.ShloMosaic.Lib.ValueIdx
import Idealize.ShloMosaic.Lib.ValueLayout
import Idealize.ShloMosaic.Lib.Pipeline.Value
import Idealize.ShloMosaic.PureOps.Ideal.Laws

namespace Cert.ReferenceIdeal.Hand

open Cert.ReferenceIdeal Cert.ReferenceIdeal.Gen Idealize.ShloMosaic Idealize.ShloMosaic.ValueIdx Cert.Cost

/-! The general reads of layout operations, broadcasts, the four-column assembly and the sum over a last axis are kept
    under their own name space `BoxAt`; the stage reads and the two results follow in the stages' own. -/

namespace BoxAt

/-! ## Layout operations of the two box stages read at coordinates -/

section Layout
variable {α : Type}

/-- The reshape of (image, query) rows to one row axis, read at a row and a column: row `n` is image `n / 900`,
    query `n % 900`. -/
theorem reshape_rows_apply (x : (⟨3, ![16, 900, 4]⟩ : Shape).Idx → α)
    (h : (⟨3, ![16, 900, 4]⟩ : Shape).ShapeCasts ⟨2, ![14400, 4]⟩) (n : Fin 14400) (c : Fin 4) :
    shapeCast ⟨2, ![14400, 4]⟩ x h (ix2 n c)
      = x (ix3 (⟨n.val / 900, by omega⟩ : Fin 16) (⟨n.val % 900, Nat.mod_lt _ (by decide)⟩ : Fin 900) c) :=
  shapeCast_apply x h _ _ (by
    rw [Shape.rowMajor_val_three, Shape.rowMajor_val_two]
    show (n.val / 900 * 900 + n.val % 900) * 4 + c.val = n.val * 4 + c.val
    omega)

/-- A window of `m` columns from column `o` on, read at `(n, j)`: the source at `(n, c)` with `c = o + j`. -/
theorem sliceCols_apply {N C m : Nat} (o : Nat) (j : Fin m) (c : Fin C) (hc : c.val = o + j.val)
    (X : (⟨2, ![N, C]⟩ : Shape).Idx → α) (h : (⟨2, ![N, C]⟩ : Shape).Slices ![0, o] ⟨2, ![N, m]⟩) (n : Fin N) :
    extractStridedSlice ⟨2, ![N, m]⟩ ![0, o] X h (ix2 n j) = X (ix2 n c) :=
  slice2_axis1_apply o X h n j c hc

/-- A one-column matrix as a vector. -/
theorem col_as_vec_apply {N : Nat} (X : (⟨2, ![N, 1]⟩ : Shape).Idx → α) (h : (⟨2, ![N, 1]⟩ : Shape).ShapeCasts ⟨1, ![N]⟩)
    (n : Fin N) : shapeCast ⟨1, ![N]⟩ X h (ix1 n) = X (ix2 n (0 : Fin 1)) :=
  shapeCast_apply X h _ _ (by
    rw [Shape.rowMajor_val_two, Shape.rowMajor_val_one]
    show n.val * 1 + 0 = n.val
    omega)

/-- A rank-3 array with a unit last axis as a matrix. -/
theorem unit_last_apply {N M : Nat} (X : (⟨3, ![N, M, 1]⟩ : Shape).Idx → α)
    (h : (⟨3, ![N, M, 1]⟩ : Shape).ShapeCasts ⟨2, ![N, M]⟩) (n : Fin N) (q : Fin M) :
    shapeCast ⟨2, ![N, M]⟩ X h (ix2 n q) = X (ix3 n q (0 : Fin 1)) :=
  shapeCast_apply X h _ _ (by
    rw [Shape.rowMajor_val_three, Shape.rowMajor_val_two]
    show (n.val * M + q.val) * 1 + 0 = n.val * M + q.val
    omega)

/-- One component of the last axis of a rank-3 array, read at `(n, q, ·)`. -/
theorem sliceLast_apply {N M C : Nat} (o : Nat) (c : Fin C) (hc : c.val = o)
    (X : (⟨3, ![N, M, C]⟩ : Shape).Idx → α) (h : (⟨3, ![N, M, C]⟩ : Shape).Slices ![0, 0, o] ⟨3, ![N, M, 1]⟩)
    (n : Fin N) (q : Fin M) (z : Fin 1) :
    extractStridedSlice ⟨3, ![N, M, 1]⟩ ![0, 0, o] X h (ix3 n q z) = X (ix3 n q c) :=
  extractStridedSlice_apply _ _ _ _ _ (fun ax => by
    match ax with
    | ⟨0, _⟩ => exact (Nat.zero_add _).symm
    | ⟨1, _⟩ => exact (Nat.zero_add _).symm
    | ⟨2, _⟩ => show c.val = o + z.val; omega)

end Layout

/-! ## Broadcasts of the two box stages read at coordinates

Each is stated of an axis map `d` given with its value `hd`. -/

section Broadcasts
variable {α : Type}

/-- A vector as a one-column matrix. -/
theorem vec_as_col_apply {N : Nat} (d : Fin 1 → Fin 2) (hd : d = ![0]) (x : (⟨1, ![N]⟩ : Shape).Idx → α)
    (h : (⟨1, ![N]⟩ : Shape).BroadcastsInDim ⟨2, ![N, 1]⟩ d) (n : Fin N) (z : Fin 1) :
    broadcastInDim ⟨2, ![N, 1]⟩ d h x (ix2 n z) = x (ix1 n) := by
  subst hd
  exact broadcastInDim_apply _ h x _ _ (fun a => by
    match a with
    | ⟨0, _⟩ =>
      show n.val = if N = 1 then 0 else n.val
      split
      · have := n.isLt; omega
      · rfl)

/-- A vector as a one-row matrix. -/
theorem vec_as_row_apply {M : Nat} (d : Fin 1 → Fin 2) (hd : d = ![1]) (x : (⟨1, ![M]⟩ : Shape).Idx → α)
    (h : (⟨1, ![M]⟩ : Shape).BroadcastsInDim ⟨2, ![1, M]⟩ d) (z : Fin 1) (q : Fin M) :
    broadcastInDim ⟨2, ![1, M]⟩ d h x (ix2 z q) = x (ix1 q) := by
  subst hd
  exact broadcastInDim_apply _ h x _ _ (fun a => by
    match a with
    | ⟨0, _⟩ =>
      show q.val = if M = 1 then 0 else q.val
      split
      · have := q.isLt; omega
      · rfl)

/-- A one-column matrix copied along the columns. -/
theorem col_over_cols_apply {N M : Nat} (d : Fin 2 → Fin 2) (hd : d = ![0, 1]) (x : (⟨2, ![N, 1]⟩ : Shape).Idx → α)
    (h : (⟨2, ![N, 1]⟩ : Shape).BroadcastsInDim ⟨2, ![N, M]⟩ d) (n : Fin N) (q : Fin M) :
    broadcastInDim ⟨2, ![N, M]⟩ d h x (ix2 n q) = x (ix2 n (0 : Fin 1)) := by
  subst hd
  exact broadcastInDim_apply _ h x _ _ (fun a => by
    match a with
    | ⟨0, _⟩ =>
      show n.val = if N = 1 then 0 else n.val
      split
      · have := n.isLt; omega
      · rfl
    | ⟨1, _⟩ => rfl)

/-- A one-row matrix copied down the rows. -/
theorem row_over_rows_apply {N M : Nat} (d : Fin 2 → Fin 2) (hd : d = ![0, 1]) (x : (⟨2, ![1, M]⟩ : Shape).Idx → α)
    (h : (⟨2, ![1, M]⟩ : Shape).BroadcastsInDim ⟨2, ![N, M]⟩ d) (n : Fin N) (q : Fin M) :
    broadcastInDim ⟨2, ![N, M]⟩ d h x (ix2 n q) = x (ix2 (0 : Fin 1) q) := by
  subst hd
  exact broadcastInDim_apply _ h x _ _ (fun a => by
    match a with
    | ⟨0, _⟩ => rfl
    | ⟨1, _⟩ =>
      show q.val = if M = 1 then 0 else q.val
      split
      · have := q.isLt; omega
      · rfl)

/-- A matrix of rows given a unit middle axis. -/
theorem rows_unit_mid_apply {N C : Nat} (d : Fin 2 → Fin 3) (hd : d = ![0, 2]) (x : (⟨2, ![N, C]⟩ : Shape).Idx → α)
    (h : (⟨2, ![N, C]⟩ : Shape).BroadcastsInDim ⟨3, ![N, 1, C]⟩ d) (n : Fin N) (z : Fin 1) (c : Fin C) :
    broadcastInDim ⟨3, ![N, 1, C]⟩ d h x (ix3 n z c) = x (ix2 n c) := by
  subst hd
  exact broadcastInDim_apply _ h x _ _ (fun a => by
    match a with
    | ⟨0, _⟩ =>
      show n.val = if N = 1 then 0 else n.val
      split
      · have := n.isLt; omega
      · rfl
    | ⟨1, _⟩ =>
      show c.val = if C = 1 then 0 else c.val
      split
      · have := c.isLt; omega
      · rfl)

/-- A matrix of rows given a unit leading axis. -/
theorem rows_unit_lead_apply {M C : Nat} (d : Fin 2 → Fin 3) (hd : d = ![1, 2]) (x : (⟨2, ![M, C]⟩ : Shape).Idx → α)
    (h : (⟨2, ![M, C]⟩ : Shape).BroadcastsInDim ⟨3, ![1, M, C]⟩ d) (z : Fin 1) (q : Fin M) (c : Fin C) :
    broadcastInDim ⟨3, ![1, M, C]⟩ d h x (ix3 z q c) = x (ix2 q c) := by
  subst hd
  exact broadcastInDim_apply _ h x _ _ (fun a => by
    match a with
    | ⟨0, _⟩ =>
      show q.val = if M = 1 then 0 else q.val
      split
      · have := q.isLt; omega
      · rfl
    | ⟨1, _⟩ =>
      show c.val = if C = 1 then 0 else c.val
      split
      · have := c.isLt; omega
      · rfl)

/-- The unit middle axis copied over the second axis. -/
theorem over_mid_apply {N M C : Nat} (d : Fin 3 → Fin 3) (hd : d = ![0, 1, 2]) (x : (⟨3, ![N, 1, C]⟩ : Shape).Idx → α)
    (h : (⟨3, ![N, 1, C]⟩ : Shape).BroadcastsInDim ⟨3, ![N, M, C]⟩ d) (n : Fin N) (q : Fin M) (c : Fin C) :
    broadcastInDim ⟨3, ![N, M, C]⟩ d h x (ix3 n q c) = x (ix3 n (0 : Fin 1) c) := by
  subst hd
  exact broadcastInDim_apply _ h x _ _ (fun a => by
    match a with
    | ⟨0, _⟩ =>
      show n.val = if N = 1 then 0 else n.val
      split
      · have := n.isLt; omega
      · rfl
    | ⟨1, _⟩ => rfl
    | ⟨2, _⟩ =>
      show c.val = if C = 1 then 0 else c.val
      split
      · have := c.isLt; omega
      · rfl)

/-- The unit leading axis copied over the first axis. -/
theorem over_lead_apply {N M C : Nat} (d : Fin 3 → Fin 3) (hd : d = ![0, 1, 2]) (x : (⟨3, ![1, M, C]⟩ : Shape).Idx → α)
    (h : (⟨3, ![1, M, C]⟩ : Shape).BroadcastsInDim ⟨3, ![N, M, C]⟩ d) (n : Fin N) (q : Fin M) (c : Fin C) :
    broadcastInDim ⟨3, ![N, M, C]⟩ d h x (ix3 n q c) = x (ix3 (0 : Fin 1) q c) := by
  subst hd
  exact broadcastInDim_apply _ h x _ _ (fun a => by
    match a with
    | ⟨0, _⟩ => rfl
    | ⟨1, _⟩ =>
      show q.val = if M = 1 then 0 else q.val
      split
      · have := q.isLt; omega
      · rfl
    | ⟨2, _⟩ =>
      show c.val = if C = 1 then 0 else c.val
      split
      · have := c.isLt; omega
      · rfl)

/-- A scalar copied to every index: the axis map of a scalar has no value to name. -/
theorem scalar_everywhere_apply {T : Shape} (d : Fin 0 → Fin T.rank) (h : (⟨0, ![]⟩ : Shape).BroadcastsInDim T d)
    (x : (⟨0, ![]⟩ : Shape).Idx → α) (j : T.Idx) : broadcastInDim T d h x j = x ix0 := by
  unfold broadcastInDim
  exact congrArg x (funext fun a => a.elim0)

end Broadcasts

/-! ## Four columns laid side by side -/

section Concat
variable {α : Type}

/-- Column `k` of four one-column matrices laid side by side is the `k`-th of them. -/
theorem four_cols_apply {N : Nat} (x0 x1 x2 x3 : (⟨2, ![N, 1]⟩ : Shape).Idx → α)
    (h : Shape.Concatenates [(⟨2, ![N, 1]⟩ : Shape), ⟨2, ![N, 1]⟩, ⟨2, ![N, 1]⟩, ⟨2, ![N, 1]⟩] ⟨2, ![N, 4]⟩ 1) (n : Fin N) :
    concatenate ⟨2, ![N, 4]⟩ 1 [⟨⟨2, ![N, 1]⟩, x0⟩, ⟨⟨2, ![N, 1]⟩, x1⟩, ⟨⟨2, ![N, 1]⟩, x2⟩, ⟨⟨2, ![N, 1]⟩, x3⟩] h (ix2 n (0 : Fin 4))
        = x0 (ix2 n (0 : Fin 1))
    ∧ concatenate ⟨2, ![N, 4]⟩ 1 [⟨⟨2, ![N, 1]⟩, x0⟩, ⟨⟨2, ![N, 1]⟩, x1⟩, ⟨⟨2, ![N, 1]⟩, x2⟩, ⟨⟨2, ![N, 1]⟩, x3⟩] h (ix2 n (1 : Fin 4))
        = x1 (ix2 n (0 : Fin 1))
    ∧ concatenate ⟨2, ![N, 4]⟩ 1 [⟨⟨2, ![N, 1]⟩, x0⟩, ⟨⟨2, ![N, 1]⟩, x1⟩, ⟨⟨2, ![N, 1]⟩, x2⟩, ⟨⟨2, ![N, 1]⟩, x3⟩] h (ix2 n (2 : Fin 4))
        = x2 (ix2 n (0 : Fin 1))
    ∧ concatenate ⟨2, ![N, 4]⟩ 1 [⟨⟨2, ![N, 1]⟩, x0⟩, ⟨⟨2, ![N, 1]⟩, x1⟩, ⟨⟨2, ![N, 1]⟩, x2⟩, ⟨⟨2, ![N, 1]⟩, x3⟩] h (ix2 n (3 : Fin 4))
        = x3 (ix2 n (0 : Fin 1)) := by
  have hi : ∀ (c : Fin 4) (b : Fin 2), b.cast (rfl : (2 : Nat) = 2) ≠ (1 : Fin 2) →
      ((ix2 n (0 : Fin 1) : (⟨2, ![N, 1]⟩ : Shape).Idx) b).val = ((ix2 n c : (⟨2, ![N, 4]⟩ : Shape).Idx) (b.cast rfl)).val := by
    intro c b hb
    match b with
    | ⟨0, _⟩ => rfl
    | ⟨1, _⟩ => exact absurd rfl hb
  refine ⟨?_, ?_, ?_, ?_⟩
  · exact concatenate_apply_piece (t := ⟨2, ![N, 4]⟩) 1 [⟨⟨2, ![N, 1]⟩, x0⟩, ⟨⟨2, ![N, 1]⟩, x1⟩, ⟨⟨2, ![N, 1]⟩, x2⟩, ⟨⟨2, ![N, 1]⟩, x3⟩]
      h _ 0 (by show (0 : Nat) < 4; omega) _ x0 rfl rfl 0 rfl (ix2 n (0 : Fin 1)) (hi 0) rfl
  · exact concatenate_apply_piece (t := ⟨2, ![N, 4]⟩) 1 [⟨⟨2, ![N, 1]⟩, x0⟩, ⟨⟨2, ![N, 1]⟩, x1⟩, ⟨⟨2, ![N, 1]⟩, x2⟩, ⟨⟨2, ![N, 1]⟩, x3⟩]
      h _ 1 (by show (1 : Nat) < 4; omega) _ x1 rfl rfl 1 rfl (ix2 n (0 : Fin 1)) (hi 1) rfl
  · exact concatenate_apply_piece (t := ⟨2, ![N, 4]⟩) 1 [⟨⟨2, ![N, 1]⟩, x0⟩, ⟨⟨2, ![N, 1]⟩, x1⟩, ⟨⟨2, ![N, 1]⟩, x2⟩, ⟨⟨2, ![N, 1]⟩, x3⟩]
      h _ 2 (by show (2 : Nat) < 4; omega) _ x2 rfl rfl 2 rfl (ix2 n (0 : Fin 1)) (hi 2) rfl
  · exact concatenate_apply_piece (t := ⟨2, ![N, 4]⟩) 1 [⟨⟨2, ![N, 1]⟩, x0⟩, ⟨⟨2, ![N, 1]⟩, x1⟩, ⟨⟨2, ![N, 1]⟩, x2⟩, ⟨⟨2, ![N, 1]⟩, x3⟩]
      h _ 3 (by show (3 : Nat) < 4; omega) _ x3 rfl rfl 3 rfl (ix2 n (0 : Fin 1)) (hi 3) rfl

end Concat

/-! ## The size of an element and the sum over the last of three axes -/

/-- The size of an element, on the host. -/
theorem hostAbsf_apply {s : Shape} {φ : FTy} (a : FVec Ideal s φ) (i : s.Idx) : Host.absf a i = absE (a i) := rfl

/-- Dropping the last of three axes. -/
theorem reduces_last : S14400x1600x4.Reduces [2] S14400x1600 := by decide

/-- The index over `(n, q)` with `k` put back on the dropped last axis is `(n, q, k)`. -/
theorem lift_last (n : Fin 14400) (q : Fin 1600) (k : Fin 4) :
    reduces_last.lift (ix2 n q) k = ix3 n q k := by
  funext c
  match c with
  | ⟨0, _⟩ => exact Fin.ext rfl
  | ⟨1, _⟩ => exact Fin.ext rfl
  | ⟨2, _⟩ => exact Fin.ext rfl

/-- The host's sum over the last axis, read at `(n, q)`: the initial value plus the four entries, added left to right. -/
theorem hostSum_last_apply (x : S14400x1600x4.Idx → EReal) (init : EReal) (n : Fin 14400) (q : Fin 1600) :
    Ideal.hostReduceAdd reducesTo_S14400x1600x4_S14400x1600_d2 x init (ix2 n q)
      = init + (x (ix3 n q (0 : Fin 4)) + x (ix3 n q (1 : Fin 4)) + x (ix3 n q (2 : Fin 4)) + x (ix3 n q (3 : Fin 4))) := by
  rw [Ideal.hostReduceAdd_single reducesTo_S14400x1600x4_S14400x1600_d2 reduces_last]
  show init + ∑ k : Fin 4, x (reduces_last.lift (ix2 n q) k) = _
  rw [Fin.sum_univ_four, lift_last, lift_last, lift_last, lift_last]

end BoxAt

open BoxAt

/-! ## The corner form of the boxes -/

/-- The predicted boxes turned to corners, read at a row: `centre ∓ ½ size` per coordinate. -/
theorem stB_v32_at (a1 : FVec Ideal S16x900x4 .f32) (n : Fin 14400) :
    stB_v32 a1 (ix2 n (0 : Fin 4))
        = a1 (ix3 (⟨n.val / 900, by omega⟩ : Fin 16) (⟨n.val % 900, Nat.mod_lt _ (by decide)⟩ : Fin 900) (0 : Fin 4))
          - wHalf * a1 (ix3 (⟨n.val / 900, by omega⟩ : Fin 16) (⟨n.val % 900, Nat.mod_lt _ (by decide)⟩ : Fin 900) (2 : Fin 4))
    ∧ stB_v32 a1 (ix2 n (1 : Fin 4))
        = a1 (ix3 (⟨n.val / 900, by omega⟩ : Fin 16) (⟨n.val % 900, Nat.mod_lt _ (by decide)⟩ : Fin 900) (1 : Fin 4))
          - wHalf * a1 (ix3 (⟨n.val / 900, by omega⟩ : Fin 16) (⟨n.val % 900, Nat.mod_lt _ (by decide)⟩ : Fin 900) (3 : Fin 4))
    ∧ stB_v32 a1 (ix2 n (2 : Fin 4))
        = a1 (ix3 (⟨n.val / 900, by omega⟩ : Fin 16) (⟨n.val % 900, Nat.mod_lt _ (by decide)⟩ : Fin 900) (0 : Fin 4))
          + wHalf * a1 (ix3 (⟨n.val / 900, by omega⟩ : Fin 16) (⟨n.val % 900, Nat.mod_lt _ (by decide)⟩ : Fin 900) (2 : Fin 4))
    ∧ stB_v32 a1 (ix2 n (3 : Fin 4))
        = a1 (ix3 (⟨n.val / 900, by omega⟩ : Fin 16) (⟨n.val % 900, Nat.mod_lt _ (by decide)⟩ : Fin 900) (1 : Fin 4))
          + wHalf * a1 (ix3 (⟨n.val / 900, by omega⟩ : Fin 16) (⟨n.val % 900, Nat.mod_lt _ (by decide)⟩ : Fin 900) (3 : Fin 4)) := by
  unfold stB_v32
  simp only [(four_cols_apply _ _ _ _ _ _).1, (four_cols_apply _ _ _ _ _ _).2.1, (four_cols_apply _ _ _ _ _ _).2.2.1,
    (four_cols_apply _ _ _ _ _ _).2.2.2, vec_as_col_apply, subf_apply, addf_apply, mulf_apply, col_as_vec_apply,
    sliceCols_apply 0 (0 : Fin 1) (0 : Fin 4) rfl, sliceCols_apply 1 (0 : Fin 1) (1 : Fin 4) rfl,
    sliceCols_apply 2 (0 : Fin 1) (2 : Fin 4) rfl, sliceCols_apply 3 (0 : Fin 1) (3 : Fin 4) rfl,
    reshape_rows_apply, scalar_everywhere_apply, constant_apply, and_self]

/-- The target boxes turned to corners, read at a target. -/
theorem stC_v57_at (a3 : FVec Ideal S1600x4 .f32) (q : Fin 1600) :
    stC_v57 a3 (ix2 q (0 : Fin 4)) = a3 (ix2 q (0 : Fin 4)) - wHalf * a3 (ix2 q (2 : Fin 4))
    ∧ stC_v57 a3 (ix2 q (1 : Fin 4)) = a3 (ix2 q (1 : Fin 4)) - wHalf * a3 (ix2 q (3 : Fin 4))
    ∧ stC_v57 a3 (ix2 q (2 : Fin 4)) = a3 (ix2 q (0 : Fin 4)) + wHalf * a3 (ix2 q (2 : Fin 4))
    ∧ stC_v57 a3 (ix2 q (3 : Fin 4)) = a3 (ix2 q (1 : Fin 4)) + wHalf * a3 (ix2 q (3 : Fin 4)) := by
  unfold stC_v57
  simp only [(four_cols_apply _ _ _ _ _ _).1, (four_cols_apply _ _ _ _ _ _).2.1, (four_cols_apply _ _ _ _ _ _).2.2.1,
    (four_cols_apply _ _ _ _ _ _).2.2.2, vec_as_col_apply, subf_apply, addf_apply, mulf_apply, col_as_vec_apply,
    sliceCols_apply 0 (0 : Fin 1) (0 : Fin 4) rfl, sliceCols_apply 1 (0 : Fin 1) (1 : Fin 4) rfl,
    sliceCols_apply 2 (0 : Fin 1) (2 : Fin 4) rfl, sliceCols_apply 3 (0 : Fin 1) (3 : Fin 4) rfl,
    scalar_everywhere_apply, constant_apply, and_self]

/-! ## Areas, intersection, union, enclosing box -/

/-- The area of a predicted box in corner form: `(x2 − x1) · (y2 − y1)`. -/
theorem stD_v68_at (v32 : FVec Ideal S14400x4 .f32) (n : Fin 14400) :
    stD_v68 v32 (ix1 n)
      = (v32 (ix2 n (2 : Fin 4)) - v32 (ix2 n (0 : Fin 4))) * (v32 (ix2 n (3 : Fin 4)) - v32 (ix2 n (1 : Fin 4))) := by
  unfold stD_v68
  simp only [subf_apply, mulf_apply, col_as_vec_apply,
    sliceCols_apply 0 (0 : Fin 1) (0 : Fin 4) rfl, sliceCols_apply 1 (0 : Fin 1) (1 : Fin 4) rfl,
    sliceCols_apply 2 (0 : Fin 1) (2 : Fin 4) rfl, sliceCols_apply 3 (0 : Fin 1) (3 : Fin 4) rfl]

/-- The area of a target box in corner form. -/
theorem stD_v79_at (v57 : FVec Ideal S1600x4 .f32) (q : Fin 1600) :
    stD_v79 v57 (ix1 q)
      = (v57 (ix2 q (2 : Fin 4)) - v57 (ix2 q (0 : Fin 4))) * (v57 (ix2 q (3 : Fin 4)) - v57 (ix2 q (1 : Fin 4))) := by
  unfold stD_v79
  simp only [subf_apply, mulf_apply, col_as_vec_apply,
    sliceCols_apply 0 (0 : Fin 1) (0 : Fin 4) rfl, sliceCols_apply 1 (0 : Fin 1) (1 : Fin 4) rfl,
    sliceCols_apply 2 (0 : Fin 1) (2 : Fin 4) rfl, sliceCols_apply 3 (0 : Fin 1) (3 : Fin 4) rfl]

/-- The area of the intersection of a predicted and a target box: per coordinate the smaller of the upper corners less
    the larger of the lower ones, cut off at zero; the product of the two sides. -/
theorem stE_v100_at (v32 : FVec Ideal S14400x4 .f32) (v57 : FVec Ideal S1600x4 .f32) (n : Fin 14400) (q : Fin 1600) :
    stE_v100 v32 v57 (ix2 n q)
      = max 0 (min (v32 (ix2 n (2 : Fin 4))) (v57 (ix2 q (2 : Fin 4))) - max (v32 (ix2 n (0 : Fin 4))) (v57 (ix2 q (0 : Fin 4))))
        * max 0 (min (v32 (ix2 n (3 : Fin 4))) (v57 (ix2 q (3 : Fin 4))) - max (v32 (ix2 n (1 : Fin 4))) (v57 (ix2 q (1 : Fin 4)))) := by
  unfold stE_v100
  simp only [mulf_apply, subf_apply, maximumf_apply, minimumf_apply, unit_last_apply, id,
    sliceLast_apply 0 (0 : Fin 2) rfl, sliceLast_apply 1 (1 : Fin 2) rfl,
    over_mid_apply, over_lead_apply, rows_unit_mid_apply, rows_unit_lead_apply,
    sliceCols_apply 0 (0 : Fin 2) (0 : Fin 4) rfl, sliceCols_apply 0 (1 : Fin 2) (1 : Fin 4) rfl,
    sliceCols_apply 2 (0 : Fin 2) (2 : Fin 4) rfl, sliceCols_apply 2 (1 : Fin 2) (3 : Fin 4) rfl,
    scalar_everywhere_apply, constant_apply, Ideal.ofBits_zero_f32]

/-- The union's area: the two areas added, less the intersection. -/
theorem stF_v106_at (v68 : FVec Ideal S14400 .f32) (v79 : FVec Ideal S1600 .f32) (v100 : FVec Ideal S14400x1600 .f32)
    (n : Fin 14400) (q : Fin 1600) :
    stF_v106 v68 v79 v100 (ix2 n q) = v68 (ix1 n) + v79 (ix1 q) - v100 (ix2 n q) := by
  unfold stF_v106
  simp only [subf_apply, addf_apply, col_over_cols_apply, row_over_rows_apply, vec_as_col_apply, vec_as_row_apply]

/-- Intersection over union: the ideal quotient of the intersection by the union. -/
theorem stF_v107_at (v100 : FVec Ideal S14400x1600 .f32) (v68 : FVec Ideal S14400 .f32) (v79 : FVec Ideal S1600 .f32)
    (n : Fin 14400) (q : Fin 1600) :
    stF_v107 v100 v68 v79 (ix2 n q) = Ideal.div (v100 (ix2 n q)) (v68 (ix1 n) + v79 (ix1 q) - v100 (ix2 n q)) := by
  unfold stF_v107
  simp only [hostDivf_apply, subf_apply, addf_apply, col_over_cols_apply, row_over_rows_apply, vec_as_col_apply,
    vec_as_row_apply]

/-- The area of the smallest box enclosing both: per coordinate the larger of the upper corners less the smaller of the
    lower ones, cut off at zero; the product of the two sides. -/
theorem stG_v128_at (v32 : FVec Ideal S14400x4 .f32) (v57 : FVec Ideal S1600x4 .f32) (n : Fin 14400) (q : Fin 1600) :
    stG_v128 v32 v57 (ix2 n q)
      = max 0 (max (v32 (ix2 n (2 : Fin 4))) (v57 (ix2 q (2 : Fin 4))) - min (v32 (ix2 n (0 : Fin 4))) (v57 (ix2 q (0 : Fin 4))))
        * max 0 (max (v32 (ix2 n (3 : Fin 4))) (v57 (ix2 q (3 : Fin 4))) - min (v32 (ix2 n (1 : Fin 4))) (v57 (ix2 q (1 : Fin 4)))) := by
  unfold stG_v128
  simp only [mulf_apply, subf_apply, maximumf_apply, minimumf_apply, unit_last_apply, id,
    sliceLast_apply 0 (0 : Fin 2) rfl, sliceLast_apply 1 (1 : Fin 2) rfl,
    over_mid_apply, over_lead_apply, rows_unit_mid_apply, rows_unit_lead_apply,
    sliceCols_apply 0 (0 : Fin 2) (0 : Fin 4) rfl, sliceCols_apply 0 (1 : Fin 2) (1 : Fin 4) rfl,
    sliceCols_apply 2 (0 : Fin 2) (2 : Fin 4) rfl, sliceCols_apply 2 (1 : Fin 2) (3 : Fin 4) rfl,
    scalar_everywhere_apply, constant_apply, Ideal.ofBits_zero_f32]

/-- The negated generalized intersection over union from its three parts. -/
theorem stH_v132_at (v107 v128 v106 : FVec Ideal S14400x1600 .f32) (j : S14400x1600.Idx) :
    stH_v132 v107 v128 v106 j = -(v107 j - Ideal.div (v128 j - v106 j) (v128 j)) := rfl

/-! ## The L1 cost: a sum over the four box coordinates -/

/-- The L1 distance of a predicted and a target box, both in centre form. -/
theorem stL_v171_at (v7 : FVec Ideal S14400x4 .f32) (a3 : FVec Ideal S1600x4 .f32) (n : Fin 14400) (q : Fin 1600) :
    stL_v171 v7 a3 (ix2 n q)
      = l1 (v7 (ix2 n (0 : Fin 4))) (v7 (ix2 n (1 : Fin 4))) (v7 (ix2 n (2 : Fin 4))) (v7 (ix2 n (3 : Fin 4)))
          (a3 (ix2 q (0 : Fin 4))) (a3 (ix2 q (1 : Fin 4))) (a3 (ix2 q (2 : Fin 4))) (a3 (ix2 q (3 : Fin 4))) := by
  unfold stL_v171 l1
  simp only [hostReduceAdd_apply, hostSum_last_apply, hostAbsf_apply, subf_apply, over_mid_apply, over_lead_apply,
    rows_unit_mid_apply, rows_unit_lead_apply, constant_apply, Ideal.ofBits_zero_f32, zero_add]

/-! ## The two box costs of the reference at an index -/

/-- The reference's negated generalized intersection over union of query row `n` (image `n / 900`, query `n % 900`)
    and target `q`: the stages read in turn, the corners of both boxes put in. -/
theorem refNegGiou_at (a1 : FVec Ideal S16x900x4 .f32) (a3 : FVec Ideal S1600x4 .f32) (n : Fin 14400) (q : Fin 1600) :
    refNegGiou (F := Ideal) a1 a3 (ix2 n q)
      = -(giou (a1 (ix3 (⟨n.val / 900, by omega⟩ : Fin 16) (⟨n.val % 900, Nat.mod_lt _ (by decide)⟩ : Fin 900) (0 : Fin 4)))
               (a1 (ix3 (⟨n.val / 900, by omega⟩ : Fin 16) (⟨n.val % 900, Nat.mod_lt _ (by decide)⟩ : Fin 900) (1 : Fin 4)))
               (a1 (ix3 (⟨n.val / 900, by omega⟩ : Fin 16) (⟨n.val % 900, Nat.mod_lt _ (by decide)⟩ : Fin 900) (2 : Fin 4)))
               (a1 (ix3 (⟨n.val / 900, by omega⟩ : Fin 16) (⟨n.val % 900, Nat.mod_lt _ (by decide)⟩ : Fin 900) (3 : Fin 4)))
               (a3 (ix2 q (0 : Fin 4))) (a3 (ix2 q (1 : Fin 4))) (a3 (ix2 q (2 : Fin 4))) (a3 (ix2 q (3 : Fin 4)))) := by
  obtain ⟨b0, b1, b2, b3⟩ := stB_v32_at a1 n
  obtain ⟨c0, c1, c2, c3⟩ := stC_v57_at a3 q
  unfold refNegGiou giou giouC
  rw [stH_v132_at, stF_v107_at, stF_v106_at, stG_v128_at, stE_v100_at, stD_v68_at, stD_v79_at,
    b0, b1, b2, b3, c0, c1, c2, c3]

/-- The reference's L1 box cost of query row `n` and target `q`. -/
theorem refL1_at (a1 : FVec Ideal S16x900x4 .f32) (a3 : FVec Ideal S1600x4 .f32) (n : Fin 14400) (q : Fin 1600) :
    refL1 (F := Ideal) a1 a3 (ix2 n q)
      = l1 (a1 (ix3 ⟨n.val / 900, by omega⟩ ⟨n.val % 900, Nat.mod_lt _ (by decide)⟩ (0 : Fin 4))) (a1 (ix3 ⟨n.val / 900, by omega⟩ ⟨n.val % 900, Nat.mod_lt _ (by decide)⟩ (1 : Fin 4)))
           (a1 (ix3 ⟨n.val / 900, by omega⟩ ⟨n.val % 900, Nat.mod_lt _ (by decide)⟩ (2 : Fin 4))) (a1 (ix3 ⟨n.val / 900, by omega⟩ ⟨n.val % 900, Nat.mod_lt _ (by decide)⟩ (3 : Fin 4)))
           (a3 (ix2 q (0 : Fin 4))) (a3 (ix2 q (1 : Fin 4))) (a3 (ix2 q (2 : Fin 4))) (a3 (ix2 q (3 : Fin 4))) := by
  unfold refL1 stB_v7
  rw [stL_v171_at]
  simp only [reshape_rows_apply]

end Cert.ReferenceIdeal.Hand
-- ==== Proof.RefValue.lean ====
/-
  The reference's result is the cost array of its arguments.

  Its last stage clamps, at (image b, query r, target q), five times the L1 cost plus twice the class cost plus twice the
  negated generalized IoU of the query's flat row 900·b + r against target q. Each of the three is the specification's
  term of the argument entries — the class term when the logits are real and the labels in range —, and the weighted
  sum in this order, the IoU term entering negated, is the specification's `total`.
-/
import proofs.«430708_j55284819034883_2_alg».proof.Proof.RefLast
import proofs.«430708_j55284819034883_2_alg».proof.Proof.RefClsAt
import proofs.«430708_j55284819034883_2_alg».proof.Proof.RefBoxAt

noncomputable section

namespace Cert.ReferenceIdeal.Hand

open Cert.ReferenceIdeal Cert.ReferenceIdeal.Gen Idealize.ShloMosaic Idealize.ShloMosaic.ValueIdx Cert.Cost

theorem refOut_eq_G (a0 : FVec Ideal S16x900x91 .f32) (a1 : FVec Ideal S16x900x4 .f32) (a2 : IVec S1600 32) (a3 : FVec Ideal S1600x4 .f32)
    (hfin : ∀ i, ∃ r : ℝ, a0 i = (r : EReal)) (hid : ∀ i, 0 ≤ (a2 i).toInt ∧ (a2 i).toInt < 91) :
    refOut (F := Ideal) a0 a1 a2 a3 = G a0 a1 a2 a3 := by
  funext j
  obtain ⟨b, r, q, rfl⟩ : ∃ (b : Fin 16) (r : Fin 900) (q : Fin 1600), j = ix3 b r q := ⟨j 0, j 1, j 2, eq_ix3 j⟩
  unfold refOut
  rw [stM_v184_at, refL1_at, refCls_at a0 a2 hfin hid, refNegGiou_at]
  simp only [flatRow_div, flatRow_mod]
  rw [total_regroup]
  rfl

end Cert.ReferenceIdeal.Hand

end
-- ==== Proof.PreFacts.lean ====
/-
  What the precondition says of the arguments, read back as facts about their entries.

  The precondition is a conjunction of four universal statements, each printed as the fold by "and" of a Boolean
  array down to a single word, started from the true word, and the claim that the whole conjunction is the true word.
  A conjunction of one-bit words is true only when each part is; a fold by "and" that ends true met a true word at
  every position. Three of the arrays compare the size of a float entry, the larger of it and its negative, against
  the word of the positive infinity, which on the extended reals is the top element: an extended real whose size is
  strictly below the top is neither infinity, hence a real number. The fourth array joins two signed comparisons of a
  label, against the words 0 and 91: read as a signed integer the label lies in [0, 91), and a signed word that is not
  negative reads the same unsigned.
-/
import proofs.«430708_j55284819034883_2_alg».proof.Pre_finite_inputs
import proofs.«430708_j55284819034883_2_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic

/-- The shape of rank zero has a single index: there is no axis on which two indices could differ. -/
instance : Subsingleton Cert.Pre_finite_inputs.S_.Idx := ⟨fun a b => funext fun d => d.elim0⟩

/-- The word with all exponent bits set and an empty fraction denotes the top of the extended reals. -/
theorem inf_word : Ideal.ofBits .f32 0x7F800000#32 = (⊤ : EReal) := by
  simp [Ideal.ofBits, Ideal.ieee]

/-- An extended real whose size, the larger of it and its negative, is strictly below the top is a real number:
    the size of either infinity is the top itself. -/
theorem real_of_size_lt_top (x : EReal) (h : max x (-x) < ⊤) : ∃ r : ℝ, x = (r : EReal) := by
  induction x using EReal.rec with
  | bot => simp at h
  | coe r => exact ⟨r, rfl⟩
  | top => simp at h

/-- The ordered "less than" on the extended reals answers the true word exactly when the strict order holds. -/
theorem cmp_olt_eq_one (x y : EReal) (h : Ideal.cmp .olt x y = 1#1) : x < y := by
  unfold Ideal.cmp at h
  by_contra hn
  simp [hn] at h

/-- THE PRECONDITION DECODED: at every position of the first float argument the size of the entry is below the
    infinite word, and at every position of the label argument both signed comparisons answer true. (The other two
    float arguments satisfy the same as the first; only the first is stated.) -/
theorem decode (a0 : FVec Ideal Cert.Pre_finite_inputs.S16x900x91 .f32) (a1 : FVec Ideal Cert.Pre_finite_inputs.S16x900x4 .f32)
    (a2 : IVec Cert.Pre_finite_inputs.S1600 32) (a3 : FVec Ideal Cert.Pre_finite_inputs.S1600x4 .f32)
    (h : Cert.Pre_finite_inputs.fn (F := Ideal) a0 a1 a2 a3 = fun _ => 1#1) :
    (∀ i, Ideal.cmp .olt (max (a0 i) (-(a0 i))) (Ideal.ofBits .f32 0x7F800000#32) = 1#1)
      ∧ (∀ i, IntOp.cmpi .sge (a2 i) 0#32 = 1#1 ∧ IntOp.cmpi .slt (a2 i) 91#32 = 1#1) := by
  have e := congrFun h ValueIdx.ix0
  dsimp only [Cert.Pre_finite_inputs.fn, Cert.Pre_finite_inputs.fn_part1] at e
  -- the outer conjunctions, at the one index of the result
  have e' := IntOp.andi_eq_one.1 e
  obtain ⟨e012, e3⟩ := e'
  obtain ⟨e01, -⟩ := IntOp.andi_eq_one.1 e012
  obtain ⟨e0, -⟩ := IntOp.andi_eq_one.1 e01
  refine ⟨fun i => ?_, fun i => ?_⟩
  · -- the fold over the first argument's comparisons ended true: so did the comparison at i
    exact Host.reduce_andi_all _ _ _ _ _ e0 i
  · -- the fold over the joined label comparisons ended true: so did the joined word at i, hence both its parts
    exact IntOp.andi_eq_one.1 (Host.reduce_andi_all _ _ _ _ _ e3 i)

/-- every logit is a real -/
theorem logits_real (a0 : FVec Ideal Cert.Pre_finite_inputs.S16x900x91 .f32) (a1 : FVec Ideal Cert.Pre_finite_inputs.S16x900x4 .f32)
    (a2 : IVec Cert.Pre_finite_inputs.S1600 32) (a3 : FVec Ideal Cert.Pre_finite_inputs.S1600x4 .f32)
    (h : Cert.Pre_finite_inputs.fn (F := Ideal) a0 a1 a2 a3 = fun _ => 1#1) :
    ∀ i, ∃ r : ℝ, a0 i = (r : EReal) := by
  intro i
  have hlt := cmp_olt_eq_one _ _ ((decode a0 a1 a2 a3 h).1 i)
  rw [inf_word] at hlt
  exact real_of_size_lt_top (a0 i) hlt

/-- every label is in the class range -/
theorem ids_range (a0 : FVec Ideal Cert.Pre_finite_inputs.S16x900x91 .f32) (a1 : FVec Ideal Cert.Pre_finite_inputs.S16x900x4 .f32)
    (a2 : IVec Cert.Pre_finite_inputs.S1600 32) (a3 : FVec Ideal Cert.Pre_finite_inputs.S1600x4 .f32)
    (h : Cert.Pre_finite_inputs.fn (F := Ideal) a0 a1 a2 a3 = fun _ => 1#1) :
    ∀ i, 0 ≤ (a2 i).toInt ∧ (a2 i).toInt < 91 := by
  intro i
  obtain ⟨hge, hlt⟩ := (decode a0 a1 a2 a3 h).2 i
  -- "greater or equal, signed" compares the signed readings, the constant's on the left; "less than, signed" likewise
  have h0 : (0#32 : BitVec 32).toInt ≤ (a2 i).toInt := IntOp.cmpi_sge.1 hge
  have h91 : (a2 i).toInt < (91#32 : BitVec 32).toInt := IntOp.cmpi_slt.1 hlt
  have z : (0#32 : BitVec 32).toInt = 0 := by decide
  have n : (91#32 : BitVec 32).toInt = 91 := by decide
  rw [z] at h0
  rw [n] at h91
  exact ⟨h0, h91⟩

/-- hence the label read unsigned is below 91 (what Cert.Cost.clsOf needs) -/
theorem ids_toNat (a0 : FVec Ideal Cert.Pre_finite_inputs.S16x900x91 .f32) (a1 : FVec Ideal Cert.Pre_finite_inputs.S16x900x4 .f32)
    (a2 : IVec Cert.Pre_finite_inputs.S1600 32) (a3 : FVec Ideal Cert.Pre_finite_inputs.S1600x4 .f32)
    (h : Cert.Pre_finite_inputs.fn (F := Ideal) a0 a1 a2 a3 = fun _ => 1#1) :
    ∀ i, (a2 i).toNat < 91 ∧ (a2 i).toInt = ((a2 i).toNat : Int) := by
  intro i
  obtain ⟨h0, h91⟩ := ids_range a0 a1 a2 a3 h i
  -- the signed reading is the unsigned one, less 2³² when the top bit is set; below 2³² that is negative
  have hb := (a2 i).isLt
  rw [BitVec.toInt_eq_toNat_cond] at h0 h91 ⊢
  split at h0 <;> split at h91 <;> omega

end Cert.PreFacts

end
-- ==== Proof.lean ====
/- The proof of `Cert.Claim` for the Hungarian matcher's cost kernel against its reference, under the precondition that
   every float input is finite and every target label is a class (0 ≤ label < 91).

   Both programs compute, for every (image, query, target), the clamp of 2 · focal class cost + 5 · L1 box cost
   − 2 · generalized IoU (Proof/CostSpec.lean). The kernel gets the class cost of the target's label by contracting the
   91 focal terms of a query against a one-hot column of the label, which picks the label's term exactly when the label
   is a class; the reference gathers that column, wrapping and clamping a label out of range — hence the label range.
   The reference squares the logistic by a real power, which is the product on real numbers — hence the finite logits.
   Everything else is the same operations in another arrangement: the kernel tiles the 14400 query rows by 320 and reads
   the targets' coordinates and corners from a table the host prepares; the reference forms all pairs by broadcasting.

   The modules: Proof/KFrame.lean (Proof/Bits/KFrame.lean for the word-level program) is the kernel program's frame and
   run, Proof/KBodyAt.lean the tile body's stored value at an index, Proof/KValue.lean the tiles assembled into the result
   array, Proof/KPrefixAt.lean and Proof/KFinal.lean that array as the specification of the arguments; Proof/RefOps.lean,
   Proof/RefDefs.lean, Proof/RefRun.lean the reference's run, Proof/RefClsAt.lean, Proof/RefBoxAt.lean, Proof/RefLast.lean,
   Proof/RefValue.lean its result as the same specification; Proof/PreFacts.lean reads the precondition. -/
import proofs.«430708_j55284819034883_2_alg».proof.Defs
import proofs.«430708_j55284819034883_2_alg».proof.Proof.Gen.Kernel
import proofs.«430708_j55284819034883_2_alg».proof.Proof.Gen.KernelIdeal
import proofs.«430708_j55284819034883_2_alg».proof.Proof.Gen.ReferenceIdeal
import proofs.«430708_j55284819034883_2_alg».proof.Proof.Gen.Pre_finite_inputs
import proofs.«430708_j55284819034883_2_alg».proof.Proof.Bits.KFrame
import proofs.«430708_j55284819034883_2_alg».proof.Proof.KFrame
import proofs.«430708_j55284819034883_2_alg».proof.Proof.KValue
import proofs.«430708_j55284819034883_2_alg».proof.Proof.KFinal
import proofs.«430708_j55284819034883_2_alg».proof.Proof.RefRun
import proofs.«430708_j55284819034883_2_alg».proof.Proof.RefValue
import proofs.«430708_j55284819034883_2_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel program runs and leaves its arguments. -/
theorem frame_k : Cert.frame_Kernel := fun m ρ _ => Cert.Kernel.Hand.frame (F := Bits) m ρ

/-- So does the idealized one. -/
theorem frame_ki : Cert.frame_KernelIdeal := fun m ρ _ => Cert.KernelIdeal.Hand.frame (F := Ideal) m ρ

/-- The reference runs — a straight line of host operations — and writes no argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.after_arg0 _),
     (h c Cert.ReferenceIdeal.main_arg1).trans (Cert.ReferenceIdeal.Hand.after_arg1 _),
     (h c Cert.ReferenceIdeal.main_arg2).trans (Cert.ReferenceIdeal.Hand.after_arg2 _),
     (h c Cert.ReferenceIdeal.main_arg3).trans (Cert.ReferenceIdeal.Hand.after_arg3 _)⟩)
    (Cert.ReferenceIdeal.Hand.run_main (F := Ideal) m ρ)

/-- The ideal pass rewrote nothing: the idealized program is the printed one read at the extended reals. -/
theorem preserves : Cert.preserves_Kernel_KernelIdeal := trivial

/-- From memories agreeing on the arguments both programs end with the cost array of the arguments. -/
theorem algebraic : Cert.algebraic_KernelIdeal_ReferenceIdeal := by
  intro m ρ m' ρ' hpre hagree
  have hfin := fun c => Cert.PreFacts.logits_real _ _ _ _ (hpre c)
  have hid := fun c => Cert.PreFacts.ids_range _ _ _ _ (hpre c)
  have hnat := fun c => Cert.PreFacts.ids_toNat _ _ _ _ (hpre c)
  refine ⟨fun c => Cert.Cost.G (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)), ?_, ?_⟩
  · exact (θ_run Cert.KernelIdeal.defs _ _).mono
      (fun _ h c => ⟨(h c).1.trans (Cert.KernelIdeal.Hand.result_eq_G m c fun q => (hnat c (ix1 q)).1), (h c).2⟩)
      (Cert.KernelIdeal.Hand.kernel_flat_run m ρ)
  · refine (θ_run Cert.ReferenceIdeal.defs _ _).mono (fun _ h c =>
      ⟨?_, (h c Cert.ReferenceIdeal.main_arg0).trans (Cert.ReferenceIdeal.Hand.after_arg0 _),
        (h c Cert.ReferenceIdeal.main_arg1).trans (Cert.ReferenceIdeal.Hand.after_arg1 _),
        (h c Cert.ReferenceIdeal.main_arg2).trans (Cert.ReferenceIdeal.Hand.after_arg2 _),
        (h c Cert.ReferenceIdeal.main_arg3).trans (Cert.ReferenceIdeal.Hand.after_arg3 _)⟩)
      (Cert.ReferenceIdeal.Hand.run_main (F := Ideal) m' ρ')
    rw [h c Cert.ReferenceIdeal.main_v184, Cert.ReferenceIdeal.Hand.after_out]
    show Cert.ReferenceIdeal.Hand.refOut (F := Ideal) (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3)) = _
    rw [(hagree c).1, (hagree c).2.1, (hagree c).2.2.1, (hagree c).2.2.2]
    exact Cert.ReferenceIdeal.Hand.refOut_eq_G _ _ _ _ (hfin c) (hid c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
